-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v268)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v268) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32 : Shape := ⟨2, ![50000, 32]⟩
abbrev S50000 : Shape := ⟨1, ![50000]⟩
abbrev S256x128 : Shape := ⟨2, ![256, 128]⟩
abbrev S128 : Shape := ⟨1, ![128]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg2 : IVec S50000 32) (main_arg6 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_c_8 : IVec S_ 32 := constantI S_ 32 4294917296#32
  let main_v24 : IVec S50000 32 := broadcastInDim S50000 ![] bcast_S_S50000 main_c_8
  let main_v25 : IVec S50000 1 := cmpi .sge main_arg2 main_v24
  let main_c_9 : IVec S_ 32 := constantI S_ 32 50000#32
  let main_v26 : IVec S50000 32 := broadcastInDim S50000 ![] bcast_S_S50000 main_c_9
  let main_v27 : IVec S50000 1 := cmpi .slt main_arg2 main_v26
  let main_v28 : IVec S50000 1 := andi main_v25 main_v27
  let main_c_10 : IVec S_ 1 := constantI S_ 1 1#1
  let main_v29 : IVec S_ 1 := (fun x v => Host.reduce IntOp.andi x v reducesTo_S50000_S_d0 h_S_) main_v28 main_c_10
  let main_v30 : IVec S_ 1 := andi main_v23 main_v29
  main_v30

def fn {F : FTy → Type} [FloatOps F] (main_arg0 : FVec F S50000x128 .f32) (main_arg1 : IVec S50000x32 32) (main_arg2 : IVec S50000 32) (main_arg3 : FVec F S256x128 .f32) (main_arg4 : FVec F S128 .f32) (main_arg5 : FVec F S256x40 .f32) (main_arg6 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x40 .f32 := Host.absf main_arg5
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg2 main_arg6 main_v13 main_v16
-- ==== Kernel.lean ====
abbrev S50000x128 : Shape := ⟨2, ![50000, 128]⟩
abbrev S50000x32 : Shape := ⟨2, ![50000, 32]⟩
abbrev S50000 : Shape := ⟨1, ![50000]⟩
abbrev S256x128 : Shape := ⟨2, ![256, 128]⟩
abbrev S128 : Shape := ⟨1, ![128]⟩
abbrev S256x40 : Shape := ⟨2, ![256, 40]⟩
abbrev S40 : Shape := ⟨1, ![40]⟩
abbrev S50000x1 : Shape := ⟨2, ![50000, 1]⟩
abbrev S_ : Shape := ⟨0, ![]⟩
abbrev S1 : Shape := ⟨1, ![1]⟩
abbrev S1x1 : Shape := ⟨2, ![1, 1]⟩
abbrev S128x128 : Shape := ⟨2, ![128, 128]⟩
abbrev S5000x128 : Shape := ⟨2, ![5000, 128]⟩
abbrev S1x128 : Shape := ⟨2, ![1, 128]⟩
abbrev S50000x40 : Shape := ⟨2, ![50000, 40]⟩

abbrev nBuf : Space → Nat
  | .hbm => 1734
  | .vmem => 18
  | .smem => 0
  | _ => 0

abbrev hbmTy0_0 (i : Nat) : BufTy := match i % 128 with
  | 0 => ⟨S50000x128, .f32⟩
  | 1 => ⟨S50000x32, .i32⟩
  | 2 => ⟨S50000, .i32⟩
  | 3 => ⟨S256x128, .f32⟩
  | 4 => ⟨S128, .f32⟩
  | 5 => ⟨S256x40, .f32⟩
  | 6 => ⟨S40, .f32⟩
  | 7 => ⟨S50000x1, .i32⟩
  | 8 => ⟨S50000, .i32⟩
  | 9 => ⟨S_, .i32⟩
  | 10 => ⟨S50000, .i32⟩
  | 11 => ⟨S50000, .i1⟩
  | 12 => ⟨S_, .i32⟩
  | 13 => ⟨S50000, .i32⟩
  | 14 => ⟨S50000, .i32⟩
  | 15 => ⟨S50000, .i32⟩
  | 16 => ⟨S50000x1, .i32⟩
  | 17 => ⟨S1, .i32⟩
  | 18 => ⟨S_, .i32⟩
  | 19 => ⟨S50000x1, .i32⟩
  | 20 => ⟨S50000x1, .i1⟩
  | 21 => ⟨S1x1, .i32⟩
  | 22 => ⟨S50000x1, .i32⟩
  | 23 => ⟨S50000x1, .i1⟩
  | 24 => ⟨S50000x1, .i1⟩
  | 25 => ⟨S_, .i1⟩
  | 26 => ⟨S50000, .i1⟩
  | 27 => ⟨S50000x128, .f32⟩
  | 28 => ⟨S50000x128, .i1⟩
  | 29 => ⟨S_, .f32⟩
  | 30 => ⟨S50000x128, .f32⟩
  | 31 => ⟨S50000x128, .f32⟩
  | 32 => ⟨S50000x1, .i32⟩
  | 33 => ⟨S50000, .i32⟩
  | 34 => ⟨S_, .i32⟩
  | 35 => ⟨S50000, .i32⟩
  | 36 => ⟨S50000, .i1⟩
  | 37 => ⟨S_, .i32⟩
  | 38 => ⟨S50000, .i32⟩
  | 39 => ⟨S50000, .i32⟩
  | 40 => ⟨S50000, .i32⟩
  | 41 => ⟨S50000x1, .i32⟩
  | 42 => ⟨S1, .i32⟩
  | 43 => ⟨S_, .i32⟩
  | 44 => ⟨S50000x1, .i32⟩
  | 45 => ⟨S50000x1, .i1⟩
  | 46 => ⟨S1x1, .i32⟩
  | 47 => ⟨S50000x1, .i32⟩
  | 48 => ⟨S50000x1, .i1⟩
  | 49 => ⟨S50000x1, .i1⟩
  | 50 => ⟨S_, .i1⟩
  | 51 => ⟨S50000, .i1⟩
  | 52 => ⟨S50000x128, .f32⟩
  | 53 => ⟨S50000x128, .i1⟩
  | 54 => ⟨S_, .f32⟩
  | 55 => ⟨S50000x128, .f32⟩
  | 56 => ⟨S50000x128, .f32⟩
  | 57 => ⟨S50000x128, .f32⟩
  | 58 => ⟨S50000x1, .i32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S1, .i32⟩
  | 69 => ⟨S_, .i32⟩
  | 70 => ⟨S50000x1, .i32⟩
  | 71 => ⟨S50000x1, .i1⟩
  | 72 => ⟨S1x1, .i32⟩
  | 73 => ⟨S50000x1, .i32⟩
  | 74 => ⟨S50000x1, .i1⟩
  | 75 => ⟨S50000x1, .i1⟩
  | 76 => ⟨S_, .i1⟩
  | 77 => ⟨S50000, .i1⟩
  | 78 => ⟨S50000x128, .f32⟩
  | 79 => ⟨S50000x128, .i1⟩
  | 80 => ⟨S_, .f32⟩
  | 81 => ⟨S50000x128, .f32⟩
  | 82 => ⟨S50000x128, .f32⟩
  | 83 => ⟨S50000x128, .f32⟩
  | 84 => ⟨S50000x1, .i32⟩
  | 85 => ⟨S50000, .i32⟩
  | 86 => ⟨S_, .i32⟩
  | 87 => ⟨S50000, .i32⟩
  | 88 => ⟨S50000, .i1⟩
  | 89 => ⟨S_, .i32⟩
  | 90 => ⟨S50000, .i32⟩
  | 91 => ⟨S50000, .i32⟩
  | 92 => ⟨S50000, .i32⟩
  | 93 => ⟨S50000x1, .i32⟩
  | 94 => ⟨S1, .i32⟩
  | 95 => ⟨S_, .i32⟩
  | 96 => ⟨S50000x1, .i32⟩
  | 97 => ⟨S50000x1, .i1⟩
  | 98 => ⟨S1x1, .i32⟩
  | 99 => ⟨S50000x1, .i32⟩
  | 100 => ⟨S50000x1, .i1⟩
  | 101 => ⟨S50000x1, .i1⟩
  | 102 => ⟨S_, .i1⟩
  | 103 => ⟨S50000, .i1⟩
  | 104 => ⟨S50000x128, .f32⟩
  | 105 => ⟨S50000x128, .i1⟩
  | 106 => ⟨S_, .f32⟩
  | 107 => ⟨S50000x128, .f32⟩
  | 108 => ⟨S50000x128, .f32⟩
  | 109 => ⟨S50000x128, .f32⟩
  | 110 => ⟨S50000x1, .i32⟩
  | 111 => ⟨S50000, .i32⟩
  | 112 => ⟨S_, .i32⟩
  | 113 => ⟨S50000, .i32⟩
  | 114 => ⟨S50000, .i1⟩
  | 115 => ⟨S_, .i32⟩
  | 116 => ⟨S50000, .i32⟩
  | 117 => ⟨S50000, .i32⟩
  | 118 => ⟨S50000, .i32⟩
  | 119 => ⟨S50000x1, .i32⟩
  | 120 => ⟨S1, .i32⟩
  | 121 => ⟨S_, .i32⟩
  | 122 => ⟨S50000x1, .i32⟩
  | 123 => ⟨S50000x1, .i1⟩
  | 124 => ⟨S1x1, .i32⟩
  | 125 => ⟨S50000x1, .i32⟩
  | 126 => ⟨S50000x1, .i1⟩
  | 127 => ⟨S50000x1, .i1⟩
  | _ => ⟨S50000x128, .f32⟩

abbrev hbmTy0_1 (i : Nat) : BufTy := match i % 128 with
  | 0 => ⟨S_, .i1⟩
  | 1 => ⟨S50000, .i1⟩
  | 2 => ⟨S50000x128, .f32⟩
  | 3 => ⟨S50000x128, .i1⟩
  | 4 => ⟨S_, .f32⟩
  | 5 => ⟨S50000x128, .f32⟩
  | 6 => ⟨S50000x128, .f32⟩
  | 7 => ⟨S50000x128, .f32⟩
  | 8 => ⟨S50000x1, .i32⟩
  | 9 => ⟨S50000, .i32⟩
  | 10 => ⟨S_, .i32⟩
  | 11 => ⟨S50000, .i32⟩
  | 12 => ⟨S50000, .i1⟩
  | 13 => ⟨S_, .i32⟩
  | 14 => ⟨S50000, .i32⟩
  | 15 => ⟨S50000, .i32⟩
  | 16 => ⟨S50000, .i32⟩
  | 17 => ⟨S50000x1, .i32⟩
  | 18 => ⟨S1, .i32⟩
  | 19 => ⟨S_, .i32⟩
  | 20 => ⟨S50000x1, .i32⟩
  | 21 => ⟨S50000x1, .i1⟩
  | 22 => ⟨S1x1, .i32⟩
  | 23 => ⟨S50000x1, .i32⟩
  | 24 => ⟨S50000x1, .i1⟩
  | 25 => ⟨S50000x1, .i1⟩
  | 26 => ⟨S_, .i1⟩
  | 27 => ⟨S50000, .i1⟩
  | 28 => ⟨S50000x128, .f32⟩
  | 29 => ⟨S50000x128, .i1⟩
  | 30 => ⟨S_, .f32⟩
  | 31 => ⟨S50000x128, .f32⟩
  | 32 => ⟨S50000x128, .f32⟩
  | 33 => ⟨S50000x128, .f32⟩
  | 34 => ⟨S50000x1, .i32⟩
  | 35 => ⟨S50000, .i32⟩
  | 36 => ⟨S_, .i32⟩
  | 37 => ⟨S50000, .i32⟩
  | 38 => ⟨S50000, .i1⟩
  | 39 => ⟨S_, .i32⟩
  | 40 => ⟨S50000, .i32⟩
  | 41 => ⟨S50000, .i32⟩
  | 42 => ⟨S50000, .i32⟩
  | 43 => ⟨S50000x1, .i32⟩
  | 44 => ⟨S1, .i32⟩
  | 45 => ⟨S_, .i32⟩
  | 46 => ⟨S50000x1, .i32⟩
  | 47 => ⟨S50000x1, .i1⟩
  | 48 => ⟨S1x1, .i32⟩
  | 49 => ⟨S50000x1, .i32⟩
  | 50 => ⟨S50000x1, .i1⟩
  | 51 => ⟨S50000x1, .i1⟩
  | 52 => ⟨S_, .i1⟩
  | 53 => ⟨S50000, .i1⟩
  | 54 => ⟨S50000x128, .f32⟩
  | 55 => ⟨S50000x128, .i1⟩
  | 56 => ⟨S_, .f32⟩
  | 57 => ⟨S50000x128, .f32⟩
  | 58 => ⟨S50000x128, .f32⟩
  | 59 => ⟨S50000x128, .f32⟩
  | 60 => ⟨S50000x1, .i32⟩
  | 61 => ⟨S50000, .i32⟩
  | 62 => ⟨S_, .i32⟩
  | 63 => ⟨S50000, .i32⟩
  | 64 => ⟨S50000, .i1⟩
  | 65 => ⟨S_, .i32⟩
  | 66 => ⟨S50000, .i32⟩
  | 67 => ⟨S50000, .i32⟩
  | 68 => ⟨S50000, .i32⟩
  | 69 => ⟨S50000x1, .i32⟩
  | 70 => ⟨S1, .i32⟩
  | 71 => ⟨S_, .i32⟩
  | 72 => ⟨S50000x1, .i32⟩
  | 73 => ⟨S50000x1, .i1⟩
  | 74 => ⟨S1x1, .i32⟩
  | 75 => ⟨S50000x1, .i32⟩
  | 76 => ⟨S50000x1, .i1⟩
  | 77 => ⟨S50000x1, .i1⟩
  | 78 => ⟨S_, .i1⟩
  | 79 => ⟨S50000, .i1⟩
  | 80 => ⟨S50000x128, .f32⟩
  | 81 => ⟨S50000x128, .i1⟩
  | 82 => ⟨S_, .f32⟩
  | 83 => ⟨S50000x128, .f32⟩
  | 84 => ⟨S50000x128, .f32⟩
  | 85 => ⟨S50000x128, .f32⟩
  | 86 => ⟨S50000x1, .i32⟩
  | 87 => ⟨S50000, .i32⟩
  | 88 => ⟨S_, .i32⟩
  | 89 => ⟨S50000, .i32⟩
  | 90 => ⟨S50000, .i1⟩
  | 91 => ⟨S_, .i32⟩
  | 92 => ⟨S50000, .i32⟩
  | 93 => ⟨S50000, .i32⟩
  | 94 => ⟨S50000, .i32⟩
  | 95 => ⟨S50000x1, .i32⟩
  | 96 => ⟨S1, .i32⟩
  | 97 => ⟨S_, .i32⟩
  | 98 => ⟨S50000x1, .i32⟩
  | 99 => ⟨S50000x1, .i1⟩
  | 100 => ⟨S1x1, .i32⟩
  | 101 => ⟨S50000x1, .i32⟩
  | 102 => ⟨S50000x1, .i1⟩
  | 103 => ⟨S50000x1, .i1⟩
  | 104 => ⟨S_, .i1⟩
  | 105 => ⟨S50000, .i1⟩
  | 106 => ⟨S50000x128, .f32⟩
  | 107 => ⟨S50000x128, .i1⟩
  | 108 => ⟨S_, .f32⟩
  | 109 => ⟨S50000x128, .f32⟩
  | 110 => ⟨S50000x128, .f32⟩
  | 111 => ⟨S50000x128, .f32⟩
  | 112 => ⟨S50000x1, .i32⟩
  | 113 => ⟨S50000, .i32⟩
  | 114 => ⟨S_, .i32⟩
  | 115 => ⟨S50000, .i32⟩
  | 116 => ⟨S50000, .i1⟩
  | 117 => ⟨S_, .i32⟩
  | 118 => ⟨S50000, .i32⟩
  | 119 => ⟨S50000, .i32⟩
  | 120 => ⟨S50000, .i32⟩
  | 121 => ⟨S50000x1, .i32⟩
  | 122 => ⟨S1, .i32⟩
  | 123 => ⟨S_, .i32⟩
  | 124 => ⟨S50000x1, .i32⟩
  | 125 => ⟨S50000x1, .i1⟩
  | 126 => ⟨S1x1, .i32⟩
  | 127 => ⟨S50000x1, .i32⟩
  | _ => ⟨S50000x128, .f32⟩

abbrev hbmTy0_2 (i : Nat) : BufTy := match i % 128 with
  | 0 => ⟨S50000x1, .i1⟩
  | 1 => ⟨S50000x1, .i1⟩
  | 2 => ⟨S_, .i1⟩
  | 3 => ⟨S50000, .i1⟩
  | 4 => ⟨S50000x128, .f32⟩
  | 5 => ⟨S50000x128, .i1⟩
  | 6 => ⟨S_, .f32⟩
  | 7 => ⟨S50000x128, .f32⟩
  | 8 => ⟨S50000x128, .f32⟩
  | 9 => ⟨S50000x128, .f32⟩
  | 10 => ⟨S50000x1, .i32⟩
  | 11 => ⟨S50000, .i32⟩
  | 12 => ⟨S_, .i32⟩
  | 13 => ⟨S50000, .i32⟩
  | 14 => ⟨S50000, .i1⟩
  | 15 => ⟨S_, .i32⟩
  | 16 => ⟨S50000, .i32⟩
  | 17 => ⟨S50000, .i32⟩
  | 18 => ⟨S50000, .i32⟩
  | 19 => ⟨S50000x1, .i32⟩
  | 20 => ⟨S1, .i32⟩
  | 21 => ⟨S_, .i32⟩
  | 22 => ⟨S50000x1, .i32⟩
  | 23 => ⟨S50000x1, .i1⟩
  | 24 => ⟨S1x1, .i32⟩
  | 25 => ⟨S50000x1, .i32⟩
  | 26 => ⟨S50000x1, .i1⟩
  | 27 => ⟨S50000x1, .i1⟩
  | 28 => ⟨S_, .i1⟩
  | 29 => ⟨S50000, .i1⟩
  | 30 => ⟨S50000x128, .f32⟩
  | 31 => ⟨S50000x128, .i1⟩
  | 32 => ⟨S_, .f32⟩
  | 33 => ⟨S50000x128, .f32⟩
  | 34 => ⟨S50000x128, .f32⟩
  | 35 => ⟨S50000x128, .f32⟩
  | 36 => ⟨S50000x1, .i32⟩
  | 37 => ⟨S50000, .i32⟩
  | 38 => ⟨S_, .i32⟩
  | 39 => ⟨S50000, .i32⟩
  | 40 => ⟨S50000, .i1⟩
  | 41 => ⟨S_, .i32⟩
  | 42 => ⟨S50000, .i32⟩
  | 43 => ⟨S50000, .i32⟩
  | 44 => ⟨S50000, .i32⟩
  | 45 => ⟨S50000x1, .i32⟩
  | 46 => ⟨S1, .i32⟩
  | 47 => ⟨S_, .i32⟩
  | 48 => ⟨S50000x1, .i32⟩
  | 49 => ⟨S50000x1, .i1⟩
  | 50 => ⟨S1x1, .i32⟩
  | 51 => ⟨S50000x1, .i32⟩
  | 52 => ⟨S50000x1, .i1⟩
  | 53 => ⟨S50000x1, .i1⟩
  | 54 => ⟨S_, .i1⟩
  | 55 => ⟨S50000, .i1⟩
  | 56 => ⟨S50000x128, .f32⟩
  | 57 => ⟨S50000x128, .i1⟩
  | 58 => ⟨S_, .f32⟩
  | 59 => ⟨S50000x128, .f32⟩
  | 60 => ⟨S50000x128, .f32⟩
  | 61 => ⟨S50000x128, .f32⟩
  | 62 => ⟨S50000x1, .i32⟩
  | 63 => ⟨S50000, .i32⟩
  | 64 => ⟨S_, .i32⟩
  | 65 => ⟨S50000, .i32⟩
  | 66 => ⟨S50000, .i1⟩
  | 67 => ⟨S_, .i32⟩
  | 68 => ⟨S50000, .i32⟩
  | 69 => ⟨S50000, .i32⟩
  | 70 => ⟨S50000, .i32⟩
  | 71 => ⟨S50000x1, .i32⟩
  | 72 => ⟨S1, .i32⟩
  | 73 => ⟨S_, .i32⟩
  | 74 => ⟨S50000x1, .i32⟩
  | 75 => ⟨S50000x1, .i1⟩
  | 76 => ⟨S1x1, .i32⟩
  | 77 => ⟨S50000x1, .i32⟩
  | 78 => ⟨S50000x1, .i1⟩
  | 79 => ⟨S50000x1, .i1⟩
  | 80 => ⟨S_, .i1⟩
  | 81 => ⟨S50000, .i1⟩
  | 82 => ⟨S50000x128, .f32⟩
  | 83 => ⟨S50000x128, .i1⟩
  | 84 => ⟨S_, .f32⟩
  | 85 => ⟨S50000x128, .f32⟩
  | 86 => ⟨S50000x128, .f32⟩
  | 87 => ⟨S50000x128, .f32⟩
  | 88 => ⟨S50000x1, .i32⟩
  | 89 => ⟨S50000, .i32⟩
  | 90 => ⟨S_, .i32⟩
  | 91 => ⟨S50000, .i32⟩
  | 92 => ⟨S50000, .i1⟩
  | 93 => ⟨S_, .i32⟩
  | 94 => ⟨S50000, .i32⟩
  | 95 => ⟨S50000, .i32⟩
  | 96 => ⟨S50000, .i32⟩
  | 97 => ⟨S50000x1, .i32⟩
  | 98 => ⟨S1, .i32⟩
  | 99 => ⟨S_, .i32⟩
  | 100 => ⟨S50000x1, .i32⟩
  | 101 => ⟨S50000x1, .i1⟩
  | 102 => ⟨S1x1, .i32⟩
  | 103 => ⟨S50000x1, .i32⟩
  | 104 => ⟨S50000x1, .i1⟩
  | 105 => ⟨S50000x1, .i1⟩
  | 106 => ⟨S_, .i1⟩
  | 107 => ⟨S50000, .i1⟩
  | 108 => ⟨S50000x128, .f32⟩
  | 109 => ⟨S50000x128, .i1⟩
  | 110 => ⟨S_, .f32⟩
  | 111 => ⟨S50000x128, .f32⟩
  | 112 => ⟨S50000x128, .f32⟩
  | 113 => ⟨S50000x128, .f32⟩
  | 114 => ⟨S50000x1, .i32⟩
  | 115 => ⟨S50000, .i32⟩
  | 116 => ⟨S_, .i32⟩
  | 117 => ⟨S50000, .i32⟩
  | 118 => ⟨S50000, .i1⟩
  | 119 => ⟨S_, .i32⟩
  | 120 => ⟨S50000, .i32⟩
  | 121 => ⟨S50000, .i32⟩
  | 122 => ⟨S50000, .i32⟩
  | 123 => ⟨S50000x1, .i32⟩
  | 124 => ⟨S1, .i32⟩
  | 125 => ⟨S_, .i32⟩
  | 126 => ⟨S50000x1, .i32⟩
  | 127 => ⟨S50000x1, .i1⟩
  | _ => ⟨S50000x128, .f32⟩

abbrev hbmTy0_3 (i : Nat) : BufTy := match i % 128 with
  | 0 => ⟨S1x1, .i32⟩
  | 1 => ⟨S50000x1, .i32⟩
  | 2 => ⟨S50000x1, .i1⟩
  | 3 => ⟨S50000x1, .i1⟩
  | 4 => ⟨S_, .i1⟩
  | 5 => ⟨S50000, .i1⟩
  | 6 => ⟨S50000x128, .f32⟩
  | 7 => ⟨S50000x128, .i1⟩
  | 8 => ⟨S_, .f32⟩
  | 9 => ⟨S50000x128, .f32⟩
  | 10 => ⟨S50000x128, .f32⟩
  | 11 => ⟨S50000x128, .f32⟩
  | 12 => ⟨S50000x1, .i32⟩
  | 13 => ⟨S50000, .i32⟩
  | 14 => ⟨S_, .i32⟩
  | 15 => ⟨S50000, .i32⟩
  | 16 => ⟨S50000, .i1⟩
  | 17 => ⟨S_, .i32⟩
  | 18 => ⟨S50000, .i32⟩
  | 19 => ⟨S50000, .i32⟩
  | 20 => ⟨S50000, .i32⟩
  | 21 => ⟨S50000x1, .i32⟩
  | 22 => ⟨S1, .i32⟩
  | 23 => ⟨S_, .i32⟩
  | 24 => ⟨S50000x1, .i32⟩
  | 25 => ⟨S50000x1, .i1⟩
  | 26 => ⟨S1x1, .i32⟩
  | 27 => ⟨S50000x1, .i32⟩
  | 28 => ⟨S50000x1, .i1⟩
  | 29 => ⟨S50000x1, .i1⟩
  | 30 => ⟨S_, .i1⟩
  | 31 => ⟨S50000, .i1⟩
  | 32 => ⟨S50000x128, .f32⟩
  | 33 => ⟨S50000x128, .i1⟩
  | 34 => ⟨S_, .f32⟩
  | 35 => ⟨S50000x128, .f32⟩
  | 36 => ⟨S50000x128, .f32⟩
  | 37 => ⟨S50000x128, .f32⟩
  | 38 => ⟨S50000x1, .i32⟩
  | 39 => ⟨S50000, .i32⟩
  | 40 => ⟨S_, .i32⟩
  | 41 => ⟨S50000, .i32⟩
  | 42 => ⟨S50000, .i1⟩
  | 43 => ⟨S_, .i32⟩
  | 44 => ⟨S50000, .i32⟩
  | 45 => ⟨S50000, .i32⟩
  | 46 => ⟨S50000, .i32⟩
  | 47 => ⟨S50000x1, .i32⟩
  | 48 => ⟨S1, .i32⟩
  | 49 => ⟨S_, .i32⟩
  | 50 => ⟨S50000x1, .i32⟩
  | 51 => ⟨S50000x1, .i1⟩
  | 52 => ⟨S1x1, .i32⟩
  | 53 => ⟨S50000x1, .i32⟩
  | 54 => ⟨S50000x1, .i1⟩
  | 55 => ⟨S50000x1, .i1⟩
  | 56 => ⟨S_, .i1⟩
  | 57 => ⟨S50000, .i1⟩
  | 58 => ⟨S50000x128, .f32⟩
  | 59 => ⟨S50000x128, .i1⟩
  | 60 => ⟨S_, .f32⟩
  | 61 => ⟨S50000x128, .f32⟩
  | 62 => ⟨S50000x128, .f32⟩
  | 63 => ⟨S50000x128, .f32⟩
  | 64 => ⟨S50000x1, .i32⟩
  | 65 => ⟨S50000, .i32⟩
  | 66 => ⟨S_, .i32⟩
  | 67 => ⟨S50000, .i32⟩
  | 68 => ⟨S50000, .i1⟩
  | 69 => ⟨S_, .i32⟩
  | 70 => ⟨S50000, .i32⟩
  | 71 => ⟨S50000, .i32⟩
  | 72 => ⟨S50000, .i32⟩
  | 73 => ⟨S50000x1, .i32⟩
  | 74 => ⟨S1, .i32⟩
  | 75 => ⟨S_, .i32⟩
  | 76 => ⟨S50000x1, .i32⟩
  | 77 => ⟨S50000x1, .i1⟩
  | 78 => ⟨S1x1, .i32⟩
  | 79 => ⟨S50000x1, .i32⟩
  | 80 => ⟨S50000x1, .i1⟩
  | 81 => ⟨S50000x1, .i1⟩
  | 82 => ⟨S_, .i1⟩
  | 83 => ⟨S50000, .i1⟩
  | 84 => ⟨S50000x128, .f32⟩
  | 85 => ⟨S50000x128, .i1⟩
  | 86 => ⟨S_, .f32⟩
  | 87 => ⟨S50000x128, .f32⟩
  | 88 => ⟨S50000x128, .f32⟩
  | 89 => ⟨S50000x128, .f32⟩
  | 90 => ⟨S50000x1, .i32⟩
  | 91 => ⟨S50000, .i32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S1, .i32⟩
  | 101 => ⟨S_, .i32⟩
  | 102 => ⟨S50000x1, .i32⟩
  | 103 => ⟨S50000x1, .i1⟩
  | 104 => ⟨S1x1, .i32⟩
  | 105 => ⟨S50000x1, .i32⟩
  | 106 => ⟨S50000x1, .i1⟩
  | 107 => ⟨S50000x1, .i1⟩
  | 108 => ⟨S_, .i1⟩
  | 109 => ⟨S50000, .i1⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x128, .f32⟩
  | 116 => ⟨S50000x1, .i32⟩
  | 117 => ⟨S50000, .i32⟩
  | 118 => ⟨S_, .i32⟩
  | 119 => ⟨S50000, .i32⟩
  | 120 => ⟨S50000, .i1⟩
  | 121 => ⟨S_, .i32⟩
  | 122 => ⟨S50000, .i32⟩
  | 123 => ⟨S50000, .i32⟩
  | 124 => ⟨S50000, .i32⟩
  | 125 => ⟨S50000x1, .i32⟩
  | 126 => ⟨S1, .i32⟩
  | 127 => ⟨S_, .i32⟩
  | _ => ⟨S50000x128, .f32⟩

abbrev hbmTy0_4 (i : Nat) : BufTy := match i % 128 with
  | 0 => ⟨S50000x1, .i32⟩
  | 1 => ⟨S50000x1, .i1⟩
  | 2 => ⟨S1x1, .i32⟩
  | 3 => ⟨S50000x1, .i32⟩
  | 4 => ⟨S50000x1, .i1⟩
  | 5 => ⟨S50000x1, .i1⟩
  | 6 => ⟨S_, .i1⟩
  | 7 => ⟨S50000, .i1⟩
  | 8 => ⟨S50000x128, .f32⟩
  | 9 => ⟨S50000x128, .i1⟩
  | 10 => ⟨S_, .f32⟩
  | 11 => ⟨S50000x128, .f32⟩
  | 12 => ⟨S50000x128, .f32⟩
  | 13 => ⟨S50000x128, .f32⟩
  | 14 => ⟨S50000x1, .i32⟩
  | 15 => ⟨S50000, .i32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S1, .i32⟩
  | 25 => ⟨S_, .i32⟩
  | 26 => ⟨S50000x1, .i32⟩
  | 27 => ⟨S50000x1, .i1⟩
  | 28 => ⟨S1x1, .i32⟩
  | 29 => ⟨S50000x1, .i32⟩
  | 30 => ⟨S50000x1, .i1⟩
  | 31 => ⟨S50000x1, .i1⟩
  | 32 => ⟨S_, .i1⟩
  | 33 => ⟨S50000, .i1⟩
  | 34 => ⟨S50000x128, .f32⟩
  | 35 => ⟨S50000x128, .i1⟩
  | 36 => ⟨S_, .f32⟩
  | 37 => ⟨S50000x128, .f32⟩
  | 38 => ⟨S50000x128, .f32⟩
  | 39 => ⟨S50000x128, .f32⟩
  | 40 => ⟨S50000x1, .i32⟩
  | 41 => ⟨S50000, .i32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S1, .i32⟩
  | 51 => ⟨S_, .i32⟩
  | 52 => ⟨S50000x1, .i32⟩
  | 53 => ⟨S50000x1, .i1⟩
  | 54 => ⟨S1x1, .i32⟩
  | 55 => ⟨S50000x1, .i32⟩
  | 56 => ⟨S50000x1, .i1⟩
  | 57 => ⟨S50000x1, .i1⟩
  | 58 => ⟨S_, .i1⟩
  | 59 => ⟨S50000, .i1⟩
  | 60 => ⟨S50000x128, .f32⟩
  | 61 => ⟨S50000x128, .i1⟩
  | 62 => ⟨S_, .f32⟩
  | 63 => ⟨S50000x128, .f32⟩
  | 64 => ⟨S50000x128, .f32⟩
  | 65 => ⟨S50000x128, .f32⟩
  | 66 => ⟨S50000x1, .i32⟩
  | 67 => ⟨S50000, .i32⟩
  | 68 => ⟨S_, .i32⟩
  | 69 => ⟨S50000, .i32⟩
  | 70 => ⟨S50000, .i1⟩
  | 71 => ⟨S_, .i32⟩
  | 72 => ⟨S50000, .i32⟩
  | 73 => ⟨S50000, .i32⟩
  | 74 => ⟨S50000, .i32⟩
  | 75 => ⟨S50000x1, .i32⟩
  | 76 => ⟨S1, .i32⟩
  | 77 => ⟨S_, .i32⟩
  | 78 => ⟨S50000x1, .i32⟩
  | 79 => ⟨S50000x1, .i1⟩
  | 80 => ⟨S1x1, .i32⟩
  | 81 => ⟨S50000x1, .i32⟩
  | 82 => ⟨S50000x1, .i1⟩
  | 83 => ⟨S50000x1, .i1⟩
  | 84 => ⟨S_, .i1⟩
  | 85 => ⟨S50000, .i1⟩
  | 86 => ⟨S50000x128, .f32⟩
  | 87 => ⟨S50000x128, .i1⟩
  | 88 => ⟨S_, .f32⟩
  | 89 => ⟨S50000x128, .f32⟩
  | 90 => ⟨S50000x128, .f32⟩
  | 91 => ⟨S50000x128, .f32⟩
  | 92 => ⟨S50000x1, .i32⟩
  | 93 => ⟨S50000, .i32⟩
  | 94 => ⟨S_, .i32⟩
  | 95 => ⟨S50000, .i32⟩
  | 96 => ⟨S50000, .i1⟩
  | 97 => ⟨S_, .i32⟩
  | 98 => ⟨S50000, .i32⟩
  | 99 => ⟨S50000, .i32⟩
  | 100 => ⟨S50000, .i32⟩
  | 101 => ⟨S50000x1, .i32⟩
  | 102 => ⟨S1, .i32⟩
  | 103 => ⟨S_, .i32⟩
  | 104 => ⟨S50000x1, .i32⟩
  | 105 => ⟨S50000x1, .i1⟩
  | 106 => ⟨S1x1, .i32⟩
  | 107 => ⟨S50000x1, .i32⟩
  | 108 => ⟨S50000x1, .i1⟩
  | 109 => ⟨S50000x1, .i1⟩
  | 110 => ⟨S_, .i1⟩
  | 111 => ⟨S50000, .i1⟩
  | 112 => ⟨S50000x128, .f32⟩
  | 113 => ⟨S50000x128, .i1⟩
  | 114 => ⟨S_, .f32⟩
  | 115 => ⟨S50000x128, .f32⟩
  | 116 => ⟨S50000x128, .f32⟩
  | 117 => ⟨S50000x128, .f32⟩
  | 118 => ⟨S50000x1, .i32⟩
  | 119 => ⟨S50000, .i32⟩
  | 120 => ⟨S_, .i32⟩
  | 121 => ⟨S50000, .i32⟩
  | 122 => ⟨S50000, .i1⟩
  | 123 => ⟨S_, .i32⟩
  | 124 => ⟨S50000, .i32⟩
  | 125 => ⟨S50000, .i32⟩
  | 126 => ⟨S50000, .i32⟩
  | 127 => ⟨S50000x1, .i32⟩
  | _ => ⟨S50000x128, .f32⟩

abbrev hbmTy0_5 (i : Nat) : BufTy := match i % 128 with
  | 0 => ⟨S1, .i32⟩
  | 1 => ⟨S_, .i32⟩
  | 2 => ⟨S50000x1, .i32⟩
  | 3 => ⟨S50000x1, .i1⟩
  | 4 => ⟨S1x1, .i32⟩
  | 5 => ⟨S50000x1, .i32⟩
  | 6 => ⟨S50000x1, .i1⟩
  | 7 => ⟨S50000x1, .i1⟩
  | 8 => ⟨S_, .i1⟩
  | 9 => ⟨S50000, .i1⟩
  | 10 => ⟨S50000x128, .f32⟩
  | 11 => ⟨S50000x128, .i1⟩
  | 12 => ⟨S_, .f32⟩
  | 13 => ⟨S50000x128, .f32⟩
  | 14 => ⟨S50000x128, .f32⟩
  | 15 => ⟨S50000x128, .f32⟩
  | 16 => ⟨S50000x1, .i32⟩
  | 17 => ⟨S50000, .i32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S1, .i32⟩
  | 27 => ⟨S_, .i32⟩
  | 28 => ⟨S50000x1, .i32⟩
  | 29 => ⟨S50000x1, .i1⟩
  | 30 => ⟨S1x1, .i32⟩
  | 31 => ⟨S50000x1, .i32⟩
  | 32 => ⟨S50000x1, .i1⟩
  | 33 => ⟨S50000x1, .i1⟩
  | 34 => ⟨S_, .i1⟩
  | 35 => ⟨S50000, .i1⟩
  | 36 => ⟨S50000x128, .f32⟩
  | 37 => ⟨S50000x128, .i1⟩
  | 38 => ⟨S_, .f32⟩
  | 39 => ⟨S50000x128, .f32⟩
  | 40 => ⟨S50000x128, .f32⟩
  | 41 => ⟨S50000x128, .f32⟩
  | 42 => ⟨S50000x1, .i32⟩
  | 43 => ⟨S50000, .i32⟩
  | 44 => ⟨S_, .i32⟩
  | 45 => ⟨S50000, .i32⟩
  | 46 => ⟨S50000, .i1⟩
  | 47 => ⟨S_, .i32⟩
  | 48 => ⟨S50000, .i32⟩
  | 49 => ⟨S50000, .i32⟩
  | 50 => ⟨S50000, .i32⟩
  | 51 => ⟨S50000x1, .i32⟩
  | 52 => ⟨S1, .i32⟩
  | 53 => ⟨S_, .i32⟩
  | 54 => ⟨S50000x1, .i32⟩
  | 55 => ⟨S50000x1, .i1⟩
  | 56 => ⟨S1x1, .i32⟩
  | 57 => ⟨S50000x1, .i32⟩
  | 58 => ⟨S50000x1, .i1⟩
  | 59 => ⟨S50000x1, .i1⟩
  | 60 => ⟨S_, .i1⟩
  | 61 => ⟨S50000, .i1⟩
  | 62 => ⟨S50000x128, .f32⟩
  | 63 => ⟨S50000x128, .i1⟩
  | 64 => ⟨S_, .f32⟩
  | 65 => ⟨S50000x128, .f32⟩
  | 66 => ⟨S50000x128, .f32⟩
  | 67 => ⟨S50000x128, .f32⟩
  | 68 => ⟨S50000x1, .i32⟩
  | 69 => ⟨S50000, .i32⟩
  | 70 => ⟨S_, .i32⟩
  | 71 => ⟨S50000, .i32⟩
  | 72 => ⟨S50000, .i1⟩
  | 73 => ⟨S_, .i32⟩
  | 74 => ⟨S50000, .i32⟩
  | 75 => ⟨S50000, .i32⟩
  | 76 => ⟨S50000, .i32⟩
  | 77 => ⟨S50000x1, .i32⟩
  | 78 => ⟨S1, .i32⟩
  | 79 => ⟨S_, .i32⟩
  | 80 => ⟨S50000x1, .i32⟩
  | 81 => ⟨S50000x1, .i1⟩
  | 82 => ⟨S1x1, .i32⟩
  | 83 => ⟨S50000x1, .i32⟩
  | 84 => ⟨S50000x1, .i1⟩
  | 85 => ⟨S50000x1, .i1⟩
  | 86 => ⟨S_, .i1⟩
  | 87 => ⟨S50000, .i1⟩
  | 88 => ⟨S50000x128, .f32⟩
  | 89 => ⟨S50000x128, .i1⟩
  | 90 => ⟨S_, .f32⟩
  | 91 => ⟨S50000x128, .f32⟩
  | 92 => ⟨S50000x128, .f32⟩
  | 93 => ⟨S50000x128, .f32⟩
  | 94 => ⟨S50000x1, .i32⟩
  | 95 => ⟨S50000, .i32⟩
  | 96 => ⟨S_, .i32⟩
  | 97 => ⟨S50000, .i32⟩
  | 98 => ⟨S50000, .i1⟩
  | 99 => ⟨S_, .i32⟩
  | 100 => ⟨S50000, .i32⟩
  | 101 => ⟨S50000, .i32⟩
  | 102 => ⟨S50000, .i32⟩
  | 103 => ⟨S50000x1, .i32⟩
  | 104 => ⟨S1, .i32⟩
  | 105 => ⟨S_, .i32⟩
  | 106 => ⟨S50000x1, .i32⟩
  | 107 => ⟨S50000x1, .i1⟩
  | 108 => ⟨S1x1, .i32⟩
  | 109 => ⟨S50000x1, .i32⟩
  | 110 => ⟨S50000x1, .i1⟩
  | 111 => ⟨S50000x1, .i1⟩
  | 112 => ⟨S_, .i1⟩
  | 113 => ⟨S50000, .i1⟩
  | 114 => ⟨S50000x128, .f32⟩
  | 115 => ⟨S50000x128, .i1⟩
  | 116 => ⟨S_, .f32⟩
  | 117 => ⟨S50000x128, .f32⟩
  | 118 => ⟨S50000x128, .f32⟩
  | 119 => ⟨S50000x128, .f32⟩
  | 120 => ⟨S50000x1, .i32⟩
  | 121 => ⟨S50000, .i32⟩
  | 122 => ⟨S_, .i32⟩
  | 123 => ⟨S50000, .i32⟩
  | 124 => ⟨S50000, .i1⟩
  | 125 => ⟨S_, .i32⟩
  | 126 => ⟨S50000, .i32⟩
  | 127 => ⟨S50000, .i32⟩
  | _ => ⟨S50000x128, .f32⟩

abbrev hbmTy0_6 (i : Nat) : BufTy := match i % 128 with
  | 0 => ⟨S50000, .i32⟩
  | 1 => ⟨S50000x1, .i32⟩
  | 2 => ⟨S1, .i32⟩
  | 3 => ⟨S_, .i32⟩
  | 4 => ⟨S50000x1, .i32⟩
  | 5 => ⟨S50000x1, .i1⟩
  | 6 => ⟨S1x1, .i32⟩
  | 7 => ⟨S50000x1, .i32⟩
  | 8 => ⟨S50000x1, .i1⟩
  | 9 => ⟨S50000x1, .i1⟩
  | 10 => ⟨S_, .i1⟩
  | 11 => ⟨S50000, .i1⟩
  | 12 => ⟨S50000x128, .f32⟩
  | 13 => ⟨S50000x128, .i1⟩
  | 14 => ⟨S_, .f32⟩
  | 15 => ⟨S50000x128, .f32⟩
  | 16 => ⟨S50000x128, .f32⟩
  | 17 => ⟨S50000x128, .f32⟩
  | 18 => ⟨S50000x1, .i32⟩
  | 19 => ⟨S50000, .i32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S1, .i32⟩
  | 29 => ⟨S_, .i32⟩
  | 30 => ⟨S50000x1, .i32⟩
  | 31 => ⟨S50000x1, .i1⟩
  | 32 => ⟨S1x1, .i32⟩
  | 33 => ⟨S50000x1, .i32⟩
  | 34 => ⟨S50000x1, .i1⟩
  | 35 => ⟨S50000x1, .i1⟩
  | 36 => ⟨S_, .i1⟩
  | 37 => ⟨S50000, .i1⟩
  | 38 => ⟨S50000x128, .f32⟩
  | 39 => ⟨S50000x128, .i1⟩
  | 40 => ⟨S_, .f32⟩
  | 41 => ⟨S50000x128, .f32⟩
  | 42 => ⟨S50000x128, .f32⟩
  | 43 => ⟨S50000x128, .f32⟩
  | 44 => ⟨S50000x1, .i32⟩
  | 45 => ⟨S50000, .i32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S1, .i32⟩
  | 55 => ⟨S_, .i32⟩
  | 56 => ⟨S50000x1, .i32⟩
  | 57 => ⟨S50000x1, .i1⟩
  | 58 => ⟨S1x1, .i32⟩
  | 59 => ⟨S50000x1, .i32⟩
  | 60 => ⟨S50000x1, .i1⟩
  | 61 => ⟨S50000x1, .i1⟩
  | 62 => ⟨S_, .i1⟩
  | 63 => ⟨S50000, .i1⟩
  | 64 => ⟨S50000x128, .f32⟩
  | 65 => ⟨S50000x128, .i1⟩
  | 66 => ⟨S_, .f32⟩
  | 67 => ⟨S50000x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S128x128, .f32⟩
  | 74 => ⟨S128x128, .f32⟩
  | 75 => ⟨S50000x128, .f32⟩
  | 76 => ⟨S_, .i32⟩
  | 77 => ⟨S50000, .i32⟩
  | 78 => ⟨S50000, .i1⟩
  | 79 => ⟨S_, .i32⟩
  | 80 => ⟨S50000, .i32⟩
  | 81 => ⟨S50000, .i32⟩
  | 82 => ⟨S50000, .i32⟩
  | 83 => ⟨S50000x1, .i32⟩
  | 84 => ⟨S1, .i32⟩
  | 85 => ⟨S_, .i32⟩
  | 86 => ⟨S50000x1, .i32⟩
  | 87 => ⟨S50000x1, .i1⟩
  | 88 => ⟨S1x1, .i32⟩
  | 89 => ⟨S50000x1, .i32⟩
  | 90 => ⟨S50000x1, .i1⟩
  | 91 => ⟨S50000x1, .i1⟩
  | 92 => ⟨S_, .i1⟩
  | 93 => ⟨S50000, .i1⟩
  | 94 => ⟨S50000x32, .i32⟩
  | 95 => ⟨S50000x32, .i1⟩
  | 96 => ⟨S_, .i32⟩
  | 97 => ⟨S50000x32, .i32⟩
  | 98 => ⟨S50000x32, .i32⟩
  | 99 => ⟨S50000x1, .i32⟩
  | 100 => ⟨S50000, .i32⟩
  | 101 => ⟨S_, .i32⟩
  | 102 => ⟨S50000, .i32⟩
  | 103 => ⟨S50000, .i1⟩
  | 104 => ⟨S_, .i32⟩
  | 105 => ⟨S50000, .i32⟩
  | 106 => ⟨S50000, .i32⟩
  | 107 => ⟨S50000, .i32⟩
  | 108 => ⟨S50000x1, .i32⟩
  | 109 => ⟨S1, .i32⟩
  | 110 => ⟨S_, .i32⟩
  | 111 => ⟨S50000x1, .i32⟩
  | 112 => ⟨S50000x1, .i1⟩
  | 113 => ⟨S1x1, .i32⟩
  | 114 => ⟨S50000x1, .i32⟩
  | 115 => ⟨S50000x1, .i1⟩
  | 116 => ⟨S50000x1, .i1⟩
  | 117 => ⟨S_, .i1⟩
  | 118 => ⟨S50000, .i1⟩
  | 119 => ⟨S50000x128, .f32⟩
  | 120 => ⟨S50000x128, .i1⟩
  | 121 => ⟨S_, .f32⟩
  | 122 => ⟨S50000x128, .f32⟩
  | 123 => ⟨S50000x128, .f32⟩
  | 124 => ⟨S50000x1, .i32⟩
  | 125 => ⟨S50000, .i32⟩
  | 126 => ⟨S_, .i32⟩
  | 127 => ⟨S50000, .i32⟩
  | _ => ⟨S50000x128, .f32⟩

abbrev hbmTy0_7 (i : Nat) : BufTy := match i % 128 with
  | 0 => ⟨S50000, .i1⟩
  | 1 => ⟨S_, .i32⟩
  | 2 => ⟨S50000, .i32⟩
  | 3 => ⟨S50000, .i32⟩
  | 4 => ⟨S50000, .i32⟩
  | 5 => ⟨S50000x1, .i32⟩
  | 6 => ⟨S1, .i32⟩
  | 7 => ⟨S_, .i32⟩
  | 8 => ⟨S50000x1, .i32⟩
  | 9 => ⟨S50000x1, .i1⟩
  | 10 => ⟨S1x1, .i32⟩
  | 11 => ⟨S50000x1, .i32⟩
  | 12 => ⟨S50000x1, .i1⟩
  | 13 => ⟨S50000x1, .i1⟩
  | 14 => ⟨S_, .i1⟩
  | 15 => ⟨S50000, .i1⟩
  | 16 => ⟨S50000x128, .f32⟩
  | 17 => ⟨S50000x128, .i1⟩
  | 18 => ⟨S_, .f32⟩
  | 19 => ⟨S50000x128, .f32⟩
  | 20 => ⟨S50000x128, .f32⟩
  | 21 => ⟨S50000x128, .f32⟩
  | 22 => ⟨S50000x1, .i32⟩
  | 23 => ⟨S50000, .i32⟩
  | 24 => ⟨S_, .i32⟩
  | 25 => ⟨S50000, .i32⟩
  | 26 => ⟨S50000, .i1⟩
  | 27 => ⟨S_, .i32⟩
  | 28 => ⟨S50000, .i32⟩
  | 29 => ⟨S50000, .i32⟩
  | 30 => ⟨S50000, .i32⟩
  | 31 => ⟨S50000x1, .i32⟩
  | 32 => ⟨S1, .i32⟩
  | 33 => ⟨S_, .i32⟩
  | 34 => ⟨S50000x1, .i32⟩
  | 35 => ⟨S50000x1, .i1⟩
  | 36 => ⟨S1x1, .i32⟩
  | 37 => ⟨S50000x1, .i32⟩
  | 38 => ⟨S50000x1, .i1⟩
  | 39 => ⟨S50000x1, .i1⟩
  | 40 => ⟨S_, .i1⟩
  | 41 => ⟨S50000, .i1⟩
  | 42 => ⟨S50000x128, .f32⟩
  | 43 => ⟨S50000x128, .i1⟩
  | 44 => ⟨S_, .f32⟩
  | 45 => ⟨S50000x128, .f32⟩
  | 46 => ⟨S50000x128, .f32⟩
  | 47 => ⟨S50000x128, .f32⟩
  | 48 => ⟨S50000x1, .i32⟩
  | 49 => ⟨S50000, .i32⟩
  | 50 => ⟨S_, .i32⟩
  | 51 => ⟨S50000, .i32⟩
  | 52 => ⟨S50000, .i1⟩
  | 53 => ⟨S_, .i32⟩
  | 54 => ⟨S50000, .i32⟩
  | 55 => ⟨S50000, .i32⟩
  | 56 => ⟨S50000, .i32⟩
  | 57 => ⟨S50000x1, .i32⟩
  | 58 => ⟨S1, .i32⟩
  | 59 => ⟨S_, .i32⟩
  | 60 => ⟨S50000x1, .i32⟩
  | 61 => ⟨S50000x1, .i1⟩
  | 62 => ⟨S1x1, .i32⟩
  | 63 => ⟨S50000x1, .i32⟩
  | 64 => ⟨S50000x1, .i1⟩
  | 65 => ⟨S50000x1, .i1⟩
  | 66 => ⟨S_, .i1⟩
  | 67 => ⟨S50000, .i1⟩
  | 68 => ⟨S50000x128, .f32⟩
  | 69 => ⟨S50000x128, .i1⟩
  | 70 => ⟨S_, .f32⟩
  | 71 => ⟨S50000x128, .f32⟩
  | 72 => ⟨S50000x128, .f32⟩
  | 73 => ⟨S50000x128, .f32⟩
  | 74 => ⟨S50000x1, .i32⟩
  | 75 => ⟨S50000, .i32⟩
  | 76 => ⟨S_, .i32⟩
  | 77 => ⟨S50000, .i32⟩
  | 78 => ⟨S50000, .i1⟩
  | 79 => ⟨S_, .i32⟩
  | 80 => ⟨S50000, .i32⟩
  | 81 => ⟨S50000, .i32⟩
  | 82 => ⟨S50000, .i32⟩
  | 83 => ⟨S50000x1, .i32⟩
  | 84 => ⟨S1, .i32⟩
  | 85 => ⟨S_, .i32⟩
  | 86 => ⟨S50000x1, .i32⟩
  | 87 => ⟨S50000x1, .i1⟩
  | 88 => ⟨S1x1, .i32⟩
  | 89 => ⟨S50000x1, .i32⟩
  | 90 => ⟨S50000x1, .i1⟩
  | 91 => ⟨S50000x1, .i1⟩
  | 92 => ⟨S_, .i1⟩
  | 93 => ⟨S50000, .i1⟩
  | 94 => ⟨S50000x128, .f32⟩
  | 95 => ⟨S50000x128, .i1⟩
  | 96 => ⟨S_, .f32⟩
  | 97 => ⟨S50000x128, .f32⟩
  | 98 => ⟨S50000x128, .f32⟩
  | 99 => ⟨S50000x128, .f32⟩
  | 100 => ⟨S50000x1, .i32⟩
  | 101 => ⟨S50000, .i32⟩
  | 102 => ⟨S_, .i32⟩
  | 103 => ⟨S50000, .i32⟩
  | 104 => ⟨S50000, .i1⟩
  | 105 => ⟨S_, .i32⟩
  | 106 => ⟨S50000, .i32⟩
  | 107 => ⟨S50000, .i32⟩
  | 108 => ⟨S50000, .i32⟩
  | 109 => ⟨S50000x1, .i32⟩
  | 110 => ⟨S1, .i32⟩
  | 111 => ⟨S_, .i32⟩
  | 112 => ⟨S50000x1, .i32⟩
  | 113 => ⟨S50000x1, .i1⟩
  | 114 => ⟨S1x1, .i32⟩
  | 115 => ⟨S50000x1, .i32⟩
  | 116 => ⟨S50000x1, .i1⟩
  | 117 => ⟨S50000x1, .i1⟩
  | 118 => ⟨S_, .i1⟩
  | 119 => ⟨S50000, .i1⟩
  | 120 => ⟨S50000x128, .f32⟩
  | 121 => ⟨S50000x128, .i1⟩
  | 122 => ⟨S_, .f32⟩
  | 123 => ⟨S50000x128, .f32⟩
  | 124 => ⟨S50000x128, .f32⟩
  | 125 => ⟨S50000x128, .f32⟩
  | 126 => ⟨S50000x1, .i32⟩
  | 127 => ⟨S50000, .i32⟩
  | _ => ⟨S50000x128, .f32⟩

abbrev hbmTy0_8 (i : Nat) : BufTy := match i % 128 with
  | 0 => ⟨S_, .i32⟩
  | 1 => ⟨S50000, .i32⟩
  | 2 => ⟨S50000, .i1⟩
  | 3 => ⟨S_, .i32⟩
  | 4 => ⟨S50000, .i32⟩
  | 5 => ⟨S50000, .i32⟩
  | 6 => ⟨S50000, .i32⟩
  | 7 => ⟨S50000x1, .i32⟩
  | 8 => ⟨S1, .i32⟩
  | 9 => ⟨S_, .i32⟩
  | 10 => ⟨S50000x1, .i32⟩
  | 11 => ⟨S50000x1, .i1⟩
  | 12 => ⟨S1x1, .i32⟩
  | 13 => ⟨S50000x1, .i32⟩
  | 14 => ⟨S50000x1, .i1⟩
  | 15 => ⟨S50000x1, .i1⟩
  | 16 => ⟨S_, .i1⟩
  | 17 => ⟨S50000, .i1⟩
  | 18 => ⟨S50000x128, .f32⟩
  | 19 => ⟨S50000x128, .i1⟩
  | 20 => ⟨S_, .f32⟩
  | 21 => ⟨S50000x128, .f32⟩
  | 22 => ⟨S50000x128, .f32⟩
  | 23 => ⟨S50000x128, .f32⟩
  | 24 => ⟨S50000x1, .i32⟩
  | 25 => ⟨S50000, .i32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S1, .i32⟩
  | 35 => ⟨S_, .i32⟩
  | 36 => ⟨S50000x1, .i32⟩
  | 37 => ⟨S50000x1, .i1⟩
  | 38 => ⟨S1x1, .i32⟩
  | 39 => ⟨S50000x1, .i32⟩
  | 40 => ⟨S50000x1, .i1⟩
  | 41 => ⟨S50000x1, .i1⟩
  | 42 => ⟨S_, .i1⟩
  | 43 => ⟨S50000, .i1⟩
  | 44 => ⟨S50000x128, .f32⟩
  | 45 => ⟨S50000x128, .i1⟩
  | 46 => ⟨S_, .f32⟩
  | 47 => ⟨S50000x128, .f32⟩
  | 48 => ⟨S50000x128, .f32⟩
  | 49 => ⟨S50000x128, .f32⟩
  | 50 => ⟨S50000x1, .i32⟩
  | 51 => ⟨S50000, .i32⟩
  | 52 => ⟨S_, .i32⟩
  | 53 => ⟨S50000, .i32⟩
  | 54 => ⟨S50000, .i1⟩
  | 55 => ⟨S_, .i32⟩
  | 56 => ⟨S50000, .i32⟩
  | 57 => ⟨S50000, .i32⟩
  | 58 => ⟨S50000, .i32⟩
  | 59 => ⟨S50000x1, .i32⟩
  | 60 => ⟨S1, .i32⟩
  | 61 => ⟨S_, .i32⟩
  | 62 => ⟨S50000x1, .i32⟩
  | 63 => ⟨S50000x1, .i1⟩
  | 64 => ⟨S1x1, .i32⟩
  | 65 => ⟨S50000x1, .i32⟩
  | 66 => ⟨S50000x1, .i1⟩
  | 67 => ⟨S50000x1, .i1⟩
  | 68 => ⟨S_, .i1⟩
  | 69 => ⟨S50000, .i1⟩
  | 70 => ⟨S50000x128, .f32⟩
  | 71 => ⟨S50000x128, .i1⟩
  | 72 => ⟨S_, .f32⟩
  | 73 => ⟨S50000x128, .f32⟩
  | 74 => ⟨S50000x128, .f32⟩
  | 75 => ⟨S50000x128, .f32⟩
  | 76 => ⟨S50000x1, .i32⟩
  | 77 => ⟨S50000, .i32⟩
  | 78 => ⟨S_, .i32⟩
  | 79 => ⟨S50000, .i32⟩
  | 80 => ⟨S50000, .i1⟩
  | 81 => ⟨S_, .i32⟩
  | 82 => ⟨S50000, .i32⟩
  | 83 => ⟨S50000, .i32⟩
  | 84 => ⟨S50000, .i32⟩
  | 85 => ⟨S50000x1, .i32⟩
  | 86 => ⟨S1, .i32⟩
  | 87 => ⟨S_, .i32⟩
  | 88 => ⟨S50000x1, .i32⟩
  | 89 => ⟨S50000x1, .i1⟩
  | 90 => ⟨S1x1, .i32⟩
  | 91 => ⟨S50000x1, .i32⟩
  | 92 => ⟨S50000x1, .i1⟩
  | 93 => ⟨S50000x1, .i1⟩
  | 94 => ⟨S_, .i1⟩
  | 95 => ⟨S50000, .i1⟩
  | 96 => ⟨S50000x128, .f32⟩
  | 97 => ⟨S50000x128, .i1⟩
  | 98 => ⟨S_, .f32⟩
  | 99 => ⟨S50000x128, .f32⟩
  | 100 => ⟨S50000x128, .f32⟩
  | 101 => ⟨S50000x128, .f32⟩
  | 102 => ⟨S50000x1, .i32⟩
  | 103 => ⟨S50000, .i32⟩
  | 104 => ⟨S_, .i32⟩
  | 105 => ⟨S50000, .i32⟩
  | 106 => ⟨S50000, .i1⟩
  | 107 => ⟨S_, .i32⟩
  | 108 => ⟨S50000, .i32⟩
  | 109 => ⟨S50000, .i32⟩
  | 110 => ⟨S50000, .i32⟩
  | 111 => ⟨S50000x1, .i32⟩
  | 112 => ⟨S1, .i32⟩
  | 113 => ⟨S_, .i32⟩
  | 114 => ⟨S50000x1, .i32⟩
  | 115 => ⟨S50000x1, .i1⟩
  | 116 => ⟨S1x1, .i32⟩
  | 117 => ⟨S50000x1, .i32⟩
  | 118 => ⟨S50000x1, .i1⟩
  | 119 => ⟨S50000x1, .i1⟩
  | 120 => ⟨S_, .i1⟩
  | 121 => ⟨S50000, .i1⟩
  | 122 => ⟨S50000x128, .f32⟩
  | 123 => ⟨S50000x128, .i1⟩
  | 124 => ⟨S_, .f32⟩
  | 125 => ⟨S50000x128, .f32⟩
  | 126 => ⟨S50000x128, .f32⟩
  | 127 => ⟨S50000x128, .f32⟩
  | _ => ⟨S50000x128, .f32⟩

abbrev hbmTy0_9 (i : Nat) : BufTy := match i % 128 with
  | 0 => ⟨S50000x1, .i32⟩
  | 1 => ⟨S50000, .i32⟩
  | 2 => ⟨S_, .i32⟩
  | 3 => ⟨S50000, .i32⟩
  | 4 => ⟨S50000, .i1⟩
  | 5 => ⟨S_, .i32⟩
  | 6 => ⟨S50000, .i32⟩
  | 7 => ⟨S50000, .i32⟩
  | 8 => ⟨S50000, .i32⟩
  | 9 => ⟨S50000x1, .i32⟩
  | 10 => ⟨S1, .i32⟩
  | 11 => ⟨S_, .i32⟩
  | 12 => ⟨S50000x1, .i32⟩
  | 13 => ⟨S50000x1, .i1⟩
  | 14 => ⟨S1x1, .i32⟩
  | 15 => ⟨S50000x1, .i32⟩
  | 16 => ⟨S50000x1, .i1⟩
  | 17 => ⟨S50000x1, .i1⟩
  | 18 => ⟨S_, .i1⟩
  | 19 => ⟨S50000, .i1⟩
  | 20 => ⟨S50000x128, .f32⟩
  | 21 => ⟨S50000x128, .i1⟩
  | 22 => ⟨S_, .f32⟩
  | 23 => ⟨S50000x128, .f32⟩
  | 24 => ⟨S50000x128, .f32⟩
  | 25 => ⟨S50000x128, .f32⟩
  | 26 => ⟨S50000x1, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S1, .i32⟩
  | 37 => ⟨S_, .i32⟩
  | 38 => ⟨S50000x1, .i32⟩
  | 39 => ⟨S50000x1, .i1⟩
  | 40 => ⟨S1x1, .i32⟩
  | 41 => ⟨S50000x1, .i32⟩
  | 42 => ⟨S50000x1, .i1⟩
  | 43 => ⟨S50000x1, .i1⟩
  | 44 => ⟨S_, .i1⟩
  | 45 => ⟨S50000, .i1⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S50000x128, .f32⟩
  | 52 => ⟨S50000x1, .i32⟩
  | 53 => ⟨S50000, .i32⟩
  | 54 => ⟨S_, .i32⟩
  | 55 => ⟨S50000, .i32⟩
  | 56 => ⟨S50000, .i1⟩
  | 57 => ⟨S_, .i32⟩
  | 58 => ⟨S50000, .i32⟩
  | 59 => ⟨S50000, .i32⟩
  | 60 => ⟨S50000, .i32⟩
  | 61 => ⟨S50000x1, .i32⟩
  | 62 => ⟨S1, .i32⟩
  | 63 => ⟨S_, .i32⟩
  | 64 => ⟨S50000x1, .i32⟩
  | 65 => ⟨S50000x1, .i1⟩
  | 66 => ⟨S1x1, .i32⟩
  | 67 => ⟨S50000x1, .i32⟩
  | 68 => ⟨S50000x1, .i1⟩
  | 69 => ⟨S50000x1, .i1⟩
  | 70 => ⟨S_, .i1⟩
  | 71 => ⟨S50000, .i1⟩
  | 72 => ⟨S50000x128, .f32⟩
  | 73 => ⟨S50000x128, .i1⟩
  | 74 => ⟨S_, .f32⟩
  | 75 => ⟨S50000x128, .f32⟩
  | 76 => ⟨S50000x128, .f32⟩
  | 77 => ⟨S50000x128, .f32⟩
  | 78 => ⟨S50000x1, .i32⟩
  | 79 => ⟨S50000, .i32⟩
  | 80 => ⟨S_, .i32⟩
  | 81 => ⟨S50000, .i32⟩
  | 82 => ⟨S50000, .i1⟩
  | 83 => ⟨S_, .i32⟩
  | 84 => ⟨S50000, .i32⟩
  | 85 => ⟨S50000, .i32⟩
  | 86 => ⟨S50000, .i32⟩
  | 87 => ⟨S50000x1, .i32⟩
  | 88 => ⟨S1, .i32⟩
  | 89 => ⟨S_, .i32⟩
  | 90 => ⟨S50000x1, .i32⟩
  | 91 => ⟨S50000x1, .i1⟩
  | 92 => ⟨S1x1, .i32⟩
  | 93 => ⟨S50000x1, .i32⟩
  | 94 => ⟨S50000x1, .i1⟩
  | 95 => ⟨S50000x1, .i1⟩
  | 96 => ⟨S_, .i1⟩
  | 97 => ⟨S50000, .i1⟩
  | 98 => ⟨S50000x128, .f32⟩
  | 99 => ⟨S50000x128, .i1⟩
  | 100 => ⟨S_, .f32⟩
  | 101 => ⟨S50000x128, .f32⟩
  | 102 => ⟨S50000x128, .f32⟩
  | 103 => ⟨S50000x128, .f32⟩
  | 104 => ⟨S50000x1, .i32⟩
  | 105 => ⟨S50000, .i32⟩
  | 106 => ⟨S_, .i32⟩
  | 107 => ⟨S50000, .i32⟩
  | 108 => ⟨S50000, .i1⟩
  | 109 => ⟨S_, .i32⟩
  | 110 => ⟨S50000, .i32⟩
  | 111 => ⟨S50000, .i32⟩
  | 112 => ⟨S50000, .i32⟩
  | 113 => ⟨S50000x1, .i32⟩
  | 114 => ⟨S1, .i32⟩
  | 115 => ⟨S_, .i32⟩
  | 116 => ⟨S50000x1, .i32⟩
  | 117 => ⟨S50000x1, .i1⟩
  | 118 => ⟨S1x1, .i32⟩
  | 119 => ⟨S50000x1, .i32⟩
  | 120 => ⟨S50000x1, .i1⟩
  | 121 => ⟨S50000x1, .i1⟩
  | 122 => ⟨S_, .i1⟩
  | 123 => ⟨S50000, .i1⟩
  | 124 => ⟨S50000x128, .f32⟩
  | 125 => ⟨S50000x128, .i1⟩
  | 126 => ⟨S_, .f32⟩
  | 127 => ⟨S50000x128, .f32⟩
  | _ => ⟨S50000x128, .f32⟩

abbrev hbmTy0_10 (i : Nat) : BufTy := match i % 128 with
  | 0 => ⟨S50000x128, .f32⟩
  | 1 => ⟨S50000x128, .f32⟩
  | 2 => ⟨S50000x1, .i32⟩
  | 3 => ⟨S50000, .i32⟩
  | 4 => ⟨S_, .i32⟩
  | 5 => ⟨S50000, .i32⟩
  | 6 => ⟨S50000, .i1⟩
  | 7 => ⟨S_, .i32⟩
  | 8 => ⟨S50000, .i32⟩
  | 9 => ⟨S50000, .i32⟩
  | 10 => ⟨S50000, .i32⟩
  | 11 => ⟨S50000x1, .i32⟩
  | 12 => ⟨S1, .i32⟩
  | 13 => ⟨S_, .i32⟩
  | 14 => ⟨S50000x1, .i32⟩
  | 15 => ⟨S50000x1, .i1⟩
  | 16 => ⟨S1x1, .i32⟩
  | 17 => ⟨S50000x1, .i32⟩
  | 18 => ⟨S50000x1, .i1⟩
  | 19 => ⟨S50000x1, .i1⟩
  | 20 => ⟨S_, .i1⟩
  | 21 => ⟨S50000, .i1⟩
  | 22 => ⟨S50000x128, .f32⟩
  | 23 => ⟨S50000x128, .i1⟩
  | 24 => ⟨S_, .f32⟩
  | 25 => ⟨S50000x128, .f32⟩
  | 26 => ⟨S50000x128, .f32⟩
  | 27 => ⟨S50000x128, .f32⟩
  | 28 => ⟨S50000x1, .i32⟩
  | 29 => ⟨S50000, .i32⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S1, .i32⟩
  | 39 => ⟨S_, .i32⟩
  | 40 => ⟨S50000x1, .i32⟩
  | 41 => ⟨S50000x1, .i1⟩
  | 42 => ⟨S1x1, .i32⟩
  | 43 => ⟨S50000x1, .i32⟩
  | 44 => ⟨S50000x1, .i1⟩
  | 45 => ⟨S50000x1, .i1⟩
  | 46 => ⟨S_, .i1⟩
  | 47 => ⟨S50000, .i1⟩
  | 48 => ⟨S50000x128, .f32⟩
  | 49 => ⟨S50000x128, .i1⟩
  | 50 => ⟨S_, .f32⟩
  | 51 => ⟨S50000x128, .f32⟩
  | 52 => ⟨S50000x128, .f32⟩
  | 53 => ⟨S50000x128, .f32⟩
  | 54 => ⟨S50000x1, .i32⟩
  | 55 => ⟨S50000, .i32⟩
  | 56 => ⟨S_, .i32⟩
  | 57 => ⟨S50000, .i32⟩
  | 58 => ⟨S50000, .i1⟩
  | 59 => ⟨S_, .i32⟩
  | 60 => ⟨S50000, .i32⟩
  | 61 => ⟨S50000, .i32⟩
  | 62 => ⟨S50000, .i32⟩
  | 63 => ⟨S50000x1, .i32⟩
  | 64 => ⟨S1, .i32⟩
  | 65 => ⟨S_, .i32⟩
  | 66 => ⟨S50000x1, .i32⟩
  | 67 => ⟨S50000x1, .i1⟩
  | 68 => ⟨S1x1, .i32⟩
  | 69 => ⟨S50000x1, .i32⟩
  | 70 => ⟨S50000x1, .i1⟩
  | 71 => ⟨S50000x1, .i1⟩
  | 72 => ⟨S_, .i1⟩
  | 73 => ⟨S50000, .i1⟩
  | 74 => ⟨S50000x128, .f32⟩
  | 75 => ⟨S50000x128, .i1⟩
  | 76 => ⟨S_, .f32⟩
  | 77 => ⟨S50000x128, .f32⟩
  | 78 => ⟨S50000x128, .f32⟩
  | 79 => ⟨S50000x128, .f32⟩
  | 80 => ⟨S50000x1, .i32⟩
  | 81 => ⟨S50000, .i32⟩
  | 82 => ⟨S_, .i32⟩
  | 83 => ⟨S50000, .i32⟩
  | 84 => ⟨S50000, .i1⟩
  | 85 => ⟨S_, .i32⟩
  | 86 => ⟨S50000, .i32⟩
  | 87 => ⟨S50000, .i32⟩
  | 88 => ⟨S50000, .i32⟩
  | 89 => ⟨S50000x1, .i32⟩
  | 90 => ⟨S1, .i32⟩
  | 91 => ⟨S_, .i32⟩
  | 92 => ⟨S50000x1, .i32⟩
  | 93 => ⟨S50000x1, .i1⟩
  | 94 => ⟨S1x1, .i32⟩
  | 95 => ⟨S50000x1, .i32⟩
  | 96 => ⟨S50000x1, .i1⟩
  | 97 => ⟨S50000x1, .i1⟩
  | 98 => ⟨S_, .i1⟩
  | 99 => ⟨S50000, .i1⟩
  | 100 => ⟨S50000x128, .f32⟩
  | 101 => ⟨S50000x128, .i1⟩
  | 102 => ⟨S_, .f32⟩
  | 103 => ⟨S50000x128, .f32⟩
  | 104 => ⟨S50000x128, .f32⟩
  | 105 => ⟨S50000x128, .f32⟩
  | 106 => ⟨S50000x1, .i32⟩
  | 107 => ⟨S50000, .i32⟩
  | 108 => ⟨S_, .i32⟩
  | 109 => ⟨S50000, .i32⟩
  | 110 => ⟨S50000, .i1⟩
  | 111 => ⟨S_, .i32⟩
  | 112 => ⟨S50000, .i32⟩
  | 113 => ⟨S50000, .i32⟩
  | 114 => ⟨S50000, .i32⟩
  | 115 => ⟨S50000x1, .i32⟩
  | 116 => ⟨S1, .i32⟩
  | 117 => ⟨S_, .i32⟩
  | 118 => ⟨S50000x1, .i32⟩
  | 119 => ⟨S50000x1, .i1⟩
  | 120 => ⟨S1x1, .i32⟩
  | 121 => ⟨S50000x1, .i32⟩
  | 122 => ⟨S50000x1, .i1⟩
  | 123 => ⟨S50000x1, .i1⟩
  | 124 => ⟨S_, .i1⟩
  | 125 => ⟨S50000, .i1⟩
  | 126 => ⟨S50000x128, .f32⟩
  | 127 => ⟨S50000x128, .i1⟩
  | _ => ⟨S50000x128, .f32⟩

abbrev hbmTy0_11 (i : Nat) : BufTy := match i % 128 with
  | 0 => ⟨S_, .f32⟩
  | 1 => ⟨S50000x128, .f32⟩
  | 2 => ⟨S50000x128, .f32⟩
  | 3 => ⟨S50000x128, .f32⟩
  | 4 => ⟨S50000x1, .i32⟩
  | 5 => ⟨S50000, .i32⟩
  | 6 => ⟨S_, .i32⟩
  | 7 => ⟨S50000, .i32⟩
  | 8 => ⟨S50000, .i1⟩
  | 9 => ⟨S_, .i32⟩
  | 10 => ⟨S50000, .i32⟩
  | 11 => ⟨S50000, .i32⟩
  | 12 => ⟨S50000, .i32⟩
  | 13 => ⟨S50000x1, .i32⟩
  | 14 => ⟨S1, .i32⟩
  | 15 => ⟨S_, .i32⟩
  | 16 => ⟨S50000x1, .i32⟩
  | 17 => ⟨S50000x1, .i1⟩
  | 18 => ⟨S1x1, .i32⟩
  | 19 => ⟨S50000x1, .i32⟩
  | 20 => ⟨S50000x1, .i1⟩
  | 21 => ⟨S50000x1, .i1⟩
  | 22 => ⟨S_, .i1⟩
  | 23 => ⟨S50000, .i1⟩
  | 24 => ⟨S50000x128, .f32⟩
  | 25 => ⟨S50000x128, .i1⟩
  | 26 => ⟨S_, .f32⟩
  | 27 => ⟨S50000x128, .f32⟩
  | 28 => ⟨S50000x128, .f32⟩
  | 29 => ⟨S50000x128, .f32⟩
  | 30 => ⟨S50000x1, .i32⟩
  | 31 => ⟨S50000, .i32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S1, .i32⟩
  | 41 => ⟨S_, .i32⟩
  | 42 => ⟨S50000x1, .i32⟩
  | 43 => ⟨S50000x1, .i1⟩
  | 44 => ⟨S1x1, .i32⟩
  | 45 => ⟨S50000x1, .i32⟩
  | 46 => ⟨S50000x1, .i1⟩
  | 47 => ⟨S50000x1, .i1⟩
  | 48 => ⟨S_, .i1⟩
  | 49 => ⟨S50000, .i1⟩
  | 50 => ⟨S50000x128, .f32⟩
  | 51 => ⟨S50000x128, .i1⟩
  | 52 => ⟨S_, .f32⟩
  | 53 => ⟨S50000x128, .f32⟩
  | 54 => ⟨S50000x128, .f32⟩
  | 55 => ⟨S50000x128, .f32⟩
  | 56 => ⟨S50000x1, .i32⟩
  | 57 => ⟨S50000, .i32⟩
  | 58 => ⟨S_, .i32⟩
  | 59 => ⟨S50000, .i32⟩
  | 60 => ⟨S50000, .i1⟩
  | 61 => ⟨S_, .i32⟩
  | 62 => ⟨S50000, .i32⟩
  | 63 => ⟨S50000, .i32⟩
  | 64 => ⟨S50000, .i32⟩
  | 65 => ⟨S50000x1, .i32⟩
  | 66 => ⟨S1, .i32⟩
  | 67 => ⟨S_, .i32⟩
  | 68 => ⟨S50000x1, .i32⟩
  | 69 => ⟨S50000x1, .i1⟩
  | 70 => ⟨S1x1, .i32⟩
  | 71 => ⟨S50000x1, .i32⟩
  | 72 => ⟨S50000x1, .i1⟩
  | 73 => ⟨S50000x1, .i1⟩
  | 74 => ⟨S_, .i1⟩
  | 75 => ⟨S50000, .i1⟩
  | 76 => ⟨S50000x128, .f32⟩
  | 77 => ⟨S50000x128, .i1⟩
  | 78 => ⟨S_, .f32⟩
  | 79 => ⟨S50000x128, .f32⟩
  | 80 => ⟨S50000x128, .f32⟩
  | 81 => ⟨S50000x128, .f32⟩
  | 82 => ⟨S50000x1, .i32⟩
  | 83 => ⟨S50000, .i32⟩
  | 84 => ⟨S_, .i32⟩
  | 85 => ⟨S50000, .i32⟩
  | 86 => ⟨S50000, .i1⟩
  | 87 => ⟨S_, .i32⟩
  | 88 => ⟨S50000, .i32⟩
  | 89 => ⟨S50000, .i32⟩
  | 90 => ⟨S50000, .i32⟩
  | 91 => ⟨S50000x1, .i32⟩
  | 92 => ⟨S1, .i32⟩
  | 93 => ⟨S_, .i32⟩
  | 94 => ⟨S50000x1, .i32⟩
  | 95 => ⟨S50000x1, .i1⟩
  | 96 => ⟨S1x1, .i32⟩
  | 97 => ⟨S50000x1, .i32⟩
  | 98 => ⟨S50000x1, .i1⟩
  | 99 => ⟨S50000x1, .i1⟩
  | 100 => ⟨S_, .i1⟩
  | 101 => ⟨S50000, .i1⟩
  | 102 => ⟨S50000x128, .f32⟩
  | 103 => ⟨S50000x128, .i1⟩
  | 104 => ⟨S_, .f32⟩
  | 105 => ⟨S50000x128, .f32⟩
  | 106 => ⟨S50000x128, .f32⟩
  | 107 => ⟨S50000x128, .f32⟩
  | 108 => ⟨S50000x1, .i32⟩
  | 109 => ⟨S50000, .i32⟩
  | 110 => ⟨S_, .i32⟩
  | 111 => ⟨S50000, .i32⟩
  | 112 => ⟨S50000, .i1⟩
  | 113 => ⟨S_, .i32⟩
  | 114 => ⟨S50000, .i32⟩
  | 115 => ⟨S50000, .i32⟩
  | 116 => ⟨S50000, .i32⟩
  | 117 => ⟨S50000x1, .i32⟩
  | 118 => ⟨S1, .i32⟩
  | 119 => ⟨S_, .i32⟩
  | 120 => ⟨S50000x1, .i32⟩
  | 121 => ⟨S50000x1, .i1⟩
  | 122 => ⟨S1x1, .i32⟩
  | 123 => ⟨S50000x1, .i32⟩
  | 124 => ⟨S50000x1, .i1⟩
  | 125 => ⟨S50000x1, .i1⟩
  | 126 => ⟨S_, .i1⟩
  | 127 => ⟨S50000, .i1⟩
  | _ => ⟨S50000x128, .f32⟩

abbrev hbmTy0_12 (i : Nat) : BufTy := match i % 128 with
  | 0 => ⟨S50000x128, .f32⟩
  | 1 => ⟨S50000x128, .i1⟩
  | 2 => ⟨S_, .f32⟩
  | 3 => ⟨S50000x128, .f32⟩
  | 4 => ⟨S50000x128, .f32⟩
  | 5 => ⟨S50000x128, .f32⟩
  | 6 => ⟨S50000x1, .i32⟩
  | 7 => ⟨S50000, .i32⟩
  | 8 => ⟨S_, .i32⟩
  | 9 => ⟨S50000, .i32⟩
  | 10 => ⟨S50000, .i1⟩
  | 11 => ⟨S_, .i32⟩
  | 12 => ⟨S50000, .i32⟩
  | 13 => ⟨S50000, .i32⟩
  | 14 => ⟨S50000, .i32⟩
  | 15 => ⟨S50000x1, .i32⟩
  | 16 => ⟨S1, .i32⟩
  | 17 => ⟨S_, .i32⟩
  | 18 => ⟨S50000x1, .i32⟩
  | 19 => ⟨S50000x1, .i1⟩
  | 20 => ⟨S1x1, .i32⟩
  | 21 => ⟨S50000x1, .i32⟩
  | 22 => ⟨S50000x1, .i1⟩
  | 23 => ⟨S50000x1, .i1⟩
  | 24 => ⟨S_, .i1⟩
  | 25 => ⟨S50000, .i1⟩
  | 26 => ⟨S50000x128, .f32⟩
  | 27 => ⟨S50000x128, .i1⟩
  | 28 => ⟨S_, .f32⟩
  | 29 => ⟨S50000x128, .f32⟩
  | 30 => ⟨S50000x128, .f32⟩
  | 31 => ⟨S50000x128, .f32⟩
  | 32 => ⟨S50000x1, .i32⟩
  | 33 => ⟨S50000, .i32⟩
  | 34 => ⟨S_, .i32⟩
  | 35 => ⟨S50000, .i32⟩
  | 36 => ⟨S50000, .i1⟩
  | 37 => ⟨S_, .i32⟩
  | 38 => ⟨S50000, .i32⟩
  | 39 => ⟨S50000, .i32⟩
  | 40 => ⟨S50000, .i32⟩
  | 41 => ⟨S50000x1, .i32⟩
  | 42 => ⟨S1, .i32⟩
  | 43 => ⟨S_, .i32⟩
  | 44 => ⟨S50000x1, .i32⟩
  | 45 => ⟨S50000x1, .i1⟩
  | 46 => ⟨S1x1, .i32⟩
  | 47 => ⟨S50000x1, .i32⟩
  | 48 => ⟨S50000x1, .i1⟩
  | 49 => ⟨S50000x1, .i1⟩
  | 50 => ⟨S_, .i1⟩
  | 51 => ⟨S50000, .i1⟩
  | 52 => ⟨S50000x128, .f32⟩
  | 53 => ⟨S50000x128, .i1⟩
  | 54 => ⟨S_, .f32⟩
  | 55 => ⟨S50000x128, .f32⟩
  | 56 => ⟨S50000x128, .f32⟩
  | 57 => ⟨S50000x128, .f32⟩
  | 58 => ⟨S50000x1, .i32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S1, .i32⟩
  | 69 => ⟨S_, .i32⟩
  | 70 => ⟨S50000x1, .i32⟩
  | 71 => ⟨S50000x1, .i1⟩
  | 72 => ⟨S1x1, .i32⟩
  | 73 => ⟨S50000x1, .i32⟩
  | 74 => ⟨S50000x1, .i1⟩
  | 75 => ⟨S50000x1, .i1⟩
  | 76 => ⟨S_, .i1⟩
  | 77 => ⟨S50000, .i1⟩
  | 78 => ⟨S50000x128, .f32⟩
  | 79 => ⟨S50000x128, .i1⟩
  | 80 => ⟨S_, .f32⟩
  | 81 => ⟨S50000x128, .f32⟩
  | 82 => ⟨S50000x128, .f32⟩
  | 83 => ⟨S50000x128, .f32⟩
  | 84 => ⟨S50000x1, .i32⟩
  | 85 => ⟨S50000, .i32⟩
  | 86 => ⟨S_, .i32⟩
  | 87 => ⟨S50000, .i32⟩
  | 88 => ⟨S50000, .i1⟩
  | 89 => ⟨S_, .i32⟩
  | 90 => ⟨S50000, .i32⟩
  | 91 => ⟨S50000, .i32⟩
  | 92 => ⟨S50000, .i32⟩
  | 93 => ⟨S50000x1, .i32⟩
  | 94 => ⟨S1, .i32⟩
  | 95 => ⟨S_, .i32⟩
  | 96 => ⟨S50000x1, .i32⟩
  | 97 => ⟨S50000x1, .i1⟩
  | 98 => ⟨S1x1, .i32⟩
  | 99 => ⟨S50000x1, .i32⟩
  | 100 => ⟨S50000x1, .i1⟩
  | 101 => ⟨S50000x1, .i1⟩
  | 102 => ⟨S_, .i1⟩
  | 103 => ⟨S50000, .i1⟩
  | 104 => ⟨S50000x128, .f32⟩
  | 105 => ⟨S50000x128, .i1⟩
  | 106 => ⟨S_, .f32⟩
  | 107 => ⟨S50000x128, .f32⟩
  | 108 => ⟨S50000x128, .f32⟩
  | 109 => ⟨S50000x128, .f32⟩
  | 110 => ⟨S50000x1, .i32⟩
  | 111 => ⟨S50000, .i32⟩
  | 112 => ⟨S_, .i32⟩
  | 113 => ⟨S50000, .i32⟩
  | 114 => ⟨S50000, .i1⟩
  | 115 => ⟨S_, .i32⟩
  | 116 => ⟨S50000, .i32⟩
  | 117 => ⟨S50000, .i32⟩
  | 118 => ⟨S50000, .i32⟩
  | 119 => ⟨S50000x1, .i32⟩
  | 120 => ⟨S1, .i32⟩
  | 121 => ⟨S_, .i32⟩
  | 122 => ⟨S50000x1, .i32⟩
  | 123 => ⟨S50000x1, .i1⟩
  | 124 => ⟨S1x1, .i32⟩
  | 125 => ⟨S50000x1, .i32⟩
  | 126 => ⟨S50000x1, .i1⟩
  | 127 => ⟨S50000x1, .i1⟩
  | _ => ⟨S50000x128, .f32⟩

abbrev hbmTy0_13 (i : Nat) : BufTy := match i % 128 with
  | 0 => ⟨S_, .i1⟩
  | 1 => ⟨S50000, .i1⟩
  | 2 => ⟨S50000x128, .f32⟩
  | 3 => ⟨S50000x128, .i1⟩
  | 4 => ⟨S_, .f32⟩
  | 5 => ⟨S50000x128, .f32⟩
  | 6 => ⟨S50000x128, .f32⟩
  | 7 => ⟨S50000x128, .f32⟩
  | 8 => ⟨S50000x1, .i32⟩
  | 9 => ⟨S50000, .i32⟩
  | 10 => ⟨S_, .i32⟩
  | 11 => ⟨S50000, .i32⟩
  | 12 => ⟨S50000, .i1⟩
  | 13 => ⟨S_, .i32⟩
  | 14 => ⟨S50000, .i32⟩
  | 15 => ⟨S50000, .i32⟩
  | 16 => ⟨S50000, .i32⟩
  | 17 => ⟨S50000x1, .i32⟩
  | 18 => ⟨S1, .i32⟩
  | 19 => ⟨S_, .i32⟩
  | 20 => ⟨S50000x1, .i32⟩
  | 21 => ⟨S50000x1, .i1⟩
  | 22 => ⟨S1x1, .i32⟩
  | 23 => ⟨S50000x1, .i32⟩
  | 24 => ⟨S50000x1, .i1⟩
  | 25 => ⟨S50000x1, .i1⟩
  | 26 => ⟨S_, .i1⟩
  | 27 => ⟨S50000, .i1⟩
  | 28 => ⟨S50000x128, .f32⟩
  | 29 => ⟨S50000x128, .i1⟩
  | 30 => ⟨S_, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S1, .i32⟩
  | 46 => ⟨S_, .i32⟩
  | 47 => ⟨S50000x1, .i32⟩
  | 48 => ⟨S50000x1, .i1⟩
  | 49 => ⟨S1x1, .i32⟩
  | 50 => ⟨S50000x1, .i32⟩
  | 51 => ⟨S50000x1, .i1⟩
  | 52 => ⟨S50000x1, .i1⟩
  | 53 => ⟨S_, .i1⟩
  | 54 => ⟨S50000, .i1⟩
  | 55 => ⟨S50000x128, .f32⟩
  | 56 => ⟨S50000x128, .i1⟩
  | 57 => ⟨S_, .f32⟩
  | 58 => ⟨S50000x128, .f32⟩
  | 59 => ⟨S50000x128, .f32⟩
  | 60 => ⟨S_, .i32⟩
  | 61 => ⟨S_, .f32⟩
  | 62 => ⟨S256x128, .f32⟩
  | 63 => ⟨S_, .i32⟩
  | 64 => ⟨S_, .f32⟩
  | 65 => ⟨S128, .f32⟩
  | 66 => ⟨S128x128, .f32⟩
  | 67 => ⟨S128x128, .f32⟩
  | 68 => ⟨S50000x128, .f32⟩
  | 69 => ⟨S50000x40, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_v16 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_v14 : Ref sig .tc := ⟨.hbm, 131, rfl⟩
abbrev main_call4_cst : Ref sig .tc := ⟨.hbm, 132, rfl⟩
abbrev main_call4_v15 : Ref sig .tc := ⟨.hbm, 133, rfl⟩
abbrev main_v17 : Ref sig .tc := ⟨.hbm, 134, rfl⟩
abbrev main_v18 : Ref sig .tc := ⟨.hbm, 135, rfl⟩
abbrev main_v19 : Ref sig .tc := ⟨.hbm, 136, rfl⟩
abbrev main_v20 : Ref sig .tc := ⟨.hbm, 137, rfl⟩
abbrev main_call5_c : Ref sig .tc := ⟨.hbm, 138, rfl⟩
abbrev main_call5_v0 : Ref sig .tc := ⟨.hbm, 139, rfl⟩
abbrev main_call5_v1 : Ref sig .tc := ⟨.hbm, 140, rfl⟩
abbrev main_call5_c_0 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_c_1 : Ref sig .tc := ⟨.hbm, 146, rfl⟩
abbrev main_call5_c_2 : Ref sig .tc := ⟨.hbm, 147, rfl⟩
abbrev main_call5_v6 : Ref sig .tc := ⟨.hbm, 148, rfl⟩
abbrev main_call5_v7 : Ref sig .tc := ⟨.hbm, 149, rfl⟩
abbrev main_call5_v8 : Ref sig .tc := ⟨.hbm, 150, rfl⟩
abbrev main_call5_v9 : Ref sig .tc := ⟨.hbm, 151, rfl⟩
abbrev main_call5_v10 : Ref sig .tc := ⟨.hbm, 152, rfl⟩
abbrev main_call5_v11 : Ref sig .tc := ⟨.hbm, 153, rfl⟩
abbrev main_call5_c_3 : Ref sig .tc := ⟨.hbm, 154, rfl⟩
abbrev main_call5_v12 : Ref sig .tc := ⟨.hbm, 155, rfl⟩
abbrev main_call5_v13 : Ref sig .tc := ⟨.hbm, 156, rfl⟩
abbrev main_call5_v14 : Ref sig .tc := ⟨.hbm, 157, rfl⟩
abbrev main_call5_cst : Ref sig .tc := ⟨.hbm, 158, rfl⟩
abbrev main_call5_v15 : Ref sig .tc := ⟨.hbm, 159, rfl⟩
abbrev main_v21 : Ref sig .tc := ⟨.hbm, 160, rfl⟩
abbrev main_v22 : Ref sig .tc := ⟨.hbm, 161, rfl⟩
abbrev main_v23 : Ref sig .tc := ⟨.hbm, 162, rfl⟩
abbrev main_v24 : Ref sig .tc := ⟨.hbm, 163, rfl⟩
abbrev main_call6_c : Ref sig .tc := ⟨.hbm, 164, rfl⟩
abbrev main_call6_v0 : Ref sig .tc := ⟨.hbm, 165, rfl⟩
abbrev main_call6_v1 : Ref sig .tc := ⟨.hbm, 166, rfl⟩
abbrev main_call6_c_0 : Ref sig .tc := ⟨.hbm, 167, rfl⟩
abbrev main_call6_v2 : Ref sig .tc := ⟨.hbm, 168, rfl⟩
abbrev main_call6_v3 : Ref sig .tc := ⟨.hbm, 169, rfl⟩
abbrev main_call6_v4 : Ref sig .tc := ⟨.hbm, 170, rfl⟩
abbrev main_call6_v5 : Ref sig .tc := ⟨.hbm, 171, rfl⟩
abbrev main_call6_c_1 : Ref sig .tc := ⟨.hbm, 172, rfl⟩
abbrev main_call6_c_2 : Ref sig .tc := ⟨.hbm, 173, rfl⟩
abbrev main_call6_v6 : Ref sig .tc := ⟨.hbm, 174, rfl⟩
abbrev main_call6_v7 : Ref sig .tc := ⟨.hbm, 175, rfl⟩
abbrev main_call6_v8 : Ref sig .tc := ⟨.hbm, 176, rfl⟩
abbrev main_call6_v9 : Ref sig .tc := ⟨.hbm, 177, rfl⟩
abbrev main_call6_v10 : Ref sig .tc := ⟨.hbm, 178, rfl⟩
abbrev main_call6_v11 : Ref sig .tc := ⟨.hbm, 179, rfl⟩
abbrev main_call6_c_3 : Ref sig .tc := ⟨.hbm, 180, rfl⟩
abbrev main_call6_v12 : Ref sig .tc := ⟨.hbm, 181, rfl⟩
abbrev main_call6_v13 : Ref sig .tc := ⟨.hbm, 182, rfl⟩
abbrev main_call6_v14 : Ref sig .tc := ⟨.hbm, 183, rfl⟩
abbrev main_call6_cst : Ref sig .tc := ⟨.hbm, 184, rfl⟩
abbrev main_call6_v15 : Ref sig .tc := ⟨.hbm, 185, rfl⟩
abbrev main_v25 : Ref sig .tc := ⟨.hbm, 186, rfl⟩
abbrev main_v26 : Ref sig .tc := ⟨.hbm, 187, rfl⟩
abbrev main_v27 : Ref sig .tc := ⟨.hbm, 188, rfl⟩
abbrev main_v28 : Ref sig .tc := ⟨.hbm, 189, rfl⟩
abbrev main_call7_c : Ref sig .tc := ⟨.hbm, 190, rfl⟩
abbrev main_call7_v0 : Ref sig .tc := ⟨.hbm, 191, rfl⟩
abbrev main_call7_v1 : Ref sig .tc := ⟨.hbm, 192, rfl⟩
abbrev main_call7_c_0 : Ref sig .tc := ⟨.hbm, 193, rfl⟩
abbrev main_call7_v2 : Ref sig .tc := ⟨.hbm, 194, rfl⟩
abbrev main_call7_v3 : Ref sig .tc := ⟨.hbm, 195, rfl⟩
abbrev main_call7_v4 : Ref sig .tc := ⟨.hbm, 196, rfl⟩
abbrev main_call7_v5 : Ref sig .tc := ⟨.hbm, 197, rfl⟩
abbrev main_call7_c_1 : Ref sig .tc := ⟨.hbm, 198, rfl⟩
abbrev main_call7_c_2 : Ref sig .tc := ⟨.hbm, 199, rfl⟩
abbrev main_call7_v6 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_call7_v11 : Ref sig .tc := ⟨.hbm, 205, rfl⟩
abbrev main_call7_c_3 : Ref sig .tc := ⟨.hbm, 206, rfl⟩
abbrev main_call7_v12 : Ref sig .tc := ⟨.hbm, 207, rfl⟩
abbrev main_call7_v13 : Ref sig .tc := ⟨.hbm, 208, rfl⟩
abbrev main_call7_v14 : Ref sig .tc := ⟨.hbm, 209, rfl⟩
abbrev main_call7_cst : Ref sig .tc := ⟨.hbm, 210, rfl⟩
abbrev main_call7_v15 : Ref sig .tc := ⟨.hbm, 211, rfl⟩
abbrev main_v29 : Ref sig .tc := ⟨.hbm, 212, rfl⟩
abbrev main_v30 : Ref sig .tc := ⟨.hbm, 213, rfl⟩
abbrev main_v31 : Ref sig .tc := ⟨.hbm, 214, rfl⟩
abbrev main_v32 : Ref sig .tc := ⟨.hbm, 215, rfl⟩
abbrev main_call8_c : Ref sig .tc := ⟨.hbm, 216, rfl⟩
abbrev main_call8_v0 : Ref sig .tc := ⟨.hbm, 217, rfl⟩
abbrev main_call8_v1 : Ref sig .tc := ⟨.hbm, 218, rfl⟩
abbrev main_call8_c_0 : Ref sig .tc := ⟨.hbm, 219, rfl⟩
abbrev main_call8_v2 : Ref sig .tc := ⟨.hbm, 220, rfl⟩
abbrev main_call8_v3 : Ref sig .tc := ⟨.hbm, 221, rfl⟩
abbrev main_call8_v4 : Ref sig .tc := ⟨.hbm, 222, rfl⟩
abbrev main_call8_v5 : Ref sig .tc := ⟨.hbm, 223, rfl⟩
abbrev main_call8_c_1 : Ref sig .tc := ⟨.hbm, 224, rfl⟩
abbrev main_call8_c_2 : Ref sig .tc := ⟨.hbm, 225, rfl⟩
abbrev main_call8_v6 : Ref sig .tc := ⟨.hbm, 226, rfl⟩
abbrev main_call8_v7 : Ref sig .tc := ⟨.hbm, 227, rfl⟩
abbrev main_call8_v8 : Ref sig .tc := ⟨.hbm, 228, rfl⟩
abbrev main_call8_v9 : Ref sig .tc := ⟨.hbm, 229, rfl⟩
abbrev main_call8_v10 : Ref sig .tc := ⟨.hbm, 230, rfl⟩
abbrev main_call8_v11 : Ref sig .tc := ⟨.hbm, 231, rfl⟩
abbrev main_call8_c_3 : Ref sig .tc := ⟨.hbm, 232, rfl⟩
abbrev main_call8_v12 : Ref sig .tc := ⟨.hbm, 233, rfl⟩
abbrev main_call8_v13 : Ref sig .tc := ⟨.hbm, 234, rfl⟩
abbrev main_call8_v14 : Ref sig .tc := ⟨.hbm, 235, rfl⟩
abbrev main_call8_cst : Ref sig .tc := ⟨.hbm, 236, rfl⟩
abbrev main_call8_v15 : Ref sig .tc := ⟨.hbm, 237, rfl⟩
abbrev main_v33 : Ref sig .tc := ⟨.hbm, 238, rfl⟩
abbrev main_v34 : Ref sig .tc := ⟨.hbm, 239, rfl⟩
abbrev main_v35 : Ref sig .tc := ⟨.hbm, 240, rfl⟩
abbrev main_v36 : Ref sig .tc := ⟨.hbm, 241, rfl⟩
abbrev main_call9_c : Ref sig .tc := ⟨.hbm, 242, rfl⟩
abbrev main_call9_v0 : Ref sig .tc := ⟨.hbm, 243, rfl⟩
abbrev main_call9_v1 : Ref sig .tc := ⟨.hbm, 244, rfl⟩
abbrev main_call9_c_0 : Ref sig .tc := ⟨.hbm, 245, rfl⟩
abbrev main_call9_v2 : Ref sig .tc := ⟨.hbm, 246, rfl⟩
abbrev main_call9_v3 : Ref sig .tc := ⟨.hbm, 247, rfl⟩
abbrev main_call9_v4 : Ref sig .tc := ⟨.hbm, 248, rfl⟩
abbrev main_call9_v5 : Ref sig .tc := ⟨.hbm, 249, rfl⟩
abbrev main_call9_c_1 : Ref sig .tc := ⟨.hbm, 250, rfl⟩
abbrev main_call9_c_2 : Ref sig .tc := ⟨.hbm, 251, rfl⟩
abbrev main_call9_v6 : Ref sig .tc := ⟨.hbm, 252, rfl⟩
abbrev main_call9_v7 : Ref sig .tc := ⟨.hbm, 253, rfl⟩
abbrev main_call9_v8 : Ref sig .tc := ⟨.hbm, 254, rfl⟩
abbrev main_call9_v9 : Ref sig .tc := ⟨.hbm, 255, rfl⟩
abbrev main_call9_v10 : Ref sig .tc := ⟨.hbm, 256, rfl⟩
abbrev main_call9_v11 : Ref sig .tc := ⟨.hbm, 257, rfl⟩
abbrev main_call9_c_3 : Ref sig .tc := ⟨.hbm, 258, rfl⟩
abbrev main_call9_v12 : Ref sig .tc := ⟨.hbm, 259, rfl⟩
abbrev main_call9_v13 : Ref sig .tc := ⟨.hbm, 260, rfl⟩
abbrev main_call9_v14 : Ref sig .tc := ⟨.hbm, 261, rfl⟩
abbrev main_call9_cst : Ref sig .tc := ⟨.hbm, 262, rfl⟩
abbrev main_call9_v15 : Ref sig .tc := ⟨.hbm, 263, rfl⟩
abbrev main_v37 : Ref sig .tc := ⟨.hbm, 264, rfl⟩
abbrev main_v38 : Ref sig .tc := ⟨.hbm, 265, rfl⟩
abbrev main_v39 : Ref sig .tc := ⟨.hbm, 266, rfl⟩
abbrev main_v40 : Ref sig .tc := ⟨.hbm, 267, rfl⟩
abbrev main_call10_c : Ref sig .tc := ⟨.hbm, 268, rfl⟩
abbrev main_call10_v0 : Ref sig .tc := ⟨.hbm, 269, rfl⟩
abbrev main_call10_v1 : Ref sig .tc := ⟨.hbm, 270, rfl⟩
abbrev main_call10_c_0 : Ref sig .tc := ⟨.hbm, 271, rfl⟩
abbrev main_call10_v2 : Ref sig .tc := ⟨.hbm, 272, rfl⟩
abbrev main_call10_v3 : Ref sig .tc := ⟨.hbm, 273, rfl⟩
abbrev main_call10_v4 : Ref sig .tc := ⟨.hbm, 274, rfl⟩
abbrev main_call10_v5 : Ref sig .tc := ⟨.hbm, 275, rfl⟩
abbrev main_call10_c_1 : Ref sig .tc := ⟨.hbm, 276, rfl⟩
abbrev main_call10_c_2 : Ref sig .tc := ⟨.hbm, 277, rfl⟩
abbrev main_call10_v6 : Ref sig .tc := ⟨.hbm, 278, rfl⟩
abbrev main_call10_v7 : Ref sig .tc := ⟨.hbm, 279, rfl⟩
abbrev main_call10_v8 : Ref sig .tc := ⟨.hbm, 280, rfl⟩
abbrev main_call10_v9 : Ref sig .tc := ⟨.hbm, 281, rfl⟩
abbrev main_call10_v10 : Ref sig .tc := ⟨.hbm, 282, rfl⟩
abbrev main_call10_v11 : Ref sig .tc := ⟨.hbm, 283, rfl⟩
abbrev main_call10_c_3 : Ref sig .tc := ⟨.hbm, 284, rfl⟩
abbrev main_call10_v12 : Ref sig .tc := ⟨.hbm, 285, rfl⟩
abbrev main_call10_v13 : Ref sig .tc := ⟨.hbm, 286, rfl⟩
abbrev main_call10_v14 : Ref sig .tc := ⟨.hbm, 287, rfl⟩
abbrev main_call10_cst : Ref sig .tc := ⟨.hbm, 288, rfl⟩
abbrev main_call10_v15 : Ref sig .tc := ⟨.hbm, 289, rfl⟩
abbrev main_v41 : Ref sig .tc := ⟨.hbm, 290, rfl⟩
abbrev main_v42 : Ref sig .tc := ⟨.hbm, 291, rfl⟩
abbrev main_v43 : Ref sig .tc := ⟨.hbm, 292, rfl⟩
abbrev main_v44 : Ref sig .tc := ⟨.hbm, 293, rfl⟩
abbrev main_call11_c : Ref sig .tc := ⟨.hbm, 294, rfl⟩
abbrev main_call11_v0 : Ref sig .tc := ⟨.hbm, 295, rfl⟩
abbrev main_call11_v1 : Ref sig .tc := ⟨.hbm, 296, rfl⟩
abbrev main_call11_c_0 : Ref sig .tc := ⟨.hbm, 297, rfl⟩
abbrev main_call11_v2 : Ref sig .tc := ⟨.hbm, 298, rfl⟩
abbrev main_call11_v3 : Ref sig .tc := ⟨.hbm, 299, rfl⟩
abbrev main_call11_v4 : Ref sig .tc := ⟨.hbm, 300, rfl⟩
abbrev main_call11_v5 : Ref sig .tc := ⟨.hbm, 301, rfl⟩
abbrev main_call11_c_1 : Ref sig .tc := ⟨.hbm, 302, rfl⟩
abbrev main_call11_c_2 : Ref sig .tc := ⟨.hbm, 303, rfl⟩
abbrev main_call11_v6 : Ref sig .tc := ⟨.hbm, 304, rfl⟩
abbrev main_call11_v7 : Ref sig .tc := ⟨.hbm, 305, rfl⟩
abbrev main_call11_v8 : Ref sig .tc := ⟨.hbm, 306, rfl⟩
abbrev main_call11_v9 : Ref sig .tc := ⟨.hbm, 307, rfl⟩
abbrev main_call11_v10 : Ref sig .tc := ⟨.hbm, 308, rfl⟩
abbrev main_call11_v11 : Ref sig .tc := ⟨.hbm, 309, rfl⟩
abbrev main_call11_c_3 : Ref sig .tc := ⟨.hbm, 310, rfl⟩
abbrev main_call11_v12 : Ref sig .tc := ⟨.hbm, 311, rfl⟩
abbrev main_call11_v13 : Ref sig .tc := ⟨.hbm, 312, rfl⟩
abbrev main_call11_v14 : Ref sig .tc := ⟨.hbm, 313, rfl⟩
abbrev main_call11_cst : Ref sig .tc := ⟨.hbm, 314, rfl⟩
abbrev main_call11_v15 : Ref sig .tc := ⟨.hbm, 315, rfl⟩
abbrev main_v45 : Ref sig .tc := ⟨.hbm, 316, rfl⟩
abbrev main_v46 : Ref sig .tc := ⟨.hbm, 317, rfl⟩
abbrev main_v47 : Ref sig .tc := ⟨.hbm, 318, rfl⟩
abbrev main_v48 : Ref sig .tc := ⟨.hbm, 319, rfl⟩
abbrev main_call12_c : Ref sig .tc := ⟨.hbm, 320, rfl⟩
abbrev main_call12_v0 : Ref sig .tc := ⟨.hbm, 321, rfl⟩
abbrev main_call12_v1 : Ref sig .tc := ⟨.hbm, 322, rfl⟩
abbrev main_call12_c_0 : Ref sig .tc := ⟨.hbm, 323, rfl⟩
abbrev main_call12_v2 : Ref sig .tc := ⟨.hbm, 324, rfl⟩
abbrev main_call12_v3 : Ref sig .tc := ⟨.hbm, 325, rfl⟩
abbrev main_call12_v4 : Ref sig .tc := ⟨.hbm, 326, rfl⟩
abbrev main_call12_v5 : Ref sig .tc := ⟨.hbm, 327, rfl⟩
abbrev main_call12_c_1 : Ref sig .tc := ⟨.hbm, 328, rfl⟩
abbrev main_call12_c_2 : Ref sig .tc := ⟨.hbm, 329, rfl⟩
abbrev main_call12_v6 : Ref sig .tc := ⟨.hbm, 330, rfl⟩
abbrev main_call12_v7 : Ref sig .tc := ⟨.hbm, 331, rfl⟩
abbrev main_call12_v8 : Ref sig .tc := ⟨.hbm, 332, rfl⟩
abbrev main_call12_v9 : Ref sig .tc := ⟨.hbm, 333, rfl⟩
abbrev main_call12_v10 : Ref sig .tc := ⟨.hbm, 334, rfl⟩
abbrev main_call12_v11 : Ref sig .tc := ⟨.hbm, 335, rfl⟩
abbrev main_call12_c_3 : Ref sig .tc := ⟨.hbm, 336, rfl⟩
abbrev main_call12_v12 : Ref sig .tc := ⟨.hbm, 337, rfl⟩
abbrev main_call12_v13 : Ref sig .tc := ⟨.hbm, 338, rfl⟩
abbrev main_call12_v14 : Ref sig .tc := ⟨.hbm, 339, rfl⟩
abbrev main_call12_cst : Ref sig .tc := ⟨.hbm, 340, rfl⟩
abbrev main_call12_v15 : Ref sig .tc := ⟨.hbm, 341, rfl⟩
abbrev main_v49 : Ref sig .tc := ⟨.hbm, 342, rfl⟩
abbrev main_v50 : Ref sig .tc := ⟨.hbm, 343, rfl⟩
abbrev main_v51 : Ref sig .tc := ⟨.hbm, 344, rfl⟩
abbrev main_v52 : Ref sig .tc := ⟨.hbm, 345, rfl⟩
abbrev main_call13_c : Ref sig .tc := ⟨.hbm, 346, rfl⟩
abbrev main_call13_v0 : Ref sig .tc := ⟨.hbm, 347, rfl⟩
abbrev main_call13_v1 : Ref sig .tc := ⟨.hbm, 348, rfl⟩
abbrev main_call13_c_0 : Ref sig .tc := ⟨.hbm, 349, rfl⟩
abbrev main_call13_v2 : Ref sig .tc := ⟨.hbm, 350, rfl⟩
abbrev main_call13_v3 : Ref sig .tc := ⟨.hbm, 351, rfl⟩
abbrev main_call13_v4 : Ref sig .tc := ⟨.hbm, 352, rfl⟩
abbrev main_call13_v5 : Ref sig .tc := ⟨.hbm, 353, rfl⟩
abbrev main_call13_c_1 : Ref sig .tc := ⟨.hbm, 354, rfl⟩
abbrev main_call13_c_2 : Ref sig .tc := ⟨.hbm, 355, rfl⟩
abbrev main_call13_v6 : Ref sig .tc := ⟨.hbm, 356, rfl⟩
abbrev main_call13_v7 : Ref sig .tc := ⟨.hbm, 357, rfl⟩
abbrev main_call13_v8 : Ref sig .tc := ⟨.hbm, 358, rfl⟩
abbrev main_call13_v9 : Ref sig .tc := ⟨.hbm, 359, rfl⟩
abbrev main_call13_v10 : Ref sig .tc := ⟨.hbm, 360, rfl⟩
abbrev main_call13_v11 : Ref sig .tc := ⟨.hbm, 361, rfl⟩
abbrev main_call13_c_3 : Ref sig .tc := ⟨.hbm, 362, rfl⟩
abbrev main_call13_v12 : Ref sig .tc := ⟨.hbm, 363, rfl⟩
abbrev main_call13_v13 : Ref sig .tc := ⟨.hbm, 364, rfl⟩
abbrev main_call13_v14 : Ref sig .tc := ⟨.hbm, 365, rfl⟩
abbrev main_call13_cst : Ref sig .tc := ⟨.hbm, 366, rfl⟩
abbrev main_call13_v15 : Ref sig .tc := ⟨.hbm, 367, rfl⟩
abbrev main_v53 : Ref sig .tc := ⟨.hbm, 368, rfl⟩
abbrev main_v54 : Ref sig .tc := ⟨.hbm, 369, rfl⟩
abbrev main_v55 : Ref sig .tc := ⟨.hbm, 370, rfl⟩
abbrev main_v56 : Ref sig .tc := ⟨.hbm, 371, rfl⟩
abbrev main_call14_c : Ref sig .tc := ⟨.hbm, 372, rfl⟩
abbrev main_call14_v0 : Ref sig .tc := ⟨.hbm, 373, rfl⟩
abbrev main_call14_v1 : Ref sig .tc := ⟨.hbm, 374, rfl⟩
abbrev main_call14_c_0 : Ref sig .tc := ⟨.hbm, 375, rfl⟩
abbrev main_call14_v2 : Ref sig .tc := ⟨.hbm, 376, rfl⟩
abbrev main_call14_v3 : Ref sig .tc := ⟨.hbm, 377, rfl⟩
abbrev main_call14_v4 : Ref sig .tc := ⟨.hbm, 378, rfl⟩
abbrev main_call14_v5 : Ref sig .tc := ⟨.hbm, 379, rfl⟩
abbrev main_call14_c_1 : Ref sig .tc := ⟨.hbm, 380, rfl⟩
abbrev main_call14_c_2 : Ref sig .tc := ⟨.hbm, 381, rfl⟩
abbrev main_call14_v6 : Ref sig .tc := ⟨.hbm, 382, rfl⟩
abbrev main_call14_v7 : Ref sig .tc := ⟨.hbm, 383, rfl⟩
abbrev main_call14_v8 : Ref sig .tc := ⟨.hbm, 384, rfl⟩
abbrev main_call14_v9 : Ref sig .tc := ⟨.hbm, 385, rfl⟩
abbrev main_call14_v10 : Ref sig .tc := ⟨.hbm, 386, rfl⟩
abbrev main_call14_v11 : Ref sig .tc := ⟨.hbm, 387, rfl⟩
abbrev main_call14_c_3 : Ref sig .tc := ⟨.hbm, 388, rfl⟩
abbrev main_call14_v12 : Ref sig .tc := ⟨.hbm, 389, rfl⟩
abbrev main_call14_v13 : Ref sig .tc := ⟨.hbm, 390, rfl⟩
abbrev main_call14_v14 : Ref sig .tc := ⟨.hbm, 391, rfl⟩
abbrev main_call14_cst : Ref sig .tc := ⟨.hbm, 392, rfl⟩
abbrev main_call14_v15 : Ref sig .tc := ⟨.hbm, 393, rfl⟩
abbrev main_v57 : Ref sig .tc := ⟨.hbm, 394, rfl⟩
abbrev main_v58 : Ref sig .tc := ⟨.hbm, 395, rfl⟩
abbrev main_v59 : Ref sig .tc := ⟨.hbm, 396, rfl⟩
abbrev main_v60 : Ref sig .tc := ⟨.hbm, 397, rfl⟩
abbrev main_call15_c : Ref sig .tc := ⟨.hbm, 398, rfl⟩
abbrev main_call15_v0 : Ref sig .tc := ⟨.hbm, 399, rfl⟩
abbrev main_call15_v1 : Ref sig .tc := ⟨.hbm, 400, rfl⟩
abbrev main_call15_c_0 : Ref sig .tc := ⟨.hbm, 401, rfl⟩
abbrev main_call15_v2 : Ref sig .tc := ⟨.hbm, 402, rfl⟩
abbrev main_call15_v3 : Ref sig .tc := ⟨.hbm, 403, rfl⟩
abbrev main_call15_v4 : Ref sig .tc := ⟨.hbm, 404, rfl⟩
abbrev main_call15_v5 : Ref sig .tc := ⟨.hbm, 405, rfl⟩
abbrev main_call15_c_1 : Ref sig .tc := ⟨.hbm, 406, rfl⟩
abbrev main_call15_c_2 : Ref sig .tc := ⟨.hbm, 407, rfl⟩
abbrev main_call15_v6 : Ref sig .tc := ⟨.hbm, 408, rfl⟩
abbrev main_call15_v7 : Ref sig .tc := ⟨.hbm, 409, rfl⟩
abbrev main_call15_v8 : Ref sig .tc := ⟨.hbm, 410, rfl⟩
abbrev main_call15_v9 : Ref sig .tc := ⟨.hbm, 411, rfl⟩
abbrev main_call15_v10 : Ref sig .tc := ⟨.hbm, 412, rfl⟩
abbrev main_call15_v11 : Ref sig .tc := ⟨.hbm, 413, rfl⟩
abbrev main_call15_c_3 : Ref sig .tc := ⟨.hbm, 414, rfl⟩
abbrev main_call15_v12 : Ref sig .tc := ⟨.hbm, 415, rfl⟩
abbrev main_call15_v13 : Ref sig .tc := ⟨.hbm, 416, rfl⟩
abbrev main_call15_v14 : Ref sig .tc := ⟨.hbm, 417, rfl⟩
abbrev main_call15_cst : Ref sig .tc := ⟨.hbm, 418, rfl⟩
abbrev main_call15_v15 : Ref sig .tc := ⟨.hbm, 419, rfl⟩
abbrev main_v61 : Ref sig .tc := ⟨.hbm, 420, rfl⟩
abbrev main_v62 : Ref sig .tc := ⟨.hbm, 421, rfl⟩
abbrev main_v63 : Ref sig .tc := ⟨.hbm, 422, rfl⟩
abbrev main_v64 : Ref sig .tc := ⟨.hbm, 423, rfl⟩
abbrev main_call16_c : Ref sig .tc := ⟨.hbm, 424, rfl⟩
abbrev main_call16_v0 : Ref sig .tc := ⟨.hbm, 425, rfl⟩
abbrev main_call16_v1 : Ref sig .tc := ⟨.hbm, 426, rfl⟩
abbrev main_call16_c_0 : Ref sig .tc := ⟨.hbm, 427, rfl⟩
abbrev main_call16_v2 : Ref sig .tc := ⟨.hbm, 428, rfl⟩
abbrev main_call16_v3 : Ref sig .tc := ⟨.hbm, 429, rfl⟩
abbrev main_call16_v4 : Ref sig .tc := ⟨.hbm, 430, rfl⟩
abbrev main_call16_v5 : Ref sig .tc := ⟨.hbm, 431, rfl⟩
abbrev main_call16_c_1 : Ref sig .tc := ⟨.hbm, 432, rfl⟩
abbrev main_call16_c_2 : Ref sig .tc := ⟨.hbm, 433, rfl⟩
abbrev main_call16_v6 : Ref sig .tc := ⟨.hbm, 434, rfl⟩
abbrev main_call16_v7 : Ref sig .tc := ⟨.hbm, 435, rfl⟩
abbrev main_call16_v8 : Ref sig .tc := ⟨.hbm, 436, rfl⟩
abbrev main_call16_v9 : Ref sig .tc := ⟨.hbm, 437, rfl⟩
abbrev main_call16_v10 : Ref sig .tc := ⟨.hbm, 438, rfl⟩
abbrev main_call16_v11 : Ref sig .tc := ⟨.hbm, 439, rfl⟩
abbrev main_call16_c_3 : Ref sig .tc := ⟨.hbm, 440, rfl⟩
abbrev main_call16_v12 : Ref sig .tc := ⟨.hbm, 441, rfl⟩
abbrev main_call16_v13 : Ref sig .tc := ⟨.hbm, 442, rfl⟩
abbrev main_call16_v14 : Ref sig .tc := ⟨.hbm, 443, rfl⟩
abbrev main_call16_cst : Ref sig .tc := ⟨.hbm, 444, rfl⟩
abbrev main_call16_v15 : Ref sig .tc := ⟨.hbm, 445, rfl⟩
abbrev main_v65 : Ref sig .tc := ⟨.hbm, 446, rfl⟩
abbrev main_v66 : Ref sig .tc := ⟨.hbm, 447, rfl⟩
abbrev main_v67 : Ref sig .tc := ⟨.hbm, 448, rfl⟩
abbrev main_v68 : Ref sig .tc := ⟨.hbm, 449, rfl⟩
abbrev main_call17_c : Ref sig .tc := ⟨.hbm, 450, rfl⟩
abbrev main_call17_v0 : Ref sig .tc := ⟨.hbm, 451, rfl⟩
abbrev main_call17_v1 : Ref sig .tc := ⟨.hbm, 452, rfl⟩
abbrev main_call17_c_0 : Ref sig .tc := ⟨.hbm, 453, rfl⟩
abbrev main_call17_v2 : Ref sig .tc := ⟨.hbm, 454, rfl⟩
abbrev main_call17_v3 : Ref sig .tc := ⟨.hbm, 455, rfl⟩
abbrev main_call17_v4 : Ref sig .tc := ⟨.hbm, 456, rfl⟩
abbrev main_call17_v5 : Ref sig .tc := ⟨.hbm, 457, rfl⟩
abbrev main_call17_c_1 : Ref sig .tc := ⟨.hbm, 458, rfl⟩
abbrev main_call17_c_2 : Ref sig .tc := ⟨.hbm, 459, rfl⟩
abbrev main_call17_v6 : Ref sig .tc := ⟨.hbm, 460, rfl⟩
abbrev main_call17_v7 : Ref sig .tc := ⟨.hbm, 461, rfl⟩
abbrev main_call17_v8 : Ref sig .tc := ⟨.hbm, 462, rfl⟩
abbrev main_call17_v9 : Ref sig .tc := ⟨.hbm, 463, rfl⟩
abbrev main_call17_v10 : Ref sig .tc := ⟨.hbm, 464, rfl⟩
abbrev main_call17_v11 : Ref sig .tc := ⟨.hbm, 465, rfl⟩
abbrev main_call17_c_3 : Ref sig .tc := ⟨.hbm, 466, rfl⟩
abbrev main_call17_v12 : Ref sig .tc := ⟨.hbm, 467, rfl⟩
abbrev main_call17_v13 : Ref sig .tc := ⟨.hbm, 468, rfl⟩
abbrev main_call17_v14 : Ref sig .tc := ⟨.hbm, 469, rfl⟩
abbrev main_call17_cst : Ref sig .tc := ⟨.hbm, 470, rfl⟩
abbrev main_call17_v15 : Ref sig .tc := ⟨.hbm, 471, rfl⟩
abbrev main_v69 : Ref sig .tc := ⟨.hbm, 472, rfl⟩
abbrev main_v70 : Ref sig .tc := ⟨.hbm, 473, rfl⟩
abbrev main_v71 : Ref sig .tc := ⟨.hbm, 474, rfl⟩
abbrev main_v72 : Ref sig .tc := ⟨.hbm, 475, rfl⟩
abbrev main_call18_c : Ref sig .tc := ⟨.hbm, 476, rfl⟩
abbrev main_call18_v0 : Ref sig .tc := ⟨.hbm, 477, rfl⟩
abbrev main_call18_v1 : Ref sig .tc := ⟨.hbm, 478, rfl⟩
abbrev main_call18_c_0 : Ref sig .tc := ⟨.hbm, 479, rfl⟩
abbrev main_call18_v2 : Ref sig .tc := ⟨.hbm, 480, rfl⟩
abbrev main_call18_v3 : Ref sig .tc := ⟨.hbm, 481, rfl⟩
abbrev main_call18_v4 : Ref sig .tc := ⟨.hbm, 482, rfl⟩
abbrev main_call18_v5 : Ref sig .tc := ⟨.hbm, 483, rfl⟩
abbrev main_call18_c_1 : Ref sig .tc := ⟨.hbm, 484, rfl⟩
abbrev main_call18_c_2 : Ref sig .tc := ⟨.hbm, 485, rfl⟩
abbrev main_call18_v6 : Ref sig .tc := ⟨.hbm, 486, rfl⟩
abbrev main_call18_v7 : Ref sig .tc := ⟨.hbm, 487, rfl⟩
abbrev main_call18_v8 : Ref sig .tc := ⟨.hbm, 488, rfl⟩
abbrev main_call18_v9 : Ref sig .tc := ⟨.hbm, 489, rfl⟩
abbrev main_call18_v10 : Ref sig .tc := ⟨.hbm, 490, rfl⟩
abbrev main_call18_v11 : Ref sig .tc := ⟨.hbm, 491, rfl⟩
abbrev main_call18_c_3 : Ref sig .tc := ⟨.hbm, 492, rfl⟩
abbrev main_call18_v12 : Ref sig .tc := ⟨.hbm, 493, rfl⟩
abbrev main_call18_v13 : Ref sig .tc := ⟨.hbm, 494, rfl⟩
abbrev main_call18_v14 : Ref sig .tc := ⟨.hbm, 495, rfl⟩
abbrev main_call18_cst : Ref sig .tc := ⟨.hbm, 496, rfl⟩
abbrev main_call18_v15 : Ref sig .tc := ⟨.hbm, 497, rfl⟩
abbrev main_v73 : Ref sig .tc := ⟨.hbm, 498, rfl⟩
abbrev main_v74 : Ref sig .tc := ⟨.hbm, 499, rfl⟩
abbrev main_v75 : Ref sig .tc := ⟨.hbm, 500, rfl⟩
abbrev main_v76 : Ref sig .tc := ⟨.hbm, 501, rfl⟩
abbrev main_call19_c : Ref sig .tc := ⟨.hbm, 502, rfl⟩
abbrev main_call19_v0 : Ref sig .tc := ⟨.hbm, 503, rfl⟩
abbrev main_call19_v1 : Ref sig .tc := ⟨.hbm, 504, rfl⟩
abbrev main_call19_c_0 : Ref sig .tc := ⟨.hbm, 505, rfl⟩
abbrev main_call19_v2 : Ref sig .tc := ⟨.hbm, 506, rfl⟩
abbrev main_call19_v3 : Ref sig .tc := ⟨.hbm, 507, rfl⟩
abbrev main_call19_v4 : Ref sig .tc := ⟨.hbm, 508, rfl⟩
abbrev main_call19_v5 : Ref sig .tc := ⟨.hbm, 509, rfl⟩
abbrev main_call19_c_1 : Ref sig .tc := ⟨.hbm, 510, rfl⟩
abbrev main_call19_c_2 : Ref sig .tc := ⟨.hbm, 511, rfl⟩
abbrev main_call19_v6 : Ref sig .tc := ⟨.hbm, 512, rfl⟩
abbrev main_call19_v7 : Ref sig .tc := ⟨.hbm, 513, rfl⟩
abbrev main_call19_v8 : Ref sig .tc := ⟨.hbm, 514, rfl⟩
abbrev main_call19_v9 : Ref sig .tc := ⟨.hbm, 515, rfl⟩
abbrev main_call19_v10 : Ref sig .tc := ⟨.hbm, 516, rfl⟩
abbrev main_call19_v11 : Ref sig .tc := ⟨.hbm, 517, rfl⟩
abbrev main_call19_c_3 : Ref sig .tc := ⟨.hbm, 518, rfl⟩
abbrev main_call19_v12 : Ref sig .tc := ⟨.hbm, 519, rfl⟩
abbrev main_call19_v13 : Ref sig .tc := ⟨.hbm, 520, rfl⟩
abbrev main_call19_v14 : Ref sig .tc := ⟨.hbm, 521, rfl⟩
abbrev main_call19_cst : Ref sig .tc := ⟨.hbm, 522, rfl⟩
abbrev main_call19_v15 : Ref sig .tc := ⟨.hbm, 523, rfl⟩
abbrev main_v77 : Ref sig .tc := ⟨.hbm, 524, rfl⟩
abbrev main_v78 : Ref sig .tc := ⟨.hbm, 525, rfl⟩
abbrev main_v79 : Ref sig .tc := ⟨.hbm, 526, rfl⟩
abbrev main_v80 : Ref sig .tc := ⟨.hbm, 527, rfl⟩
abbrev main_call20_c : Ref sig .tc := ⟨.hbm, 528, rfl⟩
abbrev main_call20_v0 : Ref sig .tc := ⟨.hbm, 529, rfl⟩
abbrev main_call20_v1 : Ref sig .tc := ⟨.hbm, 530, rfl⟩
abbrev main_call20_c_0 : Ref sig .tc := ⟨.hbm, 531, rfl⟩
abbrev main_call20_v2 : Ref sig .tc := ⟨.hbm, 532, rfl⟩
abbrev main_call20_v3 : Ref sig .tc := ⟨.hbm, 533, rfl⟩
abbrev main_call20_v4 : Ref sig .tc := ⟨.hbm, 534, rfl⟩
abbrev main_call20_v5 : Ref sig .tc := ⟨.hbm, 535, rfl⟩
abbrev main_call20_c_1 : Ref sig .tc := ⟨.hbm, 536, rfl⟩
abbrev main_call20_c_2 : Ref sig .tc := ⟨.hbm, 537, rfl⟩
abbrev main_call20_v6 : Ref sig .tc := ⟨.hbm, 538, rfl⟩
abbrev main_call20_v7 : Ref sig .tc := ⟨.hbm, 539, rfl⟩
abbrev main_call20_v8 : Ref sig .tc := ⟨.hbm, 540, rfl⟩
abbrev main_call20_v9 : Ref sig .tc := ⟨.hbm, 541, rfl⟩
abbrev main_call20_v10 : Ref sig .tc := ⟨.hbm, 542, rfl⟩
abbrev main_call20_v11 : Ref sig .tc := ⟨.hbm, 543, rfl⟩
abbrev main_call20_c_3 : Ref sig .tc := ⟨.hbm, 544, rfl⟩
abbrev main_call20_v12 : Ref sig .tc := ⟨.hbm, 545, rfl⟩
abbrev main_call20_v13 : Ref sig .tc := ⟨.hbm, 546, rfl⟩
abbrev main_call20_v14 : Ref sig .tc := ⟨.hbm, 547, rfl⟩
abbrev main_call20_cst : Ref sig .tc := ⟨.hbm, 548, rfl⟩
abbrev main_call20_v15 : Ref sig .tc := ⟨.hbm, 549, rfl⟩
abbrev main_v81 : Ref sig .tc := ⟨.hbm, 550, rfl⟩
abbrev main_v82 : Ref sig .tc := ⟨.hbm, 551, rfl⟩
abbrev main_v83 : Ref sig .tc := ⟨.hbm, 552, rfl⟩
abbrev main_v84 : Ref sig .tc := ⟨.hbm, 553, rfl⟩
abbrev main_call21_c : Ref sig .tc := ⟨.hbm, 554, rfl⟩
abbrev main_call21_v0 : Ref sig .tc := ⟨.hbm, 555, rfl⟩
abbrev main_call21_v1 : Ref sig .tc := ⟨.hbm, 556, rfl⟩
abbrev main_call21_c_0 : Ref sig .tc := ⟨.hbm, 557, rfl⟩
abbrev main_call21_v2 : Ref sig .tc := ⟨.hbm, 558, rfl⟩
abbrev main_call21_v3 : Ref sig .tc := ⟨.hbm, 559, rfl⟩
abbrev main_call21_v4 : Ref sig .tc := ⟨.hbm, 560, rfl⟩
abbrev main_call21_v5 : Ref sig .tc := ⟨.hbm, 561, rfl⟩
abbrev main_call21_c_1 : Ref sig .tc := ⟨.hbm, 562, rfl⟩
abbrev main_call21_c_2 : Ref sig .tc := ⟨.hbm, 563, rfl⟩
abbrev main_call21_v6 : Ref sig .tc := ⟨.hbm, 564, rfl⟩
abbrev main_call21_v7 : Ref sig .tc := ⟨.hbm, 565, rfl⟩
abbrev main_call21_v8 : Ref sig .tc := ⟨.hbm, 566, rfl⟩
abbrev main_call21_v9 : Ref sig .tc := ⟨.hbm, 567, rfl⟩
abbrev main_call21_v10 : Ref sig .tc := ⟨.hbm, 568, rfl⟩
abbrev main_call21_v11 : Ref sig .tc := ⟨.hbm, 569, rfl⟩
abbrev main_call21_c_3 : Ref sig .tc := ⟨.hbm, 570, rfl⟩
abbrev main_call21_v12 : Ref sig .tc := ⟨.hbm, 571, rfl⟩
abbrev main_call21_v13 : Ref sig .tc := ⟨.hbm, 572, rfl⟩
abbrev main_call21_v14 : Ref sig .tc := ⟨.hbm, 573, rfl⟩
abbrev main_call21_cst : Ref sig .tc := ⟨.hbm, 574, rfl⟩
abbrev main_call21_v15 : Ref sig .tc := ⟨.hbm, 575, rfl⟩
abbrev main_v85 : Ref sig .tc := ⟨.hbm, 576, rfl⟩
abbrev main_v86 : Ref sig .tc := ⟨.hbm, 577, rfl⟩
abbrev main_v87 : Ref sig .tc := ⟨.hbm, 578, rfl⟩
abbrev main_v88 : Ref sig .tc := ⟨.hbm, 579, rfl⟩
abbrev main_call22_c : Ref sig .tc := ⟨.hbm, 580, rfl⟩
abbrev main_call22_v0 : Ref sig .tc := ⟨.hbm, 581, rfl⟩
abbrev main_call22_v1 : Ref sig .tc := ⟨.hbm, 582, rfl⟩
abbrev main_call22_c_0 : Ref sig .tc := ⟨.hbm, 583, rfl⟩
abbrev main_call22_v2 : Ref sig .tc := ⟨.hbm, 584, rfl⟩
abbrev main_call22_v3 : Ref sig .tc := ⟨.hbm, 585, rfl⟩
abbrev main_call22_v4 : Ref sig .tc := ⟨.hbm, 586, rfl⟩
abbrev main_call22_v5 : Ref sig .tc := ⟨.hbm, 587, rfl⟩
abbrev main_call22_c_1 : Ref sig .tc := ⟨.hbm, 588, rfl⟩
abbrev main_call22_c_2 : Ref sig .tc := ⟨.hbm, 589, rfl⟩
abbrev main_call22_v6 : Ref sig .tc := ⟨.hbm, 590, rfl⟩
abbrev main_call22_v7 : Ref sig .tc := ⟨.hbm, 591, rfl⟩
abbrev main_call22_v8 : Ref sig .tc := ⟨.hbm, 592, rfl⟩
abbrev main_call22_v9 : Ref sig .tc := ⟨.hbm, 593, rfl⟩
abbrev main_call22_v10 : Ref sig .tc := ⟨.hbm, 594, rfl⟩
abbrev main_call22_v11 : Ref sig .tc := ⟨.hbm, 595, rfl⟩
abbrev main_call22_c_3 : Ref sig .tc := ⟨.hbm, 596, rfl⟩
abbrev main_call22_v12 : Ref sig .tc := ⟨.hbm, 597, rfl⟩
abbrev main_call22_v13 : Ref sig .tc := ⟨.hbm, 598, rfl⟩
abbrev main_call22_v14 : Ref sig .tc := ⟨.hbm, 599, rfl⟩
abbrev main_call22_cst : Ref sig .tc := ⟨.hbm, 600, rfl⟩
abbrev main_call22_v15 : Ref sig .tc := ⟨.hbm, 601, rfl⟩
abbrev main_v89 : Ref sig .tc := ⟨.hbm, 602, rfl⟩
abbrev main_v90 : Ref sig .tc := ⟨.hbm, 603, rfl⟩
abbrev main_v91 : Ref sig .tc := ⟨.hbm, 604, rfl⟩
abbrev main_v92 : Ref sig .tc := ⟨.hbm, 605, rfl⟩
abbrev main_call23_c : Ref sig .tc := ⟨.hbm, 606, rfl⟩
abbrev main_call23_v0 : Ref sig .tc := ⟨.hbm, 607, rfl⟩
abbrev main_call23_v1 : Ref sig .tc := ⟨.hbm, 608, rfl⟩
abbrev main_call23_c_0 : Ref sig .tc := ⟨.hbm, 609, rfl⟩
abbrev main_call23_v2 : Ref sig .tc := ⟨.hbm, 610, rfl⟩
abbrev main_call23_v3 : Ref sig .tc := ⟨.hbm, 611, rfl⟩
abbrev main_call23_v4 : Ref sig .tc := ⟨.hbm, 612, rfl⟩
abbrev main_call23_v5 : Ref sig .tc := ⟨.hbm, 613, rfl⟩
abbrev main_call23_c_1 : Ref sig .tc := ⟨.hbm, 614, rfl⟩
abbrev main_call23_c_2 : Ref sig .tc := ⟨.hbm, 615, rfl⟩
abbrev main_call23_v6 : Ref sig .tc := ⟨.hbm, 616, rfl⟩
abbrev main_call23_v7 : Ref sig .tc := ⟨.hbm, 617, rfl⟩
abbrev main_call23_v8 : Ref sig .tc := ⟨.hbm, 618, rfl⟩
abbrev main_call23_v9 : Ref sig .tc := ⟨.hbm, 619, rfl⟩
abbrev main_call23_v10 : Ref sig .tc := ⟨.hbm, 620, rfl⟩
abbrev main_call23_v11 : Ref sig .tc := ⟨.hbm, 621, rfl⟩
abbrev main_call23_c_3 : Ref sig .tc := ⟨.hbm, 622, rfl⟩
abbrev main_call23_v12 : Ref sig .tc := ⟨.hbm, 623, rfl⟩
abbrev main_call23_v13 : Ref sig .tc := ⟨.hbm, 624, rfl⟩
abbrev main_call23_v14 : Ref sig .tc := ⟨.hbm, 625, rfl⟩
abbrev main_call23_cst : Ref sig .tc := ⟨.hbm, 626, rfl⟩
abbrev main_call23_v15 : Ref sig .tc := ⟨.hbm, 627, rfl⟩
abbrev main_v93 : Ref sig .tc := ⟨.hbm, 628, rfl⟩
abbrev main_v94 : Ref sig .tc := ⟨.hbm, 629, rfl⟩
abbrev main_v95 : Ref sig .tc := ⟨.hbm, 630, rfl⟩
abbrev main_v96 : Ref sig .tc := ⟨.hbm, 631, rfl⟩
abbrev main_call24_c : Ref sig .tc := ⟨.hbm, 632, rfl⟩
abbrev main_call24_v0 : Ref sig .tc := ⟨.hbm, 633, rfl⟩
abbrev main_call24_v1 : Ref sig .tc := ⟨.hbm, 634, rfl⟩
abbrev main_call24_c_0 : Ref sig .tc := ⟨.hbm, 635, rfl⟩
abbrev main_call24_v2 : Ref sig .tc := ⟨.hbm, 636, rfl⟩
abbrev main_call24_v3 : Ref sig .tc := ⟨.hbm, 637, rfl⟩
abbrev main_call24_v4 : Ref sig .tc := ⟨.hbm, 638, rfl⟩
abbrev main_call24_v5 : Ref sig .tc := ⟨.hbm, 639, rfl⟩
abbrev main_call24_c_1 : Ref sig .tc := ⟨.hbm, 640, rfl⟩
abbrev main_call24_c_2 : Ref sig .tc := ⟨.hbm, 641, rfl⟩
abbrev main_call24_v6 : Ref sig .tc := ⟨.hbm, 642, rfl⟩
abbrev main_call24_v7 : Ref sig .tc := ⟨.hbm, 643, rfl⟩
abbrev main_call24_v8 : Ref sig .tc := ⟨.hbm, 644, rfl⟩
abbrev main_call24_v9 : Ref sig .tc := ⟨.hbm, 645, rfl⟩
abbrev main_call24_v10 : Ref sig .tc := ⟨.hbm, 646, rfl⟩
abbrev main_call24_v11 : Ref sig .tc := ⟨.hbm, 647, rfl⟩
abbrev main_call24_c_3 : Ref sig .tc := ⟨.hbm, 648, rfl⟩
abbrev main_call24_v12 : Ref sig .tc := ⟨.hbm, 649, rfl⟩
abbrev main_call24_v13 : Ref sig .tc := ⟨.hbm, 650, rfl⟩
abbrev main_call24_v14 : Ref sig .tc := ⟨.hbm, 651, rfl⟩
abbrev main_call24_cst : Ref sig .tc := ⟨.hbm, 652, rfl⟩
abbrev main_call24_v15 : Ref sig .tc := ⟨.hbm, 653, rfl⟩
abbrev main_v97 : Ref sig .tc := ⟨.hbm, 654, rfl⟩
abbrev main_v98 : Ref sig .tc := ⟨.hbm, 655, rfl⟩
abbrev main_v99 : Ref sig .tc := ⟨.hbm, 656, rfl⟩
abbrev main_v100 : Ref sig .tc := ⟨.hbm, 657, rfl⟩
abbrev main_call25_c : Ref sig .tc := ⟨.hbm, 658, rfl⟩
abbrev main_call25_v0 : Ref sig .tc := ⟨.hbm, 659, rfl⟩
abbrev main_call25_v1 : Ref sig .tc := ⟨.hbm, 660, rfl⟩
abbrev main_call25_c_0 : Ref sig .tc := ⟨.hbm, 661, rfl⟩
abbrev main_call25_v2 : Ref sig .tc := ⟨.hbm, 662, rfl⟩
abbrev main_call25_v3 : Ref sig .tc := ⟨.hbm, 663, rfl⟩
abbrev main_call25_v4 : Ref sig .tc := ⟨.hbm, 664, rfl⟩
abbrev main_call25_v5 : Ref sig .tc := ⟨.hbm, 665, rfl⟩
abbrev main_call25_c_1 : Ref sig .tc := ⟨.hbm, 666, rfl⟩
abbrev main_call25_c_2 : Ref sig .tc := ⟨.hbm, 667, rfl⟩
abbrev main_call25_v6 : Ref sig .tc := ⟨.hbm, 668, rfl⟩
abbrev main_call25_v7 : Ref sig .tc := ⟨.hbm, 669, rfl⟩
abbrev main_call25_v8 : Ref sig .tc := ⟨.hbm, 670, rfl⟩
abbrev main_call25_v9 : Ref sig .tc := ⟨.hbm, 671, rfl⟩
abbrev main_call25_v10 : Ref sig .tc := ⟨.hbm, 672, rfl⟩
abbrev main_call25_v11 : Ref sig .tc := ⟨.hbm, 673, rfl⟩
abbrev main_call25_c_3 : Ref sig .tc := ⟨.hbm, 674, rfl⟩
abbrev main_call25_v12 : Ref sig .tc := ⟨.hbm, 675, rfl⟩
abbrev main_call25_v13 : Ref sig .tc := ⟨.hbm, 676, rfl⟩
abbrev main_call25_v14 : Ref sig .tc := ⟨.hbm, 677, rfl⟩
abbrev main_call25_cst : Ref sig .tc := ⟨.hbm, 678, rfl⟩
abbrev main_call25_v15 : Ref sig .tc := ⟨.hbm, 679, rfl⟩
abbrev main_v101 : Ref sig .tc := ⟨.hbm, 680, rfl⟩
abbrev main_v102 : Ref sig .tc := ⟨.hbm, 681, rfl⟩
abbrev main_v103 : Ref sig .tc := ⟨.hbm, 682, rfl⟩
abbrev main_v104 : Ref sig .tc := ⟨.hbm, 683, rfl⟩
abbrev main_call26_c : Ref sig .tc := ⟨.hbm, 684, rfl⟩
abbrev main_call26_v0 : Ref sig .tc := ⟨.hbm, 685, rfl⟩
abbrev main_call26_v1 : Ref sig .tc := ⟨.hbm, 686, rfl⟩
abbrev main_call26_c_0 : Ref sig .tc := ⟨.hbm, 687, rfl⟩
abbrev main_call26_v2 : Ref sig .tc := ⟨.hbm, 688, rfl⟩
abbrev main_call26_v3 : Ref sig .tc := ⟨.hbm, 689, rfl⟩
abbrev main_call26_v4 : Ref sig .tc := ⟨.hbm, 690, rfl⟩
abbrev main_call26_v5 : Ref sig .tc := ⟨.hbm, 691, rfl⟩
abbrev main_call26_c_1 : Ref sig .tc := ⟨.hbm, 692, rfl⟩
abbrev main_call26_c_2 : Ref sig .tc := ⟨.hbm, 693, rfl⟩
abbrev main_call26_v6 : Ref sig .tc := ⟨.hbm, 694, rfl⟩
abbrev main_call26_v7 : Ref sig .tc := ⟨.hbm, 695, rfl⟩
abbrev main_call26_v8 : Ref sig .tc := ⟨.hbm, 696, rfl⟩
abbrev main_call26_v9 : Ref sig .tc := ⟨.hbm, 697, rfl⟩
abbrev main_call26_v10 : Ref sig .tc := ⟨.hbm, 698, rfl⟩
abbrev main_call26_v11 : Ref sig .tc := ⟨.hbm, 699, rfl⟩
abbrev main_call26_c_3 : Ref sig .tc := ⟨.hbm, 700, rfl⟩
abbrev main_call26_v12 : Ref sig .tc := ⟨.hbm, 701, rfl⟩
abbrev main_call26_v13 : Ref sig .tc := ⟨.hbm, 702, rfl⟩
abbrev main_call26_v14 : Ref sig .tc := ⟨.hbm, 703, rfl⟩
abbrev main_call26_cst : Ref sig .tc := ⟨.hbm, 704, rfl⟩
abbrev main_call26_v15 : Ref sig .tc := ⟨.hbm, 705, rfl⟩
abbrev main_v105 : Ref sig .tc := ⟨.hbm, 706, rfl⟩
abbrev main_v106 : Ref sig .tc := ⟨.hbm, 707, rfl⟩
abbrev main_v107 : Ref sig .tc := ⟨.hbm, 708, rfl⟩
abbrev main_v108 : Ref sig .tc := ⟨.hbm, 709, rfl⟩
abbrev main_call27_c : Ref sig .tc := ⟨.hbm, 710, rfl⟩
abbrev main_call27_v0 : Ref sig .tc := ⟨.hbm, 711, rfl⟩
abbrev main_call27_v1 : Ref sig .tc := ⟨.hbm, 712, rfl⟩
abbrev main_call27_c_0 : Ref sig .tc := ⟨.hbm, 713, rfl⟩
abbrev main_call27_v2 : Ref sig .tc := ⟨.hbm, 714, rfl⟩
abbrev main_call27_v3 : Ref sig .tc := ⟨.hbm, 715, rfl⟩
abbrev main_call27_v4 : Ref sig .tc := ⟨.hbm, 716, rfl⟩
abbrev main_call27_v5 : Ref sig .tc := ⟨.hbm, 717, rfl⟩
abbrev main_call27_c_1 : Ref sig .tc := ⟨.hbm, 718, rfl⟩
abbrev main_call27_c_2 : Ref sig .tc := ⟨.hbm, 719, rfl⟩
abbrev main_call27_v6 : Ref sig .tc := ⟨.hbm, 720, rfl⟩
abbrev main_call27_v7 : Ref sig .tc := ⟨.hbm, 721, rfl⟩
abbrev main_call27_v8 : Ref sig .tc := ⟨.hbm, 722, rfl⟩
abbrev main_call27_v9 : Ref sig .tc := ⟨.hbm, 723, rfl⟩
abbrev main_call27_v10 : Ref sig .tc := ⟨.hbm, 724, rfl⟩
abbrev main_call27_v11 : Ref sig .tc := ⟨.hbm, 725, rfl⟩
abbrev main_call27_c_3 : Ref sig .tc := ⟨.hbm, 726, rfl⟩
abbrev main_call27_v12 : Ref sig .tc := ⟨.hbm, 727, rfl⟩
abbrev main_call27_v13 : Ref sig .tc := ⟨.hbm, 728, rfl⟩
abbrev main_call27_v14 : Ref sig .tc := ⟨.hbm, 729, rfl⟩
abbrev main_call27_cst : Ref sig .tc := ⟨.hbm, 730, rfl⟩
abbrev main_call27_v15 : Ref sig .tc := ⟨.hbm, 731, rfl⟩
abbrev main_v109 : Ref sig .tc := ⟨.hbm, 732, rfl⟩
abbrev main_v110 : Ref sig .tc := ⟨.hbm, 733, rfl⟩
abbrev main_v111 : Ref sig .tc := ⟨.hbm, 734, rfl⟩
abbrev main_v112 : Ref sig .tc := ⟨.hbm, 735, rfl⟩
abbrev main_call28_c : Ref sig .tc := ⟨.hbm, 736, rfl⟩
abbrev main_call28_v0 : Ref sig .tc := ⟨.hbm, 737, rfl⟩
abbrev main_call28_v1 : Ref sig .tc := ⟨.hbm, 738, rfl⟩
abbrev main_call28_c_0 : Ref sig .tc := ⟨.hbm, 739, rfl⟩
abbrev main_call28_v2 : Ref sig .tc := ⟨.hbm, 740, rfl⟩
abbrev main_call28_v3 : Ref sig .tc := ⟨.hbm, 741, rfl⟩
abbrev main_call28_v4 : Ref sig .tc := ⟨.hbm, 742, rfl⟩
abbrev main_call28_v5 : Ref sig .tc := ⟨.hbm, 743, rfl⟩
abbrev main_call28_c_1 : Ref sig .tc := ⟨.hbm, 744, rfl⟩
abbrev main_call28_c_2 : Ref sig .tc := ⟨.hbm, 745, rfl⟩
abbrev main_call28_v6 : Ref sig .tc := ⟨.hbm, 746, rfl⟩
abbrev main_call28_v7 : Ref sig .tc := ⟨.hbm, 747, rfl⟩
abbrev main_call28_v8 : Ref sig .tc := ⟨.hbm, 748, rfl⟩
abbrev main_call28_v9 : Ref sig .tc := ⟨.hbm, 749, rfl⟩
abbrev main_call28_v10 : Ref sig .tc := ⟨.hbm, 750, rfl⟩
abbrev main_call28_v11 : Ref sig .tc := ⟨.hbm, 751, rfl⟩
abbrev main_call28_c_3 : Ref sig .tc := ⟨.hbm, 752, rfl⟩
abbrev main_call28_v12 : Ref sig .tc := ⟨.hbm, 753, rfl⟩
abbrev main_call28_v13 : Ref sig .tc := ⟨.hbm, 754, rfl⟩
abbrev main_call28_v14 : Ref sig .tc := ⟨.hbm, 755, rfl⟩
abbrev main_call28_cst : Ref sig .tc := ⟨.hbm, 756, rfl⟩
abbrev main_call28_v15 : Ref sig .tc := ⟨.hbm, 757, rfl⟩
abbrev main_v113 : Ref sig .tc := ⟨.hbm, 758, rfl⟩
abbrev main_v114 : Ref sig .tc := ⟨.hbm, 759, rfl⟩
abbrev main_v115 : Ref sig .tc := ⟨.hbm, 760, rfl⟩
abbrev main_v116 : Ref sig .tc := ⟨.hbm, 761, rfl⟩
abbrev main_call29_c : Ref sig .tc := ⟨.hbm, 762, rfl⟩
abbrev main_call29_v0 : Ref sig .tc := ⟨.hbm, 763, rfl⟩
abbrev main_call29_v1 : Ref sig .tc := ⟨.hbm, 764, rfl⟩
abbrev main_call29_c_0 : Ref sig .tc := ⟨.hbm, 765, rfl⟩
abbrev main_call29_v2 : Ref sig .tc := ⟨.hbm, 766, rfl⟩
abbrev main_call29_v3 : Ref sig .tc := ⟨.hbm, 767, rfl⟩
abbrev main_call29_v4 : Ref sig .tc := ⟨.hbm, 768, rfl⟩
abbrev main_call29_v5 : Ref sig .tc := ⟨.hbm, 769, rfl⟩
abbrev main_call29_c_1 : Ref sig .tc := ⟨.hbm, 770, rfl⟩
abbrev main_call29_c_2 : Ref sig .tc := ⟨.hbm, 771, rfl⟩
abbrev main_call29_v6 : Ref sig .tc := ⟨.hbm, 772, rfl⟩
abbrev main_call29_v7 : Ref sig .tc := ⟨.hbm, 773, rfl⟩
abbrev main_call29_v8 : Ref sig .tc := ⟨.hbm, 774, rfl⟩
abbrev main_call29_v9 : Ref sig .tc := ⟨.hbm, 775, rfl⟩
abbrev main_call29_v10 : Ref sig .tc := ⟨.hbm, 776, rfl⟩
abbrev main_call29_v11 : Ref sig .tc := ⟨.hbm, 777, rfl⟩
abbrev main_call29_c_3 : Ref sig .tc := ⟨.hbm, 778, rfl⟩
abbrev main_call29_v12 : Ref sig .tc := ⟨.hbm, 779, rfl⟩
abbrev main_call29_v13 : Ref sig .tc := ⟨.hbm, 780, rfl⟩
abbrev main_call29_v14 : Ref sig .tc := ⟨.hbm, 781, rfl⟩
abbrev main_call29_cst : Ref sig .tc := ⟨.hbm, 782, rfl⟩
abbrev main_call29_v15 : Ref sig .tc := ⟨.hbm, 783, rfl⟩
abbrev main_v117 : Ref sig .tc := ⟨.hbm, 784, rfl⟩
abbrev main_v118 : Ref sig .tc := ⟨.hbm, 785, rfl⟩
abbrev main_v119 : Ref sig .tc := ⟨.hbm, 786, rfl⟩
abbrev main_v120 : Ref sig .tc := ⟨.hbm, 787, rfl⟩
abbrev main_call30_c : Ref sig .tc := ⟨.hbm, 788, rfl⟩
abbrev main_call30_v0 : Ref sig .tc := ⟨.hbm, 789, rfl⟩
abbrev main_call30_v1 : Ref sig .tc := ⟨.hbm, 790, rfl⟩
abbrev main_call30_c_0 : Ref sig .tc := ⟨.hbm, 791, rfl⟩
abbrev main_call30_v2 : Ref sig .tc := ⟨.hbm, 792, rfl⟩
abbrev main_call30_v3 : Ref sig .tc := ⟨.hbm, 793, rfl⟩
abbrev main_call30_v4 : Ref sig .tc := ⟨.hbm, 794, rfl⟩
abbrev main_call30_v5 : Ref sig .tc := ⟨.hbm, 795, rfl⟩
abbrev main_call30_c_1 : Ref sig .tc := ⟨.hbm, 796, rfl⟩
abbrev main_call30_c_2 : Ref sig .tc := ⟨.hbm, 797, rfl⟩
abbrev main_call30_v6 : Ref sig .tc := ⟨.hbm, 798, rfl⟩
abbrev main_call30_v7 : Ref sig .tc := ⟨.hbm, 799, rfl⟩
abbrev main_call30_v8 : Ref sig .tc := ⟨.hbm, 800, rfl⟩
abbrev main_call30_v9 : Ref sig .tc := ⟨.hbm, 801, rfl⟩
abbrev main_call30_v10 : Ref sig .tc := ⟨.hbm, 802, rfl⟩
abbrev main_call30_v11 : Ref sig .tc := ⟨.hbm, 803, rfl⟩
abbrev main_call30_c_3 : Ref sig .tc := ⟨.hbm, 804, rfl⟩
abbrev main_call30_v12 : Ref sig .tc := ⟨.hbm, 805, rfl⟩
abbrev main_call30_v13 : Ref sig .tc := ⟨.hbm, 806, rfl⟩
abbrev main_call30_v14 : Ref sig .tc := ⟨.hbm, 807, rfl⟩
abbrev main_call30_cst : Ref sig .tc := ⟨.hbm, 808, rfl⟩
abbrev main_call30_v15 : Ref sig .tc := ⟨.hbm, 809, rfl⟩
abbrev main_v121 : Ref sig .tc := ⟨.hbm, 810, rfl⟩
abbrev main_v122 : Ref sig .tc := ⟨.hbm, 811, rfl⟩
abbrev main_v123 : Ref sig .tc := ⟨.hbm, 812, rfl⟩
abbrev main_v124 : Ref sig .tc := ⟨.hbm, 813, rfl⟩
abbrev main_call31_c : Ref sig .tc := ⟨.hbm, 814, rfl⟩
abbrev main_call31_v0 : Ref sig .tc := ⟨.hbm, 815, rfl⟩
abbrev main_call31_v1 : Ref sig .tc := ⟨.hbm, 816, rfl⟩
abbrev main_call31_c_0 : Ref sig .tc := ⟨.hbm, 817, rfl⟩
abbrev main_call31_v2 : Ref sig .tc := ⟨.hbm, 818, rfl⟩
abbrev main_call31_v3 : Ref sig .tc := ⟨.hbm, 819, rfl⟩
abbrev main_call31_v4 : Ref sig .tc := ⟨.hbm, 820, rfl⟩
abbrev main_call31_v5 : Ref sig .tc := ⟨.hbm, 821, rfl⟩
abbrev main_call31_c_1 : Ref sig .tc := ⟨.hbm, 822, rfl⟩
abbrev main_call31_c_2 : Ref sig .tc := ⟨.hbm, 823, rfl⟩
abbrev main_call31_v6 : Ref sig .tc := ⟨.hbm, 824, rfl⟩
abbrev main_call31_v7 : Ref sig .tc := ⟨.hbm, 825, rfl⟩
abbrev main_call31_v8 : Ref sig .tc := ⟨.hbm, 826, rfl⟩
abbrev main_call31_v9 : Ref sig .tc := ⟨.hbm, 827, rfl⟩
abbrev main_call31_v10 : Ref sig .tc := ⟨.hbm, 828, rfl⟩
abbrev main_call31_v11 : Ref sig .tc := ⟨.hbm, 829, rfl⟩
abbrev main_call31_c_3 : Ref sig .tc := ⟨.hbm, 830, rfl⟩
abbrev main_call31_v12 : Ref sig .tc := ⟨.hbm, 831, rfl⟩
abbrev main_call31_v13 : Ref sig .tc := ⟨.hbm, 832, rfl⟩
abbrev main_call31_v14 : Ref sig .tc := ⟨.hbm, 833, rfl⟩
abbrev main_call31_cst : Ref sig .tc := ⟨.hbm, 834, rfl⟩
abbrev main_call31_v15 : Ref sig .tc := ⟨.hbm, 835, rfl⟩
abbrev main_v125 : Ref sig .tc := ⟨.hbm, 836, rfl⟩
abbrev main_v126 : Ref sig .tc := ⟨.hbm, 837, rfl⟩
abbrev main_cst : Ref sig .tc := ⟨.hbm, 838, rfl⟩
abbrev main_v127 : Ref sig .tc := ⟨.hbm, 839, rfl⟩
abbrev main_v128 : Ref sig .tc := ⟨.hbm, 840, rfl⟩
abbrev main_v129 : Ref sig .tc := ⟨.hbm, 841, rfl⟩
abbrev main_v130 : Ref sig .tc := ⟨.hbm, 842, rfl⟩
abbrev main_v131 : Ref sig .tc := ⟨.hbm, 843, rfl⟩
abbrev main_call32_c : Ref sig .tc := ⟨.hbm, 844, rfl⟩
abbrev main_call32_v0 : Ref sig .tc := ⟨.hbm, 845, rfl⟩
abbrev main_call32_v1 : Ref sig .tc := ⟨.hbm, 846, rfl⟩
abbrev main_call32_c_0 : Ref sig .tc := ⟨.hbm, 847, rfl⟩
abbrev main_call32_v2 : Ref sig .tc := ⟨.hbm, 848, rfl⟩
abbrev main_call32_v3 : Ref sig .tc := ⟨.hbm, 849, rfl⟩
abbrev main_call32_v4 : Ref sig .tc := ⟨.hbm, 850, rfl⟩
abbrev main_call32_v5 : Ref sig .tc := ⟨.hbm, 851, rfl⟩
abbrev main_call32_c_1 : Ref sig .tc := ⟨.hbm, 852, rfl⟩
abbrev main_call32_c_2 : Ref sig .tc := ⟨.hbm, 853, rfl⟩
abbrev main_call32_v6 : Ref sig .tc := ⟨.hbm, 854, rfl⟩
abbrev main_call32_v7 : Ref sig .tc := ⟨.hbm, 855, rfl⟩
abbrev main_call32_v8 : Ref sig .tc := ⟨.hbm, 856, rfl⟩
abbrev main_call32_v9 : Ref sig .tc := ⟨.hbm, 857, rfl⟩
abbrev main_call32_v10 : Ref sig .tc := ⟨.hbm, 858, rfl⟩
abbrev main_call32_v11 : Ref sig .tc := ⟨.hbm, 859, rfl⟩
abbrev main_call32_c_3 : Ref sig .tc := ⟨.hbm, 860, rfl⟩
abbrev main_call32_v12 : Ref sig .tc := ⟨.hbm, 861, rfl⟩
abbrev main_call32_v13 : Ref sig .tc := ⟨.hbm, 862, rfl⟩
abbrev main_call32_v14 : Ref sig .tc := ⟨.hbm, 863, rfl⟩
abbrev main_call32_c_4 : Ref sig .tc := ⟨.hbm, 864, rfl⟩
abbrev main_call32_v15 : Ref sig .tc := ⟨.hbm, 865, rfl⟩
abbrev main_v132 : Ref sig .tc := ⟨.hbm, 866, rfl⟩
abbrev main_v133 : Ref sig .tc := ⟨.hbm, 867, rfl⟩
abbrev main_v134 : Ref sig .tc := ⟨.hbm, 868, rfl⟩
abbrev main_call33_c : Ref sig .tc := ⟨.hbm, 869, rfl⟩
abbrev main_call33_v0 : Ref sig .tc := ⟨.hbm, 870, rfl⟩
abbrev main_call33_v1 : Ref sig .tc := ⟨.hbm, 871, rfl⟩
abbrev main_call33_c_0 : Ref sig .tc := ⟨.hbm, 872, rfl⟩
abbrev main_call33_v2 : Ref sig .tc := ⟨.hbm, 873, rfl⟩
abbrev main_call33_v3 : Ref sig .tc := ⟨.hbm, 874, rfl⟩
abbrev main_call33_v4 : Ref sig .tc := ⟨.hbm, 875, rfl⟩
abbrev main_call33_v5 : Ref sig .tc := ⟨.hbm, 876, rfl⟩
abbrev main_call33_c_1 : Ref sig .tc := ⟨.hbm, 877, rfl⟩
abbrev main_call33_c_2 : Ref sig .tc := ⟨.hbm, 878, rfl⟩
abbrev main_call33_v6 : Ref sig .tc := ⟨.hbm, 879, rfl⟩
abbrev main_call33_v7 : Ref sig .tc := ⟨.hbm, 880, rfl⟩
abbrev main_call33_v8 : Ref sig .tc := ⟨.hbm, 881, rfl⟩
abbrev main_call33_v9 : Ref sig .tc := ⟨.hbm, 882, rfl⟩
abbrev main_call33_v10 : Ref sig .tc := ⟨.hbm, 883, rfl⟩
abbrev main_call33_v11 : Ref sig .tc := ⟨.hbm, 884, rfl⟩
abbrev main_call33_c_3 : Ref sig .tc := ⟨.hbm, 885, rfl⟩
abbrev main_call33_v12 : Ref sig .tc := ⟨.hbm, 886, rfl⟩
abbrev main_call33_v13 : Ref sig .tc := ⟨.hbm, 887, rfl⟩
abbrev main_call33_v14 : Ref sig .tc := ⟨.hbm, 888, rfl⟩
abbrev main_call33_cst : Ref sig .tc := ⟨.hbm, 889, rfl⟩
abbrev main_call33_v15 : Ref sig .tc := ⟨.hbm, 890, rfl⟩
abbrev main_v135 : Ref sig .tc := ⟨.hbm, 891, rfl⟩
abbrev main_v136 : Ref sig .tc := ⟨.hbm, 892, rfl⟩
abbrev main_v137 : Ref sig .tc := ⟨.hbm, 893, rfl⟩
abbrev main_call34_c : Ref sig .tc := ⟨.hbm, 894, rfl⟩
abbrev main_call34_v0 : Ref sig .tc := ⟨.hbm, 895, rfl⟩
abbrev main_call34_v1 : Ref sig .tc := ⟨.hbm, 896, rfl⟩
abbrev main_call34_c_0 : Ref sig .tc := ⟨.hbm, 897, rfl⟩
abbrev main_call34_v2 : Ref sig .tc := ⟨.hbm, 898, rfl⟩
abbrev main_call34_v3 : Ref sig .tc := ⟨.hbm, 899, rfl⟩
abbrev main_call34_v4 : Ref sig .tc := ⟨.hbm, 900, rfl⟩
abbrev main_call34_v5 : Ref sig .tc := ⟨.hbm, 901, rfl⟩
abbrev main_call34_c_1 : Ref sig .tc := ⟨.hbm, 902, rfl⟩
abbrev main_call34_c_2 : Ref sig .tc := ⟨.hbm, 903, rfl⟩
abbrev main_call34_v6 : Ref sig .tc := ⟨.hbm, 904, rfl⟩
abbrev main_call34_v7 : Ref sig .tc := ⟨.hbm, 905, rfl⟩
abbrev main_call34_v8 : Ref sig .tc := ⟨.hbm, 906, rfl⟩
abbrev main_call34_v9 : Ref sig .tc := ⟨.hbm, 907, rfl⟩
abbrev main_call34_v10 : Ref sig .tc := ⟨.hbm, 908, rfl⟩
abbrev main_call34_v11 : Ref sig .tc := ⟨.hbm, 909, rfl⟩
abbrev main_call34_c_3 : Ref sig .tc := ⟨.hbm, 910, rfl⟩
abbrev main_call34_v12 : Ref sig .tc := ⟨.hbm, 911, rfl⟩
abbrev main_call34_v13 : Ref sig .tc := ⟨.hbm, 912, rfl⟩
abbrev main_call34_v14 : Ref sig .tc := ⟨.hbm, 913, rfl⟩
abbrev main_call34_cst : Ref sig .tc := ⟨.hbm, 914, rfl⟩
abbrev main_call34_v15 : Ref sig .tc := ⟨.hbm, 915, rfl⟩
abbrev main_v138 : Ref sig .tc := ⟨.hbm, 916, rfl⟩
abbrev main_v139 : Ref sig .tc := ⟨.hbm, 917, rfl⟩
abbrev main_v140 : Ref sig .tc := ⟨.hbm, 918, rfl⟩
abbrev main_v141 : Ref sig .tc := ⟨.hbm, 919, rfl⟩
abbrev main_call35_c : Ref sig .tc := ⟨.hbm, 920, rfl⟩
abbrev main_call35_v0 : Ref sig .tc := ⟨.hbm, 921, rfl⟩
abbrev main_call35_v1 : Ref sig .tc := ⟨.hbm, 922, rfl⟩
abbrev main_call35_c_0 : Ref sig .tc := ⟨.hbm, 923, rfl⟩
abbrev main_call35_v2 : Ref sig .tc := ⟨.hbm, 924, rfl⟩
abbrev main_call35_v3 : Ref sig .tc := ⟨.hbm, 925, rfl⟩
abbrev main_call35_v4 : Ref sig .tc := ⟨.hbm, 926, rfl⟩
abbrev main_call35_v5 : Ref sig .tc := ⟨.hbm, 927, rfl⟩
abbrev main_call35_c_1 : Ref sig .tc := ⟨.hbm, 928, rfl⟩
abbrev main_call35_c_2 : Ref sig .tc := ⟨.hbm, 929, rfl⟩
abbrev main_call35_v6 : Ref sig .tc := ⟨.hbm, 930, rfl⟩
abbrev main_call35_v7 : Ref sig .tc := ⟨.hbm, 931, rfl⟩
abbrev main_call35_v8 : Ref sig .tc := ⟨.hbm, 932, rfl⟩
abbrev main_call35_v9 : Ref sig .tc := ⟨.hbm, 933, rfl⟩
abbrev main_call35_v10 : Ref sig .tc := ⟨.hbm, 934, rfl⟩
abbrev main_call35_v11 : Ref sig .tc := ⟨.hbm, 935, rfl⟩
abbrev main_call35_c_3 : Ref sig .tc := ⟨.hbm, 936, rfl⟩
abbrev main_call35_v12 : Ref sig .tc := ⟨.hbm, 937, rfl⟩
abbrev main_call35_v13 : Ref sig .tc := ⟨.hbm, 938, rfl⟩
abbrev main_call35_v14 : Ref sig .tc := ⟨.hbm, 939, rfl⟩
abbrev main_call35_cst : Ref sig .tc := ⟨.hbm, 940, rfl⟩
abbrev main_call35_v15 : Ref sig .tc := ⟨.hbm, 941, rfl⟩
abbrev main_v142 : Ref sig .tc := ⟨.hbm, 942, rfl⟩
abbrev main_v143 : Ref sig .tc := ⟨.hbm, 943, rfl⟩
abbrev main_v144 : Ref sig .tc := ⟨.hbm, 944, rfl⟩
abbrev main_v145 : Ref sig .tc := ⟨.hbm, 945, rfl⟩
abbrev main_call36_c : Ref sig .tc := ⟨.hbm, 946, rfl⟩
abbrev main_call36_v0 : Ref sig .tc := ⟨.hbm, 947, rfl⟩
abbrev main_call36_v1 : Ref sig .tc := ⟨.hbm, 948, rfl⟩
abbrev main_call36_c_0 : Ref sig .tc := ⟨.hbm, 949, rfl⟩
abbrev main_call36_v2 : Ref sig .tc := ⟨.hbm, 950, rfl⟩
abbrev main_call36_v3 : Ref sig .tc := ⟨.hbm, 951, rfl⟩
abbrev main_call36_v4 : Ref sig .tc := ⟨.hbm, 952, rfl⟩
abbrev main_call36_v5 : Ref sig .tc := ⟨.hbm, 953, rfl⟩
abbrev main_call36_c_1 : Ref sig .tc := ⟨.hbm, 954, rfl⟩
abbrev main_call36_c_2 : Ref sig .tc := ⟨.hbm, 955, rfl⟩
abbrev main_call36_v6 : Ref sig .tc := ⟨.hbm, 956, rfl⟩
abbrev main_call36_v7 : Ref sig .tc := ⟨.hbm, 957, rfl⟩
abbrev main_call36_v8 : Ref sig .tc := ⟨.hbm, 958, rfl⟩
abbrev main_call36_v9 : Ref sig .tc := ⟨.hbm, 959, rfl⟩
abbrev main_call36_v10 : Ref sig .tc := ⟨.hbm, 960, rfl⟩
abbrev main_call36_v11 : Ref sig .tc := ⟨.hbm, 961, rfl⟩
abbrev main_call36_c_3 : Ref sig .tc := ⟨.hbm, 962, rfl⟩
abbrev main_call36_v12 : Ref sig .tc := ⟨.hbm, 963, rfl⟩
abbrev main_call36_v13 : Ref sig .tc := ⟨.hbm, 964, rfl⟩
abbrev main_call36_v14 : Ref sig .tc := ⟨.hbm, 965, rfl⟩
abbrev main_call36_cst : Ref sig .tc := ⟨.hbm, 966, rfl⟩
abbrev main_call36_v15 : Ref sig .tc := ⟨.hbm, 967, rfl⟩
abbrev main_v146 : Ref sig .tc := ⟨.hbm, 968, rfl⟩
abbrev main_v147 : Ref sig .tc := ⟨.hbm, 969, rfl⟩
abbrev main_v148 : Ref sig .tc := ⟨.hbm, 970, rfl⟩
abbrev main_v149 : Ref sig .tc := ⟨.hbm, 971, rfl⟩
abbrev main_call37_c : Ref sig .tc := ⟨.hbm, 972, rfl⟩
abbrev main_call37_v0 : Ref sig .tc := ⟨.hbm, 973, rfl⟩
abbrev main_call37_v1 : Ref sig .tc := ⟨.hbm, 974, rfl⟩
abbrev main_call37_c_0 : Ref sig .tc := ⟨.hbm, 975, rfl⟩
abbrev main_call37_v2 : Ref sig .tc := ⟨.hbm, 976, rfl⟩
abbrev main_call37_v3 : Ref sig .tc := ⟨.hbm, 977, rfl⟩
abbrev main_call37_v4 : Ref sig .tc := ⟨.hbm, 978, rfl⟩
abbrev main_call37_v5 : Ref sig .tc := ⟨.hbm, 979, rfl⟩
abbrev main_call37_c_1 : Ref sig .tc := ⟨.hbm, 980, rfl⟩
abbrev main_call37_c_2 : Ref sig .tc := ⟨.hbm, 981, rfl⟩
abbrev main_call37_v6 : Ref sig .tc := ⟨.hbm, 982, rfl⟩
abbrev main_call37_v7 : Ref sig .tc := ⟨.hbm, 983, rfl⟩
abbrev main_call37_v8 : Ref sig .tc := ⟨.hbm, 984, rfl⟩
abbrev main_call37_v9 : Ref sig .tc := ⟨.hbm, 985, rfl⟩
abbrev main_call37_v10 : Ref sig .tc := ⟨.hbm, 986, rfl⟩
abbrev main_call37_v11 : Ref sig .tc := ⟨.hbm, 987, rfl⟩
abbrev main_call37_c_3 : Ref sig .tc := ⟨.hbm, 988, rfl⟩
abbrev main_call37_v12 : Ref sig .tc := ⟨.hbm, 989, rfl⟩
abbrev main_call37_v13 : Ref sig .tc := ⟨.hbm, 990, rfl⟩
abbrev main_call37_v14 : Ref sig .tc := ⟨.hbm, 991, rfl⟩
abbrev main_call37_cst : Ref sig .tc := ⟨.hbm, 992, rfl⟩
abbrev main_call37_v15 : Ref sig .tc := ⟨.hbm, 993, rfl⟩
abbrev main_v150 : Ref sig .tc := ⟨.hbm, 994, rfl⟩
abbrev main_v151 : Ref sig .tc := ⟨.hbm, 995, rfl⟩
abbrev main_v152 : Ref sig .tc := ⟨.hbm, 996, rfl⟩
abbrev main_v153 : Ref sig .tc := ⟨.hbm, 997, rfl⟩
abbrev main_call38_c : Ref sig .tc := ⟨.hbm, 998, rfl⟩
abbrev main_call38_v0 : Ref sig .tc := ⟨.hbm, 999, rfl⟩
abbrev main_call38_v1 : Ref sig .tc := ⟨.hbm, 1000, rfl⟩
abbrev main_call38_c_0 : Ref sig .tc := ⟨.hbm, 1001, rfl⟩
abbrev main_call38_v2 : Ref sig .tc := ⟨.hbm, 1002, rfl⟩
abbrev main_call38_v3 : Ref sig .tc := ⟨.hbm, 1003, rfl⟩
abbrev main_call38_v4 : Ref sig .tc := ⟨.hbm, 1004, rfl⟩
abbrev main_call38_v5 : Ref sig .tc := ⟨.hbm, 1005, rfl⟩
abbrev main_call38_c_1 : Ref sig .tc := ⟨.hbm, 1006, rfl⟩
abbrev main_call38_c_2 : Ref sig .tc := ⟨.hbm, 1007, rfl⟩
abbrev main_call38_v6 : Ref sig .tc := ⟨.hbm, 1008, rfl⟩
abbrev main_call38_v7 : Ref sig .tc := ⟨.hbm, 1009, rfl⟩
abbrev main_call38_v8 : Ref sig .tc := ⟨.hbm, 1010, rfl⟩
abbrev main_call38_v9 : Ref sig .tc := ⟨.hbm, 1011, rfl⟩
abbrev main_call38_v10 : Ref sig .tc := ⟨.hbm, 1012, rfl⟩
abbrev main_call38_v11 : Ref sig .tc := ⟨.hbm, 1013, rfl⟩
abbrev main_call38_c_3 : Ref sig .tc := ⟨.hbm, 1014, rfl⟩
abbrev main_call38_v12 : Ref sig .tc := ⟨.hbm, 1015, rfl⟩
abbrev main_call38_v13 : Ref sig .tc := ⟨.hbm, 1016, rfl⟩
abbrev main_call38_v14 : Ref sig .tc := ⟨.hbm, 1017, rfl⟩
abbrev main_call38_cst : Ref sig .tc := ⟨.hbm, 1018, rfl⟩
abbrev main_call38_v15 : Ref sig .tc := ⟨.hbm, 1019, rfl⟩
abbrev main_v154 : Ref sig .tc := ⟨.hbm, 1020, rfl⟩
abbrev main_v155 : Ref sig .tc := ⟨.hbm, 1021, rfl⟩
abbrev main_v156 : Ref sig .tc := ⟨.hbm, 1022, rfl⟩
abbrev main_v157 : Ref sig .tc := ⟨.hbm, 1023, rfl⟩
abbrev main_call39_c : Ref sig .tc := ⟨.hbm, 1024, rfl⟩
abbrev main_call39_v0 : Ref sig .tc := ⟨.hbm, 1025, rfl⟩
abbrev main_call39_v1 : Ref sig .tc := ⟨.hbm, 1026, rfl⟩
abbrev main_call39_c_0 : Ref sig .tc := ⟨.hbm, 1027, rfl⟩
abbrev main_call39_v2 : Ref sig .tc := ⟨.hbm, 1028, rfl⟩
abbrev main_call39_v3 : Ref sig .tc := ⟨.hbm, 1029, rfl⟩
abbrev main_call39_v4 : Ref sig .tc := ⟨.hbm, 1030, rfl⟩
abbrev main_call39_v5 : Ref sig .tc := ⟨.hbm, 1031, rfl⟩
abbrev main_call39_c_1 : Ref sig .tc := ⟨.hbm, 1032, rfl⟩
abbrev main_call39_c_2 : Ref sig .tc := ⟨.hbm, 1033, rfl⟩
abbrev main_call39_v6 : Ref sig .tc := ⟨.hbm, 1034, rfl⟩
abbrev main_call39_v7 : Ref sig .tc := ⟨.hbm, 1035, rfl⟩
abbrev main_call39_v8 : Ref sig .tc := ⟨.hbm, 1036, rfl⟩
abbrev main_call39_v9 : Ref sig .tc := ⟨.hbm, 1037, rfl⟩
abbrev main_call39_v10 : Ref sig .tc := ⟨.hbm, 1038, rfl⟩
abbrev main_call39_v11 : Ref sig .tc := ⟨.hbm, 1039, rfl⟩
abbrev main_call39_c_3 : Ref sig .tc := ⟨.hbm, 1040, rfl⟩
abbrev main_call39_v12 : Ref sig .tc := ⟨.hbm, 1041, rfl⟩
abbrev main_call39_v13 : Ref sig .tc := ⟨.hbm, 1042, rfl⟩
abbrev main_call39_v14 : Ref sig .tc := ⟨.hbm, 1043, rfl⟩
abbrev main_call39_cst : Ref sig .tc := ⟨.hbm, 1044, rfl⟩
abbrev main_call39_v15 : Ref sig .tc := ⟨.hbm, 1045, rfl⟩
abbrev main_v158 : Ref sig .tc := ⟨.hbm, 1046, rfl⟩
abbrev main_v159 : Ref sig .tc := ⟨.hbm, 1047, rfl⟩
abbrev main_v160 : Ref sig .tc := ⟨.hbm, 1048, rfl⟩
abbrev main_v161 : Ref sig .tc := ⟨.hbm, 1049, rfl⟩
abbrev main_call40_c : Ref sig .tc := ⟨.hbm, 1050, rfl⟩
abbrev main_call40_v0 : Ref sig .tc := ⟨.hbm, 1051, rfl⟩
abbrev main_call40_v1 : Ref sig .tc := ⟨.hbm, 1052, rfl⟩
abbrev main_call40_c_0 : Ref sig .tc := ⟨.hbm, 1053, rfl⟩
abbrev main_call40_v2 : Ref sig .tc := ⟨.hbm, 1054, rfl⟩
abbrev main_call40_v3 : Ref sig .tc := ⟨.hbm, 1055, rfl⟩
abbrev main_call40_v4 : Ref sig .tc := ⟨.hbm, 1056, rfl⟩
abbrev main_call40_v5 : Ref sig .tc := ⟨.hbm, 1057, rfl⟩
abbrev main_call40_c_1 : Ref sig .tc := ⟨.hbm, 1058, rfl⟩
abbrev main_call40_c_2 : Ref sig .tc := ⟨.hbm, 1059, rfl⟩
abbrev main_call40_v6 : Ref sig .tc := ⟨.hbm, 1060, rfl⟩
abbrev main_call40_v7 : Ref sig .tc := ⟨.hbm, 1061, rfl⟩
abbrev main_call40_v8 : Ref sig .tc := ⟨.hbm, 1062, rfl⟩
abbrev main_call40_v9 : Ref sig .tc := ⟨.hbm, 1063, rfl⟩
abbrev main_call40_v10 : Ref sig .tc := ⟨.hbm, 1064, rfl⟩
abbrev main_call40_v11 : Ref sig .tc := ⟨.hbm, 1065, rfl⟩
abbrev main_call40_c_3 : Ref sig .tc := ⟨.hbm, 1066, rfl⟩
abbrev main_call40_v12 : Ref sig .tc := ⟨.hbm, 1067, rfl⟩
abbrev main_call40_v13 : Ref sig .tc := ⟨.hbm, 1068, rfl⟩
abbrev main_call40_v14 : Ref sig .tc := ⟨.hbm, 1069, rfl⟩
abbrev main_call40_cst : Ref sig .tc := ⟨.hbm, 1070, rfl⟩
abbrev main_call40_v15 : Ref sig .tc := ⟨.hbm, 1071, rfl⟩
abbrev main_v162 : Ref sig .tc := ⟨.hbm, 1072, rfl⟩
abbrev main_v163 : Ref sig .tc := ⟨.hbm, 1073, rfl⟩
abbrev main_v164 : Ref sig .tc := ⟨.hbm, 1074, rfl⟩
abbrev main_v165 : Ref sig .tc := ⟨.hbm, 1075, rfl⟩
abbrev main_call41_c : Ref sig .tc := ⟨.hbm, 1076, rfl⟩
abbrev main_call41_v0 : Ref sig .tc := ⟨.hbm, 1077, rfl⟩
abbrev main_call41_v1 : Ref sig .tc := ⟨.hbm, 1078, rfl⟩
abbrev main_call41_c_0 : Ref sig .tc := ⟨.hbm, 1079, rfl⟩
abbrev main_call41_v2 : Ref sig .tc := ⟨.hbm, 1080, rfl⟩
abbrev main_call41_v3 : Ref sig .tc := ⟨.hbm, 1081, rfl⟩
abbrev main_call41_v4 : Ref sig .tc := ⟨.hbm, 1082, rfl⟩
abbrev main_call41_v5 : Ref sig .tc := ⟨.hbm, 1083, rfl⟩
abbrev main_call41_c_1 : Ref sig .tc := ⟨.hbm, 1084, rfl⟩
abbrev main_call41_c_2 : Ref sig .tc := ⟨.hbm, 1085, rfl⟩
abbrev main_call41_v6 : Ref sig .tc := ⟨.hbm, 1086, rfl⟩
abbrev main_call41_v7 : Ref sig .tc := ⟨.hbm, 1087, rfl⟩
abbrev main_call41_v8 : Ref sig .tc := ⟨.hbm, 1088, rfl⟩
abbrev main_call41_v9 : Ref sig .tc := ⟨.hbm, 1089, rfl⟩
abbrev main_call41_v10 : Ref sig .tc := ⟨.hbm, 1090, rfl⟩
abbrev main_call41_v11 : Ref sig .tc := ⟨.hbm, 1091, rfl⟩
abbrev main_call41_c_3 : Ref sig .tc := ⟨.hbm, 1092, rfl⟩
abbrev main_call41_v12 : Ref sig .tc := ⟨.hbm, 1093, rfl⟩
abbrev main_call41_v13 : Ref sig .tc := ⟨.hbm, 1094, rfl⟩
abbrev main_call41_v14 : Ref sig .tc := ⟨.hbm, 1095, rfl⟩
abbrev main_call41_cst : Ref sig .tc := ⟨.hbm, 1096, rfl⟩
abbrev main_call41_v15 : Ref sig .tc := ⟨.hbm, 1097, rfl⟩
abbrev main_v166 : Ref sig .tc := ⟨.hbm, 1098, rfl⟩
abbrev main_v167 : Ref sig .tc := ⟨.hbm, 1099, rfl⟩
abbrev main_v168 : Ref sig .tc := ⟨.hbm, 1100, rfl⟩
abbrev main_v169 : Ref sig .tc := ⟨.hbm, 1101, rfl⟩
abbrev main_call42_c : Ref sig .tc := ⟨.hbm, 1102, rfl⟩
abbrev main_call42_v0 : Ref sig .tc := ⟨.hbm, 1103, rfl⟩
abbrev main_call42_v1 : Ref sig .tc := ⟨.hbm, 1104, rfl⟩
abbrev main_call42_c_0 : Ref sig .tc := ⟨.hbm, 1105, rfl⟩
abbrev main_call42_v2 : Ref sig .tc := ⟨.hbm, 1106, rfl⟩
abbrev main_call42_v3 : Ref sig .tc := ⟨.hbm, 1107, rfl⟩
abbrev main_call42_v4 : Ref sig .tc := ⟨.hbm, 1108, rfl⟩
abbrev main_call42_v5 : Ref sig .tc := ⟨.hbm, 1109, rfl⟩
abbrev main_call42_c_1 : Ref sig .tc := ⟨.hbm, 1110, rfl⟩
abbrev main_call42_c_2 : Ref sig .tc := ⟨.hbm, 1111, rfl⟩
abbrev main_call42_v6 : Ref sig .tc := ⟨.hbm, 1112, rfl⟩
abbrev main_call42_v7 : Ref sig .tc := ⟨.hbm, 1113, rfl⟩
abbrev main_call42_v8 : Ref sig .tc := ⟨.hbm, 1114, rfl⟩
abbrev main_call42_v9 : Ref sig .tc := ⟨.hbm, 1115, rfl⟩
abbrev main_call42_v10 : Ref sig .tc := ⟨.hbm, 1116, rfl⟩
abbrev main_call42_v11 : Ref sig .tc := ⟨.hbm, 1117, rfl⟩
abbrev main_call42_c_3 : Ref sig .tc := ⟨.hbm, 1118, rfl⟩
abbrev main_call42_v12 : Ref sig .tc := ⟨.hbm, 1119, rfl⟩
abbrev main_call42_v13 : Ref sig .tc := ⟨.hbm, 1120, rfl⟩
abbrev main_call42_v14 : Ref sig .tc := ⟨.hbm, 1121, rfl⟩
abbrev main_call42_cst : Ref sig .tc := ⟨.hbm, 1122, rfl⟩
abbrev main_call42_v15 : Ref sig .tc := ⟨.hbm, 1123, rfl⟩
abbrev main_v170 : Ref sig .tc := ⟨.hbm, 1124, rfl⟩
abbrev main_v171 : Ref sig .tc := ⟨.hbm, 1125, rfl⟩
abbrev main_v172 : Ref sig .tc := ⟨.hbm, 1126, rfl⟩
abbrev main_v173 : Ref sig .tc := ⟨.hbm, 1127, rfl⟩
abbrev main_call43_c : Ref sig .tc := ⟨.hbm, 1128, rfl⟩
abbrev main_call43_v0 : Ref sig .tc := ⟨.hbm, 1129, rfl⟩
abbrev main_call43_v1 : Ref sig .tc := ⟨.hbm, 1130, rfl⟩
abbrev main_call43_c_0 : Ref sig .tc := ⟨.hbm, 1131, rfl⟩
abbrev main_call43_v2 : Ref sig .tc := ⟨.hbm, 1132, rfl⟩
abbrev main_call43_v3 : Ref sig .tc := ⟨.hbm, 1133, rfl⟩
abbrev main_call43_v4 : Ref sig .tc := ⟨.hbm, 1134, rfl⟩
abbrev main_call43_v5 : Ref sig .tc := ⟨.hbm, 1135, rfl⟩
abbrev main_call43_c_1 : Ref sig .tc := ⟨.hbm, 1136, rfl⟩
abbrev main_call43_c_2 : Ref sig .tc := ⟨.hbm, 1137, rfl⟩
abbrev main_call43_v6 : Ref sig .tc := ⟨.hbm, 1138, rfl⟩
abbrev main_call43_v7 : Ref sig .tc := ⟨.hbm, 1139, rfl⟩
abbrev main_call43_v8 : Ref sig .tc := ⟨.hbm, 1140, rfl⟩
abbrev main_call43_v9 : Ref sig .tc := ⟨.hbm, 1141, rfl⟩
abbrev main_call43_v10 : Ref sig .tc := ⟨.hbm, 1142, rfl⟩
abbrev main_call43_v11 : Ref sig .tc := ⟨.hbm, 1143, rfl⟩
abbrev main_call43_c_3 : Ref sig .tc := ⟨.hbm, 1144, rfl⟩
abbrev main_call43_v12 : Ref sig .tc := ⟨.hbm, 1145, rfl⟩
abbrev main_call43_v13 : Ref sig .tc := ⟨.hbm, 1146, rfl⟩
abbrev main_call43_v14 : Ref sig .tc := ⟨.hbm, 1147, rfl⟩
abbrev main_call43_cst : Ref sig .tc := ⟨.hbm, 1148, rfl⟩
abbrev main_call43_v15 : Ref sig .tc := ⟨.hbm, 1149, rfl⟩
abbrev main_v174 : Ref sig .tc := ⟨.hbm, 1150, rfl⟩
abbrev main_v175 : Ref sig .tc := ⟨.hbm, 1151, rfl⟩
abbrev main_v176 : Ref sig .tc := ⟨.hbm, 1152, rfl⟩
abbrev main_v177 : Ref sig .tc := ⟨.hbm, 1153, rfl⟩
abbrev main_call44_c : Ref sig .tc := ⟨.hbm, 1154, rfl⟩
abbrev main_call44_v0 : Ref sig .tc := ⟨.hbm, 1155, rfl⟩
abbrev main_call44_v1 : Ref sig .tc := ⟨.hbm, 1156, rfl⟩
abbrev main_call44_c_0 : Ref sig .tc := ⟨.hbm, 1157, rfl⟩
abbrev main_call44_v2 : Ref sig .tc := ⟨.hbm, 1158, rfl⟩
abbrev main_call44_v3 : Ref sig .tc := ⟨.hbm, 1159, rfl⟩
abbrev main_call44_v4 : Ref sig .tc := ⟨.hbm, 1160, rfl⟩
abbrev main_call44_v5 : Ref sig .tc := ⟨.hbm, 1161, rfl⟩
abbrev main_call44_c_1 : Ref sig .tc := ⟨.hbm, 1162, rfl⟩
abbrev main_call44_c_2 : Ref sig .tc := ⟨.hbm, 1163, rfl⟩
abbrev main_call44_v6 : Ref sig .tc := ⟨.hbm, 1164, rfl⟩
abbrev main_call44_v7 : Ref sig .tc := ⟨.hbm, 1165, rfl⟩
abbrev main_call44_v8 : Ref sig .tc := ⟨.hbm, 1166, rfl⟩
abbrev main_call44_v9 : Ref sig .tc := ⟨.hbm, 1167, rfl⟩
abbrev main_call44_v10 : Ref sig .tc := ⟨.hbm, 1168, rfl⟩
abbrev main_call44_v11 : Ref sig .tc := ⟨.hbm, 1169, rfl⟩
abbrev main_call44_c_3 : Ref sig .tc := ⟨.hbm, 1170, rfl⟩
abbrev main_call44_v12 : Ref sig .tc := ⟨.hbm, 1171, rfl⟩
abbrev main_call44_v13 : Ref sig .tc := ⟨.hbm, 1172, rfl⟩
abbrev main_call44_v14 : Ref sig .tc := ⟨.hbm, 1173, rfl⟩
abbrev main_call44_cst : Ref sig .tc := ⟨.hbm, 1174, rfl⟩
abbrev main_call44_v15 : Ref sig .tc := ⟨.hbm, 1175, rfl⟩
abbrev main_v178 : Ref sig .tc := ⟨.hbm, 1176, rfl⟩
abbrev main_v179 : Ref sig .tc := ⟨.hbm, 1177, rfl⟩
abbrev main_v180 : Ref sig .tc := ⟨.hbm, 1178, rfl⟩
abbrev main_v181 : Ref sig .tc := ⟨.hbm, 1179, rfl⟩
abbrev main_call45_c : Ref sig .tc := ⟨.hbm, 1180, rfl⟩
abbrev main_call45_v0 : Ref sig .tc := ⟨.hbm, 1181, rfl⟩
abbrev main_call45_v1 : Ref sig .tc := ⟨.hbm, 1182, rfl⟩
abbrev main_call45_c_0 : Ref sig .tc := ⟨.hbm, 1183, rfl⟩
abbrev main_call45_v2 : Ref sig .tc := ⟨.hbm, 1184, rfl⟩
abbrev main_call45_v3 : Ref sig .tc := ⟨.hbm, 1185, rfl⟩
abbrev main_call45_v4 : Ref sig .tc := ⟨.hbm, 1186, rfl⟩
abbrev main_call45_v5 : Ref sig .tc := ⟨.hbm, 1187, rfl⟩
abbrev main_call45_c_1 : Ref sig .tc := ⟨.hbm, 1188, rfl⟩
abbrev main_call45_c_2 : Ref sig .tc := ⟨.hbm, 1189, rfl⟩
abbrev main_call45_v6 : Ref sig .tc := ⟨.hbm, 1190, rfl⟩
abbrev main_call45_v7 : Ref sig .tc := ⟨.hbm, 1191, rfl⟩
abbrev main_call45_v8 : Ref sig .tc := ⟨.hbm, 1192, rfl⟩
abbrev main_call45_v9 : Ref sig .tc := ⟨.hbm, 1193, rfl⟩
abbrev main_call45_v10 : Ref sig .tc := ⟨.hbm, 1194, rfl⟩
abbrev main_call45_v11 : Ref sig .tc := ⟨.hbm, 1195, rfl⟩
abbrev main_call45_c_3 : Ref sig .tc := ⟨.hbm, 1196, rfl⟩
abbrev main_call45_v12 : Ref sig .tc := ⟨.hbm, 1197, rfl⟩
abbrev main_call45_v13 : Ref sig .tc := ⟨.hbm, 1198, rfl⟩
abbrev main_call45_v14 : Ref sig .tc := ⟨.hbm, 1199, rfl⟩
abbrev main_call45_cst : Ref sig .tc := ⟨.hbm, 1200, rfl⟩
abbrev main_call45_v15 : Ref sig .tc := ⟨.hbm, 1201, rfl⟩
abbrev main_v182 : Ref sig .tc := ⟨.hbm, 1202, rfl⟩
abbrev main_v183 : Ref sig .tc := ⟨.hbm, 1203, rfl⟩
abbrev main_v184 : Ref sig .tc := ⟨.hbm, 1204, rfl⟩
abbrev main_v185 : Ref sig .tc := ⟨.hbm, 1205, rfl⟩
abbrev main_call46_c : Ref sig .tc := ⟨.hbm, 1206, rfl⟩
abbrev main_call46_v0 : Ref sig .tc := ⟨.hbm, 1207, rfl⟩
abbrev main_call46_v1 : Ref sig .tc := ⟨.hbm, 1208, rfl⟩
abbrev main_call46_c_0 : Ref sig .tc := ⟨.hbm, 1209, rfl⟩
abbrev main_call46_v2 : Ref sig .tc := ⟨.hbm, 1210, rfl⟩
abbrev main_call46_v3 : Ref sig .tc := ⟨.hbm, 1211, rfl⟩
abbrev main_call46_v4 : Ref sig .tc := ⟨.hbm, 1212, rfl⟩
abbrev main_call46_v5 : Ref sig .tc := ⟨.hbm, 1213, rfl⟩
abbrev main_call46_c_1 : Ref sig .tc := ⟨.hbm, 1214, rfl⟩
abbrev main_call46_c_2 : Ref sig .tc := ⟨.hbm, 1215, rfl⟩
abbrev main_call46_v6 : Ref sig .tc := ⟨.hbm, 1216, rfl⟩
abbrev main_call46_v7 : Ref sig .tc := ⟨.hbm, 1217, rfl⟩
abbrev main_call46_v8 : Ref sig .tc := ⟨.hbm, 1218, rfl⟩
abbrev main_call46_v9 : Ref sig .tc := ⟨.hbm, 1219, rfl⟩
abbrev main_call46_v10 : Ref sig .tc := ⟨.hbm, 1220, rfl⟩
abbrev main_call46_v11 : Ref sig .tc := ⟨.hbm, 1221, rfl⟩
abbrev main_call46_c_3 : Ref sig .tc := ⟨.hbm, 1222, rfl⟩
abbrev main_call46_v12 : Ref sig .tc := ⟨.hbm, 1223, rfl⟩
abbrev main_call46_v13 : Ref sig .tc := ⟨.hbm, 1224, rfl⟩
abbrev main_call46_v14 : Ref sig .tc := ⟨.hbm, 1225, rfl⟩
abbrev main_call46_cst : Ref sig .tc := ⟨.hbm, 1226, rfl⟩
abbrev main_call46_v15 : Ref sig .tc := ⟨.hbm, 1227, rfl⟩
abbrev main_v186 : Ref sig .tc := ⟨.hbm, 1228, rfl⟩
abbrev main_v187 : Ref sig .tc := ⟨.hbm, 1229, rfl⟩
abbrev main_v188 : Ref sig .tc := ⟨.hbm, 1230, rfl⟩
abbrev main_v189 : Ref sig .tc := ⟨.hbm, 1231, rfl⟩
abbrev main_call47_c : Ref sig .tc := ⟨.hbm, 1232, rfl⟩
abbrev main_call47_v0 : Ref sig .tc := ⟨.hbm, 1233, rfl⟩
abbrev main_call47_v1 : Ref sig .tc := ⟨.hbm, 1234, rfl⟩
abbrev main_call47_c_0 : Ref sig .tc := ⟨.hbm, 1235, rfl⟩
abbrev main_call47_v2 : Ref sig .tc := ⟨.hbm, 1236, rfl⟩
abbrev main_call47_v3 : Ref sig .tc := ⟨.hbm, 1237, rfl⟩
abbrev main_call47_v4 : Ref sig .tc := ⟨.hbm, 1238, rfl⟩
abbrev main_call47_v5 : Ref sig .tc := ⟨.hbm, 1239, rfl⟩
abbrev main_call47_c_1 : Ref sig .tc := ⟨.hbm, 1240, rfl⟩
abbrev main_call47_c_2 : Ref sig .tc := ⟨.hbm, 1241, rfl⟩
abbrev main_call47_v6 : Ref sig .tc := ⟨.hbm, 1242, rfl⟩
abbrev main_call47_v7 : Ref sig .tc := ⟨.hbm, 1243, rfl⟩
abbrev main_call47_v8 : Ref sig .tc := ⟨.hbm, 1244, rfl⟩
abbrev main_call47_v9 : Ref sig .tc := ⟨.hbm, 1245, rfl⟩
abbrev main_call47_v10 : Ref sig .tc := ⟨.hbm, 1246, rfl⟩
abbrev main_call47_v11 : Ref sig .tc := ⟨.hbm, 1247, rfl⟩
abbrev main_call47_c_3 : Ref sig .tc := ⟨.hbm, 1248, rfl⟩
abbrev main_call47_v12 : Ref sig .tc := ⟨.hbm, 1249, rfl⟩
abbrev main_call47_v13 : Ref sig .tc := ⟨.hbm, 1250, rfl⟩
abbrev main_call47_v14 : Ref sig .tc := ⟨.hbm, 1251, rfl⟩
abbrev main_call47_cst : Ref sig .tc := ⟨.hbm, 1252, rfl⟩
abbrev main_call47_v15 : Ref sig .tc := ⟨.hbm, 1253, rfl⟩
abbrev main_v190 : Ref sig .tc := ⟨.hbm, 1254, rfl⟩
abbrev main_v191 : Ref sig .tc := ⟨.hbm, 1255, rfl⟩
abbrev main_v192 : Ref sig .tc := ⟨.hbm, 1256, rfl⟩
abbrev main_v193 : Ref sig .tc := ⟨.hbm, 1257, rfl⟩
abbrev main_call48_c : Ref sig .tc := ⟨.hbm, 1258, rfl⟩
abbrev main_call48_v0 : Ref sig .tc := ⟨.hbm, 1259, rfl⟩
abbrev main_call48_v1 : Ref sig .tc := ⟨.hbm, 1260, rfl⟩
abbrev main_call48_c_0 : Ref sig .tc := ⟨.hbm, 1261, rfl⟩
abbrev main_call48_v2 : Ref sig .tc := ⟨.hbm, 1262, rfl⟩
abbrev main_call48_v3 : Ref sig .tc := ⟨.hbm, 1263, rfl⟩
abbrev main_call48_v4 : Ref sig .tc := ⟨.hbm, 1264, rfl⟩
abbrev main_call48_v5 : Ref sig .tc := ⟨.hbm, 1265, rfl⟩
abbrev main_call48_c_1 : Ref sig .tc := ⟨.hbm, 1266, rfl⟩
abbrev main_call48_c_2 : Ref sig .tc := ⟨.hbm, 1267, rfl⟩
abbrev main_call48_v6 : Ref sig .tc := ⟨.hbm, 1268, rfl⟩
abbrev main_call48_v7 : Ref sig .tc := ⟨.hbm, 1269, rfl⟩
abbrev main_call48_v8 : Ref sig .tc := ⟨.hbm, 1270, rfl⟩
abbrev main_call48_v9 : Ref sig .tc := ⟨.hbm, 1271, rfl⟩
abbrev main_call48_v10 : Ref sig .tc := ⟨.hbm, 1272, rfl⟩
abbrev main_call48_v11 : Ref sig .tc := ⟨.hbm, 1273, rfl⟩
abbrev main_call48_c_3 : Ref sig .tc := ⟨.hbm, 1274, rfl⟩
abbrev main_call48_v12 : Ref sig .tc := ⟨.hbm, 1275, rfl⟩
abbrev main_call48_v13 : Ref sig .tc := ⟨.hbm, 1276, rfl⟩
abbrev main_call48_v14 : Ref sig .tc := ⟨.hbm, 1277, rfl⟩
abbrev main_call48_cst : Ref sig .tc := ⟨.hbm, 1278, rfl⟩
abbrev main_call48_v15 : Ref sig .tc := ⟨.hbm, 1279, rfl⟩
abbrev main_v194 : Ref sig .tc := ⟨.hbm, 1280, rfl⟩
abbrev main_v195 : Ref sig .tc := ⟨.hbm, 1281, rfl⟩
abbrev main_v196 : Ref sig .tc := ⟨.hbm, 1282, rfl⟩
abbrev main_v197 : Ref sig .tc := ⟨.hbm, 1283, rfl⟩
abbrev main_call49_c : Ref sig .tc := ⟨.hbm, 1284, rfl⟩
abbrev main_call49_v0 : Ref sig .tc := ⟨.hbm, 1285, rfl⟩
abbrev main_call49_v1 : Ref sig .tc := ⟨.hbm, 1286, rfl⟩
abbrev main_call49_c_0 : Ref sig .tc := ⟨.hbm, 1287, rfl⟩
abbrev main_call49_v2 : Ref sig .tc := ⟨.hbm, 1288, rfl⟩
abbrev main_call49_v3 : Ref sig .tc := ⟨.hbm, 1289, rfl⟩
abbrev main_call49_v4 : Ref sig .tc := ⟨.hbm, 1290, rfl⟩
abbrev main_call49_v5 : Ref sig .tc := ⟨.hbm, 1291, rfl⟩
abbrev main_call49_c_1 : Ref sig .tc := ⟨.hbm, 1292, rfl⟩
abbrev main_call49_c_2 : Ref sig .tc := ⟨.hbm, 1293, rfl⟩
abbrev main_call49_v6 : Ref sig .tc := ⟨.hbm, 1294, rfl⟩
abbrev main_call49_v7 : Ref sig .tc := ⟨.hbm, 1295, rfl⟩
abbrev main_call49_v8 : Ref sig .tc := ⟨.hbm, 1296, rfl⟩
abbrev main_call49_v9 : Ref sig .tc := ⟨.hbm, 1297, rfl⟩
abbrev main_call49_v10 : Ref sig .tc := ⟨.hbm, 1298, rfl⟩
abbrev main_call49_v11 : Ref sig .tc := ⟨.hbm, 1299, rfl⟩
abbrev main_call49_c_3 : Ref sig .tc := ⟨.hbm, 1300, rfl⟩
abbrev main_call49_v12 : Ref sig .tc := ⟨.hbm, 1301, rfl⟩
abbrev main_call49_v13 : Ref sig .tc := ⟨.hbm, 1302, rfl⟩
abbrev main_call49_v14 : Ref sig .tc := ⟨.hbm, 1303, rfl⟩
abbrev main_call49_cst : Ref sig .tc := ⟨.hbm, 1304, rfl⟩
abbrev main_call49_v15 : Ref sig .tc := ⟨.hbm, 1305, rfl⟩
abbrev main_v198 : Ref sig .tc := ⟨.hbm, 1306, rfl⟩
abbrev main_v199 : Ref sig .tc := ⟨.hbm, 1307, rfl⟩
abbrev main_v200 : Ref sig .tc := ⟨.hbm, 1308, rfl⟩
abbrev main_v201 : Ref sig .tc := ⟨.hbm, 1309, rfl⟩
abbrev main_call50_c : Ref sig .tc := ⟨.hbm, 1310, rfl⟩
abbrev main_call50_v0 : Ref sig .tc := ⟨.hbm, 1311, rfl⟩
abbrev main_call50_v1 : Ref sig .tc := ⟨.hbm, 1312, rfl⟩
abbrev main_call50_c_0 : Ref sig .tc := ⟨.hbm, 1313, rfl⟩
abbrev main_call50_v2 : Ref sig .tc := ⟨.hbm, 1314, rfl⟩
abbrev main_call50_v3 : Ref sig .tc := ⟨.hbm, 1315, rfl⟩
abbrev main_call50_v4 : Ref sig .tc := ⟨.hbm, 1316, rfl⟩
abbrev main_call50_v5 : Ref sig .tc := ⟨.hbm, 1317, rfl⟩
abbrev main_call50_c_1 : Ref sig .tc := ⟨.hbm, 1318, rfl⟩
abbrev main_call50_c_2 : Ref sig .tc := ⟨.hbm, 1319, rfl⟩
abbrev main_call50_v6 : Ref sig .tc := ⟨.hbm, 1320, rfl⟩
abbrev main_call50_v7 : Ref sig .tc := ⟨.hbm, 1321, rfl⟩
abbrev main_call50_v8 : Ref sig .tc := ⟨.hbm, 1322, rfl⟩
abbrev main_call50_v9 : Ref sig .tc := ⟨.hbm, 1323, rfl⟩
abbrev main_call50_v10 : Ref sig .tc := ⟨.hbm, 1324, rfl⟩
abbrev main_call50_v11 : Ref sig .tc := ⟨.hbm, 1325, rfl⟩
abbrev main_call50_c_3 : Ref sig .tc := ⟨.hbm, 1326, rfl⟩
abbrev main_call50_v12 : Ref sig .tc := ⟨.hbm, 1327, rfl⟩
abbrev main_call50_v13 : Ref sig .tc := ⟨.hbm, 1328, rfl⟩
abbrev main_call50_v14 : Ref sig .tc := ⟨.hbm, 1329, rfl⟩
abbrev main_call50_cst : Ref sig .tc := ⟨.hbm, 1330, rfl⟩
abbrev main_call50_v15 : Ref sig .tc := ⟨.hbm, 1331, rfl⟩
abbrev main_v202 : Ref sig .tc := ⟨.hbm, 1332, rfl⟩
abbrev main_v203 : Ref sig .tc := ⟨.hbm, 1333, rfl⟩
abbrev main_v204 : Ref sig .tc := ⟨.hbm, 1334, rfl⟩
abbrev main_v205 : Ref sig .tc := ⟨.hbm, 1335, rfl⟩
abbrev main_call51_c : Ref sig .tc := ⟨.hbm, 1336, rfl⟩
abbrev main_call51_v0 : Ref sig .tc := ⟨.hbm, 1337, rfl⟩
abbrev main_call51_v1 : Ref sig .tc := ⟨.hbm, 1338, rfl⟩
abbrev main_call51_c_0 : Ref sig .tc := ⟨.hbm, 1339, rfl⟩
abbrev main_call51_v2 : Ref sig .tc := ⟨.hbm, 1340, rfl⟩
abbrev main_call51_v3 : Ref sig .tc := ⟨.hbm, 1341, rfl⟩
abbrev main_call51_v4 : Ref sig .tc := ⟨.hbm, 1342, rfl⟩
abbrev main_call51_v5 : Ref sig .tc := ⟨.hbm, 1343, rfl⟩
abbrev main_call51_c_1 : Ref sig .tc := ⟨.hbm, 1344, rfl⟩
abbrev main_call51_c_2 : Ref sig .tc := ⟨.hbm, 1345, rfl⟩
abbrev main_call51_v6 : Ref sig .tc := ⟨.hbm, 1346, rfl⟩
abbrev main_call51_v7 : Ref sig .tc := ⟨.hbm, 1347, rfl⟩
abbrev main_call51_v8 : Ref sig .tc := ⟨.hbm, 1348, rfl⟩
abbrev main_call51_v9 : Ref sig .tc := ⟨.hbm, 1349, rfl⟩
abbrev main_call51_v10 : Ref sig .tc := ⟨.hbm, 1350, rfl⟩
abbrev main_call51_v11 : Ref sig .tc := ⟨.hbm, 1351, rfl⟩
abbrev main_call51_c_3 : Ref sig .tc := ⟨.hbm, 1352, rfl⟩
abbrev main_call51_v12 : Ref sig .tc := ⟨.hbm, 1353, rfl⟩
abbrev main_call51_v13 : Ref sig .tc := ⟨.hbm, 1354, rfl⟩
abbrev main_call51_v14 : Ref sig .tc := ⟨.hbm, 1355, rfl⟩
abbrev main_call51_cst : Ref sig .tc := ⟨.hbm, 1356, rfl⟩
abbrev main_call51_v15 : Ref sig .tc := ⟨.hbm, 1357, rfl⟩
abbrev main_v206 : Ref sig .tc := ⟨.hbm, 1358, rfl⟩
abbrev main_v207 : Ref sig .tc := ⟨.hbm, 1359, rfl⟩
abbrev main_v208 : Ref sig .tc := ⟨.hbm, 1360, rfl⟩
abbrev main_v209 : Ref sig .tc := ⟨.hbm, 1361, rfl⟩
abbrev main_call52_c : Ref sig .tc := ⟨.hbm, 1362, rfl⟩
abbrev main_call52_v0 : Ref sig .tc := ⟨.hbm, 1363, rfl⟩
abbrev main_call52_v1 : Ref sig .tc := ⟨.hbm, 1364, rfl⟩
abbrev main_call52_c_0 : Ref sig .tc := ⟨.hbm, 1365, rfl⟩
abbrev main_call52_v2 : Ref sig .tc := ⟨.hbm, 1366, rfl⟩
abbrev main_call52_v3 : Ref sig .tc := ⟨.hbm, 1367, rfl⟩
abbrev main_call52_v4 : Ref sig .tc := ⟨.hbm, 1368, rfl⟩
abbrev main_call52_v5 : Ref sig .tc := ⟨.hbm, 1369, rfl⟩
abbrev main_call52_c_1 : Ref sig .tc := ⟨.hbm, 1370, rfl⟩
abbrev main_call52_c_2 : Ref sig .tc := ⟨.hbm, 1371, rfl⟩
abbrev main_call52_v6 : Ref sig .tc := ⟨.hbm, 1372, rfl⟩
abbrev main_call52_v7 : Ref sig .tc := ⟨.hbm, 1373, rfl⟩
abbrev main_call52_v8 : Ref sig .tc := ⟨.hbm, 1374, rfl⟩
abbrev main_call52_v9 : Ref sig .tc := ⟨.hbm, 1375, rfl⟩
abbrev main_call52_v10 : Ref sig .tc := ⟨.hbm, 1376, rfl⟩
abbrev main_call52_v11 : Ref sig .tc := ⟨.hbm, 1377, rfl⟩
abbrev main_call52_c_3 : Ref sig .tc := ⟨.hbm, 1378, rfl⟩
abbrev main_call52_v12 : Ref sig .tc := ⟨.hbm, 1379, rfl⟩
abbrev main_call52_v13 : Ref sig .tc := ⟨.hbm, 1380, rfl⟩
abbrev main_call52_v14 : Ref sig .tc := ⟨.hbm, 1381, rfl⟩
abbrev main_call52_cst : Ref sig .tc := ⟨.hbm, 1382, rfl⟩
abbrev main_call52_v15 : Ref sig .tc := ⟨.hbm, 1383, rfl⟩
abbrev main_v210 : Ref sig .tc := ⟨.hbm, 1384, rfl⟩
abbrev main_v211 : Ref sig .tc := ⟨.hbm, 1385, rfl⟩
abbrev main_v212 : Ref sig .tc := ⟨.hbm, 1386, rfl⟩
abbrev main_v213 : Ref sig .tc := ⟨.hbm, 1387, rfl⟩
abbrev main_call53_c : Ref sig .tc := ⟨.hbm, 1388, rfl⟩
abbrev main_call53_v0 : Ref sig .tc := ⟨.hbm, 1389, rfl⟩
abbrev main_call53_v1 : Ref sig .tc := ⟨.hbm, 1390, rfl⟩
abbrev main_call53_c_0 : Ref sig .tc := ⟨.hbm, 1391, rfl⟩
abbrev main_call53_v2 : Ref sig .tc := ⟨.hbm, 1392, rfl⟩
abbrev main_call53_v3 : Ref sig .tc := ⟨.hbm, 1393, rfl⟩
abbrev main_call53_v4 : Ref sig .tc := ⟨.hbm, 1394, rfl⟩
abbrev main_call53_v5 : Ref sig .tc := ⟨.hbm, 1395, rfl⟩
abbrev main_call53_c_1 : Ref sig .tc := ⟨.hbm, 1396, rfl⟩
abbrev main_call53_c_2 : Ref sig .tc := ⟨.hbm, 1397, rfl⟩
abbrev main_call53_v6 : Ref sig .tc := ⟨.hbm, 1398, rfl⟩
abbrev main_call53_v7 : Ref sig .tc := ⟨.hbm, 1399, rfl⟩
abbrev main_call53_v8 : Ref sig .tc := ⟨.hbm, 1400, rfl⟩
abbrev main_call53_v9 : Ref sig .tc := ⟨.hbm, 1401, rfl⟩
abbrev main_call53_v10 : Ref sig .tc := ⟨.hbm, 1402, rfl⟩
abbrev main_call53_v11 : Ref sig .tc := ⟨.hbm, 1403, rfl⟩
abbrev main_call53_c_3 : Ref sig .tc := ⟨.hbm, 1404, rfl⟩
abbrev main_call53_v12 : Ref sig .tc := ⟨.hbm, 1405, rfl⟩
abbrev main_call53_v13 : Ref sig .tc := ⟨.hbm, 1406, rfl⟩
abbrev main_call53_v14 : Ref sig .tc := ⟨.hbm, 1407, rfl⟩
abbrev main_call53_cst : Ref sig .tc := ⟨.hbm, 1408, rfl⟩
abbrev main_call53_v15 : Ref sig .tc := ⟨.hbm, 1409, rfl⟩
abbrev main_v214 : Ref sig .tc := ⟨.hbm, 1410, rfl⟩
abbrev main_v215 : Ref sig .tc := ⟨.hbm, 1411, rfl⟩
abbrev main_v216 : Ref sig .tc := ⟨.hbm, 1412, rfl⟩
abbrev main_v217 : Ref sig .tc := ⟨.hbm, 1413, rfl⟩
abbrev main_call54_c : Ref sig .tc := ⟨.hbm, 1414, rfl⟩
abbrev main_call54_v0 : Ref sig .tc := ⟨.hbm, 1415, rfl⟩
abbrev main_call54_v1 : Ref sig .tc := ⟨.hbm, 1416, rfl⟩
abbrev main_call54_c_0 : Ref sig .tc := ⟨.hbm, 1417, rfl⟩
abbrev main_call54_v2 : Ref sig .tc := ⟨.hbm, 1418, rfl⟩
abbrev main_call54_v3 : Ref sig .tc := ⟨.hbm, 1419, rfl⟩
abbrev main_call54_v4 : Ref sig .tc := ⟨.hbm, 1420, rfl⟩
abbrev main_call54_v5 : Ref sig .tc := ⟨.hbm, 1421, rfl⟩
abbrev main_call54_c_1 : Ref sig .tc := ⟨.hbm, 1422, rfl⟩
abbrev main_call54_c_2 : Ref sig .tc := ⟨.hbm, 1423, rfl⟩
abbrev main_call54_v6 : Ref sig .tc := ⟨.hbm, 1424, rfl⟩
abbrev main_call54_v7 : Ref sig .tc := ⟨.hbm, 1425, rfl⟩
abbrev main_call54_v8 : Ref sig .tc := ⟨.hbm, 1426, rfl⟩
abbrev main_call54_v9 : Ref sig .tc := ⟨.hbm, 1427, rfl⟩
abbrev main_call54_v10 : Ref sig .tc := ⟨.hbm, 1428, rfl⟩
abbrev main_call54_v11 : Ref sig .tc := ⟨.hbm, 1429, rfl⟩
abbrev main_call54_c_3 : Ref sig .tc := ⟨.hbm, 1430, rfl⟩
abbrev main_call54_v12 : Ref sig .tc := ⟨.hbm, 1431, rfl⟩
abbrev main_call54_v13 : Ref sig .tc := ⟨.hbm, 1432, rfl⟩
abbrev main_call54_v14 : Ref sig .tc := ⟨.hbm, 1433, rfl⟩
abbrev main_call54_cst : Ref sig .tc := ⟨.hbm, 1434, rfl⟩
abbrev main_call54_v15 : Ref sig .tc := ⟨.hbm, 1435, rfl⟩
abbrev main_v218 : Ref sig .tc := ⟨.hbm, 1436, rfl⟩
abbrev main_v219 : Ref sig .tc := ⟨.hbm, 1437, rfl⟩
abbrev main_v220 : Ref sig .tc := ⟨.hbm, 1438, rfl⟩
abbrev main_v221 : Ref sig .tc := ⟨.hbm, 1439, rfl⟩
abbrev main_call55_c : Ref sig .tc := ⟨.hbm, 1440, rfl⟩
abbrev main_call55_v0 : Ref sig .tc := ⟨.hbm, 1441, rfl⟩
abbrev main_call55_v1 : Ref sig .tc := ⟨.hbm, 1442, rfl⟩
abbrev main_call55_c_0 : Ref sig .tc := ⟨.hbm, 1443, rfl⟩
abbrev main_call55_v2 : Ref sig .tc := ⟨.hbm, 1444, rfl⟩
abbrev main_call55_v3 : Ref sig .tc := ⟨.hbm, 1445, rfl⟩
abbrev main_call55_v4 : Ref sig .tc := ⟨.hbm, 1446, rfl⟩
abbrev main_call55_v5 : Ref sig .tc := ⟨.hbm, 1447, rfl⟩
abbrev main_call55_c_1 : Ref sig .tc := ⟨.hbm, 1448, rfl⟩
abbrev main_call55_c_2 : Ref sig .tc := ⟨.hbm, 1449, rfl⟩
abbrev main_call55_v6 : Ref sig .tc := ⟨.hbm, 1450, rfl⟩
abbrev main_call55_v7 : Ref sig .tc := ⟨.hbm, 1451, rfl⟩
abbrev main_call55_v8 : Ref sig .tc := ⟨.hbm, 1452, rfl⟩
abbrev main_call55_v9 : Ref sig .tc := ⟨.hbm, 1453, rfl⟩
abbrev main_call55_v10 : Ref sig .tc := ⟨.hbm, 1454, rfl⟩
abbrev main_call55_v11 : Ref sig .tc := ⟨.hbm, 1455, rfl⟩
abbrev main_call55_c_3 : Ref sig .tc := ⟨.hbm, 1456, rfl⟩
abbrev main_call55_v12 : Ref sig .tc := ⟨.hbm, 1457, rfl⟩
abbrev main_call55_v13 : Ref sig .tc := ⟨.hbm, 1458, rfl⟩
abbrev main_call55_v14 : Ref sig .tc := ⟨.hbm, 1459, rfl⟩
abbrev main_call55_cst : Ref sig .tc := ⟨.hbm, 1460, rfl⟩
abbrev main_call55_v15 : Ref sig .tc := ⟨.hbm, 1461, rfl⟩
abbrev main_v222 : Ref sig .tc := ⟨.hbm, 1462, rfl⟩
abbrev main_v223 : Ref sig .tc := ⟨.hbm, 1463, rfl⟩
abbrev main_v224 : Ref sig .tc := ⟨.hbm, 1464, rfl⟩
abbrev main_v225 : Ref sig .tc := ⟨.hbm, 1465, rfl⟩
abbrev main_call56_c : Ref sig .tc := ⟨.hbm, 1466, rfl⟩
abbrev main_call56_v0 : Ref sig .tc := ⟨.hbm, 1467, rfl⟩
abbrev main_call56_v1 : Ref sig .tc := ⟨.hbm, 1468, rfl⟩
abbrev main_call56_c_0 : Ref sig .tc := ⟨.hbm, 1469, rfl⟩
abbrev main_call56_v2 : Ref sig .tc := ⟨.hbm, 1470, rfl⟩
abbrev main_call56_v3 : Ref sig .tc := ⟨.hbm, 1471, rfl⟩
abbrev main_call56_v4 : Ref sig .tc := ⟨.hbm, 1472, rfl⟩
abbrev main_call56_v5 : Ref sig .tc := ⟨.hbm, 1473, rfl⟩
abbrev main_call56_c_1 : Ref sig .tc := ⟨.hbm, 1474, rfl⟩
abbrev main_call56_c_2 : Ref sig .tc := ⟨.hbm, 1475, rfl⟩
abbrev main_call56_v6 : Ref sig .tc := ⟨.hbm, 1476, rfl⟩
abbrev main_call56_v7 : Ref sig .tc := ⟨.hbm, 1477, rfl⟩
abbrev main_call56_v8 : Ref sig .tc := ⟨.hbm, 1478, rfl⟩
abbrev main_call56_v9 : Ref sig .tc := ⟨.hbm, 1479, rfl⟩
abbrev main_call56_v10 : Ref sig .tc := ⟨.hbm, 1480, rfl⟩
abbrev main_call56_v11 : Ref sig .tc := ⟨.hbm, 1481, rfl⟩
abbrev main_call56_c_3 : Ref sig .tc := ⟨.hbm, 1482, rfl⟩
abbrev main_call56_v12 : Ref sig .tc := ⟨.hbm, 1483, rfl⟩
abbrev main_call56_v13 : Ref sig .tc := ⟨.hbm, 1484, rfl⟩
abbrev main_call56_v14 : Ref sig .tc := ⟨.hbm, 1485, rfl⟩
abbrev main_call56_cst : Ref sig .tc := ⟨.hbm, 1486, rfl⟩
abbrev main_call56_v15 : Ref sig .tc := ⟨.hbm, 1487, rfl⟩
abbrev main_v226 : Ref sig .tc := ⟨.hbm, 1488, rfl⟩
abbrev main_v227 : Ref sig .tc := ⟨.hbm, 1489, rfl⟩
abbrev main_v228 : Ref sig .tc := ⟨.hbm, 1490, rfl⟩
abbrev main_v229 : Ref sig .tc := ⟨.hbm, 1491, rfl⟩
abbrev main_call57_c : Ref sig .tc := ⟨.hbm, 1492, rfl⟩
abbrev main_call57_v0 : Ref sig .tc := ⟨.hbm, 1493, rfl⟩
abbrev main_call57_v1 : Ref sig .tc := ⟨.hbm, 1494, rfl⟩
abbrev main_call57_c_0 : Ref sig .tc := ⟨.hbm, 1495, rfl⟩
abbrev main_call57_v2 : Ref sig .tc := ⟨.hbm, 1496, rfl⟩
abbrev main_call57_v3 : Ref sig .tc := ⟨.hbm, 1497, rfl⟩
abbrev main_call57_v4 : Ref sig .tc := ⟨.hbm, 1498, rfl⟩
abbrev main_call57_v5 : Ref sig .tc := ⟨.hbm, 1499, rfl⟩
abbrev main_call57_c_1 : Ref sig .tc := ⟨.hbm, 1500, rfl⟩
abbrev main_call57_c_2 : Ref sig .tc := ⟨.hbm, 1501, rfl⟩
abbrev main_call57_v6 : Ref sig .tc := ⟨.hbm, 1502, rfl⟩
abbrev main_call57_v7 : Ref sig .tc := ⟨.hbm, 1503, rfl⟩
abbrev main_call57_v8 : Ref sig .tc := ⟨.hbm, 1504, rfl⟩
abbrev main_call57_v9 : Ref sig .tc := ⟨.hbm, 1505, rfl⟩
abbrev main_call57_v10 : Ref sig .tc := ⟨.hbm, 1506, rfl⟩
abbrev main_call57_v11 : Ref sig .tc := ⟨.hbm, 1507, rfl⟩
abbrev main_call57_c_3 : Ref sig .tc := ⟨.hbm, 1508, rfl⟩
abbrev main_call57_v12 : Ref sig .tc := ⟨.hbm, 1509, rfl⟩
abbrev main_call57_v13 : Ref sig .tc := ⟨.hbm, 1510, rfl⟩
abbrev main_call57_v14 : Ref sig .tc := ⟨.hbm, 1511, rfl⟩
abbrev main_call57_cst : Ref sig .tc := ⟨.hbm, 1512, rfl⟩
abbrev main_call57_v15 : Ref sig .tc := ⟨.hbm, 1513, rfl⟩
abbrev main_v230 : Ref sig .tc := ⟨.hbm, 1514, rfl⟩
abbrev main_v231 : Ref sig .tc := ⟨.hbm, 1515, rfl⟩
abbrev main_v232 : Ref sig .tc := ⟨.hbm, 1516, rfl⟩
abbrev main_v233 : Ref sig .tc := ⟨.hbm, 1517, rfl⟩
abbrev main_call58_c : Ref sig .tc := ⟨.hbm, 1518, rfl⟩
abbrev main_call58_v0 : Ref sig .tc := ⟨.hbm, 1519, rfl⟩
abbrev main_call58_v1 : Ref sig .tc := ⟨.hbm, 1520, rfl⟩
abbrev main_call58_c_0 : Ref sig .tc := ⟨.hbm, 1521, rfl⟩
abbrev main_call58_v2 : Ref sig .tc := ⟨.hbm, 1522, rfl⟩
abbrev main_call58_v3 : Ref sig .tc := ⟨.hbm, 1523, rfl⟩
abbrev main_call58_v4 : Ref sig .tc := ⟨.hbm, 1524, rfl⟩
abbrev main_call58_v5 : Ref sig .tc := ⟨.hbm, 1525, rfl⟩
abbrev main_call58_c_1 : Ref sig .tc := ⟨.hbm, 1526, rfl⟩
abbrev main_call58_c_2 : Ref sig .tc := ⟨.hbm, 1527, rfl⟩
abbrev main_call58_v6 : Ref sig .tc := ⟨.hbm, 1528, rfl⟩
abbrev main_call58_v7 : Ref sig .tc := ⟨.hbm, 1529, rfl⟩
abbrev main_call58_v8 : Ref sig .tc := ⟨.hbm, 1530, rfl⟩
abbrev main_call58_v9 : Ref sig .tc := ⟨.hbm, 1531, rfl⟩
abbrev main_call58_v10 : Ref sig .tc := ⟨.hbm, 1532, rfl⟩
abbrev main_call58_v11 : Ref sig .tc := ⟨.hbm, 1533, rfl⟩
abbrev main_call58_c_3 : Ref sig .tc := ⟨.hbm, 1534, rfl⟩
abbrev main_call58_v12 : Ref sig .tc := ⟨.hbm, 1535, rfl⟩
abbrev main_call58_v13 : Ref sig .tc := ⟨.hbm, 1536, rfl⟩
abbrev main_call58_v14 : Ref sig .tc := ⟨.hbm, 1537, rfl⟩
abbrev main_call58_cst : Ref sig .tc := ⟨.hbm, 1538, rfl⟩
abbrev main_call58_v15 : Ref sig .tc := ⟨.hbm, 1539, rfl⟩
abbrev main_v234 : Ref sig .tc := ⟨.hbm, 1540, rfl⟩
abbrev main_v235 : Ref sig .tc := ⟨.hbm, 1541, rfl⟩
abbrev main_v236 : Ref sig .tc := ⟨.hbm, 1542, rfl⟩
abbrev main_v237 : Ref sig .tc := ⟨.hbm, 1543, rfl⟩
abbrev main_call59_c : Ref sig .tc := ⟨.hbm, 1544, rfl⟩
abbrev main_call59_v0 : Ref sig .tc := ⟨.hbm, 1545, rfl⟩
abbrev main_call59_v1 : Ref sig .tc := ⟨.hbm, 1546, rfl⟩
abbrev main_call59_c_0 : Ref sig .tc := ⟨.hbm, 1547, rfl⟩
abbrev main_call59_v2 : Ref sig .tc := ⟨.hbm, 1548, rfl⟩
abbrev main_call59_v3 : Ref sig .tc := ⟨.hbm, 1549, rfl⟩
abbrev main_call59_v4 : Ref sig .tc := ⟨.hbm, 1550, rfl⟩
abbrev main_call59_v5 : Ref sig .tc := ⟨.hbm, 1551, rfl⟩
abbrev main_call59_c_1 : Ref sig .tc := ⟨.hbm, 1552, rfl⟩
abbrev main_call59_c_2 : Ref sig .tc := ⟨.hbm, 1553, rfl⟩
abbrev main_call59_v6 : Ref sig .tc := ⟨.hbm, 1554, rfl⟩
abbrev main_call59_v7 : Ref sig .tc := ⟨.hbm, 1555, rfl⟩
abbrev main_call59_v8 : Ref sig .tc := ⟨.hbm, 1556, rfl⟩
abbrev main_call59_v9 : Ref sig .tc := ⟨.hbm, 1557, rfl⟩
abbrev main_call59_v10 : Ref sig .tc := ⟨.hbm, 1558, rfl⟩
abbrev main_call59_v11 : Ref sig .tc := ⟨.hbm, 1559, rfl⟩
abbrev main_call59_c_3 : Ref sig .tc := ⟨.hbm, 1560, rfl⟩
abbrev main_call59_v12 : Ref sig .tc := ⟨.hbm, 1561, rfl⟩
abbrev main_call59_v13 : Ref sig .tc := ⟨.hbm, 1562, rfl⟩
abbrev main_call59_v14 : Ref sig .tc := ⟨.hbm, 1563, rfl⟩
abbrev main_call59_cst : Ref sig .tc := ⟨.hbm, 1564, rfl⟩
abbrev main_call59_v15 : Ref sig .tc := ⟨.hbm, 1565, rfl⟩
abbrev main_v238 : Ref sig .tc := ⟨.hbm, 1566, rfl⟩
abbrev main_v239 : Ref sig .tc := ⟨.hbm, 1567, rfl⟩
abbrev main_v240 : Ref sig .tc := ⟨.hbm, 1568, rfl⟩
abbrev main_v241 : Ref sig .tc := ⟨.hbm, 1569, rfl⟩
abbrev main_call60_c : Ref sig .tc := ⟨.hbm, 1570, rfl⟩
abbrev main_call60_v0 : Ref sig .tc := ⟨.hbm, 1571, rfl⟩
abbrev main_call60_v1 : Ref sig .tc := ⟨.hbm, 1572, rfl⟩
abbrev main_call60_c_0 : Ref sig .tc := ⟨.hbm, 1573, rfl⟩
abbrev main_call60_v2 : Ref sig .tc := ⟨.hbm, 1574, rfl⟩
abbrev main_call60_v3 : Ref sig .tc := ⟨.hbm, 1575, rfl⟩
abbrev main_call60_v4 : Ref sig .tc := ⟨.hbm, 1576, rfl⟩
abbrev main_call60_v5 : Ref sig .tc := ⟨.hbm, 1577, rfl⟩
abbrev main_call60_c_1 : Ref sig .tc := ⟨.hbm, 1578, rfl⟩
abbrev main_call60_c_2 : Ref sig .tc := ⟨.hbm, 1579, rfl⟩
abbrev main_call60_v6 : Ref sig .tc := ⟨.hbm, 1580, rfl⟩
abbrev main_call60_v7 : Ref sig .tc := ⟨.hbm, 1581, rfl⟩
abbrev main_call60_v8 : Ref sig .tc := ⟨.hbm, 1582, rfl⟩
abbrev main_call60_v9 : Ref sig .tc := ⟨.hbm, 1583, rfl⟩
abbrev main_call60_v10 : Ref sig .tc := ⟨.hbm, 1584, rfl⟩
abbrev main_call60_v11 : Ref sig .tc := ⟨.hbm, 1585, rfl⟩
abbrev main_call60_c_3 : Ref sig .tc := ⟨.hbm, 1586, rfl⟩
abbrev main_call60_v12 : Ref sig .tc := ⟨.hbm, 1587, rfl⟩
abbrev main_call60_v13 : Ref sig .tc := ⟨.hbm, 1588, rfl⟩
abbrev main_call60_v14 : Ref sig .tc := ⟨.hbm, 1589, rfl⟩
abbrev main_call60_cst : Ref sig .tc := ⟨.hbm, 1590, rfl⟩
abbrev main_call60_v15 : Ref sig .tc := ⟨.hbm, 1591, rfl⟩
abbrev main_v242 : Ref sig .tc := ⟨.hbm, 1592, rfl⟩
abbrev main_v243 : Ref sig .tc := ⟨.hbm, 1593, rfl⟩
abbrev main_v244 : Ref sig .tc := ⟨.hbm, 1594, rfl⟩
abbrev main_v245 : Ref sig .tc := ⟨.hbm, 1595, rfl⟩
abbrev main_call61_c : Ref sig .tc := ⟨.hbm, 1596, rfl⟩
abbrev main_call61_v0 : Ref sig .tc := ⟨.hbm, 1597, rfl⟩
abbrev main_call61_v1 : Ref sig .tc := ⟨.hbm, 1598, rfl⟩
abbrev main_call61_c_0 : Ref sig .tc := ⟨.hbm, 1599, rfl⟩
abbrev main_call61_v2 : Ref sig .tc := ⟨.hbm, 1600, rfl⟩
abbrev main_call61_v3 : Ref sig .tc := ⟨.hbm, 1601, rfl⟩
abbrev main_call61_v4 : Ref sig .tc := ⟨.hbm, 1602, rfl⟩
abbrev main_call61_v5 : Ref sig .tc := ⟨.hbm, 1603, rfl⟩
abbrev main_call61_c_1 : Ref sig .tc := ⟨.hbm, 1604, rfl⟩
abbrev main_call61_c_2 : Ref sig .tc := ⟨.hbm, 1605, rfl⟩
abbrev main_call61_v6 : Ref sig .tc := ⟨.hbm, 1606, rfl⟩
abbrev main_call61_v7 : Ref sig .tc := ⟨.hbm, 1607, rfl⟩
abbrev main_call61_v8 : Ref sig .tc := ⟨.hbm, 1608, rfl⟩
abbrev main_call61_v9 : Ref sig .tc := ⟨.hbm, 1609, rfl⟩
abbrev main_call61_v10 : Ref sig .tc := ⟨.hbm, 1610, rfl⟩
abbrev main_call61_v11 : Ref sig .tc := ⟨.hbm, 1611, rfl⟩
abbrev main_call61_c_3 : Ref sig .tc := ⟨.hbm, 1612, rfl⟩
abbrev main_call61_v12 : Ref sig .tc := ⟨.hbm, 1613, rfl⟩
abbrev main_call61_v13 : Ref sig .tc := ⟨.hbm, 1614, rfl⟩
abbrev main_call61_v14 : Ref sig .tc := ⟨.hbm, 1615, rfl⟩
abbrev main_call61_cst : Ref sig .tc := ⟨.hbm, 1616, rfl⟩
abbrev main_call61_v15 : Ref sig .tc := ⟨.hbm, 1617, rfl⟩
abbrev main_v246 : Ref sig .tc := ⟨.hbm, 1618, rfl⟩
abbrev main_v247 : Ref sig .tc := ⟨.hbm, 1619, rfl⟩
abbrev main_v248 : Ref sig .tc := ⟨.hbm, 1620, rfl⟩
abbrev main_v249 : Ref sig .tc := ⟨.hbm, 1621, rfl⟩
abbrev main_call62_c : Ref sig .tc := ⟨.hbm, 1622, rfl⟩
abbrev main_call62_v0 : Ref sig .tc := ⟨.hbm, 1623, rfl⟩
abbrev main_call62_v1 : Ref sig .tc := ⟨.hbm, 1624, rfl⟩
abbrev main_call62_c_0 : Ref sig .tc := ⟨.hbm, 1625, rfl⟩
abbrev main_call62_v2 : Ref sig .tc := ⟨.hbm, 1626, rfl⟩
abbrev main_call62_v3 : Ref sig .tc := ⟨.hbm, 1627, rfl⟩
abbrev main_call62_v4 : Ref sig .tc := ⟨.hbm, 1628, rfl⟩
abbrev main_call62_v5 : Ref sig .tc := ⟨.hbm, 1629, rfl⟩
abbrev main_call62_c_1 : Ref sig .tc := ⟨.hbm, 1630, rfl⟩
abbrev main_call62_c_2 : Ref sig .tc := ⟨.hbm, 1631, rfl⟩
abbrev main_call62_v6 : Ref sig .tc := ⟨.hbm, 1632, rfl⟩
abbrev main_call62_v7 : Ref sig .tc := ⟨.hbm, 1633, rfl⟩
abbrev main_call62_v8 : Ref sig .tc := ⟨.hbm, 1634, rfl⟩
abbrev main_call62_v9 : Ref sig .tc := ⟨.hbm, 1635, rfl⟩
abbrev main_call62_v10 : Ref sig .tc := ⟨.hbm, 1636, rfl⟩
abbrev main_call62_v11 : Ref sig .tc := ⟨.hbm, 1637, rfl⟩
abbrev main_call62_c_3 : Ref sig .tc := ⟨.hbm, 1638, rfl⟩
abbrev main_call62_v12 : Ref sig .tc := ⟨.hbm, 1639, rfl⟩
abbrev main_call62_v13 : Ref sig .tc := ⟨.hbm, 1640, rfl⟩
abbrev main_call62_v14 : Ref sig .tc := ⟨.hbm, 1641, rfl⟩
abbrev main_call62_cst : Ref sig .tc := ⟨.hbm, 1642, rfl⟩
abbrev main_call62_v15 : Ref sig .tc := ⟨.hbm, 1643, rfl⟩
abbrev main_v250 : Ref sig .tc := ⟨.hbm, 1644, rfl⟩
abbrev main_v251 : Ref sig .tc := ⟨.hbm, 1645, rfl⟩
abbrev main_v252 : Ref sig .tc := ⟨.hbm, 1646, rfl⟩
abbrev main_v253 : Ref sig .tc := ⟨.hbm, 1647, rfl⟩
abbrev main_call63_c : Ref sig .tc := ⟨.hbm, 1648, rfl⟩
abbrev main_call63_v0 : Ref sig .tc := ⟨.hbm, 1649, rfl⟩
abbrev main_call63_v1 : Ref sig .tc := ⟨.hbm, 1650, rfl⟩
abbrev main_call63_c_0 : Ref sig .tc := ⟨.hbm, 1651, rfl⟩
abbrev main_call63_v2 : Ref sig .tc := ⟨.hbm, 1652, rfl⟩
abbrev main_call63_v3 : Ref sig .tc := ⟨.hbm, 1653, rfl⟩
abbrev main_call63_v4 : Ref sig .tc := ⟨.hbm, 1654, rfl⟩
abbrev main_call63_v5 : Ref sig .tc := ⟨.hbm, 1655, rfl⟩
abbrev main_call63_c_1 : Ref sig .tc := ⟨.hbm, 1656, rfl⟩
abbrev main_call63_c_2 : Ref sig .tc := ⟨.hbm, 1657, rfl⟩
abbrev main_call63_v6 : Ref sig .tc := ⟨.hbm, 1658, rfl⟩
abbrev main_call63_v7 : Ref sig .tc := ⟨.hbm, 1659, rfl⟩
abbrev main_call63_v8 : Ref sig .tc := ⟨.hbm, 1660, rfl⟩
abbrev main_call63_v9 : Ref sig .tc := ⟨.hbm, 1661, rfl⟩
abbrev main_call63_v10 : Ref sig .tc := ⟨.hbm, 1662, rfl⟩
abbrev main_call63_v11 : Ref sig .tc := ⟨.hbm, 1663, rfl⟩
abbrev main_call63_c_3 : Ref sig .tc := ⟨.hbm, 1664, rfl⟩
abbrev main_call63_v12 : Ref sig .tc := ⟨.hbm, 1665, rfl⟩
abbrev main_call63_v13 : Ref sig .tc := ⟨.hbm, 1666, rfl⟩
abbrev main_call63_v14 : Ref sig .tc := ⟨.hbm, 1667, rfl⟩
abbrev main_call63_cst : Ref sig .tc := ⟨.hbm, 1668, rfl⟩
abbrev main_call63_v15 : Ref sig .tc := ⟨.hbm, 1669, rfl⟩
abbrev main_v254 : Ref sig .tc := ⟨.hbm, 1670, rfl⟩
abbrev main_v255 : Ref sig .tc := ⟨.hbm, 1671, rfl⟩
abbrev main_v256 : Ref sig .tc := ⟨.hbm, 1672, rfl⟩
abbrev main_v257 : Ref sig .tc := ⟨.hbm, 1673, rfl⟩
abbrev main_call64_c : Ref sig .tc := ⟨.hbm, 1674, rfl⟩
abbrev main_call64_v0 : Ref sig .tc := ⟨.hbm, 1675, rfl⟩
abbrev main_call64_v1 : Ref sig .tc := ⟨.hbm, 1676, rfl⟩
abbrev main_call64_c_0 : Ref sig .tc := ⟨.hbm, 1677, rfl⟩
abbrev main_call64_v2 : Ref sig .tc := ⟨.hbm, 1678, rfl⟩
abbrev main_call64_v3 : Ref sig .tc := ⟨.hbm, 1679, rfl⟩
abbrev main_call64_v4 : Ref sig .tc := ⟨.hbm, 1680, rfl⟩
abbrev main_call64_v5 : Ref sig .tc := ⟨.hbm, 1681, rfl⟩
abbrev main_call64_c_1 : Ref sig .tc := ⟨.hbm, 1682, rfl⟩
abbrev main_call64_c_2 : Ref sig .tc := ⟨.hbm, 1683, rfl⟩
abbrev main_call64_v6 : Ref sig .tc := ⟨.hbm, 1684, rfl⟩
abbrev main_call64_v7 : Ref sig .tc := ⟨.hbm, 1685, rfl⟩
abbrev main_call64_v8 : Ref sig .tc := ⟨.hbm, 1686, rfl⟩
abbrev main_call64_v9 : Ref sig .tc := ⟨.hbm, 1687, rfl⟩
abbrev main_call64_v10 : Ref sig .tc := ⟨.hbm, 1688, rfl⟩
abbrev main_call64_v11 : Ref sig .tc := ⟨.hbm, 1689, rfl⟩
abbrev main_call64_c_3 : Ref sig .tc := ⟨.hbm, 1690, rfl⟩
abbrev main_call64_v12 : Ref sig .tc := ⟨.hbm, 1691, rfl⟩
abbrev main_call64_v13 : Ref sig .tc := ⟨.hbm, 1692, rfl⟩
abbrev main_call64_v14 : Ref sig .tc := ⟨.hbm, 1693, rfl⟩
abbrev main_call64_cst : Ref sig .tc := ⟨.hbm, 1694, rfl⟩
abbrev main_call64_v15 : Ref sig .tc := ⟨.hbm, 1695, rfl⟩
abbrev main_v258 : Ref sig .tc := ⟨.hbm, 1696, rfl⟩
abbrev main_v259 : Ref sig .tc := ⟨.hbm, 1697, rfl⟩
abbrev main_cst_0 : Ref sig .tc := ⟨.hbm, 1698, rfl⟩
abbrev main_v260 : Ref sig .tc := ⟨.hbm, 1699, rfl⟩
abbrev main_v261 : Ref sig .tc := ⟨.hbm, 1700, rfl⟩
abbrev main_call65_c : Ref sig .tc := ⟨.hbm, 1701, rfl⟩
abbrev main_call65_v0 : Ref sig .tc := ⟨.hbm, 1702, rfl⟩
abbrev main_call65_v1 : Ref sig .tc := ⟨.hbm, 1703, rfl⟩
abbrev main_call65_c_0 : Ref sig .tc := ⟨.hbm, 1704, rfl⟩
abbrev main_call65_v2 : Ref sig .tc := ⟨.hbm, 1705, rfl⟩
abbrev main_call65_v3 : Ref sig .tc := ⟨.hbm, 1706, rfl⟩
abbrev main_call65_v4 : Ref sig .tc := ⟨.hbm, 1707, rfl⟩
abbrev main_call65_v5 : Ref sig .tc := ⟨.hbm, 1708, rfl⟩
abbrev main_call65_c_1 : Ref sig .tc := ⟨.hbm, 1709, rfl⟩
abbrev main_call65_c_2 : Ref sig .tc := ⟨.hbm, 1710, rfl⟩
abbrev main_call65_v6 : Ref sig .tc := ⟨.hbm, 1711, rfl⟩
abbrev main_call65_v7 : Ref sig .tc := ⟨.hbm, 1712, rfl⟩
abbrev main_call65_v8 : Ref sig .tc := ⟨.hbm, 1713, rfl⟩
abbrev main_call65_v9 : Ref sig .tc := ⟨.hbm, 1714, rfl⟩
abbrev main_call65_v10 : Ref sig .tc := ⟨.hbm, 1715, rfl⟩
abbrev main_call65_v11 : Ref sig .tc := ⟨.hbm, 1716, rfl⟩
abbrev main_call65_c_3 : Ref sig .tc := ⟨.hbm, 1717, rfl⟩
abbrev main_call65_v12 : Ref sig .tc := ⟨.hbm, 1718, rfl⟩
abbrev main_call65_v13 : Ref sig .tc := ⟨.hbm, 1719, rfl⟩
abbrev main_call65_v14 : Ref sig .tc := ⟨.hbm, 1720, rfl⟩
abbrev main_call65_cst : Ref sig .tc := ⟨.hbm, 1721, rfl⟩
abbrev main_call65_v15 : Ref sig .tc := ⟨.hbm, 1722, rfl⟩
abbrev main_v262 : Ref sig .tc := ⟨.hbm, 1723, rfl⟩
abbrev main_c : Ref sig .tc := ⟨.hbm, 1724, rfl⟩
abbrev main_call66_v0 : Ref sig .tc := ⟨.hbm, 1725, rfl⟩
abbrev main_v263 : Ref sig .tc := ⟨.hbm, 1726, rfl⟩
abbrev main_c_1 : Ref sig .tc := ⟨.hbm, 1727, rfl⟩
abbrev main_call67_v0 : Ref sig .tc := ⟨.hbm, 1728, rfl⟩
abbrev main_v264 : Ref sig .tc := ⟨.hbm, 1729, rfl⟩
abbrev main_v265 : Ref sig .tc := ⟨.hbm, 1730, rfl⟩
abbrev main_v266 : Ref sig .tc := ⟨.hbm, 1731, rfl⟩
abbrev main_v267 : Ref sig .tc := ⟨.hbm, 1732, rfl⟩
abbrev main_v268 : Ref sig .tc := ⟨.hbm, 1733, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S50000x32_S50000x1_0_0 : S50000x32.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  slices_S50000x32_S50000x1_0_1 : S50000x32.Slices ![0, 1] S50000x1
  slices_S50000x32_S50000x1_0_2 : S50000x32.Slices ![0, 2] S50000x1
  slices_S50000x32_S50000x1_0_3 : S50000x32.Slices ![0, 3] S50000x1
  slices_S50000x32_S50000x1_0_4 : S50000x32.Slices ![0, 4] S50000x1
  slices_S50000x32_S50000x1_0_5 : S50000x32.Slices ![0, 5] S50000x1
  slices_S50000x32_S50000x1_0_6 : S50000x32.Slices ![0, 6] S50000x1
  slices_S50000x32_S50000x1_0_7 : S50000x32.Slices ![0, 7] S50000x1
  slices_S50000x32_S50000x1_0_8 : S50000x32.Slices ![0, 8] S50000x1
  slices_S50000x32_S50000x1_0_9 : S50000x32.Slices ![0, 9] S50000x1
  slices_S50000x32_S50000x1_0_10 : S50000x32.Slices ![0, 10] S50000x1
  slices_S50000x32_S50000x1_0_11 : S50000x32.Slices ![0, 11] S50000x1
  slices_S50000x32_S50000x1_0_12 : S50000x32.Slices ![0, 12] S50000x1
  slices_S50000x32_S50000x1_0_13 : S50000x32.Slices ![0, 13] S50000x1
  slices_S50000x32_S50000x1_0_14 : S50000x32.Slices ![0, 14] S50000x1
  slices_S50000x32_S50000x1_0_15 : S50000x32.Slices ![0, 15] S50000x1
  slices_S50000x32_S50000x1_0_16 : S50000x32.Slices ![0, 16] S50000x1
  slices_S50000x32_S50000x1_0_17 : S50000x32.Slices ![0, 17] S50000x1
  slices_S50000x32_S50000x1_0_18 : S50000x32.Slices ![0, 18] S50000x1
  slices_S50000x32_S50000x1_0_19 : S50000x32.Slices ![0, 19] S50000x1
  slices_S50000x32_S50000x1_0_20 : S50000x32.Slices ![0, 20] S50000x1
  slices_S50000x32_S50000x1_0_21 : S50000x32.Slices ![0, 21] S50000x1
  slices_S50000x32_S50000x1_0_22 : S50000x32.Slices ![0, 22] S50000x1
  slices_S50000x32_S50000x1_0_23 : S50000x32.Slices ![0, 23] S50000x1
  slices_S50000x32_S50000x1_0_24 : S50000x32.Slices ![0, 24] S50000x1
  slices_S50000x32_S50000x1_0_25 : S50000x32.Slices ![0, 25] S50000x1
  slices_S50000x32_S50000x1_0_26 : S50000x32.Slices ![0, 26] S50000x1
  slices_S50000x32_S50000x1_0_27 : S50000x32.Slices ![0, 27] S50000x1
  slices_S50000x32_S50000x1_0_28 : S50000x32.Slices ![0, 28] S50000x1
  slices_S50000x32_S50000x1_0_29 : S50000x32.Slices ![0, 29] S50000x1
  slices_S50000x32_S50000x1_0_30 : S50000x32.Slices ![0, 30] S50000x1
  slices_S50000x32_S50000x1_0_31 : S50000x32.Slices ![0, 31] S50000x1
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S50000_S50000x32_0 : S50000.BroadcastsInDim S50000x32 (![0] : Fin 1 → Fin S50000x32.rank)
  bcast_S_S50000x32 : S_.BroadcastsInDim S50000x32 (![] : Fin 0 → Fin S50000x32.rank)
  pads_S256x40_S256x128_000_0880 : S256x40.Pads (![0, 0] : Fin 2 → Nat) ![0, 88] ![0, 0] S256x128
  pads_S40_S128_0880 : S40.Pads (![0] : Fin 1 → Nat) ![88] ![0] S128
  shapeCasts_S128_S128 : S128.ShapeCasts S128
  slices_S50000x128_S50000x40_0_0 : S50000x128.Slices ![0, 0] S50000x40
  gather_S50000x128_S50000x1_S50000x128_1_0_n_n_0_1_1128_wf : GatherDims.WF S50000x128 S50000x1 S50000x128 [1] [0] [] [0] [] 1 ![1, 128]
  dot_S5000x128_S128x128_S5000x128_1_0_0_1_n_n_wf : DotDims.WF S5000x128 S128x128 S5000x128 [1] [0] [0] [1] [] []
  gather_S50000x32_S50000x1_S50000x32_1_0_n_n_0_1_132_wf : GatherDims.WF S50000x32 S50000x1 S50000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x32_S50000x1_S50000x32_1_0_n_n_0_1_132 : GatherDims S50000x32 S50000x1 S50000x32 where
  offsetDims := [1]
  collapsedSliceDims := [0]
  operandBatchingDims := []
  startIndicesBatchingDims := []
  startIndexMap := [0]
  indexVectorDim := 1
  sliceSizes := ![1, 32]
  wf := gather_S50000x32_S50000x1_S50000x32_1_0_n_n_0_1_132_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v128) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v129) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v130) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v131) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v262) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v261) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v265) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v266) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v264) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v267) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x32 : Shape := ⟨2, ![50000, 32]⟩
abbrev S50000 : Shape := ⟨1, ![50000]⟩
abbrev S256x128 : Shape := ⟨2, ![256, 128]⟩
abbrev S128 : Shape := ⟨1, ![128]⟩
abbrev S256x40 : Shape := ⟨2, ![256, 40]⟩
abbrev S40 : Shape := ⟨1, ![40]⟩
abbrev S_ : Shape := ⟨0, ![]⟩
abbrev S50000x32x1 : Shape := ⟨3, ![50000, 32, 1]⟩
abbrev S1 : Shape := ⟨1, ![1]⟩
abbrev S1x1x1 : Shape := ⟨3, ![1, 1, 1]⟩
abbrev S50000x32x128 : Shape := ⟨3, ![50000, 32, 128]⟩
abbrev S50000x256 : Shape := ⟨2, ![50000, 256]⟩
abbrev S1x128 : Shape := ⟨2, ![1, 128]⟩
abbrev S50000x1 : Shape := ⟨2, ![50000, 1]⟩
abbrev S50000x40 : Shape := ⟨2, ![50000, 40]⟩
abbrev S1x40 : Shape := ⟨2, ![1, 40]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32, .i32⟩
  | .hbm, ⟨2, _⟩ => ⟨S50000, .i32⟩
  | .hbm, ⟨3, _⟩ => ⟨S256x128, .f32⟩
  | .hbm, ⟨4, _⟩ => ⟨S128, .f32⟩
  | .hbm, ⟨5, _⟩ => ⟨S256x40, .f32⟩
  | .hbm, ⟨6, _⟩ => ⟨S40, .f32⟩
  | .hbm, ⟨7, _⟩ => ⟨S_, .i32⟩
  | .hbm, ⟨8, _⟩ => ⟨S50000x32, .i32⟩
  | .hbm, ⟨9, _⟩ => ⟨S50000x32, .i1⟩
  | .hbm, ⟨10, _⟩ => ⟨S_, .i32⟩
  | .hbm, ⟨11, _⟩ => ⟨S50000x32, .i32⟩
  | .hbm, ⟨12, _⟩ => ⟨S50000x32, .i32⟩
  | .hbm, ⟨13, _⟩ => ⟨S50000x32, .i32⟩
  | .hbm, ⟨14, _⟩ => ⟨S50000x32x1, .i32⟩
  | .hbm, ⟨15, _⟩ => ⟨S1, .i32⟩
  | .hbm, ⟨16, _⟩ => ⟨S_, .i32⟩
  | .hbm, ⟨17, _⟩ => ⟨S50000x32x1, .i32⟩
  | .hbm, ⟨18, _⟩ => ⟨S50000x32x1, .i1⟩
  | .hbm, ⟨19, _⟩ => ⟨S1x1x1, .i32⟩
  | .hbm, ⟨20, _⟩ => ⟨S50000x32x1, .i32⟩
  | .hbm, ⟨21, _⟩ => ⟨S50000x32x1, .i1⟩
  | .hbm, ⟨22, _⟩ => ⟨S50000x32x1, .i1⟩
  | .hbm, ⟨23, _⟩ => ⟨S_, .i1⟩
  | .hbm, ⟨24, _⟩ => ⟨S50000x32, .i1⟩
  | .hbm, ⟨25, _⟩ => ⟨S50000x32x128, .f32⟩
  | .hbm, ⟨26, _⟩ => ⟨S50000x32x128, .i1⟩
  | .hbm, ⟨27, _⟩ => ⟨S_, .f32⟩
  | .hbm, ⟨28, _⟩ => ⟨S50000x32x128, .f32⟩
  | .hbm, ⟨29, _⟩ => ⟨S50000x32x128, .f32⟩
  | .hbm, ⟨30, _⟩ => ⟨S_, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x256, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S50000, .i32⟩
  | .hbm, ⟨45, _⟩ => ⟨S50000, .i1⟩
  | .hbm, ⟨46, _⟩ => ⟨S_, .i32⟩
  | .hbm, ⟨47, _⟩ => ⟨S50000, .i32⟩
  | .hbm, ⟨48, _⟩ => ⟨S50000, .i32⟩
  | .hbm, ⟨49, _⟩ => ⟨S50000, .i32⟩
  | .hbm, ⟨50, _⟩ => ⟨S50000x1, .i32⟩
  | .hbm, ⟨51, _⟩ => ⟨S50000x32, .i32⟩
  | .hbm, ⟨52, _⟩ => ⟨S_, .i32⟩
  | .hbm, ⟨53, _⟩ => ⟨S50000x32, .i32⟩
  | .hbm, ⟨54, _⟩ => ⟨S50000x32, .i1⟩
  | .hbm, ⟨55, _⟩ => ⟨S_, .i32⟩
  | .hbm, ⟨56, _⟩ => ⟨S50000x32, .i32⟩
  | .hbm, ⟨57, _⟩ => ⟨S50000x32, .i32⟩
  | .hbm, ⟨58, _⟩ => ⟨S50000x32, .i32⟩
  | .hbm, ⟨59, _⟩ => ⟨S50000x32x1, .i32⟩
  | .hbm, ⟨60, _⟩ => ⟨S1, .i32⟩
  | .hbm, ⟨61, _⟩ => ⟨S_, .i32⟩
  | .hbm, ⟨62, _⟩ => ⟨S50000x32x1, .i32⟩
  | .hbm, ⟨63, _⟩ => ⟨S50000x32x1, .i1⟩
  | .hbm, ⟨64, _⟩ => ⟨S1x1x1, .i32⟩
  | .hbm, ⟨65, _⟩ => ⟨S50000x32x1, .i32⟩
  | .hbm, ⟨66, _⟩ => ⟨S50000x32x1, .i1⟩
  | .hbm, ⟨67, _⟩ => ⟨S50000x32x1, .i1⟩
  | .hbm, ⟨68, _⟩ => ⟨S_, .i1⟩
  | .hbm, ⟨69, _⟩ => ⟨S50000x32, .i1⟩
  | .hbm, ⟨70, _⟩ => ⟨S50000x32x128, .f32⟩
  | .hbm, ⟨71, _⟩ => ⟨S50000x32x128, .i1⟩
  | .hbm, ⟨72, _⟩ => ⟨S_, .f32⟩
  | .hbm, ⟨73, _⟩ => ⟨S50000x32x128, .f32⟩
  | .hbm, ⟨74, _⟩ => ⟨S50000x32x128, .f32⟩
  | .hbm, ⟨75, _⟩ => ⟨S_, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S50000, .i32⟩
  | .hbm, ⟨82, _⟩ => ⟨S50000, .i1⟩
  | .hbm, ⟨83, _⟩ => ⟨S_, .i32⟩
  | .hbm, ⟨84, _⟩ => ⟨S50000, .i32⟩
  | .hbm, ⟨85, _⟩ => ⟨S50000, .i32⟩
  | .hbm, ⟨86, _⟩ => ⟨S50000, .i32⟩
  | .hbm, ⟨87, _⟩ => ⟨S50000x1, .i32⟩
  | .hbm, ⟨88, _⟩ => ⟨S50000x128, .f32⟩
  | .hbm, ⟨89, _⟩ => ⟨S50000x256, .f32⟩
  | .hbm, ⟨90, _⟩ => ⟨S50000x40, .f32⟩
  | .hbm, ⟨91, _⟩ => ⟨S1x40, .f32⟩
  | .hbm, ⟨92, _⟩ => ⟨S50000x40, .f32⟩
  | .hbm, ⟨93, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_cst_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_call1_cst : Ref sig .tc := ⟨.hbm, 40, rfl⟩
abbrev main_call1_v0 : Ref sig .tc := ⟨.hbm, 41, rfl⟩
abbrev main_v9 : Ref sig .tc := ⟨.hbm, 42, rfl⟩
abbrev main_c : Ref sig .tc := ⟨.hbm, 43, rfl⟩
abbrev main_v10 : Ref sig .tc := ⟨.hbm, 44, rfl⟩
abbrev main_v11 : Ref sig .tc := ⟨.hbm, 45, rfl⟩
abbrev main_c_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v17 : Ref sig .tc := ⟨.hbm, 74, rfl⟩
abbrev main_cst_2 : Ref sig .tc := ⟨.hbm, 75, rfl⟩
abbrev main_v18 : Ref sig .tc := ⟨.hbm, 76, rfl⟩
abbrev main_cst_3 : Ref sig .tc := ⟨.hbm, 77, rfl⟩
abbrev main_v19 : Ref sig .tc := ⟨.hbm, 78, rfl⟩
abbrev main_v20 : Ref sig .tc := ⟨.hbm, 79, rfl⟩
abbrev main_c_4 : Ref sig .tc := ⟨.hbm, 80, rfl⟩
abbrev main_v21 : Ref sig .tc := ⟨.hbm, 81, rfl⟩
abbrev main_v22 : Ref sig .tc := ⟨.hbm, 82, rfl⟩
abbrev main_c_5 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩

abbrev nD : Nat := 1
abbrev τ : Topo := Topo.v7x

variable {F : FTy → Type} [FloatOps F]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  bcast_S_S50000x32x1 : S_.BroadcastsInDim S50000x32x1 (![] : Fin 0 → Fin S50000x32x1.rank)
  bcast_S1_S1x1x1_2 : S1.BroadcastsInDim S1x1x1 (![2] : Fin 1 → Fin S1x1x1.rank)
  bcast_S1x1x1_S50000x32x1_0_1_2 : S1x1x1.BroadcastsInDim S50000x32x1 (![0, 1, 2] : Fin 3 → Fin S50000x32x1.rank)
  reducesTo_S50000x32x1_S50000x32_d2 : S50000x32x1.ReducesTo [2] S50000x32
  h_S_ : 0 < S_.numel
  bcast_S50000x32_S50000x32x128_0_1 : S50000x32.BroadcastsInDim S50000x32x128 (![0, 1] : Fin 2 → Fin S50000x32x128.rank)
  bcast_S_S50000x32x128 : S_.BroadcastsInDim S50000x32x128 (![] : Fin 0 → Fin S50000x32x128.rank)
  reducesTo_S50000x32x128_S50000x128_d1 : S50000x32x128.ReducesTo [1] S50000x128
  bcast_S_S50000x128 : S_.BroadcastsInDim S50000x128 (![] : Fin 0 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S50000x32x1_S50000x32x128_2_0_n_n_0_2_1128_wf : GatherDims.WF S50000x128 S50000x32x1 S50000x32x128 [2] [0] [] [0] [] 2 ![1, 128]
  dot_S50000x256_S256x128_S50000x128_1_0_0_1_n_n_wf : DotDims.WF S50000x256 S256x128 S50000x128 [1] [0] [0] [1] [] []
  gather_S50000x32_S50000x1_S50000x32_1_0_n_n_0_1_132_wf : GatherDims.WF S50000x32 S50000x1 S50000x32 [1] [0] [] [0] [] 1 ![1, 32]
  gather_S50000x128_S50000x1_S50000x128_1_0_n_n_0_1_1128_wf : GatherDims.WF S50000x128 S50000x1 S50000x128 [1] [0] [] [0] [] 1 ![1, 128]
  dot_S50000x256_S256x40_S50000x40_1_0_0_1_n_n_wf : DotDims.WF S50000x256 S256x40 S50000x40 [1] [0] [0] [1] [] []

variable [Facts₀]

def gather_S50000x128_S50000x32x1_S50000x32x128_2_0_n_n_0_2_1128 : GatherDims S50000x128 S50000x32x1 S50000x32x128 where
  offsetDims := [2]
  collapsedSliceDims := [0]
  operandBatchingDims := []
  startIndicesBatchingDims := []
  startIndexMap := [0]
  indexVectorDim := 2
  sliceSizes := ![1, 128]
  wf := gather_S50000x128_S50000x32x1_S50000x32x128_2_0_n_n_0_2_1128_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x32_S50000x1_S50000x32_1_0_n_n_0_1_132 : GatherDims S50000x32 S50000x1 S50000x32 where
  offsetDims := [1]
  collapsedSliceDims := [0]
  operandBatchingDims := []
  startIndicesBatchingDims := []
  startIndexMap := [0]
  indexVectorDim := 1
  sliceSizes := ![1, 32]
  wf := gather_S50000x32_S50000x1_S50000x32_1_0_n_n_0_1_132_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KTerm.lean ====
/-
  The idealized kernel's host-side arithmetic, named.

  A row gather with jnp.take's fill semantics (`takeT`): a possibly negative index is first normalised by adding
  the table's length; a normalised index outside [0, 49999] selects the fill value instead of a table row. The
  neighbour mean (`meanT`) adds the thirty-two gathered rows, one per neighbour slot, left to right, and scales the
  sum by 1/32. `takeI` is the same gather on the integer neighbour table, its fill the least 32-bit integer.
  The second layer's weights are the padded matrix cut into its upper and lower 128 rows.
-/
import proofs.«411215_j35510789603589_3_alg».proof.KernelIdeal

noncomputable section

namespace Cert.KernelIdeal.Term

open Idealize.ShloMosaic
open Cert.KernelIdeal

variable {F : FTy → Type} [FloatOps F] [Facts]
open Facts₀ Facts

/-- A node index with a negative value shifted up by the table's length. -/
def wrapT (idx : IVec S50000 32) : IVec S50000 32 :=
  select (cmpi .slt idx (broadcastInDim S50000 ![] bcast_S_S50000 (constantI S_ 32 0#32)))
    (addi idx (broadcastInDim S50000 ![] bcast_S_S50000 (constantI S_ 32 50000#32))) idx

/-- The normalised index as a one-column array of start indices. -/
def colT (idx : IVec S50000 32) : IVec S50000x1 32 :=
  broadcastInDim S50000x1 ![0] bcast_S50000_S50000x1_0 (wrapT idx)

/-- Whether the normalised index lies in [0, 49999], per node. -/
def maskT (idx : IVec S50000 32) : IVec S50000 1 :=
  Host.reduce IntOp.andi
    (andi (cmpi .sge (colT idx) (broadcastInDim S50000x1 ![] bcast_S_S50000x1 (constantI S_ 32 0#32)))
      (cmpi .sle (colT idx) (broadcastInDim S50000x1 ![0, 1] bcast_S1x1_S50000x1_0_1
        (broadcastInDim S1x1 ![1] bcast_S1_S1x1_1 (constantI S1 32 49999#32)))))
    (constantI S_ 1 1#1) reducesTo_S50000x1_S50000_d1 h_S_

/-- Rows of a float table at the given node indices; the fill value where the index is out of range. -/
def takeT (tbl : FVec F S50000x128 .f32) (idx : IVec S50000 32) : FVec F S50000x128 .f32 :=
  select (broadcastInDim S50000x128 ![0] bcast_S50000_S50000x128_0 (maskT idx))
    (Host.gather gather_S50000x128_S50000x1_S50000x128_1_0_n_n_0_1_1128 tbl (colT idx))
    (broadcastInDim S50000x128 ![] bcast_S_S50000x128 (constant S_ .f32 0x7FC00000#32))

/-- Rows of the neighbour table at the given node indices; the least integer where the index is out of range. -/
def takeI (tbl : IVec S50000x32 32) (idx : IVec S50000 32) : IVec S50000x32 32 :=
  select (broadcastInDim S50000x32 ![0] bcast_S50000_S50000x32_0 (maskT idx))
    (Host.gather gather_S50000x32_S50000x1_S50000x32_1_0_n_n_0_1_132 tbl (colT idx))
    (broadcastInDim S50000x32 ![] bcast_S_S50000x32 (constantI S_ 32 2147483648#32))

/-- Neighbour slot `k` of every node. -/
def slot (k : Nat) (h : S50000x32.Slices ![0, k] S50000x1) (nidx : IVec S50000x32 32) : IVec S50000 32 :=
  shapeCast S50000 (extractStridedSlice S50000x1 ![0, k] nidx h) shapeCasts_S50000x1_S50000

theorem slot_ok (k : Fin 32) : S50000x32.Slices ![0, k.val] S50000x1 :=
  ⟨rfl, fun a => by
    match a with
    | ⟨0, _⟩ => exact Nat.le_refl _
    | ⟨1, _⟩ => exact Nat.succ_le_of_lt k.isLt⟩

/-- The table's rows at neighbour slot `k`. -/
def slotTake (tbl : FVec F S50000x128 .f32) (nidx : IVec S50000x32 32) (k : Fin 32) : FVec F S50000x128 .f32 :=
  takeT tbl (slot k.val (slot_ok k) nidx)

/-- The thirty-two gathered rows added left to right. -/
def sumT (tbl : FVec F S50000x128 .f32) (nidx : IVec S50000x32 32) : FVec F S50000x128 .f32 :=
  ([1, 2, 3, 4, 5, 6, 7, 8, 9, 10, 11, 12, 13, 14, 15, 16, 17, 18, 19, 20, 21, 22, 23, 24, 25, 26, 27, 28, 29, 30, 31] :
    List (Fin 32)).foldl (fun acc k => addf acc (slotTake tbl nidx k)) (slotTake tbl nidx 0)

/-- The neighbour mean: the sum scaled by the constant 1/32. -/
def meanT (tbl : FVec F S50000x128 .f32) (nidx : IVec S50000x32 32) : FVec F S50000x128 .f32 :=
  mulf (sumT tbl nidx) (broadcastInDim S50000x128 ![] bcast_S_S50000x128 (constant S_ .f32 0x3D000000#32))

/-- The first 128 rows of a 256-row weight matrix. -/
def wLo (w : FVec F S256x128 .f32) : FVec F S128x128 .f32 := extractStridedSlice S128x128 ![0, 0] w slices_S256x128_S128x128_0_0
/-- Its last 128 rows. -/
def wHi (w : FVec F S256x128 .f32) : FVec F S128x128 .f32 := extractStridedSlice S128x128 ![128, 0] w slices_S256x128_S128x128_128_0

/-- The 40-column weight matrix widened to 128 columns. -/
def padW (w : FVec F S256x40 .f32) : FVec F S256x128 .f32 :=
  pad S256x128 ![0, 0] ![0, 88] ![0, 0] w (sitofp .f32 (constantI S_ 32 0#32)) pads_S256x40_S256x128_000_0880 h_S_
/-- The 40-entry bias widened to 128 entries. -/
def padB (b : FVec F S40 .f32) : FVec F S128 .f32 :=
  pad S128 ![0] ![88] ![0] b (sitofp .f32 (constantI S_ 32 0#32)) pads_S40_S128_0880 h_S_

/-- The first 40 columns of the second layer's padded output. -/
def cut40 (y : FVec F S50000x128 .f32) : FVec F S50000x40 .f32 := extractStridedSlice S50000x40 ![0, 0] y slices_S50000x128_S50000x40_0_0

end Cert.KernelIdeal.Term

end
-- ==== Proof.KHost1Rows.lean ====
import proofs.«411215_j35510789603589_3_alg».proof.Proof.Gen.KernelIdeal.Launch
import proofs.«411215_j35510789603589_3_alg».proof.Proof.KTerm

set_option maxRecDepth 16384

noncomputable section

namespace Cert.KernelIdeal.Gen.Val

open Idealize.ShloMosaic Idealize.ShloMosaic.StableHlo Idealize.SL.Sem

variable {F : FTy → Type} [FloatOps F]

attribute [local irreducible] Host.reduce Host.gather pad in
/-- Step 1 of the features' neighbour sum, from any contents X at which the feature array is T, the neighbour table
    is N, the sum so far is S and slot 1's indices are column 1 of N: the two stretches leave T and N in place, add
    the feature rows at slot 1 to the sum, and cut column 2 of N for the next step. Each of the four reads is the
    fold unrolled at its buffer; the gather's composition is Term.takeT by definition. -/
theorem featStep1 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v2) = S)
    (hI : X (Proc.devRef .tc main_v4) = Term.slot (Fin.val (1 : Fin 32)) (Term.slot_ok 1) N) :
    after hostOps0_4 (after hostOps0_3 X) (Proc.devRef .tc main_arg0) = T
    ∧ after hostOps0_4 (after hostOps0_3 X) (Proc.devRef .tc main_arg1) = N
    ∧ after hostOps0_4 (after hostOps0_3 X) (Proc.devRef .tc main_v6) = addf S (Term.slotTake T N 1)
    ∧ after hostOps0_4 (after hostOps0_3 X) (Proc.devRef .tc main_v8) = Term.slot (Fin.val (2 : Fin 32)) (Term.slot_ok 2) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 2 of the features' neighbour sum, from any contents X at which the feature array is T, the neighbour table
    is N, the sum so far is S and slot 2's indices are column 2 of N: the two stretches leave T and N in place, add
    the feature rows at slot 2 to the sum, and cut column 3 of N for the next step. Each of the four reads is the
    fold unrolled at its buffer; the gather's composition is Term.takeT by definition. -/
theorem featStep2 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v6) = S)
    (hI : X (Proc.devRef .tc main_v8) = Term.slot (Fin.val (2 : Fin 32)) (Term.slot_ok 2) N) :
    after hostOps0_6 (after hostOps0_5 X) (Proc.devRef .tc main_arg0) = T
    ∧ after hostOps0_6 (after hostOps0_5 X) (Proc.devRef .tc main_arg1) = N
    ∧ after hostOps0_6 (after hostOps0_5 X) (Proc.devRef .tc main_v10) = addf S (Term.slotTake T N 2)
    ∧ after hostOps0_6 (after hostOps0_5 X) (Proc.devRef .tc main_v12) = Term.slot (Fin.val (3 : Fin 32)) (Term.slot_ok 3) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 3 of the features' neighbour sum, from any contents X at which the feature array is T, the neighbour table
    is N, the sum so far is S and slot 3's indices are column 3 of N: the two stretches leave T and N in place, add
    the feature rows at slot 3 to the sum, and cut column 4 of N for the next step. Each of the four reads is the
    fold unrolled at its buffer; the gather's composition is Term.takeT by definition. -/
theorem featStep3 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v10) = S)
    (hI : X (Proc.devRef .tc main_v12) = Term.slot (Fin.val (3 : Fin 32)) (Term.slot_ok 3) N) :
    after hostOps0_8 (after hostOps0_7 X) (Proc.devRef .tc main_arg0) = T
    ∧ after hostOps0_8 (after hostOps0_7 X) (Proc.devRef .tc main_arg1) = N
    ∧ after hostOps0_8 (after hostOps0_7 X) (Proc.devRef .tc main_v14) = addf S (Term.slotTake T N 3)
    ∧ after hostOps0_8 (after hostOps0_7 X) (Proc.devRef .tc main_v16) = Term.slot (Fin.val (4 : Fin 32)) (Term.slot_ok 4) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 4 of the features' neighbour sum, from any contents X at which the feature array is T, the neighbour table
    is N, the sum so far is S and slot 4's indices are column 4 of N: the two stretches leave T and N in place, add
    the feature rows at slot 4 to the sum, and cut column 5 of N for the next step. Each of the four reads is the
    fold unrolled at its buffer; the gather's composition is Term.takeT by definition. -/
theorem featStep4 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v14) = S)
    (hI : X (Proc.devRef .tc main_v16) = Term.slot (Fin.val (4 : Fin 32)) (Term.slot_ok 4) N) :
    after hostOps0_10 (after hostOps0_9 X) (Proc.devRef .tc main_arg0) = T
    ∧ after hostOps0_10 (after hostOps0_9 X) (Proc.devRef .tc main_arg1) = N
    ∧ after hostOps0_10 (after hostOps0_9 X) (Proc.devRef .tc main_v18) = addf S (Term.slotTake T N 4)
    ∧ after hostOps0_10 (after hostOps0_9 X) (Proc.devRef .tc main_v20) = Term.slot (Fin.val (5 : Fin 32)) (Term.slot_ok 5) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 5 of the features' neighbour sum, from any contents X at which the feature array is T, the neighbour table
    is N, the sum so far is S and slot 5's indices are column 5 of N: the two stretches leave T and N in place, add
    the feature rows at slot 5 to the sum, and cut column 6 of N for the next step. Each of the four reads is the
    fold unrolled at its buffer; the gather's composition is Term.takeT by definition. -/
theorem featStep5 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v18) = S)
    (hI : X (Proc.devRef .tc main_v20) = Term.slot (Fin.val (5 : Fin 32)) (Term.slot_ok 5) N) :
    after hostOps0_12 (after hostOps0_11 X) (Proc.devRef .tc main_arg0) = T
    ∧ after hostOps0_12 (after hostOps0_11 X) (Proc.devRef .tc main_arg1) = N
    ∧ after hostOps0_12 (after hostOps0_11 X) (Proc.devRef .tc main_v22) = addf S (Term.slotTake T N 5)
    ∧ after hostOps0_12 (after hostOps0_11 X) (Proc.devRef .tc main_v24) = Term.slot (Fin.val (6 : Fin 32)) (Term.slot_ok 6) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 6 of the features' neighbour sum, from any contents X at which the feature array is T, the neighbour table
    is N, the sum so far is S and slot 6's indices are column 6 of N: the two stretches leave T and N in place, add
    the feature rows at slot 6 to the sum, and cut column 7 of N for the next step. Each of the four reads is the
    fold unrolled at its buffer; the gather's composition is Term.takeT by definition. -/
theorem featStep6 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v22) = S)
    (hI : X (Proc.devRef .tc main_v24) = Term.slot (Fin.val (6 : Fin 32)) (Term.slot_ok 6) N) :
    after hostOps0_14 (after hostOps0_13 X) (Proc.devRef .tc main_arg0) = T
    ∧ after hostOps0_14 (after hostOps0_13 X) (Proc.devRef .tc main_arg1) = N
    ∧ after hostOps0_14 (after hostOps0_13 X) (Proc.devRef .tc main_v26) = addf S (Term.slotTake T N 6)
    ∧ after hostOps0_14 (after hostOps0_13 X) (Proc.devRef .tc main_v28) = Term.slot (Fin.val (7 : Fin 32)) (Term.slot_ok 7) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 7 of the features' neighbour sum, from any contents X at which the feature array is T, the neighbour table
    is N, the sum so far is S and slot 7's indices are column 7 of N: the two stretches leave T and N in place, add
    the feature rows at slot 7 to the sum, and cut column 8 of N for the next step. Each of the four reads is the
    fold unrolled at its buffer; the gather's composition is Term.takeT by definition. -/
theorem featStep7 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v26) = S)
    (hI : X (Proc.devRef .tc main_v28) = Term.slot (Fin.val (7 : Fin 32)) (Term.slot_ok 7) N) :
    after hostOps0_16 (after hostOps0_15 X) (Proc.devRef .tc main_arg0) = T
    ∧ after hostOps0_16 (after hostOps0_15 X) (Proc.devRef .tc main_arg1) = N
    ∧ after hostOps0_16 (after hostOps0_15 X) (Proc.devRef .tc main_v30) = addf S (Term.slotTake T N 7)
    ∧ after hostOps0_16 (after hostOps0_15 X) (Proc.devRef .tc main_v32) = Term.slot (Fin.val (8 : Fin 32)) (Term.slot_ok 8) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 8 of the features' neighbour sum, from any contents X at which the feature array is T, the neighbour table
    is N, the sum so far is S and slot 8's indices are column 8 of N: the two stretches leave T and N in place, add
    the feature rows at slot 8 to the sum, and cut column 9 of N for the next step. Each of the four reads is the
    fold unrolled at its buffer; the gather's composition is Term.takeT by definition. -/
theorem featStep8 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v30) = S)
    (hI : X (Proc.devRef .tc main_v32) = Term.slot (Fin.val (8 : Fin 32)) (Term.slot_ok 8) N) :
    after hostOps0_18 (after hostOps0_17 X) (Proc.devRef .tc main_arg0) = T
    ∧ after hostOps0_18 (after hostOps0_17 X) (Proc.devRef .tc main_arg1) = N
    ∧ after hostOps0_18 (after hostOps0_17 X) (Proc.devRef .tc main_v34) = addf S (Term.slotTake T N 8)
    ∧ after hostOps0_18 (after hostOps0_17 X) (Proc.devRef .tc main_v36) = Term.slot (Fin.val (9 : Fin 32)) (Term.slot_ok 9) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 9 of the features' neighbour sum, from any contents X at which the feature array is T, the neighbour table
    is N, the sum so far is S and slot 9's indices are column 9 of N: the two stretches leave T and N in place, add
    the feature rows at slot 9 to the sum, and cut column 10 of N for the next step. Each of the four reads is the
    fold unrolled at its buffer; the gather's composition is Term.takeT by definition. -/
theorem featStep9 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v34) = S)
    (hI : X (Proc.devRef .tc main_v36) = Term.slot (Fin.val (9 : Fin 32)) (Term.slot_ok 9) N) :
    after hostOps0_20 (after hostOps0_19 X) (Proc.devRef .tc main_arg0) = T
    ∧ after hostOps0_20 (after hostOps0_19 X) (Proc.devRef .tc main_arg1) = N
    ∧ after hostOps0_20 (after hostOps0_19 X) (Proc.devRef .tc main_v38) = addf S (Term.slotTake T N 9)
    ∧ after hostOps0_20 (after hostOps0_19 X) (Proc.devRef .tc main_v40) = Term.slot (Fin.val (10 : Fin 32)) (Term.slot_ok 10) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 10 of the features' neighbour sum, from any contents X at which the feature array is T, the neighbour table
    is N, the sum so far is S and slot 10's indices are column 10 of N: the two stretches leave T and N in place, add
    the feature rows at slot 10 to the sum, and cut column 11 of N for the next step. Each of the four reads is the
    fold unrolled at its buffer; the gather's composition is Term.takeT by definition. -/
theorem featStep10 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v38) = S)
    (hI : X (Proc.devRef .tc main_v40) = Term.slot (Fin.val (10 : Fin 32)) (Term.slot_ok 10) N) :
    after hostOps0_22 (after hostOps0_21 X) (Proc.devRef .tc main_arg0) = T
    ∧ after hostOps0_22 (after hostOps0_21 X) (Proc.devRef .tc main_arg1) = N
    ∧ after hostOps0_22 (after hostOps0_21 X) (Proc.devRef .tc main_v42) = addf S (Term.slotTake T N 10)
    ∧ after hostOps0_22 (after hostOps0_21 X) (Proc.devRef .tc main_v44) = Term.slot (Fin.val (11 : Fin 32)) (Term.slot_ok 11) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 11 of the features' neighbour sum, from any contents X at which the feature array is T, the neighbour table
    is N, the sum so far is S and slot 11's indices are column 11 of N: the two stretches leave T and N in place, add
    the feature rows at slot 11 to the sum, and cut column 12 of N for the next step. Each of the four reads is the
    fold unrolled at its buffer; the gather's composition is Term.takeT by definition. -/
theorem featStep11 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v42) = S)
    (hI : X (Proc.devRef .tc main_v44) = Term.slot (Fin.val (11 : Fin 32)) (Term.slot_ok 11) N) :
    after hostOps0_24 (after hostOps0_23 X) (Proc.devRef .tc main_arg0) = T
    ∧ after hostOps0_24 (after hostOps0_23 X) (Proc.devRef .tc main_arg1) = N
    ∧ after hostOps0_24 (after hostOps0_23 X) (Proc.devRef .tc main_v46) = addf S (Term.slotTake T N 11)
    ∧ after hostOps0_24 (after hostOps0_23 X) (Proc.devRef .tc main_v48) = Term.slot (Fin.val (12 : Fin 32)) (Term.slot_ok 12) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 12 of the features' neighbour sum, from any contents X at which the feature array is T, the neighbour table
    is N, the sum so far is S and slot 12's indices are column 12 of N: the two stretches leave T and N in place, add
    the feature rows at slot 12 to the sum, and cut column 13 of N for the next step. Each of the four reads is the
    fold unrolled at its buffer; the gather's composition is Term.takeT by definition. -/
theorem featStep12 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v46) = S)
    (hI : X (Proc.devRef .tc main_v48) = Term.slot (Fin.val (12 : Fin 32)) (Term.slot_ok 12) N) :
    after hostOps0_26 (after hostOps0_25 X) (Proc.devRef .tc main_arg0) = T
    ∧ after hostOps0_26 (after hostOps0_25 X) (Proc.devRef .tc main_arg1) = N
    ∧ after hostOps0_26 (after hostOps0_25 X) (Proc.devRef .tc main_v50) = addf S (Term.slotTake T N 12)
    ∧ after hostOps0_26 (after hostOps0_25 X) (Proc.devRef .tc main_v52) = Term.slot (Fin.val (13 : Fin 32)) (Term.slot_ok 13) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 13 of the features' neighbour sum, from any contents X at which the feature array is T, the neighbour table
    is N, the sum so far is S and slot 13's indices are column 13 of N: the two stretches leave T and N in place, add
    the feature rows at slot 13 to the sum, and cut column 14 of N for the next step. Each of the four reads is the
    fold unrolled at its buffer; the gather's composition is Term.takeT by definition. -/
theorem featStep13 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v50) = S)
    (hI : X (Proc.devRef .tc main_v52) = Term.slot (Fin.val (13 : Fin 32)) (Term.slot_ok 13) N) :
    after hostOps0_28 (after hostOps0_27 X) (Proc.devRef .tc main_arg0) = T
    ∧ after hostOps0_28 (after hostOps0_27 X) (Proc.devRef .tc main_arg1) = N
    ∧ after hostOps0_28 (after hostOps0_27 X) (Proc.devRef .tc main_v54) = addf S (Term.slotTake T N 13)
    ∧ after hostOps0_28 (after hostOps0_27 X) (Proc.devRef .tc main_v56) = Term.slot (Fin.val (14 : Fin 32)) (Term.slot_ok 14) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 14 of the features' neighbour sum, from any contents X at which the feature array is T, the neighbour table
    is N, the sum so far is S and slot 14's indices are column 14 of N: the two stretches leave T and N in place, add
    the feature rows at slot 14 to the sum, and cut column 15 of N for the next step. Each of the four reads is the
    fold unrolled at its buffer; the gather's composition is Term.takeT by definition. -/
theorem featStep14 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v54) = S)
    (hI : X (Proc.devRef .tc main_v56) = Term.slot (Fin.val (14 : Fin 32)) (Term.slot_ok 14) N) :
    after hostOps0_30 (after hostOps0_29 X) (Proc.devRef .tc main_arg0) = T
    ∧ after hostOps0_30 (after hostOps0_29 X) (Proc.devRef .tc main_arg1) = N
    ∧ after hostOps0_30 (after hostOps0_29 X) (Proc.devRef .tc main_v58) = addf S (Term.slotTake T N 14)
    ∧ after hostOps0_30 (after hostOps0_29 X) (Proc.devRef .tc main_v60) = Term.slot (Fin.val (15 : Fin 32)) (Term.slot_ok 15) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 15 of the features' neighbour sum, from any contents X at which the feature array is T, the neighbour table
    is N, the sum so far is S and slot 15's indices are column 15 of N: the two stretches leave T and N in place, add
    the feature rows at slot 15 to the sum, and cut column 16 of N for the next step. Each of the four reads is the
    fold unrolled at its buffer; the gather's composition is Term.takeT by definition. -/
theorem featStep15 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v58) = S)
    (hI : X (Proc.devRef .tc main_v60) = Term.slot (Fin.val (15 : Fin 32)) (Term.slot_ok 15) N) :
    after hostOps0_32 (after hostOps0_31 X) (Proc.devRef .tc main_arg0) = T
    ∧ after hostOps0_32 (after hostOps0_31 X) (Proc.devRef .tc main_arg1) = N
    ∧ after hostOps0_32 (after hostOps0_31 X) (Proc.devRef .tc main_v62) = addf S (Term.slotTake T N 15)
    ∧ after hostOps0_32 (after hostOps0_31 X) (Proc.devRef .tc main_v64) = Term.slot (Fin.val (16 : Fin 32)) (Term.slot_ok 16) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 16 of the features' neighbour sum, from any contents X at which the feature array is T, the neighbour table
    is N, the sum so far is S and slot 16's indices are column 16 of N: the two stretches leave T and N in place, add
    the feature rows at slot 16 to the sum, and cut column 17 of N for the next step. Each of the four reads is the
    fold unrolled at its buffer; the gather's composition is Term.takeT by definition. -/
theorem featStep16 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v62) = S)
    (hI : X (Proc.devRef .tc main_v64) = Term.slot (Fin.val (16 : Fin 32)) (Term.slot_ok 16) N) :
    after hostOps0_34 (after hostOps0_33 X) (Proc.devRef .tc main_arg0) = T
    ∧ after hostOps0_34 (after hostOps0_33 X) (Proc.devRef .tc main_arg1) = N
    ∧ after hostOps0_34 (after hostOps0_33 X) (Proc.devRef .tc main_v66) = addf S (Term.slotTake T N 16)
    ∧ after hostOps0_34 (after hostOps0_33 X) (Proc.devRef .tc main_v68) = Term.slot (Fin.val (17 : Fin 32)) (Term.slot_ok 17) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 17 of the features' neighbour sum, from any contents X at which the feature array is T, the neighbour table
    is N, the sum so far is S and slot 17's indices are column 17 of N: the two stretches leave T and N in place, add
    the feature rows at slot 17 to the sum, and cut column 18 of N for the next step. Each of the four reads is the
    fold unrolled at its buffer; the gather's composition is Term.takeT by definition. -/
theorem featStep17 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v66) = S)
    (hI : X (Proc.devRef .tc main_v68) = Term.slot (Fin.val (17 : Fin 32)) (Term.slot_ok 17) N) :
    after hostOps0_36 (after hostOps0_35 X) (Proc.devRef .tc main_arg0) = T
    ∧ after hostOps0_36 (after hostOps0_35 X) (Proc.devRef .tc main_arg1) = N
    ∧ after hostOps0_36 (after hostOps0_35 X) (Proc.devRef .tc main_v70) = addf S (Term.slotTake T N 17)
    ∧ after hostOps0_36 (after hostOps0_35 X) (Proc.devRef .tc main_v72) = Term.slot (Fin.val (18 : Fin 32)) (Term.slot_ok 18) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 18 of the features' neighbour sum, from any contents X at which the feature array is T, the neighbour table
    is N, the sum so far is S and slot 18's indices are column 18 of N: the two stretches leave T and N in place, add
    the feature rows at slot 18 to the sum, and cut column 19 of N for the next step. Each of the four reads is the
    fold unrolled at its buffer; the gather's composition is Term.takeT by definition. -/
theorem featStep18 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v70) = S)
    (hI : X (Proc.devRef .tc main_v72) = Term.slot (Fin.val (18 : Fin 32)) (Term.slot_ok 18) N) :
    after hostOps0_38 (after hostOps0_37 X) (Proc.devRef .tc main_arg0) = T
    ∧ after hostOps0_38 (after hostOps0_37 X) (Proc.devRef .tc main_arg1) = N
    ∧ after hostOps0_38 (after hostOps0_37 X) (Proc.devRef .tc main_v74) = addf S (Term.slotTake T N 18)
    ∧ after hostOps0_38 (after hostOps0_37 X) (Proc.devRef .tc main_v76) = Term.slot (Fin.val (19 : Fin 32)) (Term.slot_ok 19) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 19 of the features' neighbour sum, from any contents X at which the feature array is T, the neighbour table
    is N, the sum so far is S and slot 19's indices are column 19 of N: the two stretches leave T and N in place, add
    the feature rows at slot 19 to the sum, and cut column 20 of N for the next step. Each of the four reads is the
    fold unrolled at its buffer; the gather's composition is Term.takeT by definition. -/
theorem featStep19 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v74) = S)
    (hI : X (Proc.devRef .tc main_v76) = Term.slot (Fin.val (19 : Fin 32)) (Term.slot_ok 19) N) :
    after hostOps0_40 (after hostOps0_39 X) (Proc.devRef .tc main_arg0) = T
    ∧ after hostOps0_40 (after hostOps0_39 X) (Proc.devRef .tc main_arg1) = N
    ∧ after hostOps0_40 (after hostOps0_39 X) (Proc.devRef .tc main_v78) = addf S (Term.slotTake T N 19)
    ∧ after hostOps0_40 (after hostOps0_39 X) (Proc.devRef .tc main_v80) = Term.slot (Fin.val (20 : Fin 32)) (Term.slot_ok 20) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 20 of the features' neighbour sum, from any contents X at which the feature array is T, the neighbour table
    is N, the sum so far is S and slot 20's indices are column 20 of N: the two stretches leave T and N in place, add
    the feature rows at slot 20 to the sum, and cut column 21 of N for the next step. Each of the four reads is the
    fold unrolled at its buffer; the gather's composition is Term.takeT by definition. -/
theorem featStep20 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v78) = S)
    (hI : X (Proc.devRef .tc main_v80) = Term.slot (Fin.val (20 : Fin 32)) (Term.slot_ok 20) N) :
    after hostOps0_42 (after hostOps0_41 X) (Proc.devRef .tc main_arg0) = T
    ∧ after hostOps0_42 (after hostOps0_41 X) (Proc.devRef .tc main_arg1) = N
    ∧ after hostOps0_42 (after hostOps0_41 X) (Proc.devRef .tc main_v82) = addf S (Term.slotTake T N 20)
    ∧ after hostOps0_42 (after hostOps0_41 X) (Proc.devRef .tc main_v84) = Term.slot (Fin.val (21 : Fin 32)) (Term.slot_ok 21) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 21 of the features' neighbour sum, from any contents X at which the feature array is T, the neighbour table
    is N, the sum so far is S and slot 21's indices are column 21 of N: the two stretches leave T and N in place, add
    the feature rows at slot 21 to the sum, and cut column 22 of N for the next step. Each of the four reads is the
    fold unrolled at its buffer; the gather's composition is Term.takeT by definition. -/
theorem featStep21 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v82) = S)
    (hI : X (Proc.devRef .tc main_v84) = Term.slot (Fin.val (21 : Fin 32)) (Term.slot_ok 21) N) :
    after hostOps0_44 (after hostOps0_43 X) (Proc.devRef .tc main_arg0) = T
    ∧ after hostOps0_44 (after hostOps0_43 X) (Proc.devRef .tc main_arg1) = N
    ∧ after hostOps0_44 (after hostOps0_43 X) (Proc.devRef .tc main_v86) = addf S (Term.slotTake T N 21)
    ∧ after hostOps0_44 (after hostOps0_43 X) (Proc.devRef .tc main_v88) = Term.slot (Fin.val (22 : Fin 32)) (Term.slot_ok 22) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 22 of the features' neighbour sum, from any contents X at which the feature array is T, the neighbour table
    is N, the sum so far is S and slot 22's indices are column 22 of N: the two stretches leave T and N in place, add
    the feature rows at slot 22 to the sum, and cut column 23 of N for the next step. Each of the four reads is the
    fold unrolled at its buffer; the gather's composition is Term.takeT by definition. -/
theorem featStep22 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v86) = S)
    (hI : X (Proc.devRef .tc main_v88) = Term.slot (Fin.val (22 : Fin 32)) (Term.slot_ok 22) N) :
    after hostOps0_46 (after hostOps0_45 X) (Proc.devRef .tc main_arg0) = T
    ∧ after hostOps0_46 (after hostOps0_45 X) (Proc.devRef .tc main_arg1) = N
    ∧ after hostOps0_46 (after hostOps0_45 X) (Proc.devRef .tc main_v90) = addf S (Term.slotTake T N 22)
    ∧ after hostOps0_46 (after hostOps0_45 X) (Proc.devRef .tc main_v92) = Term.slot (Fin.val (23 : Fin 32)) (Term.slot_ok 23) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 23 of the features' neighbour sum, from any contents X at which the feature array is T, the neighbour table
    is N, the sum so far is S and slot 23's indices are column 23 of N: the two stretches leave T and N in place, add
    the feature rows at slot 23 to the sum, and cut column 24 of N for the next step. Each of the four reads is the
    fold unrolled at its buffer; the gather's composition is Term.takeT by definition. -/
theorem featStep23 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v90) = S)
    (hI : X (Proc.devRef .tc main_v92) = Term.slot (Fin.val (23 : Fin 32)) (Term.slot_ok 23) N) :
    after hostOps0_48 (after hostOps0_47 X) (Proc.devRef .tc main_arg0) = T
    ∧ after hostOps0_48 (after hostOps0_47 X) (Proc.devRef .tc main_arg1) = N
    ∧ after hostOps0_48 (after hostOps0_47 X) (Proc.devRef .tc main_v94) = addf S (Term.slotTake T N 23)
    ∧ after hostOps0_48 (after hostOps0_47 X) (Proc.devRef .tc main_v96) = Term.slot (Fin.val (24 : Fin 32)) (Term.slot_ok 24) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 24 of the features' neighbour sum, from any contents X at which the feature array is T, the neighbour table
    is N, the sum so far is S and slot 24's indices are column 24 of N: the two stretches leave T and N in place, add
    the feature rows at slot 24 to the sum, and cut column 25 of N for the next step. Each of the four reads is the
    fold unrolled at its buffer; the gather's composition is Term.takeT by definition. -/
theorem featStep24 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v94) = S)
    (hI : X (Proc.devRef .tc main_v96) = Term.slot (Fin.val (24 : Fin 32)) (Term.slot_ok 24) N) :
    after hostOps0_50 (after hostOps0_49 X) (Proc.devRef .tc main_arg0) = T
    ∧ after hostOps0_50 (after hostOps0_49 X) (Proc.devRef .tc main_arg1) = N
    ∧ after hostOps0_50 (after hostOps0_49 X) (Proc.devRef .tc main_v98) = addf S (Term.slotTake T N 24)
    ∧ after hostOps0_50 (after hostOps0_49 X) (Proc.devRef .tc main_v100) = Term.slot (Fin.val (25 : Fin 32)) (Term.slot_ok 25) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 25 of the features' neighbour sum, from any contents X at which the feature array is T, the neighbour table
    is N, the sum so far is S and slot 25's indices are column 25 of N: the two stretches leave T and N in place, add
    the feature rows at slot 25 to the sum, and cut column 26 of N for the next step. Each of the four reads is the
    fold unrolled at its buffer; the gather's composition is Term.takeT by definition. -/
theorem featStep25 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v98) = S)
    (hI : X (Proc.devRef .tc main_v100) = Term.slot (Fin.val (25 : Fin 32)) (Term.slot_ok 25) N) :
    after hostOps0_52 (after hostOps0_51 X) (Proc.devRef .tc main_arg0) = T
    ∧ after hostOps0_52 (after hostOps0_51 X) (Proc.devRef .tc main_arg1) = N
    ∧ after hostOps0_52 (after hostOps0_51 X) (Proc.devRef .tc main_v102) = addf S (Term.slotTake T N 25)
    ∧ after hostOps0_52 (after hostOps0_51 X) (Proc.devRef .tc main_v104) = Term.slot (Fin.val (26 : Fin 32)) (Term.slot_ok 26) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 26 of the features' neighbour sum, from any contents X at which the feature array is T, the neighbour table
    is N, the sum so far is S and slot 26's indices are column 26 of N: the two stretches leave T and N in place, add
    the feature rows at slot 26 to the sum, and cut column 27 of N for the next step. Each of the four reads is the
    fold unrolled at its buffer; the gather's composition is Term.takeT by definition. -/
theorem featStep26 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v102) = S)
    (hI : X (Proc.devRef .tc main_v104) = Term.slot (Fin.val (26 : Fin 32)) (Term.slot_ok 26) N) :
    after hostOps0_54 (after hostOps0_53 X) (Proc.devRef .tc main_arg0) = T
    ∧ after hostOps0_54 (after hostOps0_53 X) (Proc.devRef .tc main_arg1) = N
    ∧ after hostOps0_54 (after hostOps0_53 X) (Proc.devRef .tc main_v106) = addf S (Term.slotTake T N 26)
    ∧ after hostOps0_54 (after hostOps0_53 X) (Proc.devRef .tc main_v108) = Term.slot (Fin.val (27 : Fin 32)) (Term.slot_ok 27) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 27 of the features' neighbour sum, from any contents X at which the feature array is T, the neighbour table
    is N, the sum so far is S and slot 27's indices are column 27 of N: the two stretches leave T and N in place, add
    the feature rows at slot 27 to the sum, and cut column 28 of N for the next step. Each of the four reads is the
    fold unrolled at its buffer; the gather's composition is Term.takeT by definition. -/
theorem featStep27 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v106) = S)
    (hI : X (Proc.devRef .tc main_v108) = Term.slot (Fin.val (27 : Fin 32)) (Term.slot_ok 27) N) :
    after hostOps0_56 (after hostOps0_55 X) (Proc.devRef .tc main_arg0) = T
    ∧ after hostOps0_56 (after hostOps0_55 X) (Proc.devRef .tc main_arg1) = N
    ∧ after hostOps0_56 (after hostOps0_55 X) (Proc.devRef .tc main_v110) = addf S (Term.slotTake T N 27)
    ∧ after hostOps0_56 (after hostOps0_55 X) (Proc.devRef .tc main_v112) = Term.slot (Fin.val (28 : Fin 32)) (Term.slot_ok 28) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 28 of the features' neighbour sum, from any contents X at which the feature array is T, the neighbour table
    is N, the sum so far is S and slot 28's indices are column 28 of N: the two stretches leave T and N in place, add
    the feature rows at slot 28 to the sum, and cut column 29 of N for the next step. Each of the four reads is the
    fold unrolled at its buffer; the gather's composition is Term.takeT by definition. -/
theorem featStep28 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v110) = S)
    (hI : X (Proc.devRef .tc main_v112) = Term.slot (Fin.val (28 : Fin 32)) (Term.slot_ok 28) N) :
    after hostOps0_58 (after hostOps0_57 X) (Proc.devRef .tc main_arg0) = T
    ∧ after hostOps0_58 (after hostOps0_57 X) (Proc.devRef .tc main_arg1) = N
    ∧ after hostOps0_58 (after hostOps0_57 X) (Proc.devRef .tc main_v114) = addf S (Term.slotTake T N 28)
    ∧ after hostOps0_58 (after hostOps0_57 X) (Proc.devRef .tc main_v116) = Term.slot (Fin.val (29 : Fin 32)) (Term.slot_ok 29) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 29 of the features' neighbour sum, from any contents X at which the feature array is T, the neighbour table
    is N, the sum so far is S and slot 29's indices are column 29 of N: the two stretches leave T and N in place, add
    the feature rows at slot 29 to the sum, and cut column 30 of N for the next step. Each of the four reads is the
    fold unrolled at its buffer; the gather's composition is Term.takeT by definition. -/
theorem featStep29 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v114) = S)
    (hI : X (Proc.devRef .tc main_v116) = Term.slot (Fin.val (29 : Fin 32)) (Term.slot_ok 29) N) :
    after hostOps0_60 (after hostOps0_59 X) (Proc.devRef .tc main_arg0) = T
    ∧ after hostOps0_60 (after hostOps0_59 X) (Proc.devRef .tc main_arg1) = N
    ∧ after hostOps0_60 (after hostOps0_59 X) (Proc.devRef .tc main_v118) = addf S (Term.slotTake T N 29)
    ∧ after hostOps0_60 (after hostOps0_59 X) (Proc.devRef .tc main_v120) = Term.slot (Fin.val (30 : Fin 32)) (Term.slot_ok 30) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 30 of the features' neighbour sum, from any contents X at which the feature array is T, the neighbour table
    is N, the sum so far is S and slot 30's indices are column 30 of N: the two stretches leave T and N in place, add
    the feature rows at slot 30 to the sum, and cut column 31 of N for the next step. Each of the four reads is the
    fold unrolled at its buffer; the gather's composition is Term.takeT by definition. -/
theorem featStep30 (X : Valuation τ sig (Elt F)) {T : FVec F S50000x128 .f32} {N : IVec S50000x32 32} {S : FVec F S50000x128 .f32}
    (hT : X (Proc.devRef .tc main_arg0) = T) (hN : X (Proc.devRef .tc main_arg1) = N)
    (hS : X (Proc.devRef .tc main_v118) = S)
    (hI : X (Proc.devRef .tc main_v120) = Term.slot (Fin.val (30 : Fin 32)) (Term.slot_ok 30) N) :
    after hostOps0_62 (after hostOps0_61 X) (Proc.devRef .tc main_arg0) = T
    ∧ after hostOps0_62 (after hostOps0_61 X) (Proc.devRef .tc main_arg1) = N
    ∧ after hostOps0_62 (after hostOps0_61 X) (Proc.devRef .tc main_v122) = addf S (Term.slotTake T N 30)
    ∧ after hostOps0_62 (after hostOps0_61 X) (Proc.devRef .tc main_v124) = Term.slot (Fin.val (31 : Fin 32)) (Term.slot_ok 31) N := by
  subst hT hN hS
  refine ⟨?_, ?_, ?_, ?_⟩
  · after_results_simp
  · after_results_simp
  · unfold Term.slotTake
    rw [← hI]
    after_results_simp
    rfl
  · after_results_simp
    rfl

end Cert.KernelIdeal.Gen.Val

end
-- ==== Proof.KHost1.lean ====
/-
  What the host operations before the first kernel region leave in the region's operand arrays, as functions of
  the launch memory: the neighbour mean of the input features, the two halves of the first weight matrix, and the
  argument arrays untouched.

  Every read is the fold of the host operations unrolled at one buffer. Short runs of operations are unrolled at
  ANY starting contents X; the neighbour mean is then threaded through its thirty-two gathers step by step (the thirty
  middle steps are the sibling lemmas featStep1 … featStep30), carrying four facts from boundary to boundary: the
  feature array and the neighbour table are in place, the running sum is the left-to-right sum of the slots gathered
  so far, and the next slot's indices are the next column of the neighbour table.
-/
import proofs.«411215_j35510789603589_3_alg».proof.Proof.FrameKernelIdeal
import proofs.«411215_j35510789603589_3_alg».proof.Proof.KTerm
import proofs.«411215_j35510789603589_3_alg».proof.Proof.KHost1Rows

set_option maxRecDepth 16384

noncomputable section

namespace Cert.KernelIdeal.Gen.Val

open Idealize.ShloMosaic Idealize.ShloMosaic.StableHlo Idealize.ShloMosaic.TcCoe Idealize.SL.Sem

variable {F : FTy → Type} [FloatOps F]
variable (m : (ℓ : Loc nD τ sig) → Buf (Elt F) ℓ) (ρ : Dev nD → PrngReg)

/-! ## Runs of operations at any starting contents -/

attribute [local irreducible] Host.reduce Host.gather pad in
/-- The sum's first term: column 0 of the neighbour table is cut, the feature rows at it are gathered, and column 1 is
    cut for the next step; the feature array and the neighbour table stay in place. -/
private theorem start (X : Valuation τ sig (Elt F)) {T : FVec F S50000x128 .f32} {N : IVec S50000x32 32}
    (hT : X (Proc.devRef .tc main_arg0) = T) (hN : X (Proc.devRef .tc main_arg1) = N) :
    after hostOps0_2 (after hostOps0_1 (after hostOps0 (X))) (Proc.devRef .tc main_arg0) = T
    ∧ after hostOps0_2 (after hostOps0_1 (after hostOps0 (X))) (Proc.devRef .tc main_arg1) = N
    ∧ after hostOps0_2 (after hostOps0_1 (after hostOps0 (X))) (Proc.devRef .tc main_v2) = Term.slotTake T N 0
    ∧ after hostOps0_2 (after hostOps0_1 (after hostOps0 (X))) (Proc.devRef .tc main_v4) = Term.slot (Fin.val (1 : Fin 32)) (Term.slot_ok 1) N := by
  subst hT hN
  refine ⟨?_, ?_, ?_, ?_⟩
  · after_results_simp
  · after_results_simp
  · unfold Term.slotTake
    after_results_simp
    rfl
  · after_results_simp
    rfl

attribute [local irreducible] Host.reduce Host.gather pad in
/-- The sum's last term and the scaling: the feature rows at slot 31 are gathered and added, and the sum is multiplied
    by the constant 1/32. `hsum` says the sum so far with slot 31 added is the whole sum. -/
private theorem finish (X : Valuation τ sig (Elt F)) {T : FVec F S50000x128 .f32} {N : IVec S50000x32 32} {S : FVec F S50000x128 .f32}
    (hT : X (Proc.devRef .tc main_arg0) = T) (hN : X (Proc.devRef .tc main_arg1) = N) (hS : X (Proc.devRef .tc main_v122) = S)
    (hI : X (Proc.devRef .tc main_v124) = Term.slot (Fin.val (31 : Fin 32)) (Term.slot_ok 31) N)
    (hsum : addf S (Term.slotTake T N 31) = Term.sumT T N) :
    after hostOps0_64 (after hostOps0_63 (X)) (Proc.devRef .tc main_v128) = Term.meanT T N := by
  subst hT hN hS
  unfold Term.meanT
  rw [← hsum]
  unfold Term.slotTake
  rw [← hI]
  after_results_simp
  rfl

/-- The last stretch cuts the first weight matrix into its upper half … -/
private theorem tail_v129 (X : Valuation τ sig (Elt F)) :
    after hostOps0_64 X (Proc.devRef .tc main_v129) = Term.wLo (X (Proc.devRef .tc main_arg3)) := by
  after_results_simp
  rfl

/-- … and its lower half. -/
private theorem tail_v130 (X : Valuation τ sig (Elt F)) :
    after hostOps0_64 X (Proc.devRef .tc main_v130) = Term.wHi (X (Proc.devRef .tc main_arg3)) := by
  after_results_simp
  rfl

/-- The last stretch does not write the weight matrix. -/
private theorem keep64_arg3 (X : Valuation τ sig (Elt F)) :
    after hostOps0_64 X (Proc.devRef .tc main_arg3) = X (Proc.devRef .tc main_arg3) := by
  after_results_simp

/-! ## The arguments: no host operation writes one

Each is the whole fold read at a buffer none of its operations writes: every operation's result is skipped in turn. -/

set_option maxHeartbeats 4000000 in
private theorem keep_arg0 (X : Valuation τ sig (Elt F)) :
    after hostOps0_64 (after hostOps0_63 (after hostOps0_62 (after hostOps0_61 (after hostOps0_60 (after hostOps0_59 (after hostOps0_58 (after hostOps0_57 (after hostOps0_56 (after hostOps0_55 (after hostOps0_54 (after hostOps0_53 (after hostOps0_52 (after hostOps0_51 (after hostOps0_50 (after hostOps0_49 (after hostOps0_48 (after hostOps0_47 (after hostOps0_46 (after hostOps0_45 (after hostOps0_44 (after hostOps0_43 (after hostOps0_42 (after hostOps0_41 (after hostOps0_40 (after hostOps0_39 (after hostOps0_38 (after hostOps0_37 (after hostOps0_36 (after hostOps0_35 (after hostOps0_34 (after hostOps0_33 (after hostOps0_32 (after hostOps0_31 (after hostOps0_30 (after hostOps0_29 (after hostOps0_28 (after hostOps0_27 (after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (X))))))))))))))))))))))))))))))))))))))))))))))))))))))))))))))))) (Proc.devRef .tc main_arg0) = X (Proc.devRef .tc main_arg0) := by
  after_results_simp

set_option maxHeartbeats 4000000 in
private theorem keep_arg1 (X : Valuation τ sig (Elt F)) :
    after hostOps0_64 (after hostOps0_63 (after hostOps0_62 (after hostOps0_61 (after hostOps0_60 (after hostOps0_59 (after hostOps0_58 (after hostOps0_57 (after hostOps0_56 (after hostOps0_55 (after hostOps0_54 (after hostOps0_53 (after hostOps0_52 (after hostOps0_51 (after hostOps0_50 (after hostOps0_49 (after hostOps0_48 (after hostOps0_47 (after hostOps0_46 (after hostOps0_45 (after hostOps0_44 (after hostOps0_43 (after hostOps0_42 (after hostOps0_41 (after hostOps0_40 (after hostOps0_39 (after hostOps0_38 (after hostOps0_37 (after hostOps0_36 (after hostOps0_35 (after hostOps0_34 (after hostOps0_33 (after hostOps0_32 (after hostOps0_31 (after hostOps0_30 (after hostOps0_29 (after hostOps0_28 (after hostOps0_27 (after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (X))))))))))))))))))))))))))))))))))))))))))))))))))))))))))))))))) (Proc.devRef .tc main_arg1) = X (Proc.devRef .tc main_arg1) := by
  after_results_simp

set_option maxHeartbeats 4000000 in
private theorem keep_arg2 (X : Valuation τ sig (Elt F)) :
    after hostOps0_64 (after hostOps0_63 (after hostOps0_62 (after hostOps0_61 (after hostOps0_60 (after hostOps0_59 (after hostOps0_58 (after hostOps0_57 (after hostOps0_56 (after hostOps0_55 (after hostOps0_54 (after hostOps0_53 (after hostOps0_52 (after hostOps0_51 (after hostOps0_50 (after hostOps0_49 (after hostOps0_48 (after hostOps0_47 (after hostOps0_46 (after hostOps0_45 (after hostOps0_44 (after hostOps0_43 (after hostOps0_42 (after hostOps0_41 (after hostOps0_40 (after hostOps0_39 (after hostOps0_38 (after hostOps0_37 (after hostOps0_36 (after hostOps0_35 (after hostOps0_34 (after hostOps0_33 (after hostOps0_32 (after hostOps0_31 (after hostOps0_30 (after hostOps0_29 (after hostOps0_28 (after hostOps0_27 (after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (X))))))))))))))))))))))))))))))))))))))))))))))))))))))))))))))))) (Proc.devRef .tc main_arg2) = X (Proc.devRef .tc main_arg2) := by
  after_results_simp

set_option maxHeartbeats 4000000 in
private theorem keep_arg3 (X : Valuation τ sig (Elt F)) :
    after hostOps0_64 (after hostOps0_63 (after hostOps0_62 (after hostOps0_61 (after hostOps0_60 (after hostOps0_59 (after hostOps0_58 (after hostOps0_57 (after hostOps0_56 (after hostOps0_55 (after hostOps0_54 (after hostOps0_53 (after hostOps0_52 (after hostOps0_51 (after hostOps0_50 (after hostOps0_49 (after hostOps0_48 (after hostOps0_47 (after hostOps0_46 (after hostOps0_45 (after hostOps0_44 (after hostOps0_43 (after hostOps0_42 (after hostOps0_41 (after hostOps0_40 (after hostOps0_39 (after hostOps0_38 (after hostOps0_37 (after hostOps0_36 (after hostOps0_35 (after hostOps0_34 (after hostOps0_33 (after hostOps0_32 (after hostOps0_31 (after hostOps0_30 (after hostOps0_29 (after hostOps0_28 (after hostOps0_27 (after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (X))))))))))))))))))))))))))))))))))))))))))))))))))))))))))))))))) (Proc.devRef .tc main_arg3) = X (Proc.devRef .tc main_arg3) := by
  after_results_simp

set_option maxHeartbeats 4000000 in
private theorem keep_arg4 (X : Valuation τ sig (Elt F)) :
    after hostOps0_64 (after hostOps0_63 (after hostOps0_62 (after hostOps0_61 (after hostOps0_60 (after hostOps0_59 (after hostOps0_58 (after hostOps0_57 (after hostOps0_56 (after hostOps0_55 (after hostOps0_54 (after hostOps0_53 (after hostOps0_52 (after hostOps0_51 (after hostOps0_50 (after hostOps0_49 (after hostOps0_48 (after hostOps0_47 (after hostOps0_46 (after hostOps0_45 (after hostOps0_44 (after hostOps0_43 (after hostOps0_42 (after hostOps0_41 (after hostOps0_40 (after hostOps0_39 (after hostOps0_38 (after hostOps0_37 (after hostOps0_36 (after hostOps0_35 (after hostOps0_34 (after hostOps0_33 (after hostOps0_32 (after hostOps0_31 (after hostOps0_30 (after hostOps0_29 (after hostOps0_28 (after hostOps0_27 (after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (X))))))))))))))))))))))))))))))))))))))))))))))))))))))))))))))))) (Proc.devRef .tc main_arg4) = X (Proc.devRef .tc main_arg4) := by
  after_results_simp

set_option maxHeartbeats 4000000 in
private theorem keep_arg5 (X : Valuation τ sig (Elt F)) :
    after hostOps0_64 (after hostOps0_63 (after hostOps0_62 (after hostOps0_61 (after hostOps0_60 (after hostOps0_59 (after hostOps0_58 (after hostOps0_57 (after hostOps0_56 (after hostOps0_55 (after hostOps0_54 (after hostOps0_53 (after hostOps0_52 (after hostOps0_51 (after hostOps0_50 (after hostOps0_49 (after hostOps0_48 (after hostOps0_47 (after hostOps0_46 (after hostOps0_45 (after hostOps0_44 (after hostOps0_43 (after hostOps0_42 (after hostOps0_41 (after hostOps0_40 (after hostOps0_39 (after hostOps0_38 (after hostOps0_37 (after hostOps0_36 (after hostOps0_35 (after hostOps0_34 (after hostOps0_33 (after hostOps0_32 (after hostOps0_31 (after hostOps0_30 (after hostOps0_29 (after hostOps0_28 (after hostOps0_27 (after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (X))))))))))))))))))))))))))))))))))))))))))))))))))))))))))))))))) (Proc.devRef .tc main_arg5) = X (Proc.devRef .tc main_arg5) := by
  after_results_simp

set_option maxHeartbeats 4000000 in
private theorem keep_arg6 (X : Valuation τ sig (Elt F)) :
    after hostOps0_64 (after hostOps0_63 (after hostOps0_62 (after hostOps0_61 (after hostOps0_60 (after hostOps0_59 (after hostOps0_58 (after hostOps0_57 (after hostOps0_56 (after hostOps0_55 (after hostOps0_54 (after hostOps0_53 (after hostOps0_52 (after hostOps0_51 (after hostOps0_50 (after hostOps0_49 (after hostOps0_48 (after hostOps0_47 (after hostOps0_46 (after hostOps0_45 (after hostOps0_44 (after hostOps0_43 (after hostOps0_42 (after hostOps0_41 (after hostOps0_40 (after hostOps0_39 (after hostOps0_38 (after hostOps0_37 (after hostOps0_36 (after hostOps0_35 (after hostOps0_34 (after hostOps0_33 (after hostOps0_32 (after hostOps0_31 (after hostOps0_30 (after hostOps0_29 (after hostOps0_28 (after hostOps0_27 (after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (X))))))))))))))))))))))))))))))))))))))))))))))))))))))))))))))))) (Proc.devRef .tc main_arg6) = X (Proc.devRef .tc main_arg6) := by
  after_results_simp

/-! ## The reads at the first region's entry -/

theorem W65_v128 (c : Dev nD) : W65 m ρ c (Proc.devRef .tc main_v128) = Term.meanT (m ((c : Thread nD τ).loc main_arg0)) (m ((c : Thread nD τ).loc main_arg1)) := by
  obtain ⟨t0, n0, s0, i0⟩ := start (W0 m ρ c) (T := m ((c : Thread nD τ).loc main_arg0)) (N := m ((c : Thread nD τ).loc main_arg1)) rfl rfl
  obtain ⟨t1, n1, s1, i1⟩ := featStep1 (W3 m ρ c) t0 n0 s0 i0
  obtain ⟨t2, n2, s2, i2⟩ := featStep2 (W5 m ρ c) t1 n1 s1 i1
  obtain ⟨t3, n3, s3, i3⟩ := featStep3 (W7 m ρ c) t2 n2 s2 i2
  obtain ⟨t4, n4, s4, i4⟩ := featStep4 (W9 m ρ c) t3 n3 s3 i3
  obtain ⟨t5, n5, s5, i5⟩ := featStep5 (W11 m ρ c) t4 n4 s4 i4
  obtain ⟨t6, n6, s6, i6⟩ := featStep6 (W13 m ρ c) t5 n5 s5 i5
  obtain ⟨t7, n7, s7, i7⟩ := featStep7 (W15 m ρ c) t6 n6 s6 i6
  obtain ⟨t8, n8, s8, i8⟩ := featStep8 (W17 m ρ c) t7 n7 s7 i7
  obtain ⟨t9, n9, s9, i9⟩ := featStep9 (W19 m ρ c) t8 n8 s8 i8
  obtain ⟨t10, n10, s10, i10⟩ := featStep10 (W21 m ρ c) t9 n9 s9 i9
  obtain ⟨t11, n11, s11, i11⟩ := featStep11 (W23 m ρ c) t10 n10 s10 i10
  obtain ⟨t12, n12, s12, i12⟩ := featStep12 (W25 m ρ c) t11 n11 s11 i11
  obtain ⟨t13, n13, s13, i13⟩ := featStep13 (W27 m ρ c) t12 n12 s12 i12
  obtain ⟨t14, n14, s14, i14⟩ := featStep14 (W29 m ρ c) t13 n13 s13 i13
  obtain ⟨t15, n15, s15, i15⟩ := featStep15 (W31 m ρ c) t14 n14 s14 i14
  obtain ⟨t16, n16, s16, i16⟩ := featStep16 (W33 m ρ c) t15 n15 s15 i15
  obtain ⟨t17, n17, s17, i17⟩ := featStep17 (W35 m ρ c) t16 n16 s16 i16
  obtain ⟨t18, n18, s18, i18⟩ := featStep18 (W37 m ρ c) t17 n17 s17 i17
  obtain ⟨t19, n19, s19, i19⟩ := featStep19 (W39 m ρ c) t18 n18 s18 i18
  obtain ⟨t20, n20, s20, i20⟩ := featStep20 (W41 m ρ c) t19 n19 s19 i19
  obtain ⟨t21, n21, s21, i21⟩ := featStep21 (W43 m ρ c) t20 n20 s20 i20
  obtain ⟨t22, n22, s22, i22⟩ := featStep22 (W45 m ρ c) t21 n21 s21 i21
  obtain ⟨t23, n23, s23, i23⟩ := featStep23 (W47 m ρ c) t22 n22 s22 i22
  obtain ⟨t24, n24, s24, i24⟩ := featStep24 (W49 m ρ c) t23 n23 s23 i23
  obtain ⟨t25, n25, s25, i25⟩ := featStep25 (W51 m ρ c) t24 n24 s24 i24
  obtain ⟨t26, n26, s26, i26⟩ := featStep26 (W53 m ρ c) t25 n25 s25 i25
  obtain ⟨t27, n27, s27, i27⟩ := featStep27 (W55 m ρ c) t26 n26 s26 i26
  obtain ⟨t28, n28, s28, i28⟩ := featStep28 (W57 m ρ c) t27 n27 s27 i27
  obtain ⟨t29, n29, s29, i29⟩ := featStep29 (W59 m ρ c) t28 n28 s28 i28
  obtain ⟨t30, n30, s30, i30⟩ := featStep30 (W61 m ρ c) t29 n29 s29 i29
  exact finish (W63 m ρ c) t30 n30 s30 i30 (by simp only [Term.sumT, List.foldl])
theorem W65_v129 (c : Dev nD) : W65 m ρ c (Proc.devRef .tc main_v129) = Term.wLo (m ((c : Thread nD τ).loc main_arg3)) :=
  (tail_v129 (W64 m ρ c)).trans (congrArg Term.wLo ((keep64_arg3 (W64 m ρ c)).symm.trans (keep_arg3 (W0 m ρ c))))
theorem W65_v130 (c : Dev nD) : W65 m ρ c (Proc.devRef .tc main_v130) = Term.wHi (m ((c : Thread nD τ).loc main_arg3)) :=
  (tail_v130 (W64 m ρ c)).trans (congrArg Term.wHi ((keep64_arg3 (W64 m ρ c)).symm.trans (keep_arg3 (W0 m ρ c))))
theorem W65_arg0 (c : Dev nD) : W65 m ρ c (Proc.devRef .tc main_arg0) = m ((c : Thread nD τ).loc main_arg0) :=
  keep_arg0 (W0 m ρ c)
theorem W65_arg1 (c : Dev nD) : W65 m ρ c (Proc.devRef .tc main_arg1) = m ((c : Thread nD τ).loc main_arg1) :=
  keep_arg1 (W0 m ρ c)
theorem W65_arg2 (c : Dev nD) : W65 m ρ c (Proc.devRef .tc main_arg2) = m ((c : Thread nD τ).loc main_arg2) :=
  keep_arg2 (W0 m ρ c)
theorem W65_arg3 (c : Dev nD) : W65 m ρ c (Proc.devRef .tc main_arg3) = m ((c : Thread nD τ).loc main_arg3) :=
  keep_arg3 (W0 m ρ c)
theorem W65_arg4 (c : Dev nD) : W65 m ρ c (Proc.devRef .tc main_arg4) = m ((c : Thread nD τ).loc main_arg4) :=
  keep_arg4 (W0 m ρ c)
theorem W65_arg5 (c : Dev nD) : W65 m ρ c (Proc.devRef .tc main_arg5) = m ((c : Thread nD τ).loc main_arg5) :=
  keep_arg5 (W0 m ρ c)
theorem W65_arg6 (c : Dev nD) : W65 m ρ c (Proc.devRef .tc main_arg6) = m ((c : Thread nD τ).loc main_arg6) :=
  keep_arg6 (W0 m ρ c)

end Cert.KernelIdeal.Gen.Val

end
-- ==== Proof.KHost2Rows.lean ====
import proofs.«411215_j35510789603589_3_alg».proof.Proof.Gen.KernelIdeal.Launch
import proofs.«411215_j35510789603589_3_alg».proof.Proof.KTerm

set_option maxRecDepth 16384

noncomputable section

namespace Cert.KernelIdeal.Gen.Val

open Idealize.ShloMosaic Idealize.ShloMosaic.StableHlo Idealize.SL.Sem

variable {F : FTy → Type} [FloatOps F]

attribute [local irreducible] Host.reduce Host.gather pad in
/-- Step 1 of the neighbour sum, from any contents X at which the hidden array is T, the batch's neighbour lists
    are N, the sum so far is S and slot 1's indices are column 1 of N: the two stretches leave T and N in place,
    add the hidden rows at slot 1 to the sum, and cut column 2 of N for the next step. Each of the four reads is
    the fold unrolled at its buffer; the gather's composition is Term.takeT by definition. -/
theorem step1 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v135) = S)
    (hI : X (Proc.devRef .tc main_v137) = Term.slot (Fin.val (1 : Fin 32)) (Term.slot_ok 1) N) :
    after hostOps1_5 (after hostOps1_4 X) (Proc.devRef .tc main_v131) = T
    ∧ after hostOps1_5 (after hostOps1_4 X) (Proc.devRef .tc main_v132) = N
    ∧ after hostOps1_5 (after hostOps1_4 X) (Proc.devRef .tc main_v139) = addf S (Term.slotTake T N 1)
    ∧ after hostOps1_5 (after hostOps1_4 X) (Proc.devRef .tc main_v141) = Term.slot (Fin.val (2 : Fin 32)) (Term.slot_ok 2) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 2 of the neighbour sum, from any contents X at which the hidden array is T, the batch's neighbour lists
    are N, the sum so far is S and slot 2's indices are column 2 of N: the two stretches leave T and N in place,
    add the hidden rows at slot 2 to the sum, and cut column 3 of N for the next step. Each of the four reads is
    the fold unrolled at its buffer; the gather's composition is Term.takeT by definition. -/
theorem step2 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v139) = S)
    (hI : X (Proc.devRef .tc main_v141) = Term.slot (Fin.val (2 : Fin 32)) (Term.slot_ok 2) N) :
    after hostOps1_7 (after hostOps1_6 X) (Proc.devRef .tc main_v131) = T
    ∧ after hostOps1_7 (after hostOps1_6 X) (Proc.devRef .tc main_v132) = N
    ∧ after hostOps1_7 (after hostOps1_6 X) (Proc.devRef .tc main_v143) = addf S (Term.slotTake T N 2)
    ∧ after hostOps1_7 (after hostOps1_6 X) (Proc.devRef .tc main_v145) = Term.slot (Fin.val (3 : Fin 32)) (Term.slot_ok 3) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 3 of the neighbour sum, from any contents X at which the hidden array is T, the batch's neighbour lists
    are N, the sum so far is S and slot 3's indices are column 3 of N: the two stretches leave T and N in place,
    add the hidden rows at slot 3 to the sum, and cut column 4 of N for the next step. Each of the four reads is
    the fold unrolled at its buffer; the gather's composition is Term.takeT by definition. -/
theorem step3 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v143) = S)
    (hI : X (Proc.devRef .tc main_v145) = Term.slot (Fin.val (3 : Fin 32)) (Term.slot_ok 3) N) :
    after hostOps1_9 (after hostOps1_8 X) (Proc.devRef .tc main_v131) = T
    ∧ after hostOps1_9 (after hostOps1_8 X) (Proc.devRef .tc main_v132) = N
    ∧ after hostOps1_9 (after hostOps1_8 X) (Proc.devRef .tc main_v147) = addf S (Term.slotTake T N 3)
    ∧ after hostOps1_9 (after hostOps1_8 X) (Proc.devRef .tc main_v149) = Term.slot (Fin.val (4 : Fin 32)) (Term.slot_ok 4) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 4 of the neighbour sum, from any contents X at which the hidden array is T, the batch's neighbour lists
    are N, the sum so far is S and slot 4's indices are column 4 of N: the two stretches leave T and N in place,
    add the hidden rows at slot 4 to the sum, and cut column 5 of N for the next step. Each of the four reads is
    the fold unrolled at its buffer; the gather's composition is Term.takeT by definition. -/
theorem step4 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v147) = S)
    (hI : X (Proc.devRef .tc main_v149) = Term.slot (Fin.val (4 : Fin 32)) (Term.slot_ok 4) N) :
    after hostOps1_11 (after hostOps1_10 X) (Proc.devRef .tc main_v131) = T
    ∧ after hostOps1_11 (after hostOps1_10 X) (Proc.devRef .tc main_v132) = N
    ∧ after hostOps1_11 (after hostOps1_10 X) (Proc.devRef .tc main_v151) = addf S (Term.slotTake T N 4)
    ∧ after hostOps1_11 (after hostOps1_10 X) (Proc.devRef .tc main_v153) = Term.slot (Fin.val (5 : Fin 32)) (Term.slot_ok 5) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 5 of the neighbour sum, from any contents X at which the hidden array is T, the batch's neighbour lists
    are N, the sum so far is S and slot 5's indices are column 5 of N: the two stretches leave T and N in place,
    add the hidden rows at slot 5 to the sum, and cut column 6 of N for the next step. Each of the four reads is
    the fold unrolled at its buffer; the gather's composition is Term.takeT by definition. -/
theorem step5 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v151) = S)
    (hI : X (Proc.devRef .tc main_v153) = Term.slot (Fin.val (5 : Fin 32)) (Term.slot_ok 5) N) :
    after hostOps1_13 (after hostOps1_12 X) (Proc.devRef .tc main_v131) = T
    ∧ after hostOps1_13 (after hostOps1_12 X) (Proc.devRef .tc main_v132) = N
    ∧ after hostOps1_13 (after hostOps1_12 X) (Proc.devRef .tc main_v155) = addf S (Term.slotTake T N 5)
    ∧ after hostOps1_13 (after hostOps1_12 X) (Proc.devRef .tc main_v157) = Term.slot (Fin.val (6 : Fin 32)) (Term.slot_ok 6) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 6 of the neighbour sum, from any contents X at which the hidden array is T, the batch's neighbour lists
    are N, the sum so far is S and slot 6's indices are column 6 of N: the two stretches leave T and N in place,
    add the hidden rows at slot 6 to the sum, and cut column 7 of N for the next step. Each of the four reads is
    the fold unrolled at its buffer; the gather's composition is Term.takeT by definition. -/
theorem step6 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v155) = S)
    (hI : X (Proc.devRef .tc main_v157) = Term.slot (Fin.val (6 : Fin 32)) (Term.slot_ok 6) N) :
    after hostOps1_15 (after hostOps1_14 X) (Proc.devRef .tc main_v131) = T
    ∧ after hostOps1_15 (after hostOps1_14 X) (Proc.devRef .tc main_v132) = N
    ∧ after hostOps1_15 (after hostOps1_14 X) (Proc.devRef .tc main_v159) = addf S (Term.slotTake T N 6)
    ∧ after hostOps1_15 (after hostOps1_14 X) (Proc.devRef .tc main_v161) = Term.slot (Fin.val (7 : Fin 32)) (Term.slot_ok 7) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 7 of the neighbour sum, from any contents X at which the hidden array is T, the batch's neighbour lists
    are N, the sum so far is S and slot 7's indices are column 7 of N: the two stretches leave T and N in place,
    add the hidden rows at slot 7 to the sum, and cut column 8 of N for the next step. Each of the four reads is
    the fold unrolled at its buffer; the gather's composition is Term.takeT by definition. -/
theorem step7 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v159) = S)
    (hI : X (Proc.devRef .tc main_v161) = Term.slot (Fin.val (7 : Fin 32)) (Term.slot_ok 7) N) :
    after hostOps1_17 (after hostOps1_16 X) (Proc.devRef .tc main_v131) = T
    ∧ after hostOps1_17 (after hostOps1_16 X) (Proc.devRef .tc main_v132) = N
    ∧ after hostOps1_17 (after hostOps1_16 X) (Proc.devRef .tc main_v163) = addf S (Term.slotTake T N 7)
    ∧ after hostOps1_17 (after hostOps1_16 X) (Proc.devRef .tc main_v165) = Term.slot (Fin.val (8 : Fin 32)) (Term.slot_ok 8) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 8 of the neighbour sum, from any contents X at which the hidden array is T, the batch's neighbour lists
    are N, the sum so far is S and slot 8's indices are column 8 of N: the two stretches leave T and N in place,
    add the hidden rows at slot 8 to the sum, and cut column 9 of N for the next step. Each of the four reads is
    the fold unrolled at its buffer; the gather's composition is Term.takeT by definition. -/
theorem step8 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v163) = S)
    (hI : X (Proc.devRef .tc main_v165) = Term.slot (Fin.val (8 : Fin 32)) (Term.slot_ok 8) N) :
    after hostOps1_19 (after hostOps1_18 X) (Proc.devRef .tc main_v131) = T
    ∧ after hostOps1_19 (after hostOps1_18 X) (Proc.devRef .tc main_v132) = N
    ∧ after hostOps1_19 (after hostOps1_18 X) (Proc.devRef .tc main_v167) = addf S (Term.slotTake T N 8)
    ∧ after hostOps1_19 (after hostOps1_18 X) (Proc.devRef .tc main_v169) = Term.slot (Fin.val (9 : Fin 32)) (Term.slot_ok 9) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 9 of the neighbour sum, from any contents X at which the hidden array is T, the batch's neighbour lists
    are N, the sum so far is S and slot 9's indices are column 9 of N: the two stretches leave T and N in place,
    add the hidden rows at slot 9 to the sum, and cut column 10 of N for the next step. Each of the four reads is
    the fold unrolled at its buffer; the gather's composition is Term.takeT by definition. -/
theorem step9 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v167) = S)
    (hI : X (Proc.devRef .tc main_v169) = Term.slot (Fin.val (9 : Fin 32)) (Term.slot_ok 9) N) :
    after hostOps1_21 (after hostOps1_20 X) (Proc.devRef .tc main_v131) = T
    ∧ after hostOps1_21 (after hostOps1_20 X) (Proc.devRef .tc main_v132) = N
    ∧ after hostOps1_21 (after hostOps1_20 X) (Proc.devRef .tc main_v171) = addf S (Term.slotTake T N 9)
    ∧ after hostOps1_21 (after hostOps1_20 X) (Proc.devRef .tc main_v173) = Term.slot (Fin.val (10 : Fin 32)) (Term.slot_ok 10) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 10 of the neighbour sum, from any contents X at which the hidden array is T, the batch's neighbour lists
    are N, the sum so far is S and slot 10's indices are column 10 of N: the two stretches leave T and N in place,
    add the hidden rows at slot 10 to the sum, and cut column 11 of N for the next step. Each of the four reads is
    the fold unrolled at its buffer; the gather's composition is Term.takeT by definition. -/
theorem step10 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v171) = S)
    (hI : X (Proc.devRef .tc main_v173) = Term.slot (Fin.val (10 : Fin 32)) (Term.slot_ok 10) N) :
    after hostOps1_23 (after hostOps1_22 X) (Proc.devRef .tc main_v131) = T
    ∧ after hostOps1_23 (after hostOps1_22 X) (Proc.devRef .tc main_v132) = N
    ∧ after hostOps1_23 (after hostOps1_22 X) (Proc.devRef .tc main_v175) = addf S (Term.slotTake T N 10)
    ∧ after hostOps1_23 (after hostOps1_22 X) (Proc.devRef .tc main_v177) = Term.slot (Fin.val (11 : Fin 32)) (Term.slot_ok 11) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 11 of the neighbour sum, from any contents X at which the hidden array is T, the batch's neighbour lists
    are N, the sum so far is S and slot 11's indices are column 11 of N: the two stretches leave T and N in place,
    add the hidden rows at slot 11 to the sum, and cut column 12 of N for the next step. Each of the four reads is
    the fold unrolled at its buffer; the gather's composition is Term.takeT by definition. -/
theorem step11 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v175) = S)
    (hI : X (Proc.devRef .tc main_v177) = Term.slot (Fin.val (11 : Fin 32)) (Term.slot_ok 11) N) :
    after hostOps1_25 (after hostOps1_24 X) (Proc.devRef .tc main_v131) = T
    ∧ after hostOps1_25 (after hostOps1_24 X) (Proc.devRef .tc main_v132) = N
    ∧ after hostOps1_25 (after hostOps1_24 X) (Proc.devRef .tc main_v179) = addf S (Term.slotTake T N 11)
    ∧ after hostOps1_25 (after hostOps1_24 X) (Proc.devRef .tc main_v181) = Term.slot (Fin.val (12 : Fin 32)) (Term.slot_ok 12) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 12 of the neighbour sum, from any contents X at which the hidden array is T, the batch's neighbour lists
    are N, the sum so far is S and slot 12's indices are column 12 of N: the two stretches leave T and N in place,
    add the hidden rows at slot 12 to the sum, and cut column 13 of N for the next step. Each of the four reads is
    the fold unrolled at its buffer; the gather's composition is Term.takeT by definition. -/
theorem step12 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v179) = S)
    (hI : X (Proc.devRef .tc main_v181) = Term.slot (Fin.val (12 : Fin 32)) (Term.slot_ok 12) N) :
    after hostOps1_27 (after hostOps1_26 X) (Proc.devRef .tc main_v131) = T
    ∧ after hostOps1_27 (after hostOps1_26 X) (Proc.devRef .tc main_v132) = N
    ∧ after hostOps1_27 (after hostOps1_26 X) (Proc.devRef .tc main_v183) = addf S (Term.slotTake T N 12)
    ∧ after hostOps1_27 (after hostOps1_26 X) (Proc.devRef .tc main_v185) = Term.slot (Fin.val (13 : Fin 32)) (Term.slot_ok 13) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 13 of the neighbour sum, from any contents X at which the hidden array is T, the batch's neighbour lists
    are N, the sum so far is S and slot 13's indices are column 13 of N: the two stretches leave T and N in place,
    add the hidden rows at slot 13 to the sum, and cut column 14 of N for the next step. Each of the four reads is
    the fold unrolled at its buffer; the gather's composition is Term.takeT by definition. -/
theorem step13 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v183) = S)
    (hI : X (Proc.devRef .tc main_v185) = Term.slot (Fin.val (13 : Fin 32)) (Term.slot_ok 13) N) :
    after hostOps1_29 (after hostOps1_28 X) (Proc.devRef .tc main_v131) = T
    ∧ after hostOps1_29 (after hostOps1_28 X) (Proc.devRef .tc main_v132) = N
    ∧ after hostOps1_29 (after hostOps1_28 X) (Proc.devRef .tc main_v187) = addf S (Term.slotTake T N 13)
    ∧ after hostOps1_29 (after hostOps1_28 X) (Proc.devRef .tc main_v189) = Term.slot (Fin.val (14 : Fin 32)) (Term.slot_ok 14) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 14 of the neighbour sum, from any contents X at which the hidden array is T, the batch's neighbour lists
    are N, the sum so far is S and slot 14's indices are column 14 of N: the two stretches leave T and N in place,
    add the hidden rows at slot 14 to the sum, and cut column 15 of N for the next step. Each of the four reads is
    the fold unrolled at its buffer; the gather's composition is Term.takeT by definition. -/
theorem step14 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v187) = S)
    (hI : X (Proc.devRef .tc main_v189) = Term.slot (Fin.val (14 : Fin 32)) (Term.slot_ok 14) N) :
    after hostOps1_31 (after hostOps1_30 X) (Proc.devRef .tc main_v131) = T
    ∧ after hostOps1_31 (after hostOps1_30 X) (Proc.devRef .tc main_v132) = N
    ∧ after hostOps1_31 (after hostOps1_30 X) (Proc.devRef .tc main_v191) = addf S (Term.slotTake T N 14)
    ∧ after hostOps1_31 (after hostOps1_30 X) (Proc.devRef .tc main_v193) = Term.slot (Fin.val (15 : Fin 32)) (Term.slot_ok 15) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 15 of the neighbour sum, from any contents X at which the hidden array is T, the batch's neighbour lists
    are N, the sum so far is S and slot 15's indices are column 15 of N: the two stretches leave T and N in place,
    add the hidden rows at slot 15 to the sum, and cut column 16 of N for the next step. Each of the four reads is
    the fold unrolled at its buffer; the gather's composition is Term.takeT by definition. -/
theorem step15 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v191) = S)
    (hI : X (Proc.devRef .tc main_v193) = Term.slot (Fin.val (15 : Fin 32)) (Term.slot_ok 15) N) :
    after hostOps1_33 (after hostOps1_32 X) (Proc.devRef .tc main_v131) = T
    ∧ after hostOps1_33 (after hostOps1_32 X) (Proc.devRef .tc main_v132) = N
    ∧ after hostOps1_33 (after hostOps1_32 X) (Proc.devRef .tc main_v195) = addf S (Term.slotTake T N 15)
    ∧ after hostOps1_33 (after hostOps1_32 X) (Proc.devRef .tc main_v197) = Term.slot (Fin.val (16 : Fin 32)) (Term.slot_ok 16) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 16 of the neighbour sum, from any contents X at which the hidden array is T, the batch's neighbour lists
    are N, the sum so far is S and slot 16's indices are column 16 of N: the two stretches leave T and N in place,
    add the hidden rows at slot 16 to the sum, and cut column 17 of N for the next step. Each of the four reads is
    the fold unrolled at its buffer; the gather's composition is Term.takeT by definition. -/
theorem step16 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v195) = S)
    (hI : X (Proc.devRef .tc main_v197) = Term.slot (Fin.val (16 : Fin 32)) (Term.slot_ok 16) N) :
    after hostOps1_35 (after hostOps1_34 X) (Proc.devRef .tc main_v131) = T
    ∧ after hostOps1_35 (after hostOps1_34 X) (Proc.devRef .tc main_v132) = N
    ∧ after hostOps1_35 (after hostOps1_34 X) (Proc.devRef .tc main_v199) = addf S (Term.slotTake T N 16)
    ∧ after hostOps1_35 (after hostOps1_34 X) (Proc.devRef .tc main_v201) = Term.slot (Fin.val (17 : Fin 32)) (Term.slot_ok 17) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 17 of the neighbour sum, from any contents X at which the hidden array is T, the batch's neighbour lists
    are N, the sum so far is S and slot 17's indices are column 17 of N: the two stretches leave T and N in place,
    add the hidden rows at slot 17 to the sum, and cut column 18 of N for the next step. Each of the four reads is
    the fold unrolled at its buffer; the gather's composition is Term.takeT by definition. -/
theorem step17 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v199) = S)
    (hI : X (Proc.devRef .tc main_v201) = Term.slot (Fin.val (17 : Fin 32)) (Term.slot_ok 17) N) :
    after hostOps1_37 (after hostOps1_36 X) (Proc.devRef .tc main_v131) = T
    ∧ after hostOps1_37 (after hostOps1_36 X) (Proc.devRef .tc main_v132) = N
    ∧ after hostOps1_37 (after hostOps1_36 X) (Proc.devRef .tc main_v203) = addf S (Term.slotTake T N 17)
    ∧ after hostOps1_37 (after hostOps1_36 X) (Proc.devRef .tc main_v205) = Term.slot (Fin.val (18 : Fin 32)) (Term.slot_ok 18) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 18 of the neighbour sum, from any contents X at which the hidden array is T, the batch's neighbour lists
    are N, the sum so far is S and slot 18's indices are column 18 of N: the two stretches leave T and N in place,
    add the hidden rows at slot 18 to the sum, and cut column 19 of N for the next step. Each of the four reads is
    the fold unrolled at its buffer; the gather's composition is Term.takeT by definition. -/
theorem step18 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v203) = S)
    (hI : X (Proc.devRef .tc main_v205) = Term.slot (Fin.val (18 : Fin 32)) (Term.slot_ok 18) N) :
    after hostOps1_39 (after hostOps1_38 X) (Proc.devRef .tc main_v131) = T
    ∧ after hostOps1_39 (after hostOps1_38 X) (Proc.devRef .tc main_v132) = N
    ∧ after hostOps1_39 (after hostOps1_38 X) (Proc.devRef .tc main_v207) = addf S (Term.slotTake T N 18)
    ∧ after hostOps1_39 (after hostOps1_38 X) (Proc.devRef .tc main_v209) = Term.slot (Fin.val (19 : Fin 32)) (Term.slot_ok 19) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 19 of the neighbour sum, from any contents X at which the hidden array is T, the batch's neighbour lists
    are N, the sum so far is S and slot 19's indices are column 19 of N: the two stretches leave T and N in place,
    add the hidden rows at slot 19 to the sum, and cut column 20 of N for the next step. Each of the four reads is
    the fold unrolled at its buffer; the gather's composition is Term.takeT by definition. -/
theorem step19 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v207) = S)
    (hI : X (Proc.devRef .tc main_v209) = Term.slot (Fin.val (19 : Fin 32)) (Term.slot_ok 19) N) :
    after hostOps1_41 (after hostOps1_40 X) (Proc.devRef .tc main_v131) = T
    ∧ after hostOps1_41 (after hostOps1_40 X) (Proc.devRef .tc main_v132) = N
    ∧ after hostOps1_41 (after hostOps1_40 X) (Proc.devRef .tc main_v211) = addf S (Term.slotTake T N 19)
    ∧ after hostOps1_41 (after hostOps1_40 X) (Proc.devRef .tc main_v213) = Term.slot (Fin.val (20 : Fin 32)) (Term.slot_ok 20) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 20 of the neighbour sum, from any contents X at which the hidden array is T, the batch's neighbour lists
    are N, the sum so far is S and slot 20's indices are column 20 of N: the two stretches leave T and N in place,
    add the hidden rows at slot 20 to the sum, and cut column 21 of N for the next step. Each of the four reads is
    the fold unrolled at its buffer; the gather's composition is Term.takeT by definition. -/
theorem step20 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v211) = S)
    (hI : X (Proc.devRef .tc main_v213) = Term.slot (Fin.val (20 : Fin 32)) (Term.slot_ok 20) N) :
    after hostOps1_43 (after hostOps1_42 X) (Proc.devRef .tc main_v131) = T
    ∧ after hostOps1_43 (after hostOps1_42 X) (Proc.devRef .tc main_v132) = N
    ∧ after hostOps1_43 (after hostOps1_42 X) (Proc.devRef .tc main_v215) = addf S (Term.slotTake T N 20)
    ∧ after hostOps1_43 (after hostOps1_42 X) (Proc.devRef .tc main_v217) = Term.slot (Fin.val (21 : Fin 32)) (Term.slot_ok 21) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 21 of the neighbour sum, from any contents X at which the hidden array is T, the batch's neighbour lists
    are N, the sum so far is S and slot 21's indices are column 21 of N: the two stretches leave T and N in place,
    add the hidden rows at slot 21 to the sum, and cut column 22 of N for the next step. Each of the four reads is
    the fold unrolled at its buffer; the gather's composition is Term.takeT by definition. -/
theorem step21 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v215) = S)
    (hI : X (Proc.devRef .tc main_v217) = Term.slot (Fin.val (21 : Fin 32)) (Term.slot_ok 21) N) :
    after hostOps1_45 (after hostOps1_44 X) (Proc.devRef .tc main_v131) = T
    ∧ after hostOps1_45 (after hostOps1_44 X) (Proc.devRef .tc main_v132) = N
    ∧ after hostOps1_45 (after hostOps1_44 X) (Proc.devRef .tc main_v219) = addf S (Term.slotTake T N 21)
    ∧ after hostOps1_45 (after hostOps1_44 X) (Proc.devRef .tc main_v221) = Term.slot (Fin.val (22 : Fin 32)) (Term.slot_ok 22) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 22 of the neighbour sum, from any contents X at which the hidden array is T, the batch's neighbour lists
    are N, the sum so far is S and slot 22's indices are column 22 of N: the two stretches leave T and N in place,
    add the hidden rows at slot 22 to the sum, and cut column 23 of N for the next step. Each of the four reads is
    the fold unrolled at its buffer; the gather's composition is Term.takeT by definition. -/
theorem step22 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v219) = S)
    (hI : X (Proc.devRef .tc main_v221) = Term.slot (Fin.val (22 : Fin 32)) (Term.slot_ok 22) N) :
    after hostOps1_47 (after hostOps1_46 X) (Proc.devRef .tc main_v131) = T
    ∧ after hostOps1_47 (after hostOps1_46 X) (Proc.devRef .tc main_v132) = N
    ∧ after hostOps1_47 (after hostOps1_46 X) (Proc.devRef .tc main_v223) = addf S (Term.slotTake T N 22)
    ∧ after hostOps1_47 (after hostOps1_46 X) (Proc.devRef .tc main_v225) = Term.slot (Fin.val (23 : Fin 32)) (Term.slot_ok 23) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 23 of the neighbour sum, from any contents X at which the hidden array is T, the batch's neighbour lists
    are N, the sum so far is S and slot 23's indices are column 23 of N: the two stretches leave T and N in place,
    add the hidden rows at slot 23 to the sum, and cut column 24 of N for the next step. Each of the four reads is
    the fold unrolled at its buffer; the gather's composition is Term.takeT by definition. -/
theorem step23 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v223) = S)
    (hI : X (Proc.devRef .tc main_v225) = Term.slot (Fin.val (23 : Fin 32)) (Term.slot_ok 23) N) :
    after hostOps1_49 (after hostOps1_48 X) (Proc.devRef .tc main_v131) = T
    ∧ after hostOps1_49 (after hostOps1_48 X) (Proc.devRef .tc main_v132) = N
    ∧ after hostOps1_49 (after hostOps1_48 X) (Proc.devRef .tc main_v227) = addf S (Term.slotTake T N 23)
    ∧ after hostOps1_49 (after hostOps1_48 X) (Proc.devRef .tc main_v229) = Term.slot (Fin.val (24 : Fin 32)) (Term.slot_ok 24) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 24 of the neighbour sum, from any contents X at which the hidden array is T, the batch's neighbour lists
    are N, the sum so far is S and slot 24's indices are column 24 of N: the two stretches leave T and N in place,
    add the hidden rows at slot 24 to the sum, and cut column 25 of N for the next step. Each of the four reads is
    the fold unrolled at its buffer; the gather's composition is Term.takeT by definition. -/
theorem step24 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v227) = S)
    (hI : X (Proc.devRef .tc main_v229) = Term.slot (Fin.val (24 : Fin 32)) (Term.slot_ok 24) N) :
    after hostOps1_51 (after hostOps1_50 X) (Proc.devRef .tc main_v131) = T
    ∧ after hostOps1_51 (after hostOps1_50 X) (Proc.devRef .tc main_v132) = N
    ∧ after hostOps1_51 (after hostOps1_50 X) (Proc.devRef .tc main_v231) = addf S (Term.slotTake T N 24)
    ∧ after hostOps1_51 (after hostOps1_50 X) (Proc.devRef .tc main_v233) = Term.slot (Fin.val (25 : Fin 32)) (Term.slot_ok 25) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 25 of the neighbour sum, from any contents X at which the hidden array is T, the batch's neighbour lists
    are N, the sum so far is S and slot 25's indices are column 25 of N: the two stretches leave T and N in place,
    add the hidden rows at slot 25 to the sum, and cut column 26 of N for the next step. Each of the four reads is
    the fold unrolled at its buffer; the gather's composition is Term.takeT by definition. -/
theorem step25 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v231) = S)
    (hI : X (Proc.devRef .tc main_v233) = Term.slot (Fin.val (25 : Fin 32)) (Term.slot_ok 25) N) :
    after hostOps1_53 (after hostOps1_52 X) (Proc.devRef .tc main_v131) = T
    ∧ after hostOps1_53 (after hostOps1_52 X) (Proc.devRef .tc main_v132) = N
    ∧ after hostOps1_53 (after hostOps1_52 X) (Proc.devRef .tc main_v235) = addf S (Term.slotTake T N 25)
    ∧ after hostOps1_53 (after hostOps1_52 X) (Proc.devRef .tc main_v237) = Term.slot (Fin.val (26 : Fin 32)) (Term.slot_ok 26) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 26 of the neighbour sum, from any contents X at which the hidden array is T, the batch's neighbour lists
    are N, the sum so far is S and slot 26's indices are column 26 of N: the two stretches leave T and N in place,
    add the hidden rows at slot 26 to the sum, and cut column 27 of N for the next step. Each of the four reads is
    the fold unrolled at its buffer; the gather's composition is Term.takeT by definition. -/
theorem step26 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v235) = S)
    (hI : X (Proc.devRef .tc main_v237) = Term.slot (Fin.val (26 : Fin 32)) (Term.slot_ok 26) N) :
    after hostOps1_55 (after hostOps1_54 X) (Proc.devRef .tc main_v131) = T
    ∧ after hostOps1_55 (after hostOps1_54 X) (Proc.devRef .tc main_v132) = N
    ∧ after hostOps1_55 (after hostOps1_54 X) (Proc.devRef .tc main_v239) = addf S (Term.slotTake T N 26)
    ∧ after hostOps1_55 (after hostOps1_54 X) (Proc.devRef .tc main_v241) = Term.slot (Fin.val (27 : Fin 32)) (Term.slot_ok 27) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 27 of the neighbour sum, from any contents X at which the hidden array is T, the batch's neighbour lists
    are N, the sum so far is S and slot 27's indices are column 27 of N: the two stretches leave T and N in place,
    add the hidden rows at slot 27 to the sum, and cut column 28 of N for the next step. Each of the four reads is
    the fold unrolled at its buffer; the gather's composition is Term.takeT by definition. -/
theorem step27 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v239) = S)
    (hI : X (Proc.devRef .tc main_v241) = Term.slot (Fin.val (27 : Fin 32)) (Term.slot_ok 27) N) :
    after hostOps1_57 (after hostOps1_56 X) (Proc.devRef .tc main_v131) = T
    ∧ after hostOps1_57 (after hostOps1_56 X) (Proc.devRef .tc main_v132) = N
    ∧ after hostOps1_57 (after hostOps1_56 X) (Proc.devRef .tc main_v243) = addf S (Term.slotTake T N 27)
    ∧ after hostOps1_57 (after hostOps1_56 X) (Proc.devRef .tc main_v245) = Term.slot (Fin.val (28 : Fin 32)) (Term.slot_ok 28) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 28 of the neighbour sum, from any contents X at which the hidden array is T, the batch's neighbour lists
    are N, the sum so far is S and slot 28's indices are column 28 of N: the two stretches leave T and N in place,
    add the hidden rows at slot 28 to the sum, and cut column 29 of N for the next step. Each of the four reads is
    the fold unrolled at its buffer; the gather's composition is Term.takeT by definition. -/
theorem step28 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v243) = S)
    (hI : X (Proc.devRef .tc main_v245) = Term.slot (Fin.val (28 : Fin 32)) (Term.slot_ok 28) N) :
    after hostOps1_59 (after hostOps1_58 X) (Proc.devRef .tc main_v131) = T
    ∧ after hostOps1_59 (after hostOps1_58 X) (Proc.devRef .tc main_v132) = N
    ∧ after hostOps1_59 (after hostOps1_58 X) (Proc.devRef .tc main_v247) = addf S (Term.slotTake T N 28)
    ∧ after hostOps1_59 (after hostOps1_58 X) (Proc.devRef .tc main_v249) = Term.slot (Fin.val (29 : Fin 32)) (Term.slot_ok 29) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 29 of the neighbour sum, from any contents X at which the hidden array is T, the batch's neighbour lists
    are N, the sum so far is S and slot 29's indices are column 29 of N: the two stretches leave T and N in place,
    add the hidden rows at slot 29 to the sum, and cut column 30 of N for the next step. Each of the four reads is
    the fold unrolled at its buffer; the gather's composition is Term.takeT by definition. -/
theorem step29 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v247) = S)
    (hI : X (Proc.devRef .tc main_v249) = Term.slot (Fin.val (29 : Fin 32)) (Term.slot_ok 29) N) :
    after hostOps1_61 (after hostOps1_60 X) (Proc.devRef .tc main_v131) = T
    ∧ after hostOps1_61 (after hostOps1_60 X) (Proc.devRef .tc main_v132) = N
    ∧ after hostOps1_61 (after hostOps1_60 X) (Proc.devRef .tc main_v251) = addf S (Term.slotTake T N 29)
    ∧ after hostOps1_61 (after hostOps1_60 X) (Proc.devRef .tc main_v253) = Term.slot (Fin.val (30 : Fin 32)) (Term.slot_ok 30) N := by
  subst hT hN hS
  refine ⟨?_, ?_, ?_, ?_⟩
  · after_results_simp
  · after_results_simp
  · unfold Term.slotTake
    rw [← hI]
    after_results_simp
    rfl
  · after_results_simp
    rfl

attribute [local irreducible] Host.reduce Host.gather pad in
/-- Step 30 of the neighbour sum, from any contents X at which the hidden array is T, the batch's neighbour lists
    are N, the sum so far is S and slot 30's indices are column 30 of N: the two stretches leave T and N in place,
    add the hidden rows at slot 30 to the sum, and cut column 31 of N for the next step. Each of the four reads is
    the fold unrolled at its buffer; the gather's composition is Term.takeT by definition. -/
theorem step30 (X : Valuation τ sig (Elt F)) {T : FVec F S50000x128 .f32} {N : IVec S50000x32 32} {S : FVec F S50000x128 .f32}
    (hT : X (Proc.devRef .tc main_v131) = T) (hN : X (Proc.devRef .tc main_v132) = N)
    (hS : X (Proc.devRef .tc main_v251) = S)
    (hI : X (Proc.devRef .tc main_v253) = Term.slot (Fin.val (30 : Fin 32)) (Term.slot_ok 30) N) :
    after hostOps1_63 (after hostOps1_62 X) (Proc.devRef .tc main_v131) = T
    ∧ after hostOps1_63 (after hostOps1_62 X) (Proc.devRef .tc main_v132) = N
    ∧ after hostOps1_63 (after hostOps1_62 X) (Proc.devRef .tc main_v255) = addf S (Term.slotTake T N 30)
    ∧ after hostOps1_63 (after hostOps1_62 X) (Proc.devRef .tc main_v257) = Term.slot (Fin.val (31 : Fin 32)) (Term.slot_ok 31) N := by
  subst hT hN hS
  refine ⟨?_, ?_, ?_, ?_⟩
  · after_results_simp
  · after_results_simp
  · unfold Term.slotTake
    rw [← hI]
    after_results_simp
    rfl
  · after_results_simp
    rfl

end Cert.KernelIdeal.Gen.Val

end
-- ==== Proof.KHost2.lean ====
/-
  What the host operations between the two kernel regions leave in the second region's operand arrays, as functions
  of the buffer contents at the first region's exit: the hidden rows the batch names, the neighbour mean of the hidden
  rows over the batch's neighbour lists, and the padded second-layer weights and bias.

  Every read is the fold of the host operations unrolled at one buffer. Short runs of operations are unrolled at
  ANY starting contents X, so that nothing below depends on what the first region left; the neighbour mean is then
  threaded through its thirty-two gathers step by step (the thirty middle steps are the sibling lemmas step1 …
  step30), carrying four facts from boundary to boundary: the hidden array and the batch's neighbour lists are in
  place, the running sum is the left-to-right sum of the slots gathered so far, and the next slot's indices are the
  next column of the neighbour lists.
-/
import proofs.«411215_j35510789603589_3_alg».proof.Proof.FrameKernelIdeal
import proofs.«411215_j35510789603589_3_alg».proof.Proof.KTerm
import proofs.«411215_j35510789603589_3_alg».proof.Proof.KHost2Rows

set_option maxRecDepth 16384

noncomputable section

namespace Cert.KernelIdeal.Gen.Val

open Idealize.ShloMosaic Idealize.ShloMosaic.StableHlo Idealize.SL.Sem

variable {F : FTy → Type} [FloatOps F]

/-! ## Runs of operations at any starting contents -/

attribute [local irreducible] Host.reduce Host.gather pad in
/-- The first stretch gathers the batch's rows of the neighbour table: the gather's composition is `Term.takeI` by
    definition. -/
private theorem nbr_lists (X : Valuation τ sig (Elt F)) :
    after hostOps1 X (Proc.devRef .tc main_v132) = Term.takeI (X (Proc.devRef .tc main_arg1)) (X (Proc.devRef .tc main_arg2)) := by
  after_results_simp
  rfl

/-- The first stretch does not write the hidden array. -/
private theorem keep0_v131 (X : Valuation τ sig (Elt F)) :
    after hostOps1 X (Proc.devRef .tc main_v131) = X (Proc.devRef .tc main_v131) := by
  after_results_simp

attribute [local irreducible] Host.reduce Host.gather pad in
/-- The sum's first term: column 0 of the neighbour lists is cut, the hidden rows at it are gathered, and column 1 is
    cut for the next step; the hidden array and the neighbour lists stay in place. -/
private theorem start (X : Valuation τ sig (Elt F)) {T : FVec F S50000x128 .f32} {N : IVec S50000x32 32}
    (hT : X (Proc.devRef .tc main_v131) = T) (hN : X (Proc.devRef .tc main_v132) = N) :
    after hostOps1_3 (after hostOps1_2 (after hostOps1_1 (X))) (Proc.devRef .tc main_v131) = T
    ∧ after hostOps1_3 (after hostOps1_2 (after hostOps1_1 (X))) (Proc.devRef .tc main_v132) = N
    ∧ after hostOps1_3 (after hostOps1_2 (after hostOps1_1 (X))) (Proc.devRef .tc main_v135) = Term.slotTake T N 0
    ∧ after hostOps1_3 (after hostOps1_2 (after hostOps1_1 (X))) (Proc.devRef .tc main_v137) = Term.slot (Fin.val (1 : Fin 32)) (Term.slot_ok 1) N := by
  subst hT hN
  refine ⟨?_, ?_, ?_, ?_⟩
  · after_results_simp
  · after_results_simp
  · unfold Term.slotTake
    after_results_simp
    rfl
  · after_results_simp
    rfl

attribute [local irreducible] Host.reduce Host.gather pad in
/-- The sum's last term and the scaling: the hidden rows at slot 31 are gathered and added, and the sum is multiplied
    by the constant 1/32. `hsum` says the sum so far with slot 31 added is the whole sum. -/
private theorem finish (X : Valuation τ sig (Elt F)) {T : FVec F S50000x128 .f32} {N : IVec S50000x32 32} {S : FVec F S50000x128 .f32}
    (hT : X (Proc.devRef .tc main_v131) = T) (hN : X (Proc.devRef .tc main_v132) = N) (hS : X (Proc.devRef .tc main_v255) = S)
    (hI : X (Proc.devRef .tc main_v257) = Term.slot (Fin.val (31 : Fin 32)) (Term.slot_ok 31) N)
    (hsum : addf S (Term.slotTake T N 31) = Term.sumT T N) :
    after hostOps1_65 (after hostOps1_64 (X)) (Proc.devRef .tc main_v261) = Term.meanT T N := by
  subst hT hN hS
  unfold Term.meanT
  rw [← hsum]
  unfold Term.slotTake
  rw [← hI]
  after_results_simp
  rfl

/-- The last six stretches (the batch's own rows, the two paddings, the weight halves) do not write the mean. -/
private theorem keep_v261 (X : Valuation τ sig (Elt F)) :
    after hostOps1_71 (after hostOps1_70 (after hostOps1_69 (after hostOps1_68 (after hostOps1_67 (after hostOps1_66 (X)))))) (Proc.devRef .tc main_v261) = X (Proc.devRef .tc main_v261) := by
  after_results_simp

attribute [local irreducible] Host.reduce Host.gather pad in
/-- The hidden rows at the batch's indices, through the last six stretches. -/
private theorem tail_v262 (X : Valuation τ sig (Elt F)) :
    after hostOps1_71 (after hostOps1_70 (after hostOps1_69 (after hostOps1_68 (after hostOps1_67 (after hostOps1_66 (X)))))) (Proc.devRef .tc main_v262) = Term.takeT (X (Proc.devRef .tc main_v131)) (X (Proc.devRef .tc main_arg2)) := by
  after_results_simp
  rfl

attribute [local irreducible] Host.reduce Host.gather pad in
/-- The padded weight matrix's upper half, through the last five stretches. -/
private theorem tail_v265 (X : Valuation τ sig (Elt F)) :
    after hostOps1_71 (after hostOps1_70 (after hostOps1_69 (after hostOps1_68 (after hostOps1_67 (X))))) (Proc.devRef .tc main_v265) = Term.wLo (Term.padW (X (Proc.devRef .tc main_arg5))) := by
  after_results_simp
  rfl

attribute [local irreducible] Host.reduce Host.gather pad in
/-- Its lower half. -/
private theorem tail_v266 (X : Valuation τ sig (Elt F)) :
    after hostOps1_71 (after hostOps1_70 (after hostOps1_69 (after hostOps1_68 (after hostOps1_67 (X))))) (Proc.devRef .tc main_v266) = Term.wHi (Term.padW (X (Proc.devRef .tc main_arg5))) := by
  after_results_simp
  rfl

attribute [local irreducible] Host.reduce Host.gather pad in
/-- The padded bias, through the last three stretches. -/
private theorem tail_v264 (X : Valuation τ sig (Elt F)) :
    after hostOps1_71 (after hostOps1_70 (after hostOps1_69 (X))) (Proc.devRef .tc main_v264) = Term.padB (X (Proc.devRef .tc main_arg6)) := by
  after_results_simp
  rfl

/-! ## Buffers no operation before the tail writes

Each is the whole fold read at a buffer none of its operations writes: every operation's result is skipped in turn. -/

set_option maxHeartbeats 4000000 in
private theorem keep_v131 (X : Valuation τ sig (Elt F)) :
    after hostOps1_65 (after hostOps1_64 (after hostOps1_63 (after hostOps1_62 (after hostOps1_61 (after hostOps1_60 (after hostOps1_59 (after hostOps1_58 (after hostOps1_57 (after hostOps1_56 (after hostOps1_55 (after hostOps1_54 (after hostOps1_53 (after hostOps1_52 (after hostOps1_51 (after hostOps1_50 (after hostOps1_49 (after hostOps1_48 (after hostOps1_47 (after hostOps1_46 (after hostOps1_45 (after hostOps1_44 (after hostOps1_43 (after hostOps1_42 (after hostOps1_41 (after hostOps1_40 (after hostOps1_39 (after hostOps1_38 (after hostOps1_37 (after hostOps1_36 (after hostOps1_35 (after hostOps1_34 (after hostOps1_33 (after hostOps1_32 (after hostOps1_31 (after hostOps1_30 (after hostOps1_29 (after hostOps1_28 (after hostOps1_27 (after hostOps1_26 (after hostOps1_25 (after hostOps1_24 (after hostOps1_23 (after hostOps1_22 (after hostOps1_21 (after hostOps1_20 (after hostOps1_19 (after hostOps1_18 (after hostOps1_17 (after hostOps1_16 (after hostOps1_15 (after hostOps1_14 (after hostOps1_13 (after hostOps1_12 (after hostOps1_11 (after hostOps1_10 (after hostOps1_9 (after hostOps1_8 (after hostOps1_7 (after hostOps1_6 (after hostOps1_5 (after hostOps1_4 (after hostOps1_3 (after hostOps1_2 (after hostOps1_1 (after hostOps1 (X)))))))))))))))))))))))))))))))))))))))))))))))))))))))))))))))))) (Proc.devRef .tc main_v131) = X (Proc.devRef .tc main_v131) := by
  after_results_simp

set_option maxHeartbeats 4000000 in
private theorem keep_arg2 (X : Valuation τ sig (Elt F)) :
    after hostOps1_65 (after hostOps1_64 (after hostOps1_63 (after hostOps1_62 (after hostOps1_61 (after hostOps1_60 (after hostOps1_59 (after hostOps1_58 (after hostOps1_57 (after hostOps1_56 (after hostOps1_55 (after hostOps1_54 (after hostOps1_53 (after hostOps1_52 (after hostOps1_51 (after hostOps1_50 (after hostOps1_49 (after hostOps1_48 (after hostOps1_47 (after hostOps1_46 (after hostOps1_45 (after hostOps1_44 (after hostOps1_43 (after hostOps1_42 (after hostOps1_41 (after hostOps1_40 (after hostOps1_39 (after hostOps1_38 (after hostOps1_37 (after hostOps1_36 (after hostOps1_35 (after hostOps1_34 (after hostOps1_33 (after hostOps1_32 (after hostOps1_31 (after hostOps1_30 (after hostOps1_29 (after hostOps1_28 (after hostOps1_27 (after hostOps1_26 (after hostOps1_25 (after hostOps1_24 (after hostOps1_23 (after hostOps1_22 (after hostOps1_21 (after hostOps1_20 (after hostOps1_19 (after hostOps1_18 (after hostOps1_17 (after hostOps1_16 (after hostOps1_15 (after hostOps1_14 (after hostOps1_13 (after hostOps1_12 (after hostOps1_11 (after hostOps1_10 (after hostOps1_9 (after hostOps1_8 (after hostOps1_7 (after hostOps1_6 (after hostOps1_5 (after hostOps1_4 (after hostOps1_3 (after hostOps1_2 (after hostOps1_1 (after hostOps1 (X)))))))))))))))))))))))))))))))))))))))))))))))))))))))))))))))))) (Proc.devRef .tc main_arg2) = X (Proc.devRef .tc main_arg2) := by
  after_results_simp

set_option maxHeartbeats 4000000 in
private theorem keep_arg5 (X : Valuation τ sig (Elt F)) :
    after hostOps1_66 (after hostOps1_65 (after hostOps1_64 (after hostOps1_63 (after hostOps1_62 (after hostOps1_61 (after hostOps1_60 (after hostOps1_59 (after hostOps1_58 (after hostOps1_57 (after hostOps1_56 (after hostOps1_55 (after hostOps1_54 (after hostOps1_53 (after hostOps1_52 (after hostOps1_51 (after hostOps1_50 (after hostOps1_49 (after hostOps1_48 (after hostOps1_47 (after hostOps1_46 (after hostOps1_45 (after hostOps1_44 (after hostOps1_43 (after hostOps1_42 (after hostOps1_41 (after hostOps1_40 (after hostOps1_39 (after hostOps1_38 (after hostOps1_37 (after hostOps1_36 (after hostOps1_35 (after hostOps1_34 (after hostOps1_33 (after hostOps1_32 (after hostOps1_31 (after hostOps1_30 (after hostOps1_29 (after hostOps1_28 (after hostOps1_27 (after hostOps1_26 (after hostOps1_25 (after hostOps1_24 (after hostOps1_23 (after hostOps1_22 (after hostOps1_21 (after hostOps1_20 (after hostOps1_19 (after hostOps1_18 (after hostOps1_17 (after hostOps1_16 (after hostOps1_15 (after hostOps1_14 (after hostOps1_13 (after hostOps1_12 (after hostOps1_11 (after hostOps1_10 (after hostOps1_9 (after hostOps1_8 (after hostOps1_7 (after hostOps1_6 (after hostOps1_5 (after hostOps1_4 (after hostOps1_3 (after hostOps1_2 (after hostOps1_1 (after hostOps1 (X))))))))))))))))))))))))))))))))))))))))))))))))))))))))))))))))))) (Proc.devRef .tc main_arg5) = X (Proc.devRef .tc main_arg5) := by
  after_results_simp

set_option maxHeartbeats 4000000 in
private theorem keep_arg6 (X : Valuation τ sig (Elt F)) :
    after hostOps1_68 (after hostOps1_67 (after hostOps1_66 (after hostOps1_65 (after hostOps1_64 (after hostOps1_63 (after hostOps1_62 (after hostOps1_61 (after hostOps1_60 (after hostOps1_59 (after hostOps1_58 (after hostOps1_57 (after hostOps1_56 (after hostOps1_55 (after hostOps1_54 (after hostOps1_53 (after hostOps1_52 (after hostOps1_51 (after hostOps1_50 (after hostOps1_49 (after hostOps1_48 (after hostOps1_47 (after hostOps1_46 (after hostOps1_45 (after hostOps1_44 (after hostOps1_43 (after hostOps1_42 (after hostOps1_41 (after hostOps1_40 (after hostOps1_39 (after hostOps1_38 (after hostOps1_37 (after hostOps1_36 (after hostOps1_35 (after hostOps1_34 (after hostOps1_33 (after hostOps1_32 (after hostOps1_31 (after hostOps1_30 (after hostOps1_29 (after hostOps1_28 (after hostOps1_27 (after hostOps1_26 (after hostOps1_25 (after hostOps1_24 (after hostOps1_23 (after hostOps1_22 (after hostOps1_21 (after hostOps1_20 (after hostOps1_19 (after hostOps1_18 (after hostOps1_17 (after hostOps1_16 (after hostOps1_15 (after hostOps1_14 (after hostOps1_13 (after hostOps1_12 (after hostOps1_11 (after hostOps1_10 (after hostOps1_9 (after hostOps1_8 (after hostOps1_7 (after hostOps1_6 (after hostOps1_5 (after hostOps1_4 (after hostOps1_3 (after hostOps1_2 (after hostOps1_1 (after hostOps1 (X))))))))))))))))))))))))))))))))))))))))))))))))))))))))))))))))))))) (Proc.devRef .tc main_arg6) = X (Proc.devRef .tc main_arg6) := by
  after_results_simp

/-! ## The five reads at the second region's entry -/

variable (m : (ℓ : Loc nD τ sig) → Buf (Elt F) ℓ) (ρ : Dev nD → PrngReg)

theorem W138_v262 (c : Dev nD) : W138 m ρ c (Proc.devRef .tc main_v262) = Term.takeT (W66 m ρ c (Proc.devRef .tc main_v131)) (W66 m ρ c (Proc.devRef .tc main_arg2)) :=
  (tail_v262 (W132 m ρ c)).trans (congrArg₂ Term.takeT (keep_v131 (W66 m ρ c)) (keep_arg2 (W66 m ρ c)))

theorem W138_v261 (c : Dev nD) : W138 m ρ c (Proc.devRef .tc main_v261)
    = Term.meanT (W66 m ρ c (Proc.devRef .tc main_v131)) (Term.takeI (W66 m ρ c (Proc.devRef .tc main_arg1)) (W66 m ρ c (Proc.devRef .tc main_arg2))) := by
  obtain ⟨t0, n0, s0, i0⟩ := start (W67 m ρ c) (keep0_v131 (W66 m ρ c)) (nbr_lists (W66 m ρ c))
  obtain ⟨t1, n1, s1, i1⟩ := step1 (W70 m ρ c) t0 n0 s0 i0
  obtain ⟨t2, n2, s2, i2⟩ := step2 (W72 m ρ c) t1 n1 s1 i1
  obtain ⟨t3, n3, s3, i3⟩ := step3 (W74 m ρ c) t2 n2 s2 i2
  obtain ⟨t4, n4, s4, i4⟩ := step4 (W76 m ρ c) t3 n3 s3 i3
  obtain ⟨t5, n5, s5, i5⟩ := step5 (W78 m ρ c) t4 n4 s4 i4
  obtain ⟨t6, n6, s6, i6⟩ := step6 (W80 m ρ c) t5 n5 s5 i5
  obtain ⟨t7, n7, s7, i7⟩ := step7 (W82 m ρ c) t6 n6 s6 i6
  obtain ⟨t8, n8, s8, i8⟩ := step8 (W84 m ρ c) t7 n7 s7 i7
  obtain ⟨t9, n9, s9, i9⟩ := step9 (W86 m ρ c) t8 n8 s8 i8
  obtain ⟨t10, n10, s10, i10⟩ := step10 (W88 m ρ c) t9 n9 s9 i9
  obtain ⟨t11, n11, s11, i11⟩ := step11 (W90 m ρ c) t10 n10 s10 i10
  obtain ⟨t12, n12, s12, i12⟩ := step12 (W92 m ρ c) t11 n11 s11 i11
  obtain ⟨t13, n13, s13, i13⟩ := step13 (W94 m ρ c) t12 n12 s12 i12
  obtain ⟨t14, n14, s14, i14⟩ := step14 (W96 m ρ c) t13 n13 s13 i13
  obtain ⟨t15, n15, s15, i15⟩ := step15 (W98 m ρ c) t14 n14 s14 i14
  obtain ⟨t16, n16, s16, i16⟩ := step16 (W100 m ρ c) t15 n15 s15 i15
  obtain ⟨t17, n17, s17, i17⟩ := step17 (W102 m ρ c) t16 n16 s16 i16
  obtain ⟨t18, n18, s18, i18⟩ := step18 (W104 m ρ c) t17 n17 s17 i17
  obtain ⟨t19, n19, s19, i19⟩ := step19 (W106 m ρ c) t18 n18 s18 i18
  obtain ⟨t20, n20, s20, i20⟩ := step20 (W108 m ρ c) t19 n19 s19 i19
  obtain ⟨t21, n21, s21, i21⟩ := step21 (W110 m ρ c) t20 n20 s20 i20
  obtain ⟨t22, n22, s22, i22⟩ := step22 (W112 m ρ c) t21 n21 s21 i21
  obtain ⟨t23, n23, s23, i23⟩ := step23 (W114 m ρ c) t22 n22 s22 i22
  obtain ⟨t24, n24, s24, i24⟩ := step24 (W116 m ρ c) t23 n23 s23 i23
  obtain ⟨t25, n25, s25, i25⟩ := step25 (W118 m ρ c) t24 n24 s24 i24
  obtain ⟨t26, n26, s26, i26⟩ := step26 (W120 m ρ c) t25 n25 s25 i25
  obtain ⟨t27, n27, s27, i27⟩ := step27 (W122 m ρ c) t26 n26 s26 i26
  obtain ⟨t28, n28, s28, i28⟩ := step28 (W124 m ρ c) t27 n27 s27 i27
  obtain ⟨t29, n29, s29, i29⟩ := step29 (W126 m ρ c) t28 n28 s28 i28
  obtain ⟨t30, n30, s30, i30⟩ := step30 (W128 m ρ c) t29 n29 s29 i29
  exact (keep_v261 (W132 m ρ c)).trans (finish (W130 m ρ c) t30 n30 s30 i30 (by simp only [Term.sumT, List.foldl]))

theorem W138_v265 (c : Dev nD) : W138 m ρ c (Proc.devRef .tc main_v265) = Term.wLo (Term.padW (W66 m ρ c (Proc.devRef .tc main_arg5))) :=
  (tail_v265 (W133 m ρ c)).trans (congrArg (fun w => Term.wLo (Term.padW w)) (keep_arg5 (W66 m ρ c)))

theorem W138_v266 (c : Dev nD) : W138 m ρ c (Proc.devRef .tc main_v266) = Term.wHi (Term.padW (W66 m ρ c (Proc.devRef .tc main_arg5))) :=
  (tail_v266 (W133 m ρ c)).trans (congrArg (fun w => Term.wHi (Term.padW w)) (keep_arg5 (W66 m ρ c)))

theorem W138_v264 (c : Dev nD) : W138 m ρ c (Proc.devRef .tc main_v264) = Term.padB (W66 m ρ c (Proc.devRef .tc main_arg6)) :=
  (tail_v264 (W135 m ρ c)).trans (congrArg Term.padB (keep_arg6 (W66 m ρ c)))

end Cert.KernelIdeal.Gen.Val

end
-- ==== Proof.Spec.lean ====
/-
  The two-layer graph convolution as plain functions on the extended reals.

  A node index b is first normalised (a negative b stands for b + 50000); a row is read at the normalised index
  clamped into [0, 49999] when that index is in range, and is the fill value otherwise. A neighbour mean is the sum
  over the thirty-two neighbour slots of such rows, times 1/32. A layer is
      self · W[0:128] + mean · W[128:256] + bias,
  followed by max(·, 0) in the first layer only.
-/
import Idealize.ShloMosaic.PureOps.Ideal
import Idealize.ShloMosaic.Lib.ValueIdx

noncomputable section

namespace Cert.Spec

open Idealize.ShloMosaic Idealize.ShloMosaic.ValueIdx

abbrev SNF : Shape := ⟨2, ![50000, 128]⟩
abbrev SND : Shape := ⟨2, ![50000, 32]⟩
abbrev SN : Shape := ⟨1, ![50000]⟩
abbrev SW1 : Shape := ⟨2, ![256, 128]⟩
abbrev SB1 : Shape := ⟨1, ![128]⟩
abbrev SW2 : Shape := ⟨2, ![256, 40]⟩
abbrev SB2 : Shape := ⟨1, ![40]⟩
abbrev SOut : Shape := ⟨2, ![50000, 40]⟩

/-- A negative index stands for the index plus the table's length. -/
def wrapI (b : BitVec 32) : BitVec 32 :=
  Scalar.select (IntOp.cmpi .slt b 0#32) (IntOp.addi b 50000#32) b

/-- The index lies in [0, 49999] (as a bit). -/
def okI (v : BitVec 32) : BitVec 1 :=
  IntOp.andi (IntOp.cmpi .sge v 0#32) (IntOp.cmpi .sle v 49999#32)

/-- The row a start index reads: the index as a signed integer, clamped into the table. -/
def rowI (v : BitVec 32) : Fin 50000 := ⟨min v.toInt.toNat 49999, by omega⟩

/-- The value standing for "no such row". -/
def fillV : EReal := Ideal.ofBits .f32 0x7FC00000#32

/-- Row `b` of a table at feature `f`, with the fill value when `b` does not name a row. -/
def takeRow (tbl : SNF.Idx → EReal) (b : BitVec 32) (f : Fin 128) : EReal :=
  Scalar.select (okI (wrapI b)) (tbl (ix2 (rowI (wrapI b)) f)) fillV

/-- The mean over the thirty-two neighbour slots. -/
def nbrMean (tbl : SNF.Idx → EReal) (nb : Fin 50000 → Fin 32 → BitVec 32) (i : Fin 50000) (f : Fin 128) : EReal :=
  (∑ k : Fin 32, takeRow tbl (nb i k) f) * ((1 / 32 : ℝ) : EReal)

/-- One linear layer before its activation: self and mean halves of the weight matrix, plus the bias. -/
def lin {H : Nat} (self mean : Fin 50000 → Fin 128 → EReal) (w : Fin 256 → Fin H → EReal) (b : Fin H → EReal)
    (i : Fin 50000) (h : Fin H) : EReal :=
  (∑ k : Fin 128, self i k * w ⟨k.val, by omega⟩ h) + (∑ k : Fin 128, mean i k * w ⟨128 + k.val, by omega⟩ h) + b h

/-- One layer as an array, from its five operand arrays: the self and mean inputs, the two 128-row halves of the
    weight matrix and the bias; with `relu` the result is cut off below at zero. -/
def layerArr (relu : Bool) (self mean : SNF.Idx → EReal) (ws wn : (⟨2, ![128, 128]⟩ : Shape).Idx → EReal)
    (b : (⟨1, ![128]⟩ : Shape).Idx → EReal) : SNF.Idx → EReal :=
  fun y =>
    let i : Fin 50000 := ⟨(y 0).val, idx2_lt0 y⟩
    let h : Fin 128 := ⟨(y 1).val, idx2_lt1 y⟩
    let v := (∑ k : Fin 128, self (ix2 i k) * ws (ix2 k h)) + (∑ k : Fin 128, mean (ix2 i k) * wn (ix2 k h)) + b (ix1 h)
    if relu then max v 0 else v

/-- The first layer's output. -/
def hidden (feats : SNF.Idx → EReal) (neigh : SND.Idx → BitVec 32) (w1 : SW1.Idx → EReal) (b1 : SB1.Idx → EReal)
    (i : Fin 50000) (h : Fin 128) : EReal :=
  max (lin (fun i k => feats (ix2 i k)) (nbrMean feats fun i k => neigh (ix2 i k))
        (fun k h => w1 (ix2 k h)) (fun h => b1 (ix1 h)) i h) 0

/-- The network's output: the second layer over the hidden rows each node's batch entry names. -/
def out (feats : SNF.Idx → EReal) (neigh : SND.Idx → BitVec 32) (batch : SN.Idx → BitVec 32)
    (w1 : SW1.Idx → EReal) (b1 : SB1.Idx → EReal) (w2 : SW2.Idx → EReal) (b2 : SB2.Idx → EReal) : SOut.Idx → EReal :=
  fun j =>
    let hid : SNF.Idx → EReal := fun y => hidden feats neigh w1 b1 ⟨(y 0).val, idx2_lt0 y⟩ ⟨(y 1).val, idx2_lt1 y⟩
    let src : Fin 50000 → Fin 50000 := fun i => rowI (wrapI (batch (ix1 i)))
    lin (fun i k => hid (ix2 (src i) k))
      (nbrMean hid fun i k => neigh (ix2 (src i) k))
      (fun k h => w2 (ix2 k h)) (fun h => b2 (ix1 h)) ⟨(j 0).val, idx2_lt0 j⟩ ⟨(j 1).val, idx2_lt1 j⟩

end Cert.Spec

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KRegion0.lean ====
/-
  Kernel region 0 as one array: the output array after the last grid point is the layer function of the five operand
  arrays as the region finds them. Each of the ten grid points writes rows 5000·t … 5000·t + 4999; a row of the block
  is the row's self entries times the upper weights, plus its mean entries times the lower weights, plus the bias, cut off below at zero.
-/
import proofs.«411215_j35510789603589_3_alg».proof.Proof.FrameKernelIdeal
import proofs.«411215_j35510789603589_3_alg».proof.Proof.Spec
import proofs.«411215_j35510789603589_3_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Gen.Val

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace FirstLayer

/-! ## The body's arithmetic at an index -/

/-- The body's dimension numbers are those of a 5000×128 by 128×128 product. -/
theorem dot_eq_plain : dot_S5000x128_S128x128_S5000x128_1_0_0_1_n_n = DotDims.plain 5000 128 128 := rfl

/-- One product of the body into the zero constant, read at (p, q). -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  rw [dot_eq_plain]
  exact Cert.Matmul.matmul_plain_apply none l r p q

/-- The bias, cast to one row and repeated down the rows, read at (p, q) is the bias at q. -/
theorem bias_apply (x4 : Vec Ideal S128 .f32) (p : Fin 5000) (q : Fin 128) :
    broadcastTo S5000x128 (shapeCast S1x128 x4 shapeCasts_S128_S1x128) broadcasts_S1x128_S5000x128 (ix2 p q) = x4 (ix1 q) := by
  rw [broadcastTo_apply _ broadcasts_S1x128_S5000x128 (ix2 p q) (ix2 (0 : Fin 1) q) (fun a => by
    match a with
    | ⟨0, _⟩ => rfl
    | ⟨1, _⟩ => rfl)]
  rw [shapeCast_addUnit_apply]
  exact congrArg x4 (funext fun a => by match a with | ⟨0, _⟩ => rfl)

/-- THE BODY'S RESULT AT (p, q): row p of the first block times column q of the first weight block, plus the same for
    the second pair, plus the bias at q, cut off below at zero (the changes of format are the identity here). -/
theorem pay_apply (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix1 q)) 0 := by
  unfold k0_pay1
  rw [maximumf_apply, addf_apply, addf_apply, broadcast_apply, bias_apply, mm_apply, mm_apply]
  simp only [truncf_apply, shapeCast_self]
  rw [show (FloatOps.ofBits FTy.f32 0x00000000#32 : Ideal .f32) = 0 from Ideal.ofBits_zero_f32]

/-! ## The layer function at explicit coordinates -/

theorem layerArr_apply (self mean : Cert.Spec.SNF.Idx → EReal)
    (ws wn : (⟨2, ![128, 128]⟩ : Shape).Idx → EReal) (b : (⟨1, ![128]⟩ : Shape).Idx → EReal) (i : Fin 50000) (h : Fin 128) :
    Cert.Spec.layerArr true self mean ws wn b (ix2 i h)
      = max ((∑ k : Fin 128, self (ix2 i k) * ws (ix2 k h)) + (∑ k : Fin 128, mean (ix2 i k) * wn (ix2 k h)) + b (ix1 h)) 0 := rfl

/-! ## The blocks as rows of the arrays -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two row-blocked inputs and the output sit at block (t, 0), the two weight halves
    and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The arrays the region finds, each at its literal type. -/
abbrev selfArr (c : Dev nD) : Vec Ideal S50000x128 .f32 := V c main_arg0
abbrev meanArr (c : Dev nD) : Vec Ideal S50000x128 .f32 := V c main_v128
abbrev wsArr (c : Dev nD) : Vec Ideal S128x128 .f32 := V c main_v129
abbrev wnArr (c : Dev nD) : Vec Ideal S128x128 .f32 := V c main_v130
abbrev biasArr (c : Dev nD) : Vec Ideal S128 .f32 := V c main_arg4

/-- The input windows' blocks at a point, each at its literal type. -/
abbrev selfBlk (c : Dev nD) (t : Fin cfg0.N) : Vec Ideal S5000x128 .f32 := iblk0 V c 0 t
abbrev meanBlk (c : Dev nD) (t : Fin cfg0.N) : Vec Ideal S5000x128 .f32 := iblk0 V c 1 t
abbrev wsBlk (c : Dev nD) (t : Fin cfg0.N) : Vec Ideal S128x128 .f32 := iblk0 V c 2 t
abbrev wnBlk (c : Dev nD) (t : Fin cfg0.N) : Vec Ideal S128x128 .f32 := iblk0 V c 3 t
abbrev biasBlk (c : Dev nD) (t : Fin cfg0.N) : Vec Ideal S128 .f32 := iblk0 V c 4 t

/-- Row p of the self block at point t is row 5000·t + p of the self array. -/
theorem selfBlk_apply (c : Dev nD) (t : Fin cfg0.N) (p : Fin 5000) (k : Fin 128) (r : Fin 50000) (hr : r.val = 5000 * t.val + p.val) :
    selfBlk V c t (ix2 p k) = selfArr V c (ix2 r k) := by
  obtain ⟨e0, e1, -⟩ := idx_facts t
  show selfArr V c (((cfg0.win 0).blk t).view.emb (ix2 p k)) = selfArr V c (ix2 r k)
  refine congrArg (selfArr V c) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row p of the mean block at point t is row 5000·t + p of the mean array. -/
theorem meanBlk_apply (c : Dev nD) (t : Fin cfg0.N) (p : Fin 5000) (k : Fin 128) (r : Fin 50000) (hr : r.val = 5000 * t.val + p.val) :
    meanBlk V c t (ix2 p k) = meanArr V c (ix2 r k) := by
  obtain ⟨-, -, e0, e1, -⟩ := idx_facts t
  show meanArr V c (((cfg0.win 1).blk t).view.emb (ix2 p k)) = meanArr V c (ix2 r k)
  refine congrArg (meanArr V c) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The first weight block is the whole first weight array at every point. -/
theorem wsBlk_apply (c : Dev nD) (t : Fin cfg0.N) (k : Fin 128) (q : Fin 128) :
    wsBlk V c t (ix2 k q) = wsArr V c (ix2 k q) := by
  obtain ⟨-, -, -, -, e0, e1, -⟩ := idx_facts t
  show wsArr V c (((cfg0.win 2).blk t).view.emb (ix2 k q)) = wsArr V c (ix2 k q)
  refine congrArg (wsArr V c) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The second weight block is the whole second weight array at every point. -/
theorem wnBlk_apply (c : Dev nD) (t : Fin cfg0.N) (k : Fin 128) (q : Fin 128) :
    wnBlk V c t (ix2 k q) = wnArr V c (ix2 k q) := by
  obtain ⟨-, -, -, -, -, -, e0, e1, -⟩ := idx_facts t
  show wnArr V c (((cfg0.win 3).blk t).view.emb (ix2 k q)) = wnArr V c (ix2 k q)
  refine congrArg (wnArr V c) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias block is the whole bias array at every point. -/
theorem biasBlk_apply (c : Dev nD) (t : Fin cfg0.N) (q : Fin 128) :
    biasBlk V c t (ix1 q) = biasArr V c (ix1 q) := by
  obtain ⟨-, -, -, -, -, -, -, -, e0, -⟩ := idx_facts t
  show biasArr V c (((cfg0.win 4).blk t).view.emb (ix1 q)) = biasArr V c (ix1 q)
  refine congrArg (biasArr V c) (funext fun a => Fin.ext ?_)
  match a with
  | ⟨0, _⟩ => show win0_4.index t (0 : Fin 1) * 128 + 1 * q.val = q.val; omega

/-- Entry (p, q) of the output block at point t sits at (5000·t + p, q) of the output array. -/
theorem outBlk_emb (t : Fin cfg0.N) (p : Fin 5000) (q : Fin 128) (r : Fin 50000) (hr : r.val = 5000 * t.val + p.val) :
    (((cfg0.win 5).blk t).view.emb (ix2 p q) : S50000x128.Idx) = ix2 r q := by
  obtain ⟨-, -, -, -, -, -, -, -, -, e0, e1⟩ := idx_facts t
  refine funext fun a => Fin.ext ?_
  match a with
  | ⟨0, _⟩ => show win0_5.index t (0 : Fin 2) * 5000 + 1 * p.val = r.val; omega
  | ⟨1, _⟩ => show win0_5.index t (1 : Fin 2) * 128 + 1 * q.val = q.val; omega

/-! ## What a point writes back -/

/-- The body's result on the blocks at point t, at an index of the block, is the layer function of the arrays at the
    index's place in the output array. -/
theorem point_eq (c : Dev nD) (t : Fin cfg0.N) (j : S5000x128.Idx) :
    k0_pay1 (F := Ideal) (selfBlk V c t) (meanBlk V c t) (wsBlk V c t) (wnBlk V c t) (biasBlk V c t) j
      = Cert.Spec.layerArr true (selfArr V c) (meanArr V c) (wsArr V c) (wnArr V c) (biasArr V c)
          (((cfg0.win 5).blk t).view.emb j) := by
  obtain ⟨p, q, rfl⟩ : ∃ (p : Fin 5000) (q : Fin 128), j = ix2 p q := ⟨j 0, j 1, eq_ix2 j⟩
  have hN : t.val < grid0.N := t.isLt
  rw [N_0] at hN
  have hp : p.val < 5000 := p.isLt
  have hr : (⟨5000 * t.val + p.val, by omega⟩ : Fin 50000).val = 5000 * t.val + p.val := rfl
  rw [outBlk_emb t p q _ hr, layerArr_apply, pay_apply]
  have h0 := fun k => selfBlk_apply V c t p k _ hr
  have h1 := fun k => meanBlk_apply V c t p k _ hr
  simp only [h0, h1, wsBlk_apply V c t, wnBlk_apply V c t, biasBlk_apply V c t]

/-- WHAT POINT t WRITES BACK is block t of the layer function of the arrays as the region finds them. -/
theorem flushed_eq (c : Dev nD) (t : Fin cfg0.N) :
    (dat0 (F := Ideal) V c).flushed 5 t
      = ((cfg0.win 5).blk t).view.read (Elt Ideal)
          (Cert.Spec.layerArr true (V c main_arg0) (V c main_v128) (V c main_v129) (V c main_v130) (V c main_arg4)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  funext j
  exact point_eq V c t j

/-! ## The ten blocks cover the array -/

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v131).slice (win0_5.rect t)).set ↔ _
  rw [View.set_slice_whole, Rect.mem_set_unit]
  exact Iff.rfl

/-- Row r of the output array is written by point r / 5000. -/
theorem cover (i : S50000x128.Idx) :
    ∃ t : Fin cfg0.N, (cfg0.win 5).flush t = true ∧ i ∈ ((cfg0.win 5).blk t).view.set := by
  have h0 : (i 0).val < 50000 := idx2_lt0 i
  have h1 : (i 1).val < 128 := idx2_lt1 i
  obtain ⟨t, ht⟩ : ∃ t : Fin cfg0.N, t.val = (i 0).val / 5000 :=
    ⟨⟨(i 0).val / 5000, by show _ < grid0.N; rw [N_0]; omega⟩, rfl⟩
  obtain ⟨-, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

end FirstLayer

/-! ## The array after the last point -/

theorem arr0 (c : Dev nD) : (dat0 (F := Ideal) V c).arrAt 5 cfg0.N
    = Cert.Spec.layerArr true (V c main_arg0) (V c main_v128) (V c main_v129) (V c main_v130) (V c main_arg4) :=
  (dat0 (F := Ideal) V c).arrAt_eq_of_cover 5
    (Cert.Spec.layerArr true (V c main_arg0) (V c main_v128) (V c main_v129) (V c main_v130) (V c main_arg4))
    (fun t _ => FirstLayer.flushed_eq V c t) FirstLayer.cover

end Cert.KernelIdeal.Gen.Val

end
-- ==== Proof.KRegion1.lean ====
/-
  Kernel region 1 as one array: the output array after the last grid point is the layer function of the five operand
  arrays as the region finds them. Each of the ten grid points writes rows 5000·t … 5000·t + 4999; a row of the block
  is the row's self entries times the upper weights, plus its mean entries times the lower weights, plus the bias.
-/
import proofs.«411215_j35510789603589_3_alg».proof.Proof.FrameKernelIdeal
import proofs.«411215_j35510789603589_3_alg».proof.Proof.Spec
import proofs.«411215_j35510789603589_3_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Gen.Val

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace SecondLayer

/-! ## The body's arithmetic at an index -/

/-- The body's dimension numbers are those of a 5000×128 by 128×128 product. -/
theorem dot_eq_plain : dot_S5000x128_S128x128_S5000x128_1_0_0_1_n_n = DotDims.plain 5000 128 128 := rfl

/-- One product of the body into the zero constant, read at (p, q). -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  rw [dot_eq_plain]
  exact Cert.Matmul.matmul_plain_apply none l r p q

/-- The bias, cast to one row and repeated down the rows, read at (p, q) is the bias at q. -/
theorem bias_apply (x4 : Vec Ideal S128 .f32) (p : Fin 5000) (q : Fin 128) :
    broadcastTo S5000x128 (shapeCast S1x128 x4 shapeCasts_S128_S1x128) broadcasts_S1x128_S5000x128 (ix2 p q) = x4 (ix1 q) := by
  rw [broadcastTo_apply _ broadcasts_S1x128_S5000x128 (ix2 p q) (ix2 (0 : Fin 1) q) (fun a => by
    match a with
    | ⟨0, _⟩ => rfl
    | ⟨1, _⟩ => rfl)]
  rw [shapeCast_addUnit_apply]
  exact congrArg x4 (funext fun a => by match a with | ⟨0, _⟩ => rfl)

/-- THE BODY'S RESULT AT (p, q): row p of the first block times column q of the first weight block, plus the same for
    the second pair, plus the bias at q (the changes of format are the identity here). -/
theorem pay_apply (x0 x1 : Vec Ideal S5000x128 .f32) (x2 x3 : Vec Ideal S128x128 .f32) (x4 : Vec Ideal S128 .f32)
    (p : Fin 5000) (q : Fin 128) :
    k1_pay1 (F := Ideal) x0 x1 x2 x3 x4 (ix2 p q)
      = (∑ k : Fin 128, x0 (ix2 p k) * x2 (ix2 k q)) + (∑ k : Fin 128, x1 (ix2 p k) * x3 (ix2 k q)) + x4 (ix1 q) := by
  unfold k1_pay1
  rw [addf_apply, addf_apply, bias_apply, mm_apply, mm_apply]
  simp only [truncf_apply, shapeCast_self]

/-! ## The layer function at explicit coordinates -/

theorem layerArr_apply (self mean : Cert.Spec.SNF.Idx → EReal)
    (ws wn : (⟨2, ![128, 128]⟩ : Shape).Idx → EReal) (b : (⟨1, ![128]⟩ : Shape).Idx → EReal) (i : Fin 50000) (h : Fin 128) :
    Cert.Spec.layerArr false self mean ws wn b (ix2 i h)
      = (∑ k : Fin 128, self (ix2 i k) * ws (ix2 k h)) + (∑ k : Fin 128, mean (ix2 i k) * wn (ix2 k h)) + b (ix1 h) := rfl

/-! ## The blocks as rows of the arrays -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two row-blocked inputs and the output sit at block (t, 0), the two weight halves
    and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The arrays the region finds, each at its literal type. -/
abbrev selfArr (c : Dev nD) : Vec Ideal S50000x128 .f32 := V c main_v262
abbrev meanArr (c : Dev nD) : Vec Ideal S50000x128 .f32 := V c main_v261
abbrev wsArr (c : Dev nD) : Vec Ideal S128x128 .f32 := V c main_v265
abbrev wnArr (c : Dev nD) : Vec Ideal S128x128 .f32 := V c main_v266
abbrev biasArr (c : Dev nD) : Vec Ideal S128 .f32 := V c main_v264

/-- The input windows' blocks at a point, each at its literal type. -/
abbrev selfBlk (c : Dev nD) (t : Fin cfg1.N) : Vec Ideal S5000x128 .f32 := iblk1 V c 0 t
abbrev meanBlk (c : Dev nD) (t : Fin cfg1.N) : Vec Ideal S5000x128 .f32 := iblk1 V c 1 t
abbrev wsBlk (c : Dev nD) (t : Fin cfg1.N) : Vec Ideal S128x128 .f32 := iblk1 V c 2 t
abbrev wnBlk (c : Dev nD) (t : Fin cfg1.N) : Vec Ideal S128x128 .f32 := iblk1 V c 3 t
abbrev biasBlk (c : Dev nD) (t : Fin cfg1.N) : Vec Ideal S128 .f32 := iblk1 V c 4 t

/-- Row p of the self block at point t is row 5000·t + p of the self array. -/
theorem selfBlk_apply (c : Dev nD) (t : Fin cfg1.N) (p : Fin 5000) (k : Fin 128) (r : Fin 50000) (hr : r.val = 5000 * t.val + p.val) :
    selfBlk V c t (ix2 p k) = selfArr V c (ix2 r k) := by
  obtain ⟨e0, e1, -⟩ := idx_facts t
  show selfArr V c (((cfg1.win 0).blk t).view.emb (ix2 p k)) = selfArr V c (ix2 r k)
  refine congrArg (selfArr V c) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row p of the mean block at point t is row 5000·t + p of the mean array. -/
theorem meanBlk_apply (c : Dev nD) (t : Fin cfg1.N) (p : Fin 5000) (k : Fin 128) (r : Fin 50000) (hr : r.val = 5000 * t.val + p.val) :
    meanBlk V c t (ix2 p k) = meanArr V c (ix2 r k) := by
  obtain ⟨-, -, e0, e1, -⟩ := idx_facts t
  show meanArr V c (((cfg1.win 1).blk t).view.emb (ix2 p k)) = meanArr V c (ix2 r k)
  refine congrArg (meanArr V c) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The first weight block is the whole first weight array at every point. -/
theorem wsBlk_apply (c : Dev nD) (t : Fin cfg1.N) (k : Fin 128) (q : Fin 128) :
    wsBlk V c t (ix2 k q) = wsArr V c (ix2 k q) := by
  obtain ⟨-, -, -, -, e0, e1, -⟩ := idx_facts t
  show wsArr V c (((cfg1.win 2).blk t).view.emb (ix2 k q)) = wsArr V c (ix2 k q)
  refine congrArg (wsArr V c) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The second weight block is the whole second weight array at every point. -/
theorem wnBlk_apply (c : Dev nD) (t : Fin cfg1.N) (k : Fin 128) (q : Fin 128) :
    wnBlk V c t (ix2 k q) = wnArr V c (ix2 k q) := by
  obtain ⟨-, -, -, -, -, -, e0, e1, -⟩ := idx_facts t
  show wnArr V c (((cfg1.win 3).blk t).view.emb (ix2 k q)) = wnArr V c (ix2 k q)
  refine congrArg (wnArr V c) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias block is the whole bias array at every point. -/
theorem biasBlk_apply (c : Dev nD) (t : Fin cfg1.N) (q : Fin 128) :
    biasBlk V c t (ix1 q) = biasArr V c (ix1 q) := by
  obtain ⟨-, -, -, -, -, -, -, -, e0, -⟩ := idx_facts t
  show biasArr V c (((cfg1.win 4).blk t).view.emb (ix1 q)) = biasArr V c (ix1 q)
  refine congrArg (biasArr V c) (funext fun a => Fin.ext ?_)
  match a with
  | ⟨0, _⟩ => show win1_4.index t (0 : Fin 1) * 128 + 1 * q.val = q.val; omega

/-- Entry (p, q) of the output block at point t sits at (5000·t + p, q) of the output array. -/
theorem outBlk_emb (t : Fin cfg1.N) (p : Fin 5000) (q : Fin 128) (r : Fin 50000) (hr : r.val = 5000 * t.val + p.val) :
    (((cfg1.win 5).blk t).view.emb (ix2 p q) : S50000x128.Idx) = ix2 r q := by
  obtain ⟨-, -, -, -, -, -, -, -, -, e0, e1⟩ := idx_facts t
  refine funext fun a => Fin.ext ?_
  match a with
  | ⟨0, _⟩ => show win1_5.index t (0 : Fin 2) * 5000 + 1 * p.val = r.val; omega
  | ⟨1, _⟩ => show win1_5.index t (1 : Fin 2) * 128 + 1 * q.val = q.val; omega

/-! ## What a point writes back -/

/-- The body's result on the blocks at point t, at an index of the block, is the layer function of the arrays at the
    index's place in the output array. -/
theorem point_eq (c : Dev nD) (t : Fin cfg1.N) (j : S5000x128.Idx) :
    k1_pay1 (F := Ideal) (selfBlk V c t) (meanBlk V c t) (wsBlk V c t) (wnBlk V c t) (biasBlk V c t) j
      = Cert.Spec.layerArr false (selfArr V c) (meanArr V c) (wsArr V c) (wnArr V c) (biasArr V c)
          (((cfg1.win 5).blk t).view.emb j) := by
  obtain ⟨p, q, rfl⟩ : ∃ (p : Fin 5000) (q : Fin 128), j = ix2 p q := ⟨j 0, j 1, eq_ix2 j⟩
  have hN : t.val < grid1.N := t.isLt
  rw [N_1] at hN
  have hp : p.val < 5000 := p.isLt
  have hr : (⟨5000 * t.val + p.val, by omega⟩ : Fin 50000).val = 5000 * t.val + p.val := rfl
  rw [outBlk_emb t p q _ hr, layerArr_apply, pay_apply]
  have h0 := fun k => selfBlk_apply V c t p k _ hr
  have h1 := fun k => meanBlk_apply V c t p k _ hr
  simp only [h0, h1, wsBlk_apply V c t, wnBlk_apply V c t, biasBlk_apply V c t]

/-- WHAT POINT t WRITES BACK is block t of the layer function of the arrays as the region finds them. -/
theorem flushed_eq (c : Dev nD) (t : Fin cfg1.N) :
    (dat1 (F := Ideal) V c).flushed 5 t
      = ((cfg1.win 5).blk t).view.read (Elt Ideal)
          (Cert.Spec.layerArr false (V c main_v262) (V c main_v261) (V c main_v265) (V c main_v266) (V c main_v264)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  funext j
  exact point_eq V c t j

/-! ## The ten blocks cover the array -/

/-- An index of the output array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v267).slice (win1_5.rect t)).set ↔ _
  rw [View.set_slice_whole, Rect.mem_set_unit]
  exact Iff.rfl

/-- Row r of the output array is written by point r / 5000. -/
theorem cover (i : S50000x128.Idx) :
    ∃ t : Fin cfg1.N, (cfg1.win 5).flush t = true ∧ i ∈ ((cfg1.win 5).blk t).view.set := by
  have h0 : (i 0).val < 50000 := idx2_lt0 i
  have h1 : (i 1).val < 128 := idx2_lt1 i
  obtain ⟨t, ht⟩ : ∃ t : Fin cfg1.N, t.val = (i 0).val / 5000 :=
    ⟨⟨(i 0).val / 5000, by show _ < grid1.N; rw [N_1]; omega⟩, rfl⟩
  obtain ⟨-, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

end SecondLayer

/-! ## The array after the last point -/

theorem arr1 (c : Dev nD) : (dat1 (F := Ideal) V c).arrAt 5 cfg1.N
    = Cert.Spec.layerArr false (V c main_v262) (V c main_v261) (V c main_v265) (V c main_v266) (V c main_v264) :=
  (dat1 (F := Ideal) V c).arrAt_eq_of_cover 5
    (Cert.Spec.layerArr false (V c main_v262) (V c main_v261) (V c main_v265) (V c main_v266) (V c main_v264))
    (fun t _ => SecondLayer.flushed_eq V c t) SecondLayer.cover

end Cert.KernelIdeal.Gen.Val

end
-- ==== Proof.KMath.lean ====
/-
  The kernel's host-side arithmetic read at an index, over the extended reals: a gathered row is the table's row at
  the normalised, clamped index when that index is in range and the fill value otherwise; the neighbour mean is the
  sum over the slots of the gathered rows times 1/32 (the constant's exact value); the weight halves, the padded
  weights and bias inside their original columns, and the final cut are re-indexings.
-/
import proofs.«411215_j35510789603589_3_alg».proof.Proof.KTerm
import proofs.«411215_j35510789603589_3_alg».proof.Proof.Spec
import Idealize.ShloMosaic.PureOps.Reduce
import Idealize.ShloMosaic.Lib.Pipeline.Value
import Idealize.ShloMosaic.Lib.KernelVsHost

set_option maxRecDepth 16384

noncomputable section

namespace Cert.KernelIdeal.Term

open Idealize.ShloMosaic Idealize.SL.Sem

open Cert.KernelIdeal Cert.Spec Idealize.ShloMosaic.ValueIdx
variable [Facts]
open Facts₀ Facts

/-! ## A row gather read at an index

A gather with offset axis 1, collapsed operand axis 0, start index map [0], index vector axis 1 and slices of one
whole row: result element (r, c) is the operand at row start[r, 0], read signed and clamped into [0, N - 1], and
column c. -/

section Rows
variable {α : Type}

/-- The dimension numbers of a whole-row gather from an N × C operand at an R × 1 array of start rows. -/
private abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at (r, c): the operand at the clamped start row and column c. -/
private theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (st : IVec ⟨2, ![R, 1]⟩ w) (r : Fin R) (c : Fin C) :
    Host.gather (rowDims N C R wf) x st (ix2 r c)
      = x (ix2 (⟨min (st (ix2 r (0 : Fin 1))).toInt.toNat (N - 1), by omega⟩ : Fin N) c) := by
  unfold Host.gather
  congr 1
  funext a
  refine Fin.ext ?_
  match a with
  | ⟨0, _⟩ =>
    show (rowDims N C R wf).start (ix2 r c) st 0 + (rowDims N C R wf).batchCoord (ix2 r c) 0
      + (rowDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C R wf).start (ix2 r c) st 1 + (rowDims N C R wf).batchCoord (ix2 r c) 1
      + (rowDims N C R wf).offCoord (ix2 r c) 1 = c.val
    have hs : (rowDims N C R wf).start (ix2 r c) st 1 = 0 := by
      unfold GatherDims.start
      rw [dif_neg (show (1 : Fin 2) ∉ ([0] : List (Fin 2)) by decide)]
    have hk : (1 : Fin 2) ∈ (rowDims N C R wf).sKept :=
      (GatherDims.mem_sKept _ _).2 ⟨show (1 : Fin 2) ∉ ([0] : List (Fin 2)) by decide, List.not_mem_nil⟩
    rw [hs, GatherDims.batchCoord_eq_zero _ _ _ List.not_mem_nil]
    simp only [Nat.add_zero, Nat.zero_add]
    unfold GatherDims.offCoord
    rw [dif_pos hk]
    rfl

end Rows

/-! ## The index arithmetic -/

/-- The normalised index of node i. -/
private theorem wrapT_apply (idx : IVec S50000 32) (i : Fin 50000) : wrapT idx (ix1 i) = wrapI (idx (ix1 i)) := rfl

/-- The one column of start rows holds the normalised index. -/
private theorem colT_apply (idx : IVec S50000 32) (i : Fin 50000) :
    colT idx (ix2 i (0 : Fin 1)) = wrapI (idx (ix1 i)) := by
  unfold colT
  refine (broadcastInDim_apply _ _ _ (ix2 i (0 : Fin 1)) (ix1 i) (fun a => ?_)).trans (wrapT_apply idx i)
  match a with
  | ⟨0, _⟩ => rfl

/-- A bit and-ed with the bit 1 is itself. -/
private theorem andi_one (b : BitVec 1) : IntOp.andi b 1#1 = b := by
  rcases BitVec.eq_zero_or_eq_one b with h | h <;> subst h <;> decide

/-- The range test of node i: a reduction by "and" over an axis of extent one is its one entry. -/
private theorem maskT_apply (idx : IVec S50000 32) (i : Fin 50000) : maskT idx (ix1 i) = okI (wrapI (idx (ix1 i))) := by
  have hR : S50000x1.Reduces [1] S50000 := by decide
  have hl : hR.lift (ix1 i) (0 : Fin 1) = ix2 i (0 : Fin 1) := by
    funext c; refine Fin.ext ?_
    match c with
    | ⟨0, _⟩ => rfl
    | ⟨1, _⟩ => rfl
  unfold maskT
  rw [Host.reduce_eq_fold_single IntOp.andi _ _ reducesTo_S50000x1_S50000_d1 hR h_S_ (ix1 i)]
  show Finset.fold IntOp.andi 1#1 (fun k : Fin 1 => IntOp.andi
      (IntOp.cmpi .sge (colT idx (hR.lift (ix1 i) k)) 0#32) (IntOp.cmpi .sle (colT idx (hR.lift (ix1 i) k)) 49999#32))
      (Finset.univ : Finset (Fin 1)) = _
  rw [Finset.univ_unique, Finset.fold_singleton]
  show IntOp.andi (IntOp.andi (IntOp.cmpi .sge (colT idx (hR.lift (ix1 i) (0 : Fin 1))) 0#32)
      (IntOp.cmpi .sle (colT idx (hR.lift (ix1 i) (0 : Fin 1))) 49999#32)) 1#1 = _
  rw [hl, colT_apply, andi_one]
  rfl

/-- The fill value is the constant's word read as an extended real. -/
private theorem fill_apply (j : S50000x128.Idx) :
    broadcastInDim S50000x128 ![] bcast_S_S50000x128 (constant (F := Ideal) S_ .f32 0x7FC00000#32) j = fillV := rfl

theorem takeT_apply (tbl : FVec Ideal S50000x128 .f32) (idx : IVec S50000 32) (i : Fin 50000) (f : Fin 128) :
    takeT (F := Ideal) tbl idx (ix2 i f) = takeRow tbl (idx (ix1 i)) f := by
  have hm : broadcastInDim S50000x128 ![0] bcast_S50000_S50000x128_0 (maskT idx) (ix2 i f) = okI (wrapI (idx (ix1 i))) :=
    (broadcastInDim_apply _ _ _ (ix2 i f) (ix1 i) (fun a => match a with | ⟨0, _⟩ => rfl)).trans (maskT_apply idx i)
  have hg : Host.gather gather_S50000x128_S50000x1_S50000x128_1_0_n_n_0_1_1128 tbl (colT idx) (ix2 i f)
      = tbl (ix2 (rowI (wrapI (idx (ix1 i)))) f) := by
    refine (gather_rows_apply (by decide) gather_S50000x128_S50000x1_S50000x128_1_0_n_n_0_1_1128_wf tbl (colT idx) i f).trans ?_
    refine congrArg tbl (congrArg (fun r : Fin 50000 => ix2 r f) (Fin.ext ?_))
    show min (colT idx (ix2 i (0 : Fin 1))).toInt.toNat (50000 - 1) = min (wrapI (idx (ix1 i))).toInt.toNat 49999
    rw [colT_apply]
  unfold takeT
  rw [select_apply, hm, hg, fill_apply]
  rfl

theorem takeI_apply (tbl : IVec S50000x32 32) (idx : IVec S50000 32) (i : Fin 50000) (k : Fin 32) :
    takeI tbl idx (ix2 i k)
      = Scalar.select (okI (wrapI (idx (ix1 i)))) (tbl (ix2 (rowI (wrapI (idx (ix1 i)))) k)) 2147483648#32 := by
  have hm : broadcastInDim S50000x32 ![0] bcast_S50000_S50000x32_0 (maskT idx) (ix2 i k) = okI (wrapI (idx (ix1 i))) :=
    (broadcastInDim_apply _ _ _ (ix2 i k) (ix1 i) (fun a => match a with | ⟨0, _⟩ => rfl)).trans (maskT_apply idx i)
  have hg : Host.gather gather_S50000x32_S50000x1_S50000x32_1_0_n_n_0_1_132 tbl (colT idx) (ix2 i k)
      = tbl (ix2 (rowI (wrapI (idx (ix1 i)))) k) := by
    refine (gather_rows_apply (by decide) gather_S50000x32_S50000x1_S50000x32_1_0_n_n_0_1_132_wf tbl (colT idx) i k).trans ?_
    refine congrArg tbl (congrArg (fun r : Fin 50000 => ix2 r k) (Fin.ext ?_))
    show min (colT idx (ix2 i (0 : Fin 1))).toInt.toNat (50000 - 1) = min (wrapI (idx (ix1 i))).toInt.toNat 49999
    rw [colT_apply]
  unfold takeI
  rw [select_apply, hm, hg]
  rfl

/-! ## The neighbour slots and their sum -/

/-- Slot k of node i is the neighbour table's entry (i, k). -/
private theorem slot_apply (k : Fin 32) (nidx : IVec S50000x32 32) (i : Fin 50000) :
    slot k.val (slot_ok k) nidx (ix1 i) = nidx (ix2 i k) := by
  unfold slot
  refine (shapeCast_apply _ _ (ix1 i) (ix2 i (0 : Fin 1)) ?_).trans ?_
  · rw [Shape.rowMajor_val_two, Shape.rowMajor_val_one]
    show i.val * 1 + 0 = i.val
    omega
  · exact extractStridedSlice_apply _ _ _ (ix2 i (0 : Fin 1)) (ix2 i k) (fun a => match a with
      | ⟨0, _⟩ => by show i.val = 0 + i.val; omega
      | ⟨1, _⟩ => by show k.val = k.val + 0; omega)

private theorem slotTake_apply (tbl : FVec Ideal S50000x128 .f32) (nidx : IVec S50000x32 32) (k : Fin 32) (i : Fin 50000)
    (f : Fin 128) : slotTake (F := Ideal) tbl nidx k (ix2 i f) = takeRow tbl (nidx (ix2 i k)) f := by
  unfold slotTake
  rw [takeT_apply, slot_apply]

/-- A left fold of vector sums read at an index is the left fold of the sums of the entries. -/
private theorem foldl_addf_apply {s : Shape} {φ : FTy} {ι : Type} (g : ι → FVec Ideal s φ) (j : s.Idx) :
    ∀ (l : List ι) (a : FVec Ideal s φ),
      (l.foldl (fun acc k => addf acc (g k)) a) j = l.foldl (fun acc k => acc + g k j) (a j)
  | [], _ => rfl
  | k :: l, a => by
    rw [List.foldl_cons, List.foldl_cons, foldl_addf_apply g j l]; rfl

/-- A left fold of additions is the start plus the list's sum. -/
private theorem foldl_add_eq_sum {M : Type} [AddCommMonoid M] {ι : Type} (G : ι → M) :
    ∀ (l : List ι) (a : M), l.foldl (fun acc k => acc + G k) a = a + (l.map G).sum
  | [], a => by simp
  | k :: l, a => by
    rw [List.foldl_cons, foldl_add_eq_sum G l, List.map_cons, List.sum_cons, add_assoc]

/-- Slot 0 followed by the slots 1 to 31 lists every slot once, in order. -/
private theorem slots_eq : (0 : Fin 32) :: [1, 2, 3, 4, 5, 6, 7, 8, 9, 10, 11, 12, 13, 14, 15, 16, 17, 18, 19, 20, 21, 22, 23, 24,
    25, 26, 27, 28, 29, 30, 31] = List.finRange 32 := by decide

private theorem sumT_apply (tbl : FVec Ideal S50000x128 .f32) (nidx : IVec S50000x32 32) (i : Fin 50000) (f : Fin 128) :
    sumT (F := Ideal) tbl nidx (ix2 i f) = ∑ k : Fin 32, takeRow tbl (nidx (ix2 i k)) f := by
  have hG : (fun k : Fin 32 => slotTake (F := Ideal) tbl nidx k (ix2 i f)) = fun k => takeRow tbl (nidx (ix2 i k)) f :=
    funext fun k => slotTake_apply tbl nidx k i f
  unfold sumT
  rw [foldl_addf_apply (slotTake (F := Ideal) tbl nidx) (ix2 i f),
    foldl_add_eq_sum (fun k : Fin 32 => slotTake (F := Ideal) tbl nidx k (ix2 i f)), hG, Fin.sum_univ_def, ← slots_eq,
    slotTake_apply]
  exact List.sum_cons.symm

/-- The scale's word is exactly 1/32. -/
private theorem ofBits_inv32 : Ideal.ofBits .f32 0x3D000000#32 = ((1 / 32 : ℝ) : EReal) := by
  simp [Ideal.ofBits, Ideal.ieee, -EReal.coe_mul]; norm_num

theorem meanT_apply (tbl : FVec Ideal S50000x128 .f32) (nidx : IVec S50000x32 32) (i : Fin 50000) (f : Fin 128) :
    meanT (F := Ideal) tbl nidx (ix2 i f) = nbrMean tbl (fun i k => nidx (ix2 i k)) i f := by
  unfold meanT
  rw [mulf_apply, sumT_apply]
  show _ * Ideal.ofBits .f32 0x3D000000#32 = _
  rw [ofBits_inv32]
  rfl

/-! ## The re-indexings -/

theorem wLo_apply (w : FVec Ideal S256x128 .f32) (k h : Fin 128) :
    wLo (F := Ideal) w (ix2 k h) = w (ix2 (⟨k.val, by omega⟩ : Fin 256) h) := by
  unfold wLo
  exact extractStridedSlice_apply _ _ _ (ix2 k h) (ix2 (⟨k.val, by omega⟩ : Fin 256) h) (fun a => match a with
    | ⟨0, _⟩ => by show k.val = 0 + k.val; omega
    | ⟨1, _⟩ => by show h.val = 0 + h.val; omega)

theorem wHi_apply (w : FVec Ideal S256x128 .f32) (k h : Fin 128) :
    wHi (F := Ideal) w (ix2 k h) = w (ix2 (⟨128 + k.val, by omega⟩ : Fin 256) h) := by
  unfold wHi
  exact extractStridedSlice_apply _ _ _ (ix2 k h) (ix2 (⟨128 + k.val, by omega⟩ : Fin 256) h) (fun a => match a with
    | ⟨0, _⟩ => by show 128 + k.val = 128 + k.val; rfl
    | ⟨1, _⟩ => by show h.val = 0 + h.val; omega)

theorem padW_apply (w : FVec Ideal S256x40 .f32) (k : Fin 256) (j : Fin 40) :
    padW (F := Ideal) w (ix2 k (⟨j.val, by omega⟩ : Fin 128)) = w (ix2 k j) := by
  unfold padW
  exact pad_apply_of_inside _ _ _ _ _ _ _ (ix2 k (⟨j.val, by omega⟩ : Fin 128)) (ix2 k j) (fun a => match a with
    | ⟨0, _⟩ => by show k.val = 0 + k.val * (0 + 1); omega
    | ⟨1, _⟩ => by show j.val = 0 + j.val * (0 + 1); omega)

theorem padB_apply (b : FVec Ideal S40 .f32) (j : Fin 40) :
    padB (F := Ideal) b (ix1 (⟨j.val, by omega⟩ : Fin 128)) = b (ix1 j) := by
  unfold padB
  exact pad_apply_of_inside _ _ _ _ _ _ _ (ix1 (⟨j.val, by omega⟩ : Fin 128)) (ix1 j) (fun a => match a with
    | ⟨0, _⟩ => by show j.val = 0 + j.val * (0 + 1); omega)

theorem cut40_apply (y : FVec Ideal S50000x128 .f32) (i : Fin 50000) (j : Fin 40) :
    cut40 (F := Ideal) y (ix2 i j) = y (ix2 i (⟨j.val, by omega⟩ : Fin 128)) := by
  unfold cut40
  exact extractStridedSlice_apply _ _ _ (ix2 i j) (ix2 i (⟨j.val, by omega⟩ : Fin 128)) (fun a => match a with
    | ⟨0, _⟩ => by show i.val = 0 + i.val; omega
    | ⟨1, _⟩ => by show j.val = 0 + j.val; omega)

end Cert.KernelIdeal.Term

end
-- ==== Proof.KBridge.lean ====
/-
  The kernel's arithmetic is the specification. With H the first layer's array (self = the features, mean = their
  neighbour mean, the weight halves, max with zero), the second layer on (rows of H at the batch, the mean of H over
  the batch's neighbour lists, the padded weights' halves, the padded bias), cut to 40 columns, is the specification's
  output at every index — provided every batch entry names a row, so that no batch gather takes its fill branch.
  Column q < 40 of the padded weights and bias is column q of the originals, so the padding never reaches the result.
-/
import proofs.«411215_j35510789603589_3_alg».proof.Proof.KMath
import proofs.«411215_j35510789603589_3_alg».proof.Proof.Spec

set_option maxRecDepth 16384

noncomputable section

namespace Cert.KernelIdeal.Term

open Idealize.ShloMosaic Idealize.SL.Sem

open Cert.KernelIdeal Cert.Spec Idealize.ShloMosaic.ValueIdx
variable [Facts]

/-- A layer with the cut-off, read at (i, h). -/
theorem layerArr_true_apply (self mean : SNF.Idx → EReal) (ws wn : (⟨2, ![128, 128]⟩ : Shape).Idx → EReal)
    (b : (⟨1, ![128]⟩ : Shape).Idx → EReal) (i : Fin 50000) (h : Fin 128) :
    layerArr true self mean ws wn b (ix2 i h)
      = max ((∑ k : Fin 128, self (ix2 i k) * ws (ix2 k h)) + (∑ k : Fin 128, mean (ix2 i k) * wn (ix2 k h)) + b (ix1 h)) 0 := rfl

/-- A layer without the cut-off, read at (i, h). -/
theorem layerArr_false_apply (self mean : SNF.Idx → EReal) (ws wn : (⟨2, ![128, 128]⟩ : Shape).Idx → EReal)
    (b : (⟨1, ![128]⟩ : Shape).Idx → EReal) (i : Fin 50000) (h : Fin 128) :
    layerArr false self mean ws wn b (ix2 i h)
      = (∑ k : Fin 128, self (ix2 i k) * ws (ix2 k h)) + (∑ k : Fin 128, mean (ix2 i k) * wn (ix2 k h)) + b (ix1 h) := rfl

/-- The first layer as the kernel computes it. -/
def hidK (feats : FVec Ideal S50000x128 .f32) (neigh : IVec S50000x32 32) (w1 : FVec Ideal S256x128 .f32)
    (b1 : FVec Ideal S128 .f32) : FVec Ideal S50000x128 .f32 :=
  layerArr true feats (meanT (F := Ideal) feats neigh) (wLo (F := Ideal) w1) (wHi (F := Ideal) w1) b1

attribute [local irreducible] meanT takeT takeI wLo wHi padW padB cut40

/-- It is the specification's hidden layer, entry by entry. -/
theorem hidK_apply (feats : FVec Ideal S50000x128 .f32) (neigh : IVec S50000x32 32) (w1 : FVec Ideal S256x128 .f32)
    (b1 : FVec Ideal S128 .f32) (i : Fin 50000) (h : Fin 128) :
    hidK feats neigh w1 b1 (ix2 i h) = Cert.Spec.hidden feats neigh w1 b1 i h := by
  refine (layerArr_true_apply feats (meanT (F := Ideal) feats neigh) (wLo (F := Ideal) w1) (wHi (F := Ideal) w1) b1 i h).trans ?_
  have e1 : ∀ k : Fin 128, feats (ix2 i k) * wLo (F := Ideal) w1 (ix2 k h)
      = feats (ix2 i k) * w1 (ix2 (⟨k.val, by omega⟩ : Fin 256) h) := fun k => by rw [wLo_apply]
  have e2 : ∀ k : Fin 128, meanT (F := Ideal) feats neigh (ix2 i k) * wHi (F := Ideal) w1 (ix2 k h)
      = nbrMean feats (fun i k => neigh (ix2 i k)) i k * w1 (ix2 (⟨128 + k.val, by omega⟩ : Fin 256) h) := fun k => by
    rw [meanT_apply, wHi_apply]
  rw [Finset.sum_congr rfl (fun k _ => e1 k), Finset.sum_congr rfl (fun k _ => e2 k)]
  rfl

/-- THE KERNEL'S RESULT IS THE SPECIFICATION'S, where every batch entry names a row. -/
theorem kernel_eq (feats : FVec Ideal S50000x128 .f32) (neigh : IVec S50000x32 32) (batch : IVec S50000 32)
    (w1 : FVec Ideal S256x128 .f32) (b1 : FVec Ideal S128 .f32) (w2 : FVec Ideal S256x40 .f32) (b2 : FVec Ideal S40 .f32)
    (hb : ∀ i : Fin 50000, okI (wrapI (batch (ix1 i))) = 1#1) :
    cut40 (F := Ideal) (layerArr false (takeT (F := Ideal) (hidK feats neigh w1 b1) batch)
        (meanT (F := Ideal) (hidK feats neigh w1 b1) (takeI neigh batch))
        (wLo (F := Ideal) (padW (F := Ideal) w2)) (wHi (F := Ideal) (padW (F := Ideal) w2)) (padB (F := Ideal) b2))
      = Cert.Spec.out feats neigh batch w1 b1 w2 b2 := by
  funext j
  obtain ⟨i, q, rfl⟩ : ∃ (i : Fin 50000) (q : Fin 40), j = ix2 i q := ⟨j 0, j 1, eq_ix2 j⟩
  refine (cut40_apply _ i q).trans ?_
  refine (layerArr_false_apply (takeT (F := Ideal) (hidK feats neigh w1 b1) batch)
    (meanT (F := Ideal) (hidK feats neigh w1 b1) (takeI neigh batch))
    (wLo (F := Ideal) (padW (F := Ideal) w2)) (wHi (F := Ideal) (padW (F := Ideal) w2)) (padB (F := Ideal) b2) i ⟨q.val, by omega⟩).trans ?_
  -- the row of the hidden array a batch entry names
  let src : Fin 50000 := rowI (wrapI (batch (ix1 i)))
  have hsel : ∀ k : Fin 128, takeT (F := Ideal) (hidK feats neigh w1 b1) batch (ix2 i k)
      = Cert.Spec.hidden feats neigh w1 b1 src k := fun k => by
    rw [takeT_apply]; unfold takeRow; rw [hb i, select_one]; exact hidK_apply feats neigh w1 b1 src k
  have hnb : ∀ d : Fin 32, takeI neigh batch (ix2 i d) = neigh (ix2 src d) := fun d => by
    rw [takeI_apply, hb i, select_one]
  have e1 : ∀ k : Fin 128, takeT (F := Ideal) (hidK feats neigh w1 b1) batch (ix2 i k)
        * wLo (F := Ideal) (padW (F := Ideal) w2) (ix2 k (⟨q.val, by omega⟩ : Fin 128))
      = Cert.Spec.hidden feats neigh w1 b1 src k * w2 (ix2 (⟨k.val, by omega⟩ : Fin 256) q) := fun k => by
    rw [hsel, wLo_apply, padW_apply]
  have e2 : ∀ k : Fin 128, meanT (F := Ideal) (hidK feats neigh w1 b1) (takeI neigh batch) (ix2 i k)
        * wHi (F := Ideal) (padW (F := Ideal) w2) (ix2 k (⟨q.val, by omega⟩ : Fin 128))
      = (∑ d : Fin 32, takeRow (fun y => Cert.Spec.hidden feats neigh w1 b1 ⟨(y 0).val, idx2_lt0 y⟩ ⟨(y 1).val, idx2_lt1 y⟩)
            (neigh (ix2 src d)) k) * ((1 / 32 : ℝ) : EReal)
          * w2 (ix2 (⟨128 + k.val, by omega⟩ : Fin 256) q) := fun k => by
    rw [meanT_apply, wHi_apply, padW_apply]
    congr 1
    unfold nbrMean
    congr 1
    refine Finset.sum_congr rfl fun d _ => ?_
    dsimp only
    rw [hnb d]
    unfold takeRow
    congr 1
    exact hidK_apply feats neigh w1 b1 _ k
  rw [Finset.sum_congr rfl (fun k _ => e1 k), Finset.sum_congr rfl (fun k _ => e2 k), padB_apply]
  rfl

end Cert.KernelIdeal.Term

end
-- ==== Proof.KOut.lean ====
/-
  The idealized kernel's result as a function of its arguments. Walking back from the result buffer: the final cut of
  the second region's output array; that array is the second layer of the arrays the region finds; those are the
  gathered hidden rows, their neighbour mean and the padded weights, all read off the first region's exit; the hidden
  array is the first layer of the arrays the first region finds, which are the input features, their neighbour mean
  and the weight halves. Where every batch entry names a row (after normalising a negative entry, the index lies in
  [0, 49999]) the fill branch of each batch gather is never taken, and index by index the result is the specification.
-/
import proofs.«411215_j35510789603589_3_alg».proof.Proof.KHost1
import proofs.«411215_j35510789603589_3_alg».proof.Proof.KHost2
import proofs.«411215_j35510789603589_3_alg».proof.Proof.KRegion0
import proofs.«411215_j35510789603589_3_alg».proof.Proof.KRegion1
import proofs.«411215_j35510789603589_3_alg».proof.Proof.KMath
import proofs.«411215_j35510789603589_3_alg».proof.Proof.KBridge

set_option maxRecDepth 16384

noncomputable section

namespace Cert.KernelIdeal.Gen.Val

open Idealize.ShloMosaic Idealize.ShloMosaic.TcCoe Idealize.SL.Sem

open Cert.Spec Idealize.ShloMosaic.ValueIdx Idealize.ShloMosaic.StableHlo
variable (m : (ℓ : Loc nD τ sig) → Buf (Elt Ideal) ℓ) (ρ : Dev nD → PrngReg)

theorem out_eq (c : Dev nD)
    (hb : ∀ i : Fin 50000, okI (wrapI ((m ((c : Thread nD τ).loc main_arg2)) (ix1 i))) = 1#1) :
    W140 (F := Ideal) m ρ c (Proc.devRef .tc main_v268)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  -- the last host operation cuts the second region's output array to its first 40 columns
  have h0 : W140 (F := Ideal) m ρ c (Proc.devRef .tc main_v268) = Term.cut40 (F := Ideal) (W139 m ρ c (Proc.devRef .tc main_v267)) := by
    show StableHlo.after hostOps2 (W139 m ρ c) (Proc.devRef .tc main_v268) = _
    after_results
    rfl
  -- the second region's output array is the second layer of the arrays the region finds
  have h1 : W139 (F := Ideal) m ρ c (Proc.devRef .tc main_v267)
      = layerArr false (W138 m ρ c (Proc.devRef .tc main_v262)) (W138 m ρ c (Proc.devRef .tc main_v261)) (W138 m ρ c (Proc.devRef .tc main_v265))
          (W138 m ρ c (Proc.devRef .tc main_v266)) (W138 m ρ c (Proc.devRef .tc main_v264)) :=
    (W139_arr m ρ c 5).trans (arr1 (V138 m ρ) c)
  -- the first region's output array is the first layer of the arrays that region finds
  have hH : W66 (F := Ideal) m ρ c (Proc.devRef .tc main_v131)
      = Term.hidK (m ((c : Thread nD τ).loc main_arg0)) (m ((c : Thread nD τ).loc main_arg1)) (m ((c : Thread nD τ).loc main_arg3)) (m ((c : Thread nD τ).loc main_arg4)) := by
    refine ((W66_arr m ρ c 5).trans (arr0 (V65 m ρ) c)).trans ?_
    show layerArr true (W65 m ρ c (Proc.devRef .tc main_arg0)) (W65 m ρ c (Proc.devRef .tc main_v128)) (W65 m ρ c (Proc.devRef .tc main_v129))
        (W65 m ρ c (Proc.devRef .tc main_v130)) (W65 m ρ c (Proc.devRef .tc main_arg4)) = _
    rw [W65_arg0, W65_v128, W65_v129, W65_v130, W65_arg4]
    rfl
  -- the first region writes no argument array
  have e1 : W66 (F := Ideal) m ρ c (Proc.devRef .tc main_arg1) = (m ((c : Thread nD τ).loc main_arg1)) := (W66_of_ne m ρ c main_arg1 (by decide)).trans (W65_arg1 m ρ c)
  have e2 : W66 (F := Ideal) m ρ c (Proc.devRef .tc main_arg2) = (m ((c : Thread nD τ).loc main_arg2)) := (W66_of_ne m ρ c main_arg2 (by decide)).trans (W65_arg2 m ρ c)
  have e5 : W66 (F := Ideal) m ρ c (Proc.devRef .tc main_arg5) = (m ((c : Thread nD τ).loc main_arg5)) := (W66_of_ne m ρ c main_arg5 (by decide)).trans (W65_arg5 m ρ c)
  have e6 : W66 (F := Ideal) m ρ c (Proc.devRef .tc main_arg6) = (m ((c : Thread nD τ).loc main_arg6)) := (W66_of_ne m ρ c main_arg6 (by decide)).trans (W65_arg6 m ρ c)
  rw [h0, h1, W138_v262, W138_v261, W138_v265, W138_v266, W138_v264, hH, e1, e2, e5, e6]
  exact Term.kernel_eq _ _ _ _ _ _ _ hb

end Cert.KernelIdeal.Gen.Val

end
-- ==== Proof.RTerm.lean ====
/-
  The idealized reference's arithmetic, named.

  `take3` gathers, for every node and neighbour slot, a table row with jnp.take's fill semantics: a negative index
  is shifted up by the table's length, and an index then outside [0, 49999] selects the fill value. `mean3` sums the
  gathered rows over the slot axis from zero and divides by 32. `rowsAt` is plain indexing: the normalised index is
  clamped into the table, with no fill. A layer multiplies the concatenation [self, mean] by the weight matrix and
  adds the bias.
-/
import proofs.«411215_j35510789603589_3_alg».proof.ReferenceIdeal

noncomputable section

namespace Cert.ReferenceIdeal.Term

open Idealize.ShloMosaic
open Cert.ReferenceIdeal

variable {F : FTy → Type} [FloatOps F] [Facts]
open Facts₀ Facts

/-- Neighbour indices with negative values shifted up by the table's length. -/
def wrap2 (nidx : IVec S50000x32 32) : IVec S50000x32 32 :=
  select (cmpi .slt nidx (broadcastInDim S50000x32 ![] bcast_S_S50000x32 (constantI S_ 32 0#32)))
    (addi nidx (broadcastInDim S50000x32 ![] bcast_S_S50000x32 (constantI S_ 32 50000#32))) nidx

/-- The normalised indices as start indices of a gather. -/
def col3 (nidx : IVec S50000x32 32) : IVec S50000x32x1 32 :=
  broadcastInDim S50000x32x1 ![0, 1] bcast_S50000x32_S50000x32x1_0_1 (wrap2 nidx)

/-- Whether each normalised index lies in [0, 49999]. -/
def mask2 (nidx : IVec S50000x32 32) : IVec S50000x32 1 :=
  Host.reduce IntOp.andi
    (andi (cmpi .sge (col3 nidx) (broadcastInDim S50000x32x1 ![] bcast_S_S50000x32x1 (constantI S_ 32 0#32)))
      (cmpi .sle (col3 nidx) (broadcastInDim S50000x32x1 ![0, 1, 2] bcast_S1x1x1_S50000x32x1_0_1_2
        (broadcastInDim S1x1x1 ![2] bcast_S1_S1x1x1_2 (constantI S1 32 49999#32)))))
    (constantI S_ 1 1#1) reducesTo_S50000x32x1_S50000x32_d2 h_S_

/-- For every node and slot the table's row, or the fill value where the index is out of range. -/
def take3 (tbl : FVec F S50000x128 .f32) (nidx : IVec S50000x32 32) : FVec F S50000x32x128 .f32 :=
  select (broadcastInDim S50000x32x128 ![0, 1] bcast_S50000x32_S50000x32x128_0_1 (mask2 nidx))
    (Host.gather gather_S50000x128_S50000x32x1_S50000x32x128_2_0_n_n_0_2_1128 tbl (col3 nidx))
    (broadcastInDim S50000x32x128 ![] bcast_S_S50000x32x128 (constant S_ .f32 0x7FC00000#32))

/-- The neighbour mean: the slot-axis sum from zero, divided by 32. -/
def mean3 (tbl : FVec F S50000x128 .f32) (nidx : IVec S50000x32 32) : FVec F S50000x128 .f32 :=
  Host.divf (Host.reduceAdd (take3 tbl nidx) (constant S_ .f32 0x00000000#32) reducesTo_S50000x32x128_S50000x128_d1 h_S_)
    (broadcastInDim S50000x128 ![] bcast_S_S50000x128 (constant S_ .f32 0x42000000#32))

/-- The batch indices normalised, as start indices. -/
def colB (batch : IVec S50000 32) : IVec S50000x1 32 :=
  broadcastInDim S50000x1 ![0] bcast_S50000_S50000x1_0
    (select (cmpi .slt batch (broadcastInDim S50000 ![] bcast_S_S50000 (constantI S_ 32 0#32)))
      (addi batch (broadcastInDim S50000 ![] bcast_S_S50000 (constantI S_ 32 50000#32))) batch)

/-- [self, mean] times the weights plus the bias (first layer's widths). -/
def lin1 (self mean : FVec F S50000x128 .f32) (w : FVec F S256x128 .f32) (b : FVec F S128 .f32) : FVec F S50000x128 .f32 :=
  addf (Host.dotGeneral dot_S50000x256_S256x128_S50000x128_1_0_0_1_n_n none
      (concatenate S50000x256 1 [⟨S50000x128, self⟩, ⟨S50000x128, mean⟩] concatenates_S50000x128_S50000x128_S50000x256_d1) w)
    (broadcastInDim S50000x128 ![0, 1] bcast_S1x128_S50000x128_0_1 (broadcastInDim S1x128 ![1] bcast_S128_S1x128_1 b))

/-- The same with the second layer's 40 output columns. -/
def lin2 (self mean : FVec F S50000x128 .f32) (w : FVec F S256x40 .f32) (b : FVec F S40 .f32) : FVec F S50000x40 .f32 :=
  addf (Host.dotGeneral dot_S50000x256_S256x40_S50000x40_1_0_0_1_n_n none
      (concatenate S50000x256 1 [⟨S50000x128, self⟩, ⟨S50000x128, mean⟩] concatenates_S50000x128_S50000x128_S50000x256_d1) w)
    (broadcastInDim S50000x40 ![0, 1] bcast_S1x40_S50000x40_0_1 (broadcastInDim S1x40 ![1] bcast_S40_S1x40_1 b))

/-- The first layer: max with zero of the linear part. -/
def hid (feats : FVec F S50000x128 .f32) (neigh : IVec S50000x32 32) (w1 : FVec F S256x128 .f32) (b1 : FVec F S128 .f32) :
    FVec F S50000x128 .f32 :=
  maximumf (lin1 feats (mean3 feats neigh) w1 b1) (broadcastInDim S50000x128 ![] bcast_S_S50000x128 (constant S_ .f32 0x00000000#32))

/-- The reference's result. -/
def refOut (feats : FVec F S50000x128 .f32) (neigh : IVec S50000x32 32) (batch : IVec S50000 32)
    (w1 : FVec F S256x128 .f32) (b1 : FVec F S128 .f32) (w2 : FVec F S256x40 .f32) (b2 : FVec F S40 .f32) : FVec F S50000x40 .f32 :=
  lin2 (Host.gather gather_S50000x128_S50000x1_S50000x128_1_0_n_n_0_1_1128 (hid feats neigh w1 b1) (colB batch))
    (mean3 (hid feats neigh w1 b1) (Host.gather gather_S50000x32_S50000x1_S50000x32_1_0_n_n_0_1_132 neigh (colB batch))) w2 b2

end Cert.ReferenceIdeal.Term

end
-- ==== Proof.RRun.lean ====
/-
  The reference's run: @main is a straight line of host operations (the functions it calls written out at their call
  sites), so every weakly fair execution terminates with each buffer at the operations' fold over the launch memory;
  at the result buffer that fold is the named composition `Term.refOut` of the argument arrays, and no operation writes
  an argument.
-/
import proofs.«411215_j35510789603589_3_alg».proof.ReferenceIdeal
import proofs.«411215_j35510789603589_3_alg».proof.Proof.Gen.ReferenceIdeal
import proofs.«411215_j35510789603589_3_alg».proof.Proof.RTerm
import Idealize.ShloMosaic.Lib.StableHlo.Run

set_option maxRecDepth 16384

noncomputable section

namespace Cert.ReferenceIdeal.Val

open Idealize.ShloMosaic Idealize.SL.Sem

open Cert.ReferenceIdeal Idealize.ShloMosaic.StableHlo
variable {F : FTy → Type} [FloatOps F]

open Facts₀ Facts

/-- @main's eighty-seven operations in order, each call's operations written at its call site over that call's
    buffers: the first gather with fill (twenty-three operations: the index wrap, the range mask, the gather, the
    select), the slot sum and the division by 32, the first layer's concatenation, product, bias and maximum with
    zero, the batch gather of the neighbour table, the second gather with fill, its sum and division, the batch
    gather of the hidden rows, and the second layer's concatenation, product and bias. -/
abbrev ops : List (HloOp τ sig (Elt F)) :=
  [ nullary main_call0_c (constantI S_ 32 0#32),
    unary main_call0_c main_call0_v0 ((broadcastInDim S50000x32 ![] bcast_S_S50000x32) : (⟨S_, .i32⟩ : BufTy).Contents (Elt F) → (⟨S50000x32, .i32⟩ : BufTy).Contents (Elt F)),
    binary main_arg1 main_call0_v0 main_call0_v1 ((cmpi .slt) : (⟨S50000x32, .i32⟩ : BufTy).Contents (Elt F) → (⟨S50000x32, .i32⟩ : BufTy).Contents (Elt F) → (⟨S50000x32, .i1⟩ : BufTy).Contents (Elt F)),
    nullary main_call0_c_0 (constantI S_ 32 50000#32),
    unary main_call0_c_0 main_call0_v2 ((broadcastInDim S50000x32 ![] bcast_S_S50000x32) : (⟨S_, .i32⟩ : BufTy).Contents (Elt F) → (⟨S50000x32, .i32⟩ : BufTy).Contents (Elt F)),
    binary main_arg1 main_call0_v2 main_call0_v3 (addi : (⟨S50000x32, .i32⟩ : BufTy).Contents (Elt F) → (⟨S50000x32, .i32⟩ : BufTy).Contents (Elt F) → (⟨S50000x32, .i32⟩ : BufTy).Contents (Elt F)),
    ternary main_call0_v1 main_call0_v3 main_arg1 main_call0_v4 (select : (⟨S50000x32, .i1⟩ : BufTy).Contents (Elt F) → (⟨S50000x32, .i32⟩ : BufTy).Contents (Elt F) → (⟨S50000x32, .i32⟩ : BufTy).Contents (Elt F) → (⟨S50000x32, .i32⟩ : BufTy).Contents (Elt F)),
    unary main_call0_v4 main_call0_v5 ((broadcastInDim S50000x32x1 ![0, 1] bcast_S50000x32_S50000x32x1_0_1) : (⟨S50000x32, .i32⟩ : BufTy).Contents (Elt F) → (⟨S50000x32x1, .i32⟩ : BufTy).Contents (Elt F)),
    nullary main_call0_c_1 (constantI S1 32 49999#32),
    nullary main_call0_c_2 (constantI S_ 32 0#32),
    unary main_call0_c_2 main_call0_v6 ((broadcastInDim S50000x32x1 ![] bcast_S_S50000x32x1) : (⟨S_, .i32⟩ : BufTy).Contents (Elt F) → (⟨S50000x32x1, .i32⟩ : BufTy).Contents (Elt F)),
    binary main_call0_v5 main_call0_v6 main_call0_v7 ((cmpi .sge) : (⟨S50000x32x1, .i32⟩ : BufTy).Contents (Elt F) → (⟨S50000x32x1, .i32⟩ : BufTy).Contents (Elt F) → (⟨S50000x32x1, .i1⟩ : BufTy).Contents (Elt F)),
    unary main_call0_c_1 main_call0_v8 ((broadcastInDim S1x1x1 ![2] bcast_S1_S1x1x1_2) : (⟨S1, .i32⟩ : BufTy).Contents (Elt F) → (⟨S1x1x1, .i32⟩ : BufTy).Contents (Elt F)),
    unary main_call0_v8 main_call0_v9 ((broadcastInDim S50000x32x1 ![0, 1, 2] bcast_S1x1x1_S50000x32x1_0_1_2) : (⟨S1x1x1, .i32⟩ : BufTy).Contents (Elt F) → (⟨S50000x32x1, .i32⟩ : BufTy).Contents (Elt F)),
    binary main_call0_v5 main_call0_v9 main_call0_v10 ((cmpi .sle) : (⟨S50000x32x1, .i32⟩ : BufTy).Contents (Elt F) → (⟨S50000x32x1, .i32⟩ : BufTy).Contents (Elt F) → (⟨S50000x32x1, .i1⟩ : BufTy).Contents (Elt F)),
    binary main_call0_v7 main_call0_v10 main_call0_v11 (andi : (⟨S50000x32x1, .i1⟩ : BufTy).Contents (Elt F) → (⟨S50000x32x1, .i1⟩ : BufTy).Contents (Elt F) → (⟨S50000x32x1, .i1⟩ : BufTy).Contents (Elt F)),
    nullary main_call0_c_3 (constantI S_ 1 1#1),
    binary main_call0_v11 main_call0_c_3 main_call0_v12 ((fun x v => Host.reduce IntOp.andi x v reducesTo_S50000x32x1_S50000x32_d2 h_S_) : (⟨S50000x32x1, .i1⟩ : BufTy).Contents (Elt F) → (⟨S_, .i1⟩ : BufTy).Contents (Elt F) → (⟨S50000x32, .i1⟩ : BufTy).Contents (Elt F)),
    binary main_arg0 main_call0_v5 main_call0_v13 ((fun x i => Host.gather gather_S50000x128_S50000x32x1_S50000x32x128_2_0_n_n_0_2_1128 x i) : (⟨S50000x128, .f32⟩ : BufTy).Contents (Elt F) → (⟨S50000x32x1, .i32⟩ : BufTy).Contents (Elt F) → (⟨S50000x32x128, .f32⟩ : BufTy).Contents (Elt F)),
    unary main_call0_v12 main_call0_v14 ((broadcastInDim S50000x32x128 ![0, 1] bcast_S50000x32_S50000x32x128_0_1) : (⟨S50000x32, .i1⟩ : BufTy).Contents (Elt F) → (⟨S50000x32x128, .i1⟩ : BufTy).Contents (Elt F)),
    nullary main_call0_cst (constant S_ .f32 0x7FC00000#32),
    unary main_call0_cst main_call0_v15 ((broadcastInDim S50000x32x128 ![] bcast_S_S50000x32x128) : (⟨S_, .f32⟩ : BufTy).Contents (Elt F) → (⟨S50000x32x128, .f32⟩ : BufTy).Contents (Elt F)),
    ternary main_call0_v14 main_call0_v13 main_call0_v15 main_v0 (select : (⟨S50000x32x128, .i1⟩ : BufTy).Contents (Elt F) → (⟨S50000x32x128, .f32⟩ : BufTy).Contents (Elt F) → (⟨S50000x32x128, .f32⟩ : BufTy).Contents (Elt F) → (⟨S50000x32x128, .f32⟩ : BufTy).Contents (Elt F)),
    nullary main_cst (constant S_ .f32 0x00000000#32),
    binary main_v0 main_cst main_v1 ((fun x v => Host.reduceAdd x v reducesTo_S50000x32x128_S50000x128_d1 h_S_) : (⟨S50000x32x128, .f32⟩ : BufTy).Contents (Elt F) → (⟨S_, .f32⟩ : BufTy).Contents (Elt F) → (⟨S50000x128, .f32⟩ : BufTy).Contents (Elt F)),
    nullary main_cst_0 (constant S_ .f32 0x42000000#32),
    unary main_cst_0 main_v2 (broadcastInDim S50000x128 ![] bcast_S_S50000x128 : (⟨S_, .f32⟩ : BufTy).Contents (Elt F) → (⟨S50000x128, .f32⟩ : BufTy).Contents (Elt F)),
    binary main_v1 main_v2 main_v3 (Host.divf : (⟨S50000x128, .f32⟩ : BufTy).Contents (Elt F) → (⟨S50000x128, .f32⟩ : BufTy).Contents (Elt F) → (⟨S50000x128, .f32⟩ : BufTy).Contents (Elt F)),
    binary main_arg0 main_v3 main_v4 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v4 main_arg3 main_v5 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg4 main_v6 (broadcastInDim S1x128 ![1] bcast_S128_S1x128_1 : (⟨S128, .f32⟩ : BufTy).Contents (Elt F) → (⟨S1x128, .f32⟩ : BufTy).Contents (Elt F)),
    unary main_v6 main_v7 (broadcastInDim S50000x128 ![0, 1] bcast_S1x128_S50000x128_0_1 : (⟨S1x128, .f32⟩ : BufTy).Contents (Elt F) → (⟨S50000x128, .f32⟩ : BufTy).Contents (Elt F)),
    binary main_v5 main_v7 main_v8 (addf : (⟨S50000x128, .f32⟩ : BufTy).Contents (Elt F) → (⟨S50000x128, .f32⟩ : BufTy).Contents (Elt F) → (⟨S50000x128, .f32⟩ : BufTy).Contents (Elt F)),
    nullary main_call1_cst (constant S_ .f32 0x00000000#32),
    unary main_call1_cst main_call1_v0 ((broadcastInDim S50000x128 ![] bcast_S_S50000x128) : (⟨S_, .f32⟩ : BufTy).Contents (Elt F) → (⟨S50000x128, .f32⟩ : BufTy).Contents (Elt F)),
    binary main_v8 main_call1_v0 main_v9 (maximumf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v10 (broadcastInDim S50000 ![] bcast_S_S50000 : (⟨S_, .i32⟩ : BufTy).Contents (Elt F) → (⟨S50000, .i32⟩ : BufTy).Contents (Elt F)),
    binary main_arg2 main_v10 main_v11 (cmpi .slt : (⟨S50000, .i32⟩ : BufTy).Contents (Elt F) → (⟨S50000, .i32⟩ : BufTy).Contents (Elt F) → (⟨S50000, .i1⟩ : BufTy).Contents (Elt F)),
    nullary main_c_1 (constantI S_ 32 50000#32),
    unary main_c_1 main_v12 (broadcastInDim S50000 ![] bcast_S_S50000 : (⟨S_, .i32⟩ : BufTy).Contents (Elt F) → (⟨S50000, .i32⟩ : BufTy).Contents (Elt F)),
    binary main_arg2 main_v12 main_v13 (addi : (⟨S50000, .i32⟩ : BufTy).Contents (Elt F) → (⟨S50000, .i32⟩ : BufTy).Contents (Elt F) → (⟨S50000, .i32⟩ : BufTy).Contents (Elt F)),
    ternary main_v11 main_v13 main_arg2 main_v14 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v14 main_v15 (broadcastInDim S50000x1 ![0] bcast_S50000_S50000x1_0 : (⟨S50000, .i32⟩ : BufTy).Contents (Elt F) → (⟨S50000x1, .i32⟩ : BufTy).Contents (Elt F)),
    binary main_arg1 main_v15 main_v16 ((fun x i => Host.gather gather_S50000x32_S50000x1_S50000x32_1_0_n_n_0_1_132 x i) : (⟨S50000x32, .i32⟩ : BufTy).Contents (Elt F) → (⟨S50000x1, .i32⟩ : BufTy).Contents (Elt F) → (⟨S50000x32, .i32⟩ : BufTy).Contents (Elt F)),
    nullary main_call2_c (constantI S_ 32 0#32),
    unary main_call2_c main_call2_v0 ((broadcastInDim S50000x32 ![] bcast_S_S50000x32) : (⟨S_, .i32⟩ : BufTy).Contents (Elt F) → (⟨S50000x32, .i32⟩ : BufTy).Contents (Elt F)),
    binary main_v16 main_call2_v0 main_call2_v1 ((cmpi .slt) : (⟨S50000x32, .i32⟩ : BufTy).Contents (Elt F) → (⟨S50000x32, .i32⟩ : BufTy).Contents (Elt F) → (⟨S50000x32, .i1⟩ : BufTy).Contents (Elt F)),
    nullary main_call2_c_0 (constantI S_ 32 50000#32),
    unary main_call2_c_0 main_call2_v2 ((broadcastInDim S50000x32 ![] bcast_S_S50000x32) : (⟨S_, .i32⟩ : BufTy).Contents (Elt F) → (⟨S50000x32, .i32⟩ : BufTy).Contents (Elt F)),
    binary main_v16 main_call2_v2 main_call2_v3 (addi : (⟨S50000x32, .i32⟩ : BufTy).Contents (Elt F) → (⟨S50000x32, .i32⟩ : BufTy).Contents (Elt F) → (⟨S50000x32, .i32⟩ : BufTy).Contents (Elt F)),
    ternary main_call2_v1 main_call2_v3 main_v16 main_call2_v4 (select : (⟨S50000x32, .i1⟩ : BufTy).Contents (Elt F) → (⟨S50000x32, .i32⟩ : BufTy).Contents (Elt F) → (⟨S50000x32, .i32⟩ : BufTy).Contents (Elt F) → (⟨S50000x32, .i32⟩ : BufTy).Contents (Elt F)),
    unary main_call2_v4 main_call2_v5 ((broadcastInDim S50000x32x1 ![0, 1] bcast_S50000x32_S50000x32x1_0_1) : (⟨S50000x32, .i32⟩ : BufTy).Contents (Elt F) → (⟨S50000x32x1, .i32⟩ : BufTy).Contents (Elt F)),
    nullary main_call2_c_1 (constantI S1 32 49999#32),
    nullary main_call2_c_2 (constantI S_ 32 0#32),
    unary main_call2_c_2 main_call2_v6 ((broadcastInDim S50000x32x1 ![] bcast_S_S50000x32x1) : (⟨S_, .i32⟩ : BufTy).Contents (Elt F) → (⟨S50000x32x1, .i32⟩ : BufTy).Contents (Elt F)),
    binary main_call2_v5 main_call2_v6 main_call2_v7 ((cmpi .sge) : (⟨S50000x32x1, .i32⟩ : BufTy).Contents (Elt F) → (⟨S50000x32x1, .i32⟩ : BufTy).Contents (Elt F) → (⟨S50000x32x1, .i1⟩ : BufTy).Contents (Elt F)),
    unary main_call2_c_1 main_call2_v8 ((broadcastInDim S1x1x1 ![2] bcast_S1_S1x1x1_2) : (⟨S1, .i32⟩ : BufTy).Contents (Elt F) → (⟨S1x1x1, .i32⟩ : BufTy).Contents (Elt F)),
    unary main_call2_v8 main_call2_v9 ((broadcastInDim S50000x32x1 ![0, 1, 2] bcast_S1x1x1_S50000x32x1_0_1_2) : (⟨S1x1x1, .i32⟩ : BufTy).Contents (Elt F) → (⟨S50000x32x1, .i32⟩ : BufTy).Contents (Elt F)),
    binary main_call2_v5 main_call2_v9 main_call2_v10 ((cmpi .sle) : (⟨S50000x32x1, .i32⟩ : BufTy).Contents (Elt F) → (⟨S50000x32x1, .i32⟩ : BufTy).Contents (Elt F) → (⟨S50000x32x1, .i1⟩ : BufTy).Contents (Elt F)),
    binary main_call2_v7 main_call2_v10 main_call2_v11 (andi : (⟨S50000x32x1, .i1⟩ : BufTy).Contents (Elt F) → (⟨S50000x32x1, .i1⟩ : BufTy).Contents (Elt F) → (⟨S50000x32x1, .i1⟩ : BufTy).Contents (Elt F)),
    nullary main_call2_c_3 (constantI S_ 1 1#1),
    binary main_call2_v11 main_call2_c_3 main_call2_v12 ((fun x v => Host.reduce IntOp.andi x v reducesTo_S50000x32x1_S50000x32_d2 h_S_) : (⟨S50000x32x1, .i1⟩ : BufTy).Contents (Elt F) → (⟨S_, .i1⟩ : BufTy).Contents (Elt F) → (⟨S50000x32, .i1⟩ : BufTy).Contents (Elt F)),
    binary main_v9 main_call2_v5 main_call2_v13 ((fun x i => Host.gather gather_S50000x128_S50000x32x1_S50000x32x128_2_0_n_n_0_2_1128 x i) : (⟨S50000x128, .f32⟩ : BufTy).Contents (Elt F) → (⟨S50000x32x1, .i32⟩ : BufTy).Contents (Elt F) → (⟨S50000x32x128, .f32⟩ : BufTy).Contents (Elt F)),
    unary main_call2_v12 main_call2_v14 ((broadcastInDim S50000x32x128 ![0, 1] bcast_S50000x32_S50000x32x128_0_1) : (⟨S50000x32, .i1⟩ : BufTy).Contents (Elt F) → (⟨S50000x32x128, .i1⟩ : BufTy).Contents (Elt F)),
    nullary main_call2_cst (constant S_ .f32 0x7FC00000#32),
    unary main_call2_cst main_call2_v15 ((broadcastInDim S50000x32x128 ![] bcast_S_S50000x32x128) : (⟨S_, .f32⟩ : BufTy).Contents (Elt F) → (⟨S50000x32x128, .f32⟩ : BufTy).Contents (Elt F)),
    ternary main_call2_v14 main_call2_v13 main_call2_v15 main_v17 (select : (⟨S50000x32x128, .i1⟩ : BufTy).Contents (Elt F) → (⟨S50000x32x128, .f32⟩ : BufTy).Contents (Elt F) → (⟨S50000x32x128, .f32⟩ : BufTy).Contents (Elt F) → (⟨S50000x32x128, .f32⟩ : BufTy).Contents (Elt F)),
    nullary main_cst_2 (constant S_ .f32 0x00000000#32),
    binary main_v17 main_cst_2 main_v18 ((fun x v => Host.reduceAdd x v reducesTo_S50000x32x128_S50000x128_d1 h_S_) : (⟨S50000x32x128, .f32⟩ : BufTy).Contents (Elt F) → (⟨S_, .f32⟩ : BufTy).Contents (Elt F) → (⟨S50000x128, .f32⟩ : BufTy).Contents (Elt F)),
    nullary main_cst_3 (constant S_ .f32 0x42000000#32),
    unary main_cst_3 main_v19 (broadcastInDim S50000x128 ![] bcast_S_S50000x128 : (⟨S_, .f32⟩ : BufTy).Contents (Elt F) → (⟨S50000x128, .f32⟩ : BufTy).Contents (Elt F)),
    binary main_v18 main_v19 main_v20 (Host.divf : (⟨S50000x128, .f32⟩ : BufTy).Contents (Elt F) → (⟨S50000x128, .f32⟩ : BufTy).Contents (Elt F) → (⟨S50000x128, .f32⟩ : BufTy).Contents (Elt F)),
    nullary main_c_4 (constantI S_ 32 0#32),
    unary main_c_4 main_v21 (broadcastInDim S50000 ![] bcast_S_S50000 : (⟨S_, .i32⟩ : BufTy).Contents (Elt F) → (⟨S50000, .i32⟩ : BufTy).Contents (Elt F)),
    binary main_arg2 main_v21 main_v22 (cmpi .slt : (⟨S50000, .i32⟩ : BufTy).Contents (Elt F) → (⟨S50000, .i32⟩ : BufTy).Contents (Elt F) → (⟨S50000, .i1⟩ : BufTy).Contents (Elt F)),
    nullary main_c_5 (constantI S_ 32 50000#32),
    unary main_c_5 main_v23 (broadcastInDim S50000 ![] bcast_S_S50000 : (⟨S_, .i32⟩ : BufTy).Contents (Elt F) → (⟨S50000, .i32⟩ : BufTy).Contents (Elt F)),
    binary main_arg2 main_v23 main_v24 (addi : (⟨S50000, .i32⟩ : BufTy).Contents (Elt F) → (⟨S50000, .i32⟩ : BufTy).Contents (Elt F) → (⟨S50000, .i32⟩ : BufTy).Contents (Elt F)),
    ternary main_v22 main_v24 main_arg2 main_v25 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v25 main_v26 (broadcastInDim S50000x1 ![0] bcast_S50000_S50000x1_0 : (⟨S50000, .i32⟩ : BufTy).Contents (Elt F) → (⟨S50000x1, .i32⟩ : BufTy).Contents (Elt F)),
    binary main_v9 main_v26 main_v27 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    binary main_v27 main_v20 main_v28 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v28 main_arg5 main_v29 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg6 main_v30 (broadcastInDim S1x40 ![1] bcast_S40_S1x40_1 : (⟨S40, .f32⟩ : BufTy).Contents (Elt F) → (⟨S1x40, .f32⟩ : BufTy).Contents (Elt F)),
    unary main_v30 main_v31 (broadcastInDim S50000x40 ![0, 1] bcast_S1x40_S50000x40_0_1 : (⟨S1x40, .f32⟩ : BufTy).Contents (Elt F) → (⟨S50000x40, .f32⟩ : BufTy).Contents (Elt F)),
    binary main_v29 main_v31 main_v32 (addf : (⟨S50000x40, .f32⟩ : BufTy).Contents (Elt F) → (⟨S50000x40, .f32⟩ : BufTy).Contents (Elt F) → (⟨S50000x40, .f32⟩ : BufTy).Contents (Elt F)) ]

-- the reductions, the gathers and the concatenation are kept folded while the two programs are compared: the
-- comparison is between the same operations on the same operands and never looks inside them
attribute [local irreducible] Host.reduce Host.reduceAdd Host.gather concatenate in
set_option maxHeartbeats 800000 in
/-- @main is that straight line: each function's body at its call is its operations in order, a typed reference at a
    literal buffer is the buffer, and sequencing reassociates. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., nullary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b : DevRef τ sig) :=
  run_seq scopedRefs_eq scopedSems_eq defs main (fun _ => ops) main_eq (fun _ => ops_sub) m ρ

/-! ## The fold, in three stretches

The line is cut before each concatenation, so that a concatenation reads its two operands from the contents its
stretch starts from. -/

/-- The operations up to the first layer's neighbour mean. -/
private abbrev opsA : List (HloOp τ sig (Elt F)) :=
  [ nullary main_call0_c (constantI S_ 32 0#32),
    unary main_call0_c main_call0_v0 ((broadcastInDim S50000x32 ![] bcast_S_S50000x32) : (⟨S_, .i32⟩ : BufTy).Contents (Elt F) → (⟨S50000x32, .i32⟩ : BufTy).Contents (Elt F)),
    binary main_arg1 main_call0_v0 main_call0_v1 ((cmpi .slt) : (⟨S50000x32, .i32⟩ : BufTy).Contents (Elt F) → (⟨S50000x32, .i32⟩ : BufTy).Contents (Elt F) → (⟨S50000x32, .i1⟩ : BufTy).Contents (Elt F)),
    nullary main_call0_c_0 (constantI S_ 32 50000#32),
    unary main_call0_c_0 main_call0_v2 ((broadcastInDim S50000x32 ![] bcast_S_S50000x32) : (⟨S_, .i32⟩ : BufTy).Contents (Elt F) → (⟨S50000x32, .i32⟩ : BufTy).Contents (Elt F)),
    binary main_arg1 main_call0_v2 main_call0_v3 (addi : (⟨S50000x32, .i32⟩ : BufTy).Contents (Elt F) → (⟨S50000x32, .i32⟩ : BufTy).Contents (Elt F) → (⟨S50000x32, .i32⟩ : BufTy).Contents (Elt F)),
    ternary main_call0_v1 main_call0_v3 main_arg1 main_call0_v4 (select : (⟨S50000x32, .i1⟩ : BufTy).Contents (Elt F) → (⟨S50000x32, .i32⟩ : BufTy).Contents (Elt F) → (⟨S50000x32, .i32⟩ : BufTy).Contents (Elt F) → (⟨S50000x32, .i32⟩ : BufTy).Contents (Elt F)),
    unary main_call0_v4 main_call0_v5 ((broadcastInDim S50000x32x1 ![0, 1] bcast_S50000x32_S50000x32x1_0_1) : (⟨S50000x32, .i32⟩ : BufTy).Contents (Elt F) → (⟨S50000x32x1, .i32⟩ : BufTy).Contents (Elt F)),
    nullary main_call0_c_1 (constantI S1 32 49999#32),
    nullary main_call0_c_2 (constantI S_ 32 0#32),
    unary main_call0_c_2 main_call0_v6 ((broadcastInDim S50000x32x1 ![] bcast_S_S50000x32x1) : (⟨S_, .i32⟩ : BufTy).Contents (Elt F) → (⟨S50000x32x1, .i32⟩ : BufTy).Contents (Elt F)),
    binary main_call0_v5 main_call0_v6 main_call0_v7 ((cmpi .sge) : (⟨S50000x32x1, .i32⟩ : BufTy).Contents (Elt F) → (⟨S50000x32x1, .i32⟩ : BufTy).Contents (Elt F) → (⟨S50000x32x1, .i1⟩ : BufTy).Contents (Elt F)),
    unary main_call0_c_1 main_call0_v8 ((broadcastInDim S1x1x1 ![2] bcast_S1_S1x1x1_2) : (⟨S1, .i32⟩ : BufTy).Contents (Elt F) → (⟨S1x1x1, .i32⟩ : BufTy).Contents (Elt F)),
    unary main_call0_v8 main_call0_v9 ((broadcastInDim S50000x32x1 ![0, 1, 2] bcast_S1x1x1_S50000x32x1_0_1_2) : (⟨S1x1x1, .i32⟩ : BufTy).Contents (Elt F) → (⟨S50000x32x1, .i32⟩ : BufTy).Contents (Elt F)),
    binary main_call0_v5 main_call0_v9 main_call0_v10 ((cmpi .sle) : (⟨S50000x32x1, .i32⟩ : BufTy).Contents (Elt F) → (⟨S50000x32x1, .i32⟩ : BufTy).Contents (Elt F) → (⟨S50000x32x1, .i1⟩ : BufTy).Contents (Elt F)),
    binary main_call0_v7 main_call0_v10 main_call0_v11 (andi : (⟨S50000x32x1, .i1⟩ : BufTy).Contents (Elt F) → (⟨S50000x32x1, .i1⟩ : BufTy).Contents (Elt F) → (⟨S50000x32x1, .i1⟩ : BufTy).Contents (Elt F)),
    nullary main_call0_c_3 (constantI S_ 1 1#1),
    binary main_call0_v11 main_call0_c_3 main_call0_v12 ((fun x v => Host.reduce IntOp.andi x v reducesTo_S50000x32x1_S50000x32_d2 h_S_) : (⟨S50000x32x1, .i1⟩ : BufTy).Contents (Elt F) → (⟨S_, .i1⟩ : BufTy).Contents (Elt F) → (⟨S50000x32, .i1⟩ : BufTy).Contents (Elt F)),
    binary main_arg0 main_call0_v5 main_call0_v13 ((fun x i => Host.gather gather_S50000x128_S50000x32x1_S50000x32x128_2_0_n_n_0_2_1128 x i) : (⟨S50000x128, .f32⟩ : BufTy).Contents (Elt F) → (⟨S50000x32x1, .i32⟩ : BufTy).Contents (Elt F) → (⟨S50000x32x128, .f32⟩ : BufTy).Contents (Elt F)),
    unary main_call0_v12 main_call0_v14 ((broadcastInDim S50000x32x128 ![0, 1] bcast_S50000x32_S50000x32x128_0_1) : (⟨S50000x32, .i1⟩ : BufTy).Contents (Elt F) → (⟨S50000x32x128, .i1⟩ : BufTy).Contents (Elt F)),
    nullary main_call0_cst (constant S_ .f32 0x7FC00000#32),
    unary main_call0_cst main_call0_v15 ((broadcastInDim S50000x32x128 ![] bcast_S_S50000x32x128) : (⟨S_, .f32⟩ : BufTy).Contents (Elt F) → (⟨S50000x32x128, .f32⟩ : BufTy).Contents (Elt F)),
    ternary main_call0_v14 main_call0_v13 main_call0_v15 main_v0 (select : (⟨S50000x32x128, .i1⟩ : BufTy).Contents (Elt F) → (⟨S50000x32x128, .f32⟩ : BufTy).Contents (Elt F) → (⟨S50000x32x128, .f32⟩ : BufTy).Contents (Elt F) → (⟨S50000x32x128, .f32⟩ : BufTy).Contents (Elt F)),
    nullary main_cst (constant S_ .f32 0x00000000#32),
    binary main_v0 main_cst main_v1 ((fun x v => Host.reduceAdd x v reducesTo_S50000x32x128_S50000x128_d1 h_S_) : (⟨S50000x32x128, .f32⟩ : BufTy).Contents (Elt F) → (⟨S_, .f32⟩ : BufTy).Contents (Elt F) → (⟨S50000x128, .f32⟩ : BufTy).Contents (Elt F)),
    nullary main_cst_0 (constant S_ .f32 0x42000000#32),
    unary main_cst_0 main_v2 (broadcastInDim S50000x128 ![] bcast_S_S50000x128 : (⟨S_, .f32⟩ : BufTy).Contents (Elt F) → (⟨S50000x128, .f32⟩ : BufTy).Contents (Elt F)),
    binary main_v1 main_v2 main_v3 (Host.divf : (⟨S50000x128, .f32⟩ : BufTy).Contents (Elt F) → (⟨S50000x128, .f32⟩ : BufTy).Contents (Elt F) → (⟨S50000x128, .f32⟩ : BufTy).Contents (Elt F)) ]

/-- From the first layer's concatenation to the second layer's two operands. -/
private abbrev opsB : List (HloOp τ sig (Elt F)) :=
  [ binary main_arg0 main_v3 main_v4 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v4 main_arg3 main_v5 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg4 main_v6 (broadcastInDim S1x128 ![1] bcast_S128_S1x128_1 : (⟨S128, .f32⟩ : BufTy).Contents (Elt F) → (⟨S1x128, .f32⟩ : BufTy).Contents (Elt F)),
    unary main_v6 main_v7 (broadcastInDim S50000x128 ![0, 1] bcast_S1x128_S50000x128_0_1 : (⟨S1x128, .f32⟩ : BufTy).Contents (Elt F) → (⟨S50000x128, .f32⟩ : BufTy).Contents (Elt F)),
    binary main_v5 main_v7 main_v8 (addf : (⟨S50000x128, .f32⟩ : BufTy).Contents (Elt F) → (⟨S50000x128, .f32⟩ : BufTy).Contents (Elt F) → (⟨S50000x128, .f32⟩ : BufTy).Contents (Elt F)),
    nullary main_call1_cst (constant S_ .f32 0x00000000#32),
    unary main_call1_cst main_call1_v0 ((broadcastInDim S50000x128 ![] bcast_S_S50000x128) : (⟨S_, .f32⟩ : BufTy).Contents (Elt F) → (⟨S50000x128, .f32⟩ : BufTy).Contents (Elt F)),
    binary main_v8 main_call1_v0 main_v9 (maximumf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v10 (broadcastInDim S50000 ![] bcast_S_S50000 : (⟨S_, .i32⟩ : BufTy).Contents (Elt F) → (⟨S50000, .i32⟩ : BufTy).Contents (Elt F)),
    binary main_arg2 main_v10 main_v11 (cmpi .slt : (⟨S50000, .i32⟩ : BufTy).Contents (Elt F) → (⟨S50000, .i32⟩ : BufTy).Contents (Elt F) → (⟨S50000, .i1⟩ : BufTy).Contents (Elt F)),
    nullary main_c_1 (constantI S_ 32 50000#32),
    unary main_c_1 main_v12 (broadcastInDim S50000 ![] bcast_S_S50000 : (⟨S_, .i32⟩ : BufTy).Contents (Elt F) → (⟨S50000, .i32⟩ : BufTy).Contents (Elt F)),
    binary main_arg2 main_v12 main_v13 (addi : (⟨S50000, .i32⟩ : BufTy).Contents (Elt F) → (⟨S50000, .i32⟩ : BufTy).Contents (Elt F) → (⟨S50000, .i32⟩ : BufTy).Contents (Elt F)),
    ternary main_v11 main_v13 main_arg2 main_v14 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v14 main_v15 (broadcastInDim S50000x1 ![0] bcast_S50000_S50000x1_0 : (⟨S50000, .i32⟩ : BufTy).Contents (Elt F) → (⟨S50000x1, .i32⟩ : BufTy).Contents (Elt F)),
    binary main_arg1 main_v15 main_v16 ((fun x i => Host.gather gather_S50000x32_S50000x1_S50000x32_1_0_n_n_0_1_132 x i) : (⟨S50000x32, .i32⟩ : BufTy).Contents (Elt F) → (⟨S50000x1, .i32⟩ : BufTy).Contents (Elt F) → (⟨S50000x32, .i32⟩ : BufTy).Contents (Elt F)),
    nullary main_call2_c (constantI S_ 32 0#32),
    unary main_call2_c main_call2_v0 ((broadcastInDim S50000x32 ![] bcast_S_S50000x32) : (⟨S_, .i32⟩ : BufTy).Contents (Elt F) → (⟨S50000x32, .i32⟩ : BufTy).Contents (Elt F)),
    binary main_v16 main_call2_v0 main_call2_v1 ((cmpi .slt) : (⟨S50000x32, .i32⟩ : BufTy).Contents (Elt F) → (⟨S50000x32, .i32⟩ : BufTy).Contents (Elt F) → (⟨S50000x32, .i1⟩ : BufTy).Contents (Elt F)),
    nullary main_call2_c_0 (constantI S_ 32 50000#32),
    unary main_call2_c_0 main_call2_v2 ((broadcastInDim S50000x32 ![] bcast_S_S50000x32) : (⟨S_, .i32⟩ : BufTy).Contents (Elt F) → (⟨S50000x32, .i32⟩ : BufTy).Contents (Elt F)),
    binary main_v16 main_call2_v2 main_call2_v3 (addi : (⟨S50000x32, .i32⟩ : BufTy).Contents (Elt F) → (⟨S50000x32, .i32⟩ : BufTy).Contents (Elt F) → (⟨S50000x32, .i32⟩ : BufTy).Contents (Elt F)),
    ternary main_call2_v1 main_call2_v3 main_v16 main_call2_v4 (select : (⟨S50000x32, .i1⟩ : BufTy).Contents (Elt F) → (⟨S50000x32, .i32⟩ : BufTy).Contents (Elt F) → (⟨S50000x32, .i32⟩ : BufTy).Contents (Elt F) → (⟨S50000x32, .i32⟩ : BufTy).Contents (Elt F)),
    unary main_call2_v4 main_call2_v5 ((broadcastInDim S50000x32x1 ![0, 1] bcast_S50000x32_S50000x32x1_0_1) : (⟨S50000x32, .i32⟩ : BufTy).Contents (Elt F) → (⟨S50000x32x1, .i32⟩ : BufTy).Contents (Elt F)),
    nullary main_call2_c_1 (constantI S1 32 49999#32),
    nullary main_call2_c_2 (constantI S_ 32 0#32),
    unary main_call2_c_2 main_call2_v6 ((broadcastInDim S50000x32x1 ![] bcast_S_S50000x32x1) : (⟨S_, .i32⟩ : BufTy).Contents (Elt F) → (⟨S50000x32x1, .i32⟩ : BufTy).Contents (Elt F)),
    binary main_call2_v5 main_call2_v6 main_call2_v7 ((cmpi .sge) : (⟨S50000x32x1, .i32⟩ : BufTy).Contents (Elt F) → (⟨S50000x32x1, .i32⟩ : BufTy).Contents (Elt F) → (⟨S50000x32x1, .i1⟩ : BufTy).Contents (Elt F)),
    unary main_call2_c_1 main_call2_v8 ((broadcastInDim S1x1x1 ![2] bcast_S1_S1x1x1_2) : (⟨S1, .i32⟩ : BufTy).Contents (Elt F) → (⟨S1x1x1, .i32⟩ : BufTy).Contents (Elt F)),
    unary main_call2_v8 main_call2_v9 ((broadcastInDim S50000x32x1 ![0, 1, 2] bcast_S1x1x1_S50000x32x1_0_1_2) : (⟨S1x1x1, .i32⟩ : BufTy).Contents (Elt F) → (⟨S50000x32x1, .i32⟩ : BufTy).Contents (Elt F)),
    binary main_call2_v5 main_call2_v9 main_call2_v10 ((cmpi .sle) : (⟨S50000x32x1, .i32⟩ : BufTy).Contents (Elt F) → (⟨S50000x32x1, .i32⟩ : BufTy).Contents (Elt F) → (⟨S50000x32x1, .i1⟩ : BufTy).Contents (Elt F)),
    binary main_call2_v7 main_call2_v10 main_call2_v11 (andi : (⟨S50000x32x1, .i1⟩ : BufTy).Contents (Elt F) → (⟨S50000x32x1, .i1⟩ : BufTy).Contents (Elt F) → (⟨S50000x32x1, .i1⟩ : BufTy).Contents (Elt F)),
    nullary main_call2_c_3 (constantI S_ 1 1#1),
    binary main_call2_v11 main_call2_c_3 main_call2_v12 ((fun x v => Host.reduce IntOp.andi x v reducesTo_S50000x32x1_S50000x32_d2 h_S_) : (⟨S50000x32x1, .i1⟩ : BufTy).Contents (Elt F) → (⟨S_, .i1⟩ : BufTy).Contents (Elt F) → (⟨S50000x32, .i1⟩ : BufTy).Contents (Elt F)),
    binary main_v9 main_call2_v5 main_call2_v13 ((fun x i => Host.gather gather_S50000x128_S50000x32x1_S50000x32x128_2_0_n_n_0_2_1128 x i) : (⟨S50000x128, .f32⟩ : BufTy).Contents (Elt F) → (⟨S50000x32x1, .i32⟩ : BufTy).Contents (Elt F) → (⟨S50000x32x128, .f32⟩ : BufTy).Contents (Elt F)),
    unary main_call2_v12 main_call2_v14 ((broadcastInDim S50000x32x128 ![0, 1] bcast_S50000x32_S50000x32x128_0_1) : (⟨S50000x32, .i1⟩ : BufTy).Contents (Elt F) → (⟨S50000x32x128, .i1⟩ : BufTy).Contents (Elt F)),
    nullary main_call2_cst (constant S_ .f32 0x7FC00000#32),
    unary main_call2_cst main_call2_v15 ((broadcastInDim S50000x32x128 ![] bcast_S_S50000x32x128) : (⟨S_, .f32⟩ : BufTy).Contents (Elt F) → (⟨S50000x32x128, .f32⟩ : BufTy).Contents (Elt F)),
    ternary main_call2_v14 main_call2_v13 main_call2_v15 main_v17 (select : (⟨S50000x32x128, .i1⟩ : BufTy).Contents (Elt F) → (⟨S50000x32x128, .f32⟩ : BufTy).Contents (Elt F) → (⟨S50000x32x128, .f32⟩ : BufTy).Contents (Elt F) → (⟨S50000x32x128, .f32⟩ : BufTy).Contents (Elt F)),
    nullary main_cst_2 (constant S_ .f32 0x00000000#32),
    binary main_v17 main_cst_2 main_v18 ((fun x v => Host.reduceAdd x v reducesTo_S50000x32x128_S50000x128_d1 h_S_) : (⟨S50000x32x128, .f32⟩ : BufTy).Contents (Elt F) → (⟨S_, .f32⟩ : BufTy).Contents (Elt F) → (⟨S50000x128, .f32⟩ : BufTy).Contents (Elt F)),
    nullary main_cst_3 (constant S_ .f32 0x42000000#32),
    unary main_cst_3 main_v19 (broadcastInDim S50000x128 ![] bcast_S_S50000x128 : (⟨S_, .f32⟩ : BufTy).Contents (Elt F) → (⟨S50000x128, .f32⟩ : BufTy).Contents (Elt F)),
    binary main_v18 main_v19 main_v20 (Host.divf : (⟨S50000x128, .f32⟩ : BufTy).Contents (Elt F) → (⟨S50000x128, .f32⟩ : BufTy).Contents (Elt F) → (⟨S50000x128, .f32⟩ : BufTy).Contents (Elt F)),
    nullary main_c_4 (constantI S_ 32 0#32),
    unary main_c_4 main_v21 (broadcastInDim S50000 ![] bcast_S_S50000 : (⟨S_, .i32⟩ : BufTy).Contents (Elt F) → (⟨S50000, .i32⟩ : BufTy).Contents (Elt F)),
    binary main_arg2 main_v21 main_v22 (cmpi .slt : (⟨S50000, .i32⟩ : BufTy).Contents (Elt F) → (⟨S50000, .i32⟩ : BufTy).Contents (Elt F) → (⟨S50000, .i1⟩ : BufTy).Contents (Elt F)),
    nullary main_c_5 (constantI S_ 32 50000#32),
    unary main_c_5 main_v23 (broadcastInDim S50000 ![] bcast_S_S50000 : (⟨S_, .i32⟩ : BufTy).Contents (Elt F) → (⟨S50000, .i32⟩ : BufTy).Contents (Elt F)),
    binary main_arg2 main_v23 main_v24 (addi : (⟨S50000, .i32⟩ : BufTy).Contents (Elt F) → (⟨S50000, .i32⟩ : BufTy).Contents (Elt F) → (⟨S50000, .i32⟩ : BufTy).Contents (Elt F)),
    ternary main_v22 main_v24 main_arg2 main_v25 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v25 main_v26 (broadcastInDim S50000x1 ![0] bcast_S50000_S50000x1_0 : (⟨S50000, .i32⟩ : BufTy).Contents (Elt F) → (⟨S50000x1, .i32⟩ : BufTy).Contents (Elt F)),
    binary main_v9 main_v26 main_v27 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)) ]

/-- The second layer's linear part. -/
private abbrev opsC : List (HloOp τ sig (Elt F)) :=
  [ binary main_v27 main_v20 main_v28 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v28 main_arg5 main_v29 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg6 main_v30 (broadcastInDim S1x40 ![1] bcast_S40_S1x40_1 : (⟨S40, .f32⟩ : BufTy).Contents (Elt F) → (⟨S1x40, .f32⟩ : BufTy).Contents (Elt F)),
    unary main_v30 main_v31 (broadcastInDim S50000x40 ![0, 1] bcast_S1x40_S50000x40_0_1 : (⟨S1x40, .f32⟩ : BufTy).Contents (Elt F) → (⟨S50000x40, .f32⟩ : BufTy).Contents (Elt F)),
    binary main_v29 main_v31 main_v32 (addf : (⟨S50000x40, .f32⟩ : BufTy).Contents (Elt F) → (⟨S50000x40, .f32⟩ : BufTy).Contents (Elt F) → (⟨S50000x40, .f32⟩ : BufTy).Contents (Elt F)) ]

private theorem ops_split : (ops : List (HloOp τ sig (Elt F))) = opsA ++ (opsB ++ opsC) := rfl

/-- The fold over two lines run one after the other is the second's over the first's. -/
private theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- After the first stretch the mean buffer holds the neighbour mean of the feature table. -/
private theorem A_v3 (V : Valuation τ sig (Elt F)) :
    after opsA V (Proc.devRef .tc main_v3 : DevRef τ sig) = Term.mean3 (V (Proc.devRef .tc main_arg0 : DevRef τ sig)) (V (Proc.devRef .tc main_arg1 : DevRef τ sig)) := by
  delta Term.mean3 Term.take3 Term.mask2 Term.col3 Term.wrap2
  after_results_simp

private theorem A_arg0 (V : Valuation τ sig (Elt F)) :
    after opsA V (Proc.devRef .tc main_arg0 : DevRef τ sig) = V (Proc.devRef .tc main_arg0 : DevRef τ sig) := by
  after_results_simp

private theorem A_arg1 (V : Valuation τ sig (Elt F)) :
    after opsA V (Proc.devRef .tc main_arg1 : DevRef τ sig) = V (Proc.devRef .tc main_arg1 : DevRef τ sig) := by
  after_results_simp

private theorem A_arg2 (V : Valuation τ sig (Elt F)) :
    after opsA V (Proc.devRef .tc main_arg2 : DevRef τ sig) = V (Proc.devRef .tc main_arg2 : DevRef τ sig) := by
  after_results_simp

private theorem A_arg3 (V : Valuation τ sig (Elt F)) :
    after opsA V (Proc.devRef .tc main_arg3 : DevRef τ sig) = V (Proc.devRef .tc main_arg3 : DevRef τ sig) := by
  after_results_simp

private theorem A_arg4 (V : Valuation τ sig (Elt F)) :
    after opsA V (Proc.devRef .tc main_arg4 : DevRef τ sig) = V (Proc.devRef .tc main_arg4 : DevRef τ sig) := by
  after_results_simp

private theorem A_arg5 (V : Valuation τ sig (Elt F)) :
    after opsA V (Proc.devRef .tc main_arg5 : DevRef τ sig) = V (Proc.devRef .tc main_arg5 : DevRef τ sig) := by
  after_results_simp

private theorem A_arg6 (V : Valuation τ sig (Elt F)) :
    after opsA V (Proc.devRef .tc main_arg6 : DevRef τ sig) = V (Proc.devRef .tc main_arg6 : DevRef τ sig) := by
  after_results_simp

/-- After the second stretch: the hidden rows gathered at the batch indices, -/
private theorem B_v27 (W : Valuation τ sig (Elt F)) :
    after opsB W (Proc.devRef .tc main_v27 : DevRef τ sig)
      = Host.gather gather_S50000x128_S50000x1_S50000x128_1_0_n_n_0_1_1128
          (maximumf (Term.lin1 (W (Proc.devRef .tc main_arg0 : DevRef τ sig)) (W (Proc.devRef .tc main_v3 : DevRef τ sig)) (W (Proc.devRef .tc main_arg3 : DevRef τ sig)) (W (Proc.devRef .tc main_arg4 : DevRef τ sig)))
          (broadcastInDim S50000x128 ![] bcast_S_S50000x128 (constant S_ .f32 0x00000000#32)))
          (Term.colB (W (Proc.devRef .tc main_arg2 : DevRef τ sig))) := by
  delta Term.lin1 Term.colB
  after_results_simp

/-- and the neighbour mean of the hidden rows over the gathered neighbour table. -/
private theorem B_v20 (W : Valuation τ sig (Elt F)) :
    after opsB W (Proc.devRef .tc main_v20 : DevRef τ sig)
      = Term.mean3
          (maximumf (Term.lin1 (W (Proc.devRef .tc main_arg0 : DevRef τ sig)) (W (Proc.devRef .tc main_v3 : DevRef τ sig)) (W (Proc.devRef .tc main_arg3 : DevRef τ sig)) (W (Proc.devRef .tc main_arg4 : DevRef τ sig)))
          (broadcastInDim S50000x128 ![] bcast_S_S50000x128 (constant S_ .f32 0x00000000#32)))
          (Host.gather gather_S50000x32_S50000x1_S50000x32_1_0_n_n_0_1_132 (W (Proc.devRef .tc main_arg1 : DevRef τ sig)) (Term.colB (W (Proc.devRef .tc main_arg2 : DevRef τ sig)))) := by
  delta Term.mean3 Term.take3 Term.mask2 Term.col3 Term.wrap2 Term.lin1 Term.colB
  after_results_simp

private theorem B_arg5 (W : Valuation τ sig (Elt F)) :
    after opsB W (Proc.devRef .tc main_arg5 : DevRef τ sig) = W (Proc.devRef .tc main_arg5 : DevRef τ sig) := by
  after_results_simp

private theorem B_arg6 (W : Valuation τ sig (Elt F)) :
    after opsB W (Proc.devRef .tc main_arg6 : DevRef τ sig) = W (Proc.devRef .tc main_arg6 : DevRef τ sig) := by
  after_results_simp

/-- The last stretch is the second layer's linear part of the two operands. -/
private theorem C_v32 (W : Valuation τ sig (Elt F)) :
    after opsC W (Proc.devRef .tc main_v32 : DevRef τ sig)
      = Term.lin2 (W (Proc.devRef .tc main_v27 : DevRef τ sig)) (W (Proc.devRef .tc main_v20 : DevRef τ sig)) (W (Proc.devRef .tc main_arg5 : DevRef τ sig)) (W (Proc.devRef .tc main_arg6 : DevRef τ sig)) := by
  delta Term.lin2
  after_results_simp

/-- The fold at the result buffer is the named composition of the argument arrays. -/
theorem out_eq (V : Valuation τ sig (Elt F)) :
    after ops V (Proc.devRef .tc main_v32 : DevRef τ sig)
      = Term.refOut (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) := by
  delta Term.refOut Term.hid
  rw [ops_split, after_append, after_append, C_v32, B_v27, B_v20, B_arg5, B_arg6, A_v3, A_arg0, A_arg1, A_arg2, A_arg3,
    A_arg4, A_arg5, A_arg6]

/-- No operation writes argument 0. -/
theorem arg0_eq (V : Valuation τ sig (Elt F)) :
    after ops V (Proc.devRef .tc main_arg0 : DevRef τ sig) = V (Proc.devRef .tc main_arg0 : DevRef τ sig) := by
  after_results_simp

/-- No operation writes argument 1. -/
theorem arg1_eq (V : Valuation τ sig (Elt F)) :
    after ops V (Proc.devRef .tc main_arg1 : DevRef τ sig) = V (Proc.devRef .tc main_arg1 : DevRef τ sig) := by
  after_results_simp

/-- No operation writes argument 2. -/
theorem arg2_eq (V : Valuation τ sig (Elt F)) :
    after ops V (Proc.devRef .tc main_arg2 : DevRef τ sig) = V (Proc.devRef .tc main_arg2 : DevRef τ sig) := by
  after_results_simp

/-- No operation writes argument 3. -/
theorem arg3_eq (V : Valuation τ sig (Elt F)) :
    after ops V (Proc.devRef .tc main_arg3 : DevRef τ sig) = V (Proc.devRef .tc main_arg3 : DevRef τ sig) := by
  after_results_simp

/-- No operation writes argument 4. -/
theorem arg4_eq (V : Valuation τ sig (Elt F)) :
    after ops V (Proc.devRef .tc main_arg4 : DevRef τ sig) = V (Proc.devRef .tc main_arg4 : DevRef τ sig) := by
  after_results_simp

/-- No operation writes argument 5. -/
theorem arg5_eq (V : Valuation τ sig (Elt F)) :
    after ops V (Proc.devRef .tc main_arg5 : DevRef τ sig) = V (Proc.devRef .tc main_arg5 : DevRef τ sig) := by
  after_results_simp

/-- No operation writes argument 6. -/
theorem arg6_eq (V : Valuation τ sig (Elt F)) :
    after ops V (Proc.devRef .tc main_arg6 : DevRef τ sig) = V (Proc.devRef .tc main_arg6 : DevRef τ sig) := by
  after_results_simp

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v32)
        = Term.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := F)) _ _).mono
    (fun _ h c => ⟨(h c main_v32).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _)⟩)
    (run_main m ρ)

end Cert.ReferenceIdeal.Val

end
-- ==== Proof.RMath.lean ====
/-
  The reference's composition read at an index, over the extended reals, is the specification: the three-axis
  gather with fill is a row read per node and slot; the slot-axis sum from zero divided by 32 is the sum times 1/32;
  the product of the concatenation [self, mean] with the weights splits at column 128 into the two half sums; plain
  indexing reads the clamped normalised row.
-/
import proofs.«411215_j35510789603589_3_alg».proof.Proof.RTerm
import proofs.«411215_j35510789603589_3_alg».proof.Proof.Spec
import proofs.«411215_j35510789603589_3_alg».proof.Proof.LibMatmul
import Idealize.ShloMosaic.Lib.ValueIdx
import Idealize.ShloMosaic.Lib.Pipeline.Value
import Idealize.ShloMosaic.PureOps.Ideal.Laws

set_option maxRecDepth 16384

noncomputable section

namespace Cert.ReferenceIdeal.Term

open Idealize.ShloMosaic Idealize.SL.Sem

open Cert.ReferenceIdeal Cert.Spec Idealize.ShloMosaic.ValueIdx
variable [Facts]

/-! ## The gathers read at an index

On the table's row axis the operand index is the start index read as a signed integer and clamped into [0, 49999];
on the column axis it is the result's own column coordinate. -/

/-- The three-axis gather at (i, k, f): the table at the clamped start index of (i, k), column f. -/
private theorem gather3_apply {α : Type} (tbl : S50000x128.Idx → α) (idx : IVec S50000x32x1 32)
    (i : Fin 50000) (k : Fin 32) (f : Fin 128) :
    Host.gather gather_S50000x128_S50000x32x1_S50000x32x128_2_0_n_n_0_2_1128 tbl idx (ix3 i k f) = tbl (ix2 (rowI (idx (ix3 i k (0 : Fin 1)))) f) := by
  unfold Host.gather
  congr 1
  funext a
  refine Fin.ext ?_
  match a with
  | ⟨0, _⟩ =>
    show GatherDims.start gather_S50000x128_S50000x32x1_S50000x32x128_2_0_n_n_0_2_1128 (ix3 i k f) idx (0 : Fin 2) + GatherDims.batchCoord gather_S50000x128_S50000x32x1_S50000x32x128_2_0_n_n_0_2_1128 (ix3 i k f) (0 : Fin 2)
      + GatherDims.offCoord gather_S50000x128_S50000x32x1_S50000x32x128_2_0_n_n_0_2_1128 (ix3 i k f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S50000x128_S50000x32x1_S50000x32x128_2_0_n_n_0_2_1128 from List.mem_singleton.mpr rfl)]
    have hsi : GatherDims.siIdx gather_S50000x128_S50000x32x1_S50000x32x128_2_0_n_n_0_2_1128 (ix3 i k f) ⟨List.idxOf (0 : Fin 2) (GatherDims.startIndexMap gather_S50000x128_S50000x32x1_S50000x32x128_2_0_n_n_0_2_1128),
        List.idxOf_lt_length_iff.2 (List.mem_singleton.mpr rfl)⟩ = ix3 i k (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start gather_S50000x128_S50000x32x1_S50000x32x128_2_0_n_n_0_2_1128 (ix3 i k f) idx (1 : Fin 2) + GatherDims.batchCoord gather_S50000x128_S50000x32x1_S50000x32x128_2_0_n_n_0_2_1128 (ix3 i k f) (1 : Fin 2)
      + GatherDims.offCoord gather_S50000x128_S50000x32x1_S50000x32x128_2_0_n_n_0_2_1128 (ix3 i k f) (1 : Fin 2) = f.val
    have hs : GatherDims.start gather_S50000x128_S50000x32x1_S50000x32x128_2_0_n_n_0_2_1128 (ix3 i k f) idx (1 : Fin 2) = 0 := by
      unfold GatherDims.start
      exact dif_neg (show (1 : Fin 2) ∉ [(0 : Fin 2)] from by decide)
    have ho : GatherDims.offCoord gather_S50000x128_S50000x32x1_S50000x32x128_2_0_n_n_0_2_1128 (ix3 i k f) (1 : Fin 2) = f.val := by
      unfold GatherDims.offCoord
      have h1 : (1 : Fin 2) ∈ GatherDims.sKept gather_S50000x128_S50000x32x1_S50000x32x128_2_0_n_n_0_2_1128 :=
        show (1 : Fin 2) ∈ S50000x128.kept ([(0 : Fin 2)] ++ []) from by decide
      rw [dif_pos h1]
      rfl
    rw [hs, GatherDims.batchCoord_eq_zero _ _ _ List.not_mem_nil, ho]
    omega

/-- Plain row indexing of a 128-column table at (i, f): the table at the clamped start index of i, column f. -/
private theorem gatherRows128_apply {α : Type} (x : S50000x128.Idx → α) (idx : IVec S50000x1 32) (i : Fin 50000) (f : Fin 128) :
    Host.gather gather_S50000x128_S50000x1_S50000x128_1_0_n_n_0_1_1128 x idx (ix2 i f) = x (ix2 (rowI (idx (ix2 i (0 : Fin 1)))) f) := by
  unfold Host.gather
  congr 1
  funext a
  refine Fin.ext ?_
  match a with
  | ⟨0, _⟩ =>
    show GatherDims.start gather_S50000x128_S50000x1_S50000x128_1_0_n_n_0_1_1128 (ix2 i f) idx (0 : Fin 2) + GatherDims.batchCoord gather_S50000x128_S50000x1_S50000x128_1_0_n_n_0_1_1128 (ix2 i f) (0 : Fin 2)
      + GatherDims.offCoord gather_S50000x128_S50000x1_S50000x128_1_0_n_n_0_1_1128 (ix2 i f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S50000x128_S50000x1_S50000x128_1_0_n_n_0_1_1128 from List.mem_singleton.mpr rfl)]
    have hsi : GatherDims.siIdx gather_S50000x128_S50000x1_S50000x128_1_0_n_n_0_1_1128 (ix2 i f) ⟨List.idxOf (0 : Fin 2) (GatherDims.startIndexMap gather_S50000x128_S50000x1_S50000x128_1_0_n_n_0_1_1128),
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show GatherDims.start gather_S50000x128_S50000x1_S50000x128_1_0_n_n_0_1_1128 (ix2 i f) idx (1 : Fin 2) + GatherDims.batchCoord gather_S50000x128_S50000x1_S50000x128_1_0_n_n_0_1_1128 (ix2 i f) (1 : Fin 2)
      + GatherDims.offCoord gather_S50000x128_S50000x1_S50000x128_1_0_n_n_0_1_1128 (ix2 i f) (1 : Fin 2) = f.val
    have hs : GatherDims.start gather_S50000x128_S50000x1_S50000x128_1_0_n_n_0_1_1128 (ix2 i f) idx (1 : Fin 2) = 0 := by
      unfold GatherDims.start
      exact dif_neg (show (1 : Fin 2) ∉ [(0 : Fin 2)] from by decide)
    have ho : GatherDims.offCoord gather_S50000x128_S50000x1_S50000x128_1_0_n_n_0_1_1128 (ix2 i f) (1 : Fin 2) = f.val := by
      unfold GatherDims.offCoord
      have h1 : (1 : Fin 2) ∈ GatherDims.sKept gather_S50000x128_S50000x1_S50000x128_1_0_n_n_0_1_1128 :=
        show (1 : Fin 2) ∈ S50000x128.kept ([(0 : Fin 2)] ++ []) from by decide
      rw [dif_pos h1]
      rfl
    rw [hs, GatherDims.batchCoord_eq_zero _ _ _ List.not_mem_nil, ho]
    omega

/-- Plain row indexing of the 32-column index table at (i, k): the table at the clamped start index of i, column k. -/
private theorem gatherRows32_apply {α : Type} (x : S50000x32.Idx → α) (idx : IVec S50000x1 32) (i : Fin 50000) (f : Fin 32) :
    Host.gather gather_S50000x32_S50000x1_S50000x32_1_0_n_n_0_1_132 x idx (ix2 i f) = x (ix2 (rowI (idx (ix2 i (0 : Fin 1)))) f) := by
  unfold Host.gather
  congr 1
  funext a
  refine Fin.ext ?_
  match a with
  | ⟨0, _⟩ =>
    show GatherDims.start gather_S50000x32_S50000x1_S50000x32_1_0_n_n_0_1_132 (ix2 i f) idx (0 : Fin 2) + GatherDims.batchCoord gather_S50000x32_S50000x1_S50000x32_1_0_n_n_0_1_132 (ix2 i f) (0 : Fin 2)
      + GatherDims.offCoord gather_S50000x32_S50000x1_S50000x32_1_0_n_n_0_1_132 (ix2 i f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S50000x32_S50000x1_S50000x32_1_0_n_n_0_1_132 from List.mem_singleton.mpr rfl)]
    have hsi : GatherDims.siIdx gather_S50000x32_S50000x1_S50000x32_1_0_n_n_0_1_132 (ix2 i f) ⟨List.idxOf (0 : Fin 2) (GatherDims.startIndexMap gather_S50000x32_S50000x1_S50000x32_1_0_n_n_0_1_132),
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show GatherDims.start gather_S50000x32_S50000x1_S50000x32_1_0_n_n_0_1_132 (ix2 i f) idx (1 : Fin 2) + GatherDims.batchCoord gather_S50000x32_S50000x1_S50000x32_1_0_n_n_0_1_132 (ix2 i f) (1 : Fin 2)
      + GatherDims.offCoord gather_S50000x32_S50000x1_S50000x32_1_0_n_n_0_1_132 (ix2 i f) (1 : Fin 2) = f.val
    have hs : GatherDims.start gather_S50000x32_S50000x1_S50000x32_1_0_n_n_0_1_132 (ix2 i f) idx (1 : Fin 2) = 0 := by
      unfold GatherDims.start
      exact dif_neg (show (1 : Fin 2) ∉ [(0 : Fin 2)] from by decide)
    have ho : GatherDims.offCoord gather_S50000x32_S50000x1_S50000x32_1_0_n_n_0_1_132 (ix2 i f) (1 : Fin 2) = f.val := by
      unfold GatherDims.offCoord
      have h1 : (1 : Fin 2) ∈ GatherDims.sKept gather_S50000x32_S50000x1_S50000x32_1_0_n_n_0_1_132 :=
        show (1 : Fin 2) ∈ S50000x32.kept ([(0 : Fin 2)] ++ []) from by decide
      rw [dif_pos h1]
      rfl
    rw [hs, GatherDims.batchCoord_eq_zero _ _ _ List.not_mem_nil, ho]
    omega

/-! ## The normalised index, its range bit, the row read with fill, the neighbour mean -/

/-- The shifted index at (i, k). -/
private theorem wrap2_apply (nidx : IVec S50000x32 32) (i : Fin 50000) (k : Fin 32) :
    wrap2 nidx (ix2 i k) = wrapI (nidx (ix2 i k)) := rfl

/-- As a start index: the same word at (i, k, 0). -/
private theorem col3_apply (nidx : IVec S50000x32 32) (i : Fin 50000) (k : Fin 32) :
    col3 nidx (ix3 i k (0 : Fin 1)) = wrapI (nidx (ix2 i k)) := by
  unfold col3
  rw [broadcastInDim_apply _ _ _ _ (ix2 i k) (fun a => by match a with | ⟨0, _⟩ => rfl | ⟨1, _⟩ => rfl)]
  rfl

/-- A conjunction of one-bit words with the word 1 is the other word. -/
private theorem andi_one (x : BitVec 1) : IntOp.andi x 1#1 = x := by
  rcases BitVec.eq_zero_or_eq_one x with rfl | rfl <;> rfl

/-- A conjunction from 1 over a one-element index set is the one word. -/
private theorem fold_andi_fin1 (g : Fin 1 → BitVec 1) : Finset.fold IntOp.andi (1#1) g Finset.univ = g 0 := by
  rw [Finset.univ_unique, Finset.fold_singleton, andi_one]
  rfl

/-- The range bit at (i, k): the conjunction over the one start-index component is that component's own test. -/
private theorem mask2_apply (nidx : IVec S50000x32 32) (i : Fin 50000) (k : Fin 32) :
    mask2 nidx (ix2 i k) = okI (wrapI (nidx (ix2 i k))) := by
  have h : Shape.Reduces S50000x32x1 [2] S50000x32 := by decide
  have hl : h.lift (ix2 i k) (0 : Fin 1) = ix3 i k (0 : Fin 1) := by
    funext c; refine Fin.ext ?_
    match c with
    | ⟨0, _⟩ => rfl
    | ⟨1, _⟩ => rfl
    | ⟨2, _⟩ => rfl
  unfold mask2
  rw [Host.reduce_eq_fold_single IntOp.andi _ _ Facts₀.reducesTo_S50000x32x1_S50000x32_d2 h Facts₀.h_S_ (ix2 i k)]
  refine (fold_andi_fin1 _).trans ?_
  show IntOp.andi (IntOp.cmpi .sge (col3 nidx (h.lift (ix2 i k) (0 : Fin 1))) 0#32)
      (IntOp.cmpi .sle (col3 nidx (h.lift (ix2 i k) (0 : Fin 1))) 49999#32) = _
  rw [hl, col3_apply]
  rfl

/-- The gathered row with fill at (i, k, f). -/
private theorem take3_apply (tbl : FVec Ideal S50000x128 .f32) (nidx : IVec S50000x32 32)
    (i : Fin 50000) (k : Fin 32) (f : Fin 128) :
    take3 (F := Ideal) tbl nidx (ix3 i k f) = takeRow tbl (nidx (ix2 i k)) f := by
  unfold take3
  rw [select_apply, broadcastInDim_apply _ _ _ _ (ix2 i k) (fun a => by match a with | ⟨0, _⟩ => rfl | ⟨1, _⟩ => rfl),
    gather3_apply, col3_apply, mask2_apply]
  rfl

/-- The word 0x42000000 is the real 32. -/
private theorem ofBits_32 : Ideal.ofBits .f32 0x42000000#32 = ((32 : ℝ) : EReal) := by
  simp [Ideal.ofBits, Ideal.ieee, -EReal.coe_mul]; norm_num

/-- The neighbour mean at (i, f): zero plus the sum over the slots, divided by 32, is the sum times 1/32. -/
private theorem mean3_apply (tbl : FVec Ideal S50000x128 .f32) (nidx : IVec S50000x32 32) (i : Fin 50000) (f : Fin 128) :
    mean3 (F := Ideal) tbl nidx (ix2 i f) = nbrMean tbl (fun i k => nidx (ix2 i k)) i f := by
  have h : Shape.Reduces S50000x32x128 [1] S50000x128 := by decide
  unfold mean3 nbrMean
  show Ideal.div (Ideal.hostReduceAdd Facts₀.reducesTo_S50000x32x128_S50000x128_d1 (take3 (F := Ideal) tbl nidx)
      (Ideal.ofBits .f32 0x00000000#32) (ix2 i f)) (Ideal.ofBits .f32 0x42000000#32) = _
  rw [Ideal.hostReduceAdd_single _ h, Ideal.ofBits_zero_f32, zero_add, ofBits_32, Ideal.div_coe (by norm_num)]
  refine congrArg (fun s : EReal => s * ((1 / 32 : ℝ) : EReal)) ?_
  refine Finset.sum_congr rfl fun k _ => ?_
  have hl : h.lift (ix2 i f) k = ix3 i k f := by
    funext c; refine Fin.ext ?_
    match c with
    | ⟨0, _⟩ => rfl
    | ⟨1, _⟩ => rfl
    | ⟨2, _⟩ => rfl
  rw [hl]
  exact take3_apply tbl nidx i k f

/-! ## A layer: the product of [self, mean] with the weights splits at column 128 -/

/-- [self, mean] at (i, k), k below 128, is self at (i, k). -/
private theorem cat_left (self mean : FVec Ideal S50000x128 .f32) (i : Fin 50000) (k : Fin 128) :
    concatenate S50000x256 1 [⟨S50000x128, self⟩, ⟨S50000x128, mean⟩]
      Facts₀.concatenates_S50000x128_S50000x128_S50000x256_d1 (ix2 i (Fin.castAdd 128 k)) = self (ix2 i k) :=
  concatenate_pair_apply_left (t := S50000x256) (1 : Fin 2) self mean Facts₀.concatenates_S50000x128_S50000x128_S50000x256_d1
    (ix2 i (Fin.castAdd 128 k)) rfl (ix2 i k)
    (fun b => by match b with | ⟨0, _⟩ => rfl | ⟨1, _⟩ => rfl)

/-- [self, mean] at (i, 128 + k) is mean at (i, k). -/
private theorem cat_right (self mean : FVec Ideal S50000x128 .f32) (i : Fin 50000) (k : Fin 128) :
    concatenate S50000x256 1 [⟨S50000x128, self⟩, ⟨S50000x128, mean⟩]
      Facts₀.concatenates_S50000x128_S50000x128_S50000x256_d1 (ix2 i (Fin.natAdd 128 k)) = mean (ix2 i k) :=
  concatenate_pair_apply_right (t := S50000x256) (1 : Fin 2) self mean Facts₀.concatenates_S50000x128_S50000x128_S50000x256_d1
    (ix2 i (Fin.natAdd 128 k)) rfl rfl (ix2 i k)
    (fun b hb => by
      match b, hb with
      | ⟨0, _⟩, _ => rfl
      | ⟨1, _⟩, hb => exact absurd rfl hb)
    (show k.val + 128 = 128 + k.val from Nat.add_comm _ _)

/-- The 256-term sum of [self, mean] against a weight column is the self half plus the mean half. -/
private theorem cat_sum {H : Nat} (self mean : FVec Ideal S50000x128 .f32) (w : (⟨2, ![256, H]⟩ : Shape).Idx → EReal)
    (i : Fin 50000) (h : Fin H) :
    ∑ k : Fin 256, concatenate S50000x256 1 [⟨S50000x128, self⟩, ⟨S50000x128, mean⟩]
      Facts₀.concatenates_S50000x128_S50000x128_S50000x256_d1 (ix2 i k) * w (ix2 k h)
      = (∑ k : Fin 128, self (ix2 i k) * w (ix2 ⟨k.val, by omega⟩ h))
        + (∑ k : Fin 128, mean (ix2 i k) * w (ix2 ⟨128 + k.val, by omega⟩ h)) := by
  refine (Fin.sum_univ_add (fun k : Fin (128 + 128) => concatenate S50000x256 1 [⟨S50000x128, self⟩, ⟨S50000x128, mean⟩]
      Facts₀.concatenates_S50000x128_S50000x128_S50000x256_d1 (ix2 i k) * w (ix2 k h))).trans ?_
  refine congrArg₂ (· + ·) (Finset.sum_congr rfl fun k _ => ?_) (Finset.sum_congr rfl fun k _ => ?_)
  · exact congrArg₂ (· * ·) (cat_left self mean i k) rfl
  · exact congrArg₂ (· * ·) (cat_right self mean i k) rfl

/-- The first layer's linear part at (i, h). -/
private theorem lin1_apply (self mean : FVec Ideal S50000x128 .f32) (w : FVec Ideal S256x128 .f32) (b : FVec Ideal S128 .f32)
    (i : Fin 50000) (h : Fin 128) :
    lin1 (F := Ideal) self mean w b (ix2 i h)
      = Spec.lin (fun i k => self (ix2 i k)) (fun i k => mean (ix2 i k)) (fun k h => w (ix2 k h)) (fun h => b (ix1 h)) i h := by
  have hd : dot_S50000x256_S256x128_S50000x128_1_0_0_1_n_n = DotDims.plain 50000 256 128 := rfl
  unfold lin1 Spec.lin
  rw [addf_apply, hd]
  show FloatOps.dotGeneral (DotDims.plain 50000 256 128) none .single _ w (ix2 i h) + _ = _
  rw [Cert.Matmul.dotGeneral_plain_apply, cat_sum,
    broadcastInDim_apply _ _ _ _ (ix2 (0 : Fin 1) h) (fun a => by match a with | ⟨0, _⟩ => rfl | ⟨1, _⟩ => rfl),
    broadcastInDim_apply _ _ _ _ (ix1 h) (fun a => by match a with | ⟨0, _⟩ => rfl)]

/-- The second layer's linear part at (i, h). -/
private theorem lin2_apply (self mean : FVec Ideal S50000x128 .f32) (w : FVec Ideal S256x40 .f32) (b : FVec Ideal S40 .f32)
    (i : Fin 50000) (h : Fin 40) :
    lin2 (F := Ideal) self mean w b (ix2 i h)
      = Spec.lin (fun i k => self (ix2 i k)) (fun i k => mean (ix2 i k)) (fun k h => w (ix2 k h)) (fun h => b (ix1 h)) i h := by
  have hd : dot_S50000x256_S256x40_S50000x40_1_0_0_1_n_n = DotDims.plain 50000 256 40 := rfl
  unfold lin2 Spec.lin
  rw [addf_apply, hd]
  show FloatOps.dotGeneral (DotDims.plain 50000 256 40) none .single _ w (ix2 i h) + _ = _
  rw [Cert.Matmul.dotGeneral_plain_apply, cat_sum,
    broadcastInDim_apply _ _ _ _ (ix2 (0 : Fin 1) h) (fun a => by match a with | ⟨0, _⟩ => rfl | ⟨1, _⟩ => rfl),
    broadcastInDim_apply _ _ _ _ (ix1 h) (fun a => by match a with | ⟨0, _⟩ => rfl)]

/-- The first layer at (i, h). -/
private theorem hid_apply (feats : FVec Ideal S50000x128 .f32) (neigh : IVec S50000x32 32) (w1 : FVec Ideal S256x128 .f32)
    (b1 : FVec Ideal S128 .f32) (i : Fin 50000) (h : Fin 128) :
    hid (F := Ideal) feats neigh w1 b1 (ix2 i h) = Spec.hidden feats neigh w1 b1 i h := by
  have hm : (fun i k => mean3 (F := Ideal) feats neigh (ix2 i k)) = nbrMean feats (fun i k => neigh (ix2 i k)) := by
    funext i k; exact mean3_apply feats neigh i k
  unfold hid Spec.hidden
  rw [maximumf_apply, lin1_apply, hm]
  show max _ (Ideal.ofBits .f32 0x00000000#32) = _
  rw [Ideal.ofBits_zero_f32]

/-- The normalised batch entry as a start index, at (i, 0). -/
private theorem colB_apply (batch : IVec S50000 32) (i : Fin 50000) :
    colB batch (ix2 i (0 : Fin 1)) = wrapI (batch (ix1 i)) := by
  unfold colB
  rw [broadcastInDim_apply _ _ _ _ (ix1 i) (fun a => by match a with | ⟨0, _⟩ => rfl)]
  rfl

/-- The specification at (i, h), its local names spelled out. -/
private theorem out_apply (feats : FVec Ideal S50000x128 .f32) (neigh : IVec S50000x32 32) (batch : IVec S50000 32)
    (w1 : FVec Ideal S256x128 .f32) (b1 : FVec Ideal S128 .f32) (w2 : FVec Ideal S256x40 .f32) (b2 : FVec Ideal S40 .f32)
    (i : Fin 50000) (h : Fin 40) :
    Cert.Spec.out feats neigh batch w1 b1 w2 b2 (ix2 i h)
      = Spec.lin (fun i k => Spec.hidden feats neigh w1 b1 (rowI (wrapI (batch (ix1 i)))) k)
          (nbrMean (fun y => Spec.hidden feats neigh w1 b1 ⟨(y 0).val, idx2_lt0 y⟩ ⟨(y 1).val, idx2_lt1 y⟩)
            (fun i k => neigh (ix2 (rowI (wrapI (batch (ix1 i)))) k)))
          (fun k h => w2 (ix2 k h)) (fun h => b2 (ix1 h)) i h := rfl

theorem refOut_eq (feats : FVec Ideal S50000x128 .f32) (neigh : IVec S50000x32 32) (batch : IVec S50000 32)
    (w1 : FVec Ideal S256x128 .f32) (b1 : FVec Ideal S128 .f32) (w2 : FVec Ideal S256x40 .f32) (b2 : FVec Ideal S40 .f32) :
    refOut (F := Ideal) feats neigh batch w1 b1 w2 b2 = Cert.Spec.out feats neigh batch w1 b1 w2 b2 := by
  funext j
  obtain ⟨i, h, rfl⟩ : ∃ i h, j = ix2 i h := ⟨j 0, j 1, eq_ix2 j⟩
  -- the first layer as a function of the index
  have hH : hid (F := Ideal) feats neigh w1 b1
      = fun y => Spec.hidden feats neigh w1 b1 ⟨(y 0).val, idx2_lt0 y⟩ ⟨(y 1).val, idx2_lt1 y⟩ := by
    funext y
    obtain ⟨a, c, rfl⟩ : ∃ a c, y = ix2 a c := ⟨y 0, y 1, eq_ix2 y⟩
    exact hid_apply feats neigh w1 b1 a c
  -- the Spec.hidden rows the batch entries name
  have hX : (fun i k => Host.gather gather_S50000x128_S50000x1_S50000x128_1_0_n_n_0_1_1128
        (hid (F := Ideal) feats neigh w1 b1) (colB batch) (ix2 i k))
      = fun i k => Spec.hidden feats neigh w1 b1 (rowI (wrapI (batch (ix1 i)))) k := by
    funext i k
    rw [gatherRows128_apply, colB_apply]
    exact hid_apply feats neigh w1 b1 _ k
  -- the neighbour lists the batch entries name
  have hN : (fun i k => Host.gather gather_S50000x32_S50000x1_S50000x32_1_0_n_n_0_1_132 neigh (colB batch) (ix2 i k))
      = fun i k => neigh (ix2 (rowI (wrapI (batch (ix1 i)))) k) := by
    funext i k
    rw [gatherRows32_apply, colB_apply]
  have hY : (fun i k => mean3 (F := Ideal) (hid (F := Ideal) feats neigh w1 b1)
        (Host.gather gather_S50000x32_S50000x1_S50000x32_1_0_n_n_0_1_132 neigh (colB batch)) (ix2 i k))
      = nbrMean (fun y => Spec.hidden feats neigh w1 b1 ⟨(y 0).val, idx2_lt0 y⟩ ⟨(y 1).val, idx2_lt1 y⟩)
          (fun i k => neigh (ix2 (rowI (wrapI (batch (ix1 i)))) k)) := by
    funext i f
    rw [mean3_apply, hH, hN]
  unfold refOut
  exact (lin2_apply _ _ w2 b2 i h).trans
    ((congrArg₂ (fun X Y => Spec.lin X Y (fun k h => w2 (ix2 k h)) (fun h => b2 (ix1 h)) i h) hX hY).trans
      (out_apply feats neigh batch w1 b1 w2 b2 i h).symm)

end Cert.ReferenceIdeal.Term

end
-- ==== Proof.PreDecode.lean ====
/-
  What the precondition says of the batch indices. The precondition is one bit: the conjunction of the five finiteness
  tests with "every batch entry b satisfies -50000 ≤ b < 50000". From that last conjunct, entry by entry: a negative b
  is at least -50000, so b + 50000 lies in [0, 49999]; a non-negative b is below 50000; either way the normalised index
  names a row of the 50000-row tables.
-/
import proofs.«411215_j35510789603589_3_alg».proof.Pre_finite_inputs
import proofs.«411215_j35510789603589_3_alg».proof.Proof.Gen.Pre_finite_inputs
import proofs.«411215_j35510789603589_3_alg».proof.Proof.Spec
import Idealize.ShloMosaic.Lib.ReduceAll
import Idealize.ShloMosaic.Lib.StableHlo.Predicate

set_option maxRecDepth 16384

noncomputable section

namespace Cert.PreDecode

open Idealize.ShloMosaic Idealize.SL.Sem

open Cert.Pre_finite_inputs Cert.Spec Idealize.ShloMosaic.ValueIdx

/-- A 32-bit integer in [-50000, 50000), normalised, lies in [0, 49999]. -/
theorem ok_of_range (b : BitVec 32) (hlo : IntOp.cmpi .sge b 4294917296#32 = 1#1) (hhi : IntOp.cmpi .slt b 50000#32 = 1#1) :
    okI (wrapI b) = 1#1 := by
  -- the four constants as signed integers
  have e1 : (4294917296#32 : BitVec 32).toInt = -50000 := by decide
  have e2 : (50000#32 : BitVec 32).toInt = 50000 := by decide
  have e0 : (0#32 : BitVec 32).toInt = 0 := by decide
  have e3 : (49999#32 : BitVec 32).toInt = 49999 := by decide
  -- the two hypotheses say -50000 ≤ b and b < 50000, signed
  rw [IntOp.cmpi_sge, e1] at hlo
  rw [IntOp.cmpi_slt, e2] at hhi
  unfold okI wrapI Scalar.select
  rw [IntOp.andi_eq_one, IntOp.cmpi_sge, IntOp.cmpi_sle, e0, e3]
  by_cases hneg : b.toInt < 0
  · -- a negative b: b + 50000 lies in [0, 49999], far from the wrap-around, so the 32-bit sum is the integer sum
    have hc : IntOp.cmpi .slt b 0#32 = 1 := IntOp.cmpi_slt.2 (by rw [e0]; exact hneg)
    rw [if_pos hc]
    unfold IntOp.addi
    rw [BitVec.toInt_add, e2, Int.bmod_eq_of_le_mul_two (by omega) (by omega)]
    omega
  · -- a non-negative b is kept, and is below 50000
    have hc : ¬ IntOp.cmpi .slt b 0#32 = 1 := fun h => hneg (by have := IntOp.cmpi_slt.1 h; rwa [e0] at this)
    rw [if_neg hc]
    omega

/-- The scalar shape has one index. -/
private instance : Subsingleton S_.Idx := ⟨fun a b => funext fun d => d.elim0⟩

/-- Every batch entry, normalised, names a row: the precondition's last conjunct is the conjunction over all 50000
    entries of "-50000 ≤ b" and "b < 50000"; a conjunction that is 1 has every member 1. -/
theorem batch_ok (a0 : FVec Ideal S50000x128 .f32) (a1 : IVec S50000x32 32) (a2 : IVec S50000 32) (a3 : FVec Ideal S256x128 .f32)
    (a4 : FVec Ideal S128 .f32) (a5 : FVec Ideal S256x40 .f32) (a6 : FVec Ideal S40 .f32)
    (h : Cert.Pre_finite_inputs.fn (F := Ideal) a0 a1 a2 a3 a4 a5 a6 = fun _ => 1#1) (i : Fin 50000) :
    okI (wrapI (a2 (ix1 i))) = 1#1 := by
  have h0 := congrFun h ValueIdx.ix0
  dsimp only [fn, fn_part1] at h0
  -- the outer conjunction: keep its last member, the reduction over the batch entries
  have h1 := (IntOp.andi_eq_one.1 (show IntOp.andi _ _ = 1#1 from h0)).2
  -- a reduction by "and" over every entry that is 1 met a 1 at entry i
  have h2 := Host.reduce_andi_all _ _ _ _ _ h1 (ix1 i)
  -- entry i of the pointwise conjunction: the two comparisons of batch[i] with the broadcast constants
  obtain ⟨hlo, hhi⟩ := IntOp.andi_eq_one.1 (show IntOp.andi _ _ = 1#1 from h2)
  exact ok_of_range _ hlo hhi

end Cert.PreDecode

end
-- ==== Proof.lean ====
/-
  The certificate's claims.

  Both idealized programs compute, over the extended reals, the same two-layer graph convolution of the argument
  arrays: a neighbour mean (thirty-two gathered rows added and scaled by 1/32), a linear layer on [self, mean] with
  max(·, 0), then the same again on the hidden rows the batch names, without the max. The kernel adds the gathered
  rows one by one and multiplies by the word for 1/32 where the reference sums over the slot axis and divides by 32;
  it multiplies the self and mean halves by the two halves of each weight matrix where the reference multiplies their
  concatenation by the whole matrix; it pads the second layer to 128 columns and cuts the result back to 40. The one
  place the two differ is the batch gather: the kernel's fills rows whose index is out of range, the reference's clamps
  the index; the precondition's last conjunct (every batch entry in [-50000, 50000)) rules that case out.
  The frames of the two kernel programs are the generated frame certificates; the reference's frame is its run with the
  result dropped.
-/
import proofs.«411215_j35510789603589_3_alg».proof.Defs
import proofs.«411215_j35510789603589_3_alg».proof.Proof.FrameKernel
import proofs.«411215_j35510789603589_3_alg».proof.Proof.KRun
import proofs.«411215_j35510789603589_3_alg».proof.Proof.KOut
import proofs.«411215_j35510789603589_3_alg».proof.Proof.RRun
import proofs.«411215_j35510789603589_3_alg».proof.Proof.RMath
import proofs.«411215_j35510789603589_3_alg».proof.Proof.PreDecode
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Val.run (F := Ideal) m ρ)

theorem preserves : Cert.preserves_Kernel_KernelIdeal := trivial

/-- Under the precondition both programs end with the specification's value of the arguments. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Gen.Val.run (F := Ideal) m ρ)
    exact Cert.KernelIdeal.Gen.Val.out_eq m ρ c (fun i => Cert.PreDecode.batch_ok _ _ _ _ _ _ _ (hpre c) i)
  · refine (θ_run Cert.ReferenceIdeal.defs _ _).mono (fun r h c => ⟨(h c).1.trans ?_, (h c).2⟩)
      (Cert.ReferenceIdeal.Val.run (F := Ideal) m' ρ')
    rw [(hagree c).1, (hagree c).2.1, (hagree c).2.2.1, (hagree c).2.2.2.1, (hagree c).2.2.2.2.1,
      (hagree c).2.2.2.2.2.1, (hagree c).2.2.2.2.2.2]
    exact Cert.ReferenceIdeal.Term.refOut_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
